-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x224x224x96 : Shape := ⟨4, ![2, 224, 224, 96]⟩
abbrev S1658 : Shape := ⟨1, ![1658]⟩
abbrev S192 : Shape := ⟨1, ![192]⟩
abbrev S_ : Shape := ⟨0, ![]⟩

class Facts : Prop where
  bcast_S_S2x224x224x96 : S_.BroadcastsInDim S2x224x224x96 (![] : Fin 0 → Fin S2x224x224x96.rank)
  reducesTo_S2x224x224x96_S_d0_1_2_3 : S2x224x224x96.ReducesTo [0, 1, 2, 3] S_
  h_S_ : 0 < S_.numel
  bcast_S_S1658 : S_.BroadcastsInDim S1658 (![] : Fin 0 → Fin S1658.rank)
  reducesTo_S1658_S_d0 : S1658.ReducesTo [0] S_
  bcast_S_S192 : S_.BroadcastsInDim S192 (![] : Fin 0 → Fin S192.rank)
  reducesTo_S192_S_d0 : S192.ReducesTo [0] S_

variable [Facts]

def fn_part1 {F : FTy → Type} [FloatOps F] (main_arg3 : IVec S1658 32) (main_arg4 : IVec S1658 32) (main_v13 : IVec S_ 1) (main_v15 : IVec S1658 1) (main_c_5 : IVec S_ 1) : IVec S_ 1 :=
  let main_v16 : IVec S_ 1 := (fun x v => Host.reduce IntOp.andi x v reducesTo_S1658_S_d0 h_S_) main_v15 main_c_5
  let main_v17 : IVec S_ 1 := andi main_v13 main_v16
  let main_c_6 : IVec S_ 32 := constantI S_ 32 864#32
  let main_v18 : IVec S1658 32 := broadcastInDim S1658 ![] bcast_S_S1658 main_c_6
  let main_v19 : IVec S1658 1 := cmpi .slt main_arg3 main_v18
  let main_c_7 : IVec S_ 1 := constantI S_ 1 1#1
  let main_v20 : IVec S_ 1 := (fun x v => Host.reduce IntOp.andi x v reducesTo_S1658_S_d0 h_S_) main_v19 main_c_7
  let main_v21 : IVec S_ 1 := andi main_v17 main_v20
  let main_c_8 : IVec S_ 32 := constantI S_ 32 0#32
  let main_v22 : IVec S1658 32 := broadcastInDim S1658 ![] bcast_S_S1658 main_c_8
  let main_v23 : IVec S1658 1 := cmpi .sge main_arg4 main_v22
  let main_c_9 : IVec S_ 1 := constantI S_ 1 1#1
  let main_v24 : IVec S_ 1 := (fun x v => Host.reduce IntOp.andi x v reducesTo_S1658_S_d0 h_S_) main_v23 main_c_9
  let main_v25 : IVec S_ 1 := andi main_v21 main_v24
  let main_c_10 : IVec S_ 32 := constantI S_ 32 192#32
  let main_v26 : IVec S1658 32 := broadcastInDim S1658 ![] bcast_S_S1658 main_c_10
  let main_v27 : IVec S1658 1 := cmpi .slt main_arg4 main_v26
  let main_c_11 : IVec S_ 1 := constantI S_ 1 1#1
  let main_v28 : IVec S_ 1 := (fun x v => Host.reduce IntOp.andi x v reducesTo_S1658_S_d0 h_S_) main_v27 main_c_11
  let main_v29 : IVec S_ 1 := andi main_v25 main_v28
  main_v29

def fn {F : FTy → Type} [FloatOps F] (main_arg0 : FVec F S2x224x224x96 .f32) (main_arg1 : FVec F S1658 .f32) (main_arg2 : FVec F S192 .f32) (main_arg3 : IVec S1658 32) (main_arg4 : IVec S1658 32) : IVec S_ 1 :=
  let main_v0 : FVec F S2x224x224x96 .f32 := Host.absf main_arg0
  let main_cst : FVec F S_ .f32 := constant S_ .f32 0x7F800000#32
  let main_v1 : FVec F S2x224x224x96 .f32 := broadcastInDim S2x224x224x96 ![] bcast_S_S2x224x224x96 main_cst
  let main_v2 : IVec S2x224x224x96 1 := cmpf .olt main_v0 main_v1
  let main_c : IVec S_ 1 := constantI S_ 1 1#1
  let main_v3 : IVec S_ 1 := (fun x v => Host.reduce IntOp.andi x v reducesTo_S2x224x224x96_S_d0_1_2_3 h_S_) main_v2 main_c
  let main_v4 : FVec F S1658 .f32 := Host.absf main_arg1
  let main_cst_0 : FVec F S_ .f32 := constant S_ .f32 0x7F800000#32
  let main_v5 : FVec F S1658 .f32 := broadcastInDim S1658 ![] bcast_S_S1658 main_cst_0
  let main_v6 : IVec S1658 1 := cmpf .olt main_v4 main_v5
  let main_c_1 : IVec S_ 1 := constantI S_ 1 1#1
  let main_v7 : IVec S_ 1 := (fun x v => Host.reduce IntOp.andi x v reducesTo_S1658_S_d0 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_c_4 : IVec S_ 32 := constantI S_ 32 0#32
  let main_v14 : IVec S1658 32 := broadcastInDim S1658 ![] bcast_S_S1658 main_c_4
  let main_v15 : IVec S1658 1 := cmpi .sge main_arg3 main_v14
  let main_c_5 : IVec S_ 1 := constantI S_ 1 1#1
  fn_part1 (F := F) main_arg3 main_arg4 main_v13 main_v15 main_c_5
-- ==== Kernel.lean ====
abbrev S2x224x224x96 : Shape := ⟨4, ![2, 224, 224, 96]⟩
abbrev S1658 : Shape := ⟨1, ![1658]⟩
abbrev S192 : Shape := ⟨1, ![192]⟩
abbrev S2x224x96x224 : Shape := ⟨4, ![2, 224, 96, 224]⟩
abbrev S_ : Shape := ⟨0, ![]⟩
abbrev S6 : Shape := ⟨1, ![6]⟩
abbrev S1664 : Shape := ⟨1, ![1664]⟩
abbrev S165888 : Shape := ⟨1, ![165888]⟩
abbrev S5184 : Shape := ⟨1, ![5184]⟩
abbrev S16 : Shape := ⟨1, ![16]⟩
abbrev S3x192x288 : Shape := ⟨3, ![3, 192, 288]⟩
abbrev S192x1 : Shape := ⟨2, ![192, 1]⟩
abbrev S2x222x192x222 : Shape := ⟨4, ![2, 222, 192, 222]⟩
abbrev S1x224x96x224 : Shape := ⟨4, ![1, 224, 96, 224]⟩
abbrev S1x6x192x222 : Shape := ⟨4, ![1, 6, 192, 222]⟩
abbrev S1x1x96x224 : Shape := ⟨4, ![1, 1, 96, 224]⟩
abbrev S96x224 : Shape := ⟨2, ![96, 224]⟩
abbrev S768x224 : Shape := ⟨2, ![768, 224]⟩
abbrev S288x224 : Shape := ⟨2, ![288, 224]⟩
abbrev S1x192x288 : Shape := ⟨3, ![1, 192, 288]⟩
abbrev S192x288 : Shape := ⟨2, ![192, 288]⟩
abbrev S192x224 : Shape := ⟨2, ![192, 224]⟩
abbrev S192x222 : Shape := ⟨2, ![192, 222]⟩
abbrev S1x1x192x222 : Shape := ⟨4, ![1, 1, 192, 222]⟩
abbrev S2x222x222x192 : Shape := ⟨4, ![2, 222, 222, 192]⟩

abbrev nBuf : Table → Nat
  | .hbm => 110
  | .local .tc .vmem => 6
  | .local .scVector .vmem => 3
  | _ => 0

abbrev bufTy : (tb : Table) → Fin (nBuf tb) → BufTy
  | .hbm, ⟨0, _⟩ => ⟨S2x224x224x96, .f32⟩
  | .hbm, ⟨1, _⟩ => ⟨S1658, .f32⟩
  | .hbm, ⟨2, _⟩ => ⟨S192, .f32⟩
  | .hbm, ⟨3, _⟩ => ⟨S1658, .i32⟩
  | .hbm, ⟨4, _⟩ => ⟨S1658, .i32⟩
  | .hbm, ⟨5, _⟩ => ⟨S2x224x96x224, .f32⟩
  | .hbm, ⟨6, _⟩ => ⟨S_, .i32⟩
  | .hbm, ⟨7, _⟩ => ⟨S_, .i32⟩
  | .hbm, ⟨8, _⟩ => ⟨S1658, .i32⟩
  | .hbm, ⟨9, _⟩ => ⟨S1658, .i32⟩
  | .hbm, ⟨10, _⟩ => ⟨S1658, .i32⟩
  | .hbm, ⟨11, _⟩ => ⟨S_, .i32⟩
  | .hbm, ⟨12, _⟩ => ⟨S1658, .i32⟩
  | .hbm, ⟨13, _⟩ => ⟨S1658, .i1⟩
  | .hbm, ⟨14, _⟩ => ⟨S1658, .i32⟩
  | .hbm, ⟨15, _⟩ => ⟨S1658, .i32⟩
  | .hbm, ⟨16, _⟩ => ⟨S_, .i32⟩
  | .hbm, ⟨17, _⟩ => ⟨S1658, .i32⟩
  | .hbm, ⟨18, _⟩ => ⟨S1658, .i1⟩
  | .hbm, ⟨19, _⟩ => ⟨S1658, .i1⟩
  | .hbm, ⟨20, _⟩ => ⟨S_, .i32⟩
  | .hbm, ⟨21, _⟩ => ⟨S1658, .i32⟩
  | .hbm, ⟨22, _⟩ => ⟨S1658, .i32⟩
  | .hbm, ⟨23, _⟩ => ⟨S1658, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1658, .i32⟩
  | .hbm, ⟨31, _⟩ => ⟨S1658, .i32⟩
  | .hbm, ⟨32, _⟩ => ⟨S_, .i32⟩
  | .hbm, ⟨33, _⟩ => ⟨S1658, .i32⟩
  | .hbm, ⟨34, _⟩ => ⟨S1658, .i1⟩
  | .hbm, ⟨35, _⟩ => ⟨S_, .i32⟩
  | .hbm, ⟨36, _⟩ => ⟨S1658, .i32⟩
  | .hbm, ⟨37, _⟩ => ⟨S1658, .i1⟩
  | .hbm, ⟨38, _⟩ => ⟨S_, .i32⟩
  | .hbm, ⟨39, _⟩ => ⟨S_, .i1⟩
  | .hbm, ⟨40, _⟩ => ⟨S1658, .i1⟩
  | .hbm, ⟨41, _⟩ => ⟨S1658, .i1⟩
  | .hbm, ⟨42, _⟩ => ⟨S1658, .i1⟩
  | .hbm, ⟨43, _⟩ => ⟨S1658, .i32⟩
  | .hbm, ⟨44, _⟩ => ⟨S1658, .i32⟩
  | .hbm, ⟨45, _⟩ => ⟨S1658, .i32⟩
  | .hbm, ⟨46, _⟩ => ⟨S_, .i32⟩
  | .hbm, ⟨47, _⟩ => ⟨S_, .i32⟩
  | .hbm, ⟨48, _⟩ => ⟨S1658, .i32⟩
  | .hbm, ⟨49, _⟩ => ⟨S1658, .i32⟩
  | .hbm, ⟨50, _⟩ => ⟨S1658, .i32⟩
  | .hbm, ⟨51, _⟩ => ⟨S_, .i32⟩
  | .hbm, ⟨52, _⟩ => ⟨S1658, .i32⟩
  | .hbm, ⟨53, _⟩ => ⟨S1658, .i1⟩
  | .hbm, ⟨54, _⟩ => ⟨S1658, .i32⟩
  | .hbm, ⟨55, _⟩ => ⟨S1658, .i32⟩
  | .hbm, ⟨56, _⟩ => ⟨S_, .i32⟩
  | .hbm, ⟨57, _⟩ => ⟨S1658, .i32⟩
  | .hbm, ⟨58, _⟩ => ⟨S1658, .i1⟩
  | .hbm, ⟨59, _⟩ => ⟨S1658, .i1⟩
  | .hbm, ⟨60, _⟩ => ⟨S_, .i32⟩
  | .hbm, ⟨61, _⟩ => ⟨S1658, .i32⟩
  | .hbm, ⟨62, _⟩ => ⟨S1658, .i32⟩
  | .hbm, ⟨63, _⟩ => ⟨S1658, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S1658, .i32⟩
  | .hbm, ⟨71, _⟩ => ⟨S1658, .i32⟩
  | .hbm, ⟨72, _⟩ => ⟨S_, .i32⟩
  | .hbm, ⟨73, _⟩ => ⟨S1658, .i32⟩
  | .hbm, ⟨74, _⟩ => ⟨S1658, .i1⟩
  | .hbm, ⟨75, _⟩ => ⟨S_, .i32⟩
  | .hbm, ⟨76, _⟩ => ⟨S1658, .i32⟩
  | .hbm, ⟨77, _⟩ => ⟨S1658, .i1⟩
  | .hbm, ⟨78, _⟩ => ⟨S_, .i32⟩
  | .hbm, ⟨79, _⟩ => ⟨S_, .i1⟩
  | .hbm, ⟨80, _⟩ => ⟨S1658, .i1⟩
  | .hbm, ⟨81, _⟩ => ⟨S1658, .i1⟩
  | .hbm, ⟨82, _⟩ => ⟨S1658, .i1⟩
  | .hbm, ⟨83, _⟩ => ⟨S1658, .i32⟩
  | .hbm, ⟨84, _⟩ => ⟨S1658, .i32⟩
  | .hbm, ⟨85, _⟩ => ⟨S1658, .i32⟩
  | .hbm, ⟨86, _⟩ => ⟨S_, .i32⟩
  | .hbm, ⟨87, _⟩ => ⟨S1658, .i32⟩
  | .hbm, ⟨88, _⟩ => ⟨S1658, .i32⟩
  | .hbm, ⟨89, _⟩ => ⟨S1658, .i32⟩
  | .hbm, ⟨90, _⟩ => ⟨S_, .i32⟩
  | .hbm, ⟨91, _⟩ => ⟨S1658, .i32⟩
  | .hbm, ⟨92, _⟩ => ⟨S1658, .i32⟩
  | .hbm, ⟨93, _⟩ => ⟨S_, .i32⟩
  | .hbm, ⟨94, _⟩ => ⟨S1658, .i32⟩
  | .hbm, ⟨95, _⟩ => ⟨S1658, .i32⟩
  | .hbm, ⟨96, _⟩ => ⟨S1658, .i32⟩
  | .hbm, ⟨97, _⟩ => ⟨S1658, .i32⟩
  | .hbm, ⟨98, _⟩ => ⟨S_, .i32⟩
  | .hbm, ⟨99, _⟩ => ⟨S6, .i32⟩
  | .hbm, ⟨100, _⟩ => ⟨S1664, .i32⟩
  | .hbm, ⟨101, _⟩ => ⟨S_, .f32⟩
  | .hbm, ⟨102, _⟩ => ⟨S6, .f32⟩
  | .hbm, ⟨103, _⟩ => ⟨S1664, .f32⟩
  | .hbm, ⟨104, _⟩ => ⟨S165888, .f32⟩
  | .hbm, ⟨105, _⟩ => ⟨S3x192x288, .f32⟩
  | .hbm, ⟨106, _⟩ => ⟨S3x192x288, .bf16⟩
  | .hbm, ⟨107, _⟩ => ⟨S192x1, .f32⟩
  | .hbm, ⟨108, _⟩ => ⟨S2x222x192x222, .f32⟩
  | .hbm, ⟨109, _⟩ => ⟨S2x222x222x192, .f32⟩
  | .local .tc .vmem, ⟨0, _⟩ => ⟨S1x224x96x224, .f32⟩
  | .local .tc .vmem, ⟨1, _⟩ => ⟨S1x224x96x224, .f32⟩
  | .local .tc .vmem, ⟨2, _⟩ => ⟨S3x192x288, .bf16⟩
  | .local .tc .vmem, ⟨3, _⟩ => ⟨S192x1, .f32⟩
  | .local .tc .vmem, ⟨4, _⟩ => ⟨S1x6x192x222, .f32⟩
  | .local .tc .vmem, ⟨5, _⟩ => ⟨S1x6x192x222, .f32⟩
  | .local .scVector .vmem, ⟨0, _⟩ => ⟨S1664, .i32⟩
  | .local .scVector .vmem, ⟨1, _⟩ => ⟨S1664, .f32⟩
  | .local .scVector .vmem, ⟨2, _⟩ => ⟨S5184, .f32⟩
  | _, _ => ⟨S2x224x224x96, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_c_0 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v2 : Ref sig .tc := ⟨.hbm, 45, rfl⟩
abbrev main_c_1 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_v6 : Ref sig .tc := ⟨.hbm, 53, rfl⟩
abbrev main_call2_v7 : Ref sig .tc := ⟨.hbm, 54, rfl⟩
abbrev main_call2_v8 : Ref sig .tc := ⟨.hbm, 55, rfl⟩
abbrev main_call2_c : Ref sig .tc := ⟨.hbm, 56, rfl⟩
abbrev main_call2_v9 : Ref sig .tc := ⟨.hbm, 57, rfl⟩
abbrev main_call2_v10 : Ref sig .tc := ⟨.hbm, 58, rfl⟩
abbrev main_call2_v11 : Ref sig .tc := ⟨.hbm, 59, rfl⟩
abbrev main_call2_c_0 : Ref sig .tc := ⟨.hbm, 60, rfl⟩
abbrev main_call2_v12 : Ref sig .tc := ⟨.hbm, 61, rfl⟩
abbrev main_call2_v13 : Ref sig .tc := ⟨.hbm, 62, rfl⟩
abbrev main_v3 : Ref sig .tc := ⟨.hbm, 63, rfl⟩
abbrev main_c_2 : Ref sig .tc := ⟨.hbm, 64, rfl⟩
abbrev main_call3_v0 : Ref sig .tc := ⟨.hbm, 65, rfl⟩
abbrev main_call3_c : Ref sig .tc := ⟨.hbm, 66, rfl⟩
abbrev main_call3_v1 : Ref sig .tc := ⟨.hbm, 67, rfl⟩
abbrev main_call3_c_0 : Ref sig .tc := ⟨.hbm, 68, rfl⟩
abbrev main_call3_v2 : Ref sig .tc := ⟨.hbm, 69, rfl⟩
abbrev main_call3_v3 : Ref sig .tc := ⟨.hbm, 70, rfl⟩
abbrev main_call3_v4 : Ref sig .tc := ⟨.hbm, 71, rfl⟩
abbrev main_call3_c_1 : Ref sig .tc := ⟨.hbm, 72, rfl⟩
abbrev main_call3_v5 : Ref sig .tc := ⟨.hbm, 73, rfl⟩
abbrev main_call3_v6 : Ref sig .tc := ⟨.hbm, 74, rfl⟩
abbrev main_call3_c_2 : Ref sig .tc := ⟨.hbm, 75, rfl⟩
abbrev main_call3_v7 : Ref sig .tc := ⟨.hbm, 76, rfl⟩
abbrev main_call3_v8 : Ref sig .tc := ⟨.hbm, 77, rfl⟩
abbrev main_call3_c_3 : Ref sig .tc := ⟨.hbm, 78, rfl⟩
abbrev main_call3_v9 : Ref sig .tc := ⟨.hbm, 79, rfl⟩
abbrev main_call3_v10 : Ref sig .tc := ⟨.hbm, 80, rfl⟩
abbrev main_call3_v11 : Ref sig .tc := ⟨.hbm, 81, rfl⟩
abbrev main_call3_v12 : Ref sig .tc := ⟨.hbm, 82, rfl⟩
abbrev main_call3_v13 : Ref sig .tc := ⟨.hbm, 83, rfl⟩
abbrev main_call3_v14 : Ref sig .tc := ⟨.hbm, 84, rfl⟩
abbrev main_v4 : Ref sig .tc := ⟨.hbm, 85, rfl⟩
abbrev main_c_3 : Ref sig .tc := ⟨.hbm, 86, rfl⟩
abbrev main_v5 : Ref sig .tc := ⟨.hbm, 87, rfl⟩
abbrev main_v6 : Ref sig .tc := ⟨.hbm, 88, rfl⟩
abbrev main_v7 : Ref sig .tc := ⟨.hbm, 89, rfl⟩
abbrev main_c_4 : Ref sig .tc := ⟨.hbm, 90, rfl⟩
abbrev main_v8 : Ref sig .tc := ⟨.hbm, 91, rfl⟩
abbrev main_v9 : Ref sig .tc := ⟨.hbm, 92, rfl⟩
abbrev main_c_5 : Ref sig .tc := ⟨.hbm, 93, rfl⟩
abbrev main_v10 : Ref sig .tc := ⟨.hbm, 94, rfl⟩
abbrev main_v11 : Ref sig .tc := ⟨.hbm, 95, rfl⟩
abbrev main_v12 : Ref sig .tc := ⟨.hbm, 96, rfl⟩
abbrev main_v13 : Ref sig .tc := ⟨.hbm, 97, rfl⟩
abbrev main_c_6 : Ref sig .tc := ⟨.hbm, 98, rfl⟩
abbrev main_v14 : Ref sig .tc := ⟨.hbm, 99, rfl⟩
abbrev main_v15 : Ref sig .tc := ⟨.hbm, 100, rfl⟩
abbrev main_cst : Ref sig .tc := ⟨.hbm, 101, rfl⟩
abbrev main_v16 : Ref sig .tc := ⟨.hbm, 102, rfl⟩
abbrev main_v17 : Ref sig .tc := ⟨.hbm, 103, rfl⟩
abbrev main_v18 : Ref sig .tc := ⟨.hbm, 104, rfl⟩
abbrev main_v19 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_v23 : Ref sig .tc := ⟨.hbm, 109, rfl⟩
abbrev main_v15_scv : Ref sig .scVector := ⟨.hbm, 100, rfl⟩
abbrev main_v17_scv : Ref sig .scVector := ⟨.hbm, 103, rfl⟩
abbrev main_v18_scv : Ref sig .scVector := ⟨.hbm, 104, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5184_i32 : BitVec 32 := 5184#32
  let v2 : BitVec 32 := Scalar.muli v1 c5184_i32
  v2
@[reducible] def k0_t1_loop : Scf.Loop 32 :=
  let c0_i32 : BitVec 32 := 0#32
  let c324_i32 : BitVec 32 := 324#32
  let v5 : BitVec 32 := Scalar.addi c0_i32 c324_i32
  let c1_i32 : BitVec 32 := 1#32
  ⟨c0_i32, v5, c1_i32⟩
def k0_off1 (k0_t1 : Fin k0_t1_loop.trips) : Fin 1 → Nat :=
  let c0_i32_4 : BitVec 32 := 0#32
  let c0_i32 : BitVec 32 := 0#32
  let c1_i32 : BitVec 32 := 1#32
  let arg8 : BitVec 32 := Scf.iv c0_i32 c1_i32 k0_t1
  let c16_i32 : BitVec 32 := 16#32
  let v7 : BitVec 32 := Scalar.muli arg8 c16_i32
  let v8 : BitVec 32 := Scalar.addi c0_i32_4 v7
  let v9 : Index := Scalar.indexCast v8
  ![v9.toNat]
@[reducible] def k0_t2_loop : Scf.Loop 32 :=
  let c0_i32_1 : BitVec 32 := 0#32
  let c104_i32 : BitVec 32 := 104#32
  let v6 : BitVec 32 := Scalar.addi c0_i32_1 c104_i32
  let c1_i32_2 : BitVec 32 := 1#32
  ⟨c0_i32_1, v6, c1_i32_2⟩
def k0_off2 (k0_t2 : Fin k0_t2_loop.trips) : Fin 1 → Nat :=
  let c0_i32_4 : BitVec 32 := 0#32
  let c0_i32_1 : BitVec 32 := 0#32
  let c1_i32_2 : BitVec 32 := 1#32
  let arg8 : BitVec 32 := Scf.iv c0_i32_1 c1_i32_2 k0_t2
  let c16_i32 : BitVec 32 := 16#32
  let v7 : BitVec 32 := Scalar.muli arg8 c16_i32
  let v8 : BitVec 32 := Scalar.addi c0_i32_4 v7
  let v9 : Index := Scalar.indexCast v8
  ![v9.toNat]

def k0_chk1 (v21 : IVec S16 32) : Prop :=
  (∀ a x, ((![v21] : Fin 1 → IVec S16 32) a x).toNat < S5184.size a)
instance k0_chk1.dec : ∀ (v21 : IVec S16 32), Decidable (k0_chk1 v21) := fun v21 => decidable_of_iff' _ (Iff.of_eq (k0_chk1.eq_1 v21))
theorem k0_idx1_inb : ∀ (v21 : IVec S16 32) (k0_hw1 : k0_chk1 v21), ∀ a x, ((![v21] : Fin 1 → IVec S16 32) a x).toNat < S5184.size a := fun v21 k0_hw1 => k0_hw1
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c5184_i32 : BitVec 32 := 5184#32
  let v2 : BitVec 32 := Scalar.muli v1 c5184_i32
  let v3 : BitVec 32 := v2
  ![v3.toNat]
abbrev grid1 : Pipeline.Grid := ⟨2, ![2, 37], ![false, false]⟩

def k1_off1 (i : grid1.Coords) (c0_i32 : BitVec 32) : Fin 4 → Nat :=
  let c0 : Index := 0#32
  let arg1 : BitVec 32 := BitVec.ofNat 32 (i 1).val
  let c6_i32 : BitVec 32 := 6#32
  let v0 : BitVec 32 := Scalar.muli arg1 c6_i32
  let v1 : BitVec 32 := Scalar.addi v0 c0_i32
  let v2 : Index := Scalar.indexCast v1
  let c0_0 : Index := 0#32
  let c0_1 : Index := 0#32
  ![0, v2.toNat, 0, 0]
def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x224x96x224 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S3x192x288 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S192x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x6x192x222 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S2x224x224x96_S2x224x96x224_0_1_3_2 : S2x224x224x96.Transposes [0, 1, 3, 2] S2x224x96x224
  bcast_S_S1658 : S_.BroadcastsInDim S1658 (![] : Fin 0 → Fin S1658.rank)
  bcast_S_S6 : S_.BroadcastsInDim S6 (![] : Fin 0 → Fin S6.rank)
  concatenates_S1658_S6_S1664_d0 : Shape.Concatenates [S1658, S6] S1664 0
  h_S16 : 0 < S16.numel
  h_S5184 : 0 < S5184.numel
  shapeCasts_S165888_S3x192x288 : S165888.ShapeCasts S3x192x288
  bitsLt_bf16_f32 : FTy.bits .bf16 < FTy.bits .f32
  shapeCasts_S192_S192x1 : S192.ShapeCasts S192x1
  h_S1x1x96x224 : 0 < S1x1x96x224.numel
  shapeCasts_S1x1x96x224_S96x224 : S1x1x96x224.ShapeCasts S96x224
  concatenates_S96x224_S96x224_S96x224_S96x224_S96x224_S96x224_S96x224_S96x224_S768x224_d0 : Shape.Concatenates [S96x224, S96x224, S96x224, S96x224, S96x224, S96x224, S96x224, S96x224] S768x224 0
  slices_S768x224_o0_0_S288x224 : S768x224.Slices ![0, 0] S288x224
  inb_S3x192x288_S1x192x288_0_0_0 : ∀ a, (![0, 0, 0] : Fin 3 → Nat) a + S1x192x288.size a ≤ S3x192x288.size a
  h_S1x192x288 : 0 < S1x192x288.numel
  shapeCasts_S1x192x288_S192x288 : S1x192x288.ShapeCasts S192x288
  inb_S3x192x288_S1x192x288_1_0_0 : ∀ a, (![1, 0, 0] : Fin 3 → Nat) a + S1x192x288.size a ≤ S3x192x288.size a
  inb_S3x192x288_S1x192x288_2_0_0 : ∀ a, (![2, 0, 0] : Fin 3 → Nat) a + S1x192x288.size a ≤ S3x192x288.size a
  slices_S192x224_o0_0_S192x222 : S192x224.Slices ![0, 0] S192x222
  slices_S192x224_o0_1_S192x222 : S192x224.Slices ![0, 1] S192x222
  slices_S192x224_o0_2_S192x222 : S192x224.Slices ![0, 2] S192x222
  inb_S192x1_S192x1_0_0 : ∀ a, (![0, 0] : Fin 2 → Nat) a + S192x1.size a ≤ S192x1.size a
  h_S192x1 : 0 < S192x1.numel
  shapeCasts_S192x1_S192x1 : S192x1.ShapeCasts S192x1
  broadcasts_S192x1_S192x222 : S192x1.Broadcasts S192x222
  inb_S1x6x192x222_S1x1x192x222_0_0_0_0 : ∀ a, (![0, 0, 0, 0] : Fin 4 → Nat) a + S1x1x192x222.size a ≤ S1x6x192x222.size a
  h_S1x1x192x222 : 0 < S1x1x192x222.numel
  shapeCasts_S1x1x192x222_S192x222 : S1x1x192x222.ShapeCasts S192x222
  shapeCasts_S192x222_S1x1x192x222 : S192x222.ShapeCasts S1x1x192x222
  slices_S768x224_o96_0_S288x224 : S768x224.Slices ![96, 0] S288x224
  inb_S1x6x192x222_S1x1x192x222_0_1_0_0 : ∀ a, (![0, 1, 0, 0] : Fin 4 → Nat) a + S1x1x192x222.size a ≤ S1x6x192x222.size a
  slices_S768x224_o192_0_S288x224 : S768x224.Slices ![192, 0] S288x224
  inb_S1x6x192x222_S1x1x192x222_0_2_0_0 : ∀ a, (![0, 2, 0, 0] : Fin 4 → Nat) a + S1x1x192x222.size a ≤ S1x6x192x222.size a
  slices_S768x224_o288_0_S288x224 : S768x224.Slices ![288, 0] S288x224
  inb_S1x6x192x222_S1x1x192x222_0_3_0_0 : ∀ a, (![0, 3, 0, 0] : Fin 4 → Nat) a + S1x1x192x222.size a ≤ S1x6x192x222.size a
  slices_S768x224_o384_0_S288x224 : S768x224.Slices ![384, 0] S288x224
  inb_S1x6x192x222_S1x1x192x222_0_4_0_0 : ∀ a, (![0, 4, 0, 0] : Fin 4 → Nat) a + S1x1x192x222.size a ≤ S1x6x192x222.size a
  slices_S768x224_o480_0_S288x224 : S768x224.Slices ![480, 0] S288x224
  inb_S1x6x192x222_S1x1x192x222_0_5_0_0 : ∀ a, (![0, 5, 0, 0] : Fin 4 → Nat) a + S1x1x192x222.size a ≤ S1x6x192x222.size a
  transposes_S2x222x192x222_S2x222x222x192_0_1_3_2 : S2x222x192x222.Transposes [0, 1, 3, 2] S2x222x222x192
  dot_S192x288_S288x224_S192x224_1_0_0_1_n_n_wf : DotDims.WF S192x288 S288x224 S192x224 [1] [0] [0] [1] [] []
  hcc0_scoped0 : 0 + S_.numel ≤ 9
  hcc0_scoped1 : 1 + S_.numel ≤ 9
  hcc0_scoped2 : 2 + S_.numel ≤ 9
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_mult1_dvd : ∀ i : grid0.Coords, 8 ∣ (k0_mult1 i).toNat
  k0_t1_ok : k0_t1_loop.OK
  k0_off1_inb : ∀ k0_t1 : Fin k0_t1_loop.trips, ∀ a, (k0_off1 k0_t1) a + S16.size a ≤ S5184.size a
  k0_t2_ok : k0_t2_loop.OK
  k0_off2_inb : ∀ k0_t2 : Fin k0_t2_loop.trips, ∀ a, (k0_off2 k0_t2) a + S16.size a ≤ S1664.size a
  k0_off3_inb : ∀ i : grid0.Coords, ∀ a, (k0_off3 i) a + S5184.size a ≤ S165888.size a
  hrank1 : 0 < grid1.rank
  k1_off1_inb : ∀ i : grid1.Coords, ∀ (r : Fin 8), ∀ a, (k1_off1 i (BitVec.ofNat 32 r.val)) a + S1x1x96x224.size a ≤ S1x224x96x224.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x224x96x224.size a ≤ S2x224x96x224.size a
  hwx1_0 : ∀ i : grid1.Coords, EltTy.bits .f32 = 32 ∨ (Rect.block (s := S2x224x96x224) S1x224x96x224.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3x192x288.size a ≤ S3x192x288.size a
  hwx1_1 : ∀ i : grid1.Coords, EltTy.bits .bf16 = 32 ∨ (Rect.block (s := S3x192x288) S3x192x288.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x1.size a ≤ S192x1.size a
  hwx1_2 : ∀ i : grid1.Coords, EltTy.bits .f32 = 32 ∨ (Rect.block (s := S192x1) S192x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x6x192x222.size a ≤ S2x222x192x222.size a
  hwx1_3 : ∀ i : grid1.Coords, EltTy.bits .f32 = 32 ∨ (Rect.block (s := S2x222x192x222) S1x6x192x222.size (cc1_transform_3 i) (hinb1_3 i)).WholeWords (EltTy.packing .f32)

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
def dot_S192x288_S288x224_S192x224_1_0_0_1_n_n : DotDims S192x288 S288x224 S192x224 where
  lhsContracting := [1]
  rhsContracting := [0]
  lhsNonContracting := [0]
  rhsNonContracting := [1]
  lhsBatch := []
  rhsBatch := []
  wf := dot_S192x288_S288x224_S192x224_1_0_0_1_n_n_wf

abbrev win1_0 : Pipeline.Window sig grid1 :=
  Pipeline.Window.ofSpec (Memref.whole main_v0) S1x224x96x224.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S3x192x288.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S192x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x6x192x222.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x224x224x96 : Shape := ⟨4, ![2, 224, 224, 96]⟩
abbrev S1658 : Shape := ⟨1, ![1658]⟩
abbrev S192 : Shape := ⟨1, ![192]⟩
abbrev S2x222x222x96 : Shape := ⟨4, ![2, 222, 222, 96]⟩
abbrev S2x222x222x864 : Shape := ⟨4, ![2, 222, 222, 864]⟩
abbrev S98568x864 : Shape := ⟨2, ![98568, 864]⟩
abbrev S_ : Shape := ⟨0, ![]⟩
abbrev S864x192 : Shape := ⟨2, ![864, 192]⟩
abbrev S1658x1 : Shape := ⟨2, ![1658, 1]⟩
abbrev S1658x2 : Shape := ⟨2, ![1658, 2]⟩
abbrev S98568x192 : Shape := ⟨2, ![98568, 192]⟩
abbrev S1x192 : Shape := ⟨2, ![1, 192]⟩
abbrev S2x222x222x192 : Shape := ⟨4, ![2, 222, 222, 192]⟩

abbrev nBuf : Space → Nat
  | .hbm => 41
  | .vmem => 0
  | .smem => 0
  | _ => 0

abbrev bufTy : (tb : Table) → Fin (tcTables nBuf tb) → BufTy
  | .hbm, ⟨0, _⟩ => ⟨S2x224x224x96, .f32⟩
  | .hbm, ⟨1, _⟩ => ⟨S1658, .f32⟩
  | .hbm, ⟨2, _⟩ => ⟨S192, .f32⟩
  | .hbm, ⟨3, _⟩ => ⟨S1658, .i32⟩
  | .hbm, ⟨4, _⟩ => ⟨S1658, .i32⟩
  | .hbm, ⟨5, _⟩ => ⟨S2x222x222x96, .f32⟩
  | .hbm, ⟨6, _⟩ => ⟨S2x222x222x96, .f32⟩
  | .hbm, ⟨7, _⟩ => ⟨S2x222x222x96, .f32⟩
  | .hbm, ⟨8, _⟩ => ⟨S2x222x222x96, .f32⟩
  | .hbm, ⟨9, _⟩ => ⟨S2x222x222x96, .f32⟩
  | .hbm, ⟨10, _⟩ => ⟨S2x222x222x96, .f32⟩
  | .hbm, ⟨11, _⟩ => ⟨S2x222x222x96, .f32⟩
  | .hbm, ⟨12, _⟩ => ⟨S2x222x222x96, .f32⟩
  | .hbm, ⟨13, _⟩ => ⟨S2x222x222x96, .f32⟩
  | .hbm, ⟨14, _⟩ => ⟨S2x222x222x864, .f32⟩
  | .hbm, ⟨15, _⟩ => ⟨S98568x864, .f32⟩
  | .hbm, ⟨16, _⟩ => ⟨S_, .f32⟩
  | .hbm, ⟨17, _⟩ => ⟨S864x192, .f32⟩
  | .hbm, ⟨18, _⟩ => ⟨S_, .i32⟩
  | .hbm, ⟨19, _⟩ => ⟨S1658, .i32⟩
  | .hbm, ⟨20, _⟩ => ⟨S1658, .i1⟩
  | .hbm, ⟨21, _⟩ => ⟨S_, .i32⟩
  | .hbm, ⟨22, _⟩ => ⟨S1658, .i32⟩
  | .hbm, ⟨23, _⟩ => ⟨S1658, .i32⟩
  | .hbm, ⟨24, _⟩ => ⟨S1658, .i32⟩
  | .hbm, ⟨25, _⟩ => ⟨S_, .i32⟩
  | .hbm, ⟨26, _⟩ => ⟨S1658, .i32⟩
  | .hbm, ⟨27, _⟩ => ⟨S1658, .i1⟩
  | .hbm, ⟨28, _⟩ => ⟨S_, .i32⟩
  | .hbm, ⟨29, _⟩ => ⟨S1658, .i32⟩
  | .hbm, ⟨30, _⟩ => ⟨S1658, .i32⟩
  | .hbm, ⟨31, _⟩ => ⟨S1658, .i32⟩
  | .hbm, ⟨32, _⟩ => ⟨S1658x1, .i32⟩
  | .hbm, ⟨33, _⟩ => ⟨S1658x1, .i32⟩
  | .hbm, ⟨34, _⟩ => ⟨S1658x2, .i32⟩
  | .hbm, ⟨35, _⟩ => ⟨S864x192, .f32⟩
  | .hbm, ⟨36, _⟩ => ⟨S98568x192, .f32⟩
  | .hbm, ⟨37, _⟩ => ⟨S1x192, .f32⟩
  | .hbm, ⟨38, _⟩ => ⟨S98568x192, .f32⟩
  | .hbm, ⟨39, _⟩ => ⟨S98568x192, .f32⟩
  | .hbm, ⟨40, _⟩ => ⟨S2x222x222x192, .f32⟩
  | _, _ => ⟨S2x224x224x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  slices_S2x224x224x96_S2x222x222x96_0_0_0_0 : S2x224x224x96.Slices ![0, 0, 0, 0] S2x222x222x96
  slices_S2x224x224x96_S2x222x222x96_0_0_1_0 : S2x224x224x96.Slices ![0, 0, 1, 0] S2x222x222x96
  slices_S2x224x224x96_S2x222x222x96_0_0_2_0 : S2x224x224x96.Slices ![0, 0, 2, 0] S2x222x222x96
  slices_S2x224x224x96_S2x222x222x96_0_1_0_0 : S2x224x224x96.Slices ![0, 1, 0, 0] S2x222x222x96
  slices_S2x224x224x96_S2x222x222x96_0_1_1_0 : S2x224x224x96.Slices ![0, 1, 1, 0] S2x222x222x96
  slices_S2x224x224x96_S2x222x222x96_0_1_2_0 : S2x224x224x96.Slices ![0, 1, 2, 0] S2x222x222x96
  slices_S2x224x224x96_S2x222x222x96_0_2_0_0 : S2x224x224x96.Slices ![0, 2, 0, 0] S2x222x222x96
  slices_S2x224x224x96_S2x222x222x96_0_2_1_0 : S2x224x224x96.Slices ![0, 2, 1, 0] S2x222x222x96
  slices_S2x224x224x96_S2x222x222x96_0_2_2_0 : S2x224x224x96.Slices ![0, 2, 2, 0] S2x222x222x96
  concatenates_S2x222x222x96_S2x222x222x96_S2x222x222x96_S2x222x222x96_S2x222x222x96_S2x222x222x96_S2x222x222x96_S2x222x222x96_S2x222x222x96_S2x222x222x864_d3 : Shape.Concatenates [S2x222x222x96, S2x222x222x96, S2x222x222x96, S2x222x222x96, S2x222x222x96, S2x222x222x96, S2x222x222x96, S2x222x222x96, S2x222x222x96] S2x222x222x864 3
  shapeCasts_S2x222x222x864_S98568x864 : S2x222x222x864.ShapeCasts S98568x864
  bcast_S_S864x192 : S_.BroadcastsInDim S864x192 (![] : Fin 0 → Fin S864x192.rank)
  bcast_S_S1658 : S_.BroadcastsInDim S1658 (![] : Fin 0 → Fin S1658.rank)
  bcast_S1658_S1658x1_0 : S1658.BroadcastsInDim S1658x1 (![0] : Fin 1 → Fin S1658x1.rank)
  concatenates_S1658x1_S1658x1_S1658x2_d1 : Shape.Concatenates [S1658x1, S1658x1] S1658x2 1
  bcast_S192_S1x192_1 : S192.BroadcastsInDim S1x192 (![1] : Fin 1 → Fin S1x192.rank)
  bcast_S1x192_S98568x192_0_1 : S1x192.BroadcastsInDim S98568x192 (![0, 1] : Fin 2 → Fin S98568x192.rank)
  shapeCasts_S98568x192_S2x222x222x192 : S98568x192.ShapeCasts S2x222x222x192
  scatter_S864x192_S1658x2_S1658_n_01_01_1_wf : ScatterDims.WF S864x192 S1658x2 S1658 [] [0, 1] [0, 1] 1
  dot_S98568x864_S864x192_S98568x192_1_0_0_1_n_n_wf : DotDims.WF S98568x864 S864x192 S98568x192 [1] [0] [0] [1] [] []

variable [Facts₀]

def scatter_S864x192_S1658x2_S1658_n_01_01_1 : ScatterDims S864x192 S1658x2 S1658 where
  updateWindowDims := []
  insertedWindowDims := [0, 1]
  scatterDimsToOperandDims := [0, 1]
  indexVectorDim := 1
  wf := scatter_S864x192_S1658x2_S1658_n_01_01_1_wf
def dot_S98568x864_S864x192_S98568x192_1_0_0_1_n_n : DotDims S98568x864 S864x192 S98568x192 where
  lhsContracting := [1]
  rhsContracting := [0]
  lhsNonContracting := [0]
  rhsNonContracting := [1]
  lhsBatch := []
  rhsBatch := []
  wf := dot_S98568x864_S864x192_S98568x192_1_0_0_1_n_n_wf

class Facts : Prop extends Facts₀ where

variable [Facts]
-- ==== Proof.KB.Common.lean ====
/-
  The SparseCore program as the launch theorem reads it, and the ghost state every module of the frame shares:
  the handshakes' rounds, the rounds of the tiles' own DMA semaphores, and the rounds of the TensorCore
  region's staging cells, as three components of one resource algebra with an embedding each.
-/
import proofs.«216126_g59949153517679_cont_9to1_m_442_25_alg».proof.Kernel
import proofs.«216126_g59949153517679_cont_9to1_m_442_25_alg».proof.Proof.Gen.Kernel
import proofs.«216126_g59949153517679_cont_9to1_m_442_25_alg».proof.Proof.Gen.Kernel.Skeleton
import proofs.«216126_g59949153517679_cont_9to1_m_442_25_alg».proof.Proof.Gen.Kernel.Launch
import proofs.«216126_g59949153517679_cont_9to1_m_442_25_alg».proof.Proof.Gen.Kernel.Points
import Idealize.ShloMosaic.Lib.SparseCore.Launch
import Idealize.ShloMosaic.Lib.SparseCore.Ops
import Idealize.ShloMosaic.Lib.StableHlo.Run
import Idealize.ShloMosaic.Lib.Tactic

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the tiles' DMA cells, the region's staging cells -/

abbrev UH : Type := URounds (GSem nD τ sig) ℕ
abbrev UK : Type := URounds (GSem nD τ sig) Unit
abbrev UP : Type := URounds (GSem nD τ sig) Unit
abbrev UU : Type := UH × (UK × UP)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans (uEmb (nD := nD) (sig := sig) (Ix := HIx 1) (Val := Elt F) (Name := ℕ) (U := UU) (Lvl := ℕ)).toEmb

local notation "𝕄" => MT nD τ sig (HIx 1) (Elt F) ℕ UU ℕ

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

/-- The element of the algebra splits into its three components. -/
theorem ownU_split (a : UH) (b : UK) (c : UP) :
    (ownU ((a, (b, c)) : UU) : sProp 𝕄) ⊢ iprop(BI.own (EH a) ∗ BI.own (EK b) ∗ BI.own (EP c)) := by
  have h1 : ((a, (b, c)) : UU) ∈ PCS.op ((a, 1) : UU) ((1, (b, c)) : UU) :=
    Prod.mk_mem_op (URA.mem_op_one a) (URA.mem_one_op ((b, c) : UK × UP))
  have h2 : ((1, (b, c)) : UU) ∈ PCS.op ((1, ((b, 1) : UK × UP)) : UU) ((1, ((1, c) : UK × UP)) : UU) :=
    Prod.mk_mem_op (URA.mem_op_one (1 : UH)) (Prod.mk_mem_op (URA.mem_op_one b) (URA.mem_one_op c))
  refine (BI.own_op_elim ((uEmb (nD := nD) (sig := sig) (Ix := HIx 1) (Val := Elt F) (Name := ℕ) (U := UU) (Lvl := ℕ)).toEmb.op_of_mem h1)).trans ?_
  exact sep_mono (BI.Entails.refl _)
    (BI.own_op_elim ((uEmb (nD := nD) (sig := sig) (Ix := HIx 1) (Val := Elt F) (Name := ℕ) (U := UU) (Lvl := ℕ)).toEmb.op_of_mem h2))

end Cert.Proof.KB

end
-- ==== Proof.KB.ScSpec.lean ====
/-
  What one tile of the scatter leaves in its slice of the padded output, as a pure function of the
  positions and the values: the zero fill, then for each of the 104 chunks of sixteen lanes the indexed
  store of the lanes whose position falls in the tile's own range of 5184 words, lanes in ascending
  order. The whole output is the thirty-two tiles' slices laid side by side.
-/
import proofs.«216126_g59949153517679_cont_9to1_m_442_25_alg».proof.Kernel
import proofs.«216126_g59949153517679_cont_9to1_m_442_25_alg».proof.Proof.Gen.Kernel
import proofs.«216126_g59949153517679_cont_9to1_m_442_25_alg».proof.Proof.Gen.Kernel.Skeleton

noncomputable section

namespace Cert.Proof.KB

open Cert.Kernel Cert.Kernel.Gen
open Idealize.ShloMosaic

variable {F : FTy → Type} [FloatOps F]

/-- Lane `x` of chunk `k`: word `16 k + x` of the 1664. -/
def laneIdx (k : Fin 104) (x : S16.Idx) : S1664.Idx :=
  fun a => ⟨16 * k.val + (x 0).val, by
    obtain rfl : a = 0 := Subsingleton.elim _ _
    have h1 := k.isLt
    have h2 : (x 0).val < 16 := (x 0).isLt
    show 16 * k.val + (x 0).val < 1664
    omega⟩

/-- The sixteen lanes of chunk `k` of a vector of 1664. -/
def chunkOf {α : Type} (v : S1664.Idx → α) (k : Fin 104) : S16.Idx → α := fun x => v (laneIdx k x)

/-- A word that passes both signed tests, `0 ≤ loc` and `loc < 5184`, is below 5184 read unsigned. -/
theorem range_of_mask (loc : BitVec 32)
    (h : IntOp.andi (IntOp.cmpi .sge loc 0#32) (IntOp.cmpi .slt loc 5184#32) = 1) : loc.toNat < 5184 := by
  have h' : BitVec.ofBool ((0#32).sle loc) &&& BitVec.ofBool (loc.slt 5184#32) = 1#1 := h
  have h1 : ∀ a b : Bool, BitVec.ofBool a &&& BitVec.ofBool b = 1#1 → a = true ∧ b = true := by decide
  obtain ⟨ha, hb⟩ := h1 _ _ h'
  rw [BitVec.sle, decide_eq_true_eq] at ha
  rw [BitVec.slt, decide_eq_true_eq] at hb
  have h0 : (0#32).toInt = 0 := by decide
  have h5 : (5184#32).toInt = 5184 := by decide
  rw [h0] at ha; rw [h5] at hb
  have hc := BitVec.toInt_eq_toNat_cond loc
  have hl := loc.isLt
  split at hc <;> omega

/-- The index vector the tile stores at is in range on every lane, whatever was loaded: a lane whose
    mask bit is set passed the signed test `0 ≤ loc < 5184`, and a cleared lane's index is zero. -/
theorem chk_pay4 (L : grid0.Coords) (v10 : IVec S16 32) : k0_chk1 (k0_pay4 (F := F) L v10) := by
  intro a x
  obtain rfl : a = 0 := Subsingleton.elim _ _
  show (k0_pay4 (F := F) L v10 x).toNat < 5184
  unfold k0_pay4 k0_pay3
  simp only [select, Scalar.select, broadcast, cmpi, andi]
  split
  · rename_i h
    exact range_of_mask _ h
  · decide

/-- Trip `k`'s new scratch contents: the indexed store, under the range mask, of chunk `k`'s values
    at chunk `k`'s positions taken relative to the tile's base. -/
def chunkStep (L : grid0.Coords) (flat : IVec S1664 32) (vals : FVec F S1664 .f32) (k : Fin 104) (acc : FVec F S5184 .f32) :
    FVec F S5184 .f32 :=
  storeIdx (F := F) (s := S5184) (e := .f32) acc ![k0_pay4 (F := F) L (chunkOf flat k)] (chunkOf vals k)
    (k0_pay3 (F := F) L (chunkOf flat k)) false (k0_idx1_inb _ (chk_pay4 (F := F) L (chunkOf flat k)))

/-- The scratch after the zero fill and the first `n` chunks. -/
def chunkAfter (L : grid0.Coords) (flat : IVec S1664 32) (vals : FVec F S1664 .f32) : ℕ → FVec F S5184 .f32
  | 0 => fun _ => Scalar.ofBits .f32 0x00000000#32
  | n + 1 => if h : n < 104 then chunkStep L flat vals ⟨n, h⟩ (chunkAfter L flat vals n) else chunkAfter L flat vals n

/-- What tile `L` copies out to its slice. -/
def tileOut (L : grid0.Coords) (flat : IVec S1664 32) (vals : FVec F S1664 .f32) : FVec F S5184 .f32 :=
  chunkAfter L flat vals 104

/-- The tile that owns word `p` of the 165888: slices of 5184 words, tile `(c, s)`'s at `10368 s + 5184 c`. -/
def tileOf (p : S165888.Idx) : grid0.Coords :=
  fun
    | 0 => ⟨((p 0).val / 5184) % 2, by show (p 0).val / 5184 % 2 < 2; omega⟩
    | 1 => ⟨(p 0).val / 10368, by
        have h : (p 0).val < 165888 := (p 0).isLt
        show (p 0).val / 10368 < 16; omega⟩
    | ⟨_ + 2, h⟩ => absurd h (Nat.not_lt.2 (Nat.le_add_left _ _))

/-- Word `p`'s place inside its tile's slice. -/
def tileWord (p : S165888.Idx) : S5184.Idx :=
  fun a => ⟨(p 0).val % 5184, by
    obtain rfl : a = 0 := Subsingleton.elim _ _
    show (p 0).val % 5184 < 5184; omega⟩

/-- The padded output: at word `p`, what the tile that owns `p` leaves at `p`'s place in its slice. -/
def scOut (flat : IVec S1664 32) (vals : FVec F S1664 .f32) : FVec F S165888 .f32 :=
  fun p => tileOut (F := F) (tileOf p) flat vals (tileWord p)

end Cert.Proof.KB

end
-- ==== Proof.KB.Tile.lean ====
/-
  One tile of the scatter: its three DMA semaphores as cells of rounds, each with one round of one duty
  (the fetch of the positions, the fetch of the values, the write-out of the tile's slice), and the tile's
  body from those cells and its pieces of the three arrays: it gives the two read shares back unchanged and
  leaves in its slice of the padded output what the pure description `tileOut` says.
-/
import proofs.«216126_g59949153517679_cont_9to1_m_442_25_alg».proof.Proof.KB.Common
import proofs.«216126_g59949153517679_cont_9to1_m_442_25_alg».proof.Proof.KB.ScSpec

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays and the tile's names -/

/-- The positions, the values (the kernel's operands) and the padded output (its result), as locations of device `d`. -/
abbrev flatLoc (d : Dev nD) : Loc nD τ sig := (SparseCore.T d).loc main_v15
abbrev valsLoc (d : Dev nD) : Loc nD τ sig := (SparseCore.T d).loc main_v17
abbrev outLoc (d : Dev nD) : Loc nD τ sig := (SparseCore.T d).loc main_v18

variable [FloatOps F]

abbrev fV : Memref sig .scVector .hbm S1664 .i32 := Memref.whole main_v15_scv
abbrev vV : Memref sig .scVector .hbm S1664 .f32 := Memref.whole main_v17_scv
abbrev oV : Memref sig .scVector .hbm S165888 .f32 := Memref.whole main_v18_scv
/-- A tile's scratch: the fetched positions, the fetched values, the slice being built. -/
abbrev sF : Memref sig .scVector .vmem S1664 .i32 := Memref.whole cc0_scratch0
abbrev sV : Memref sig .scVector .vmem S1664 .f32 := Memref.whole cc0_scratch1
abbrev sO : Memref sig .scVector .vmem S5184 .f32 := Memref.whole cc0_scratch2

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The grid point of the tile `(c, i)`. -/
def LofV (c : Fin τ.nSC) (i : Fin τ.nSub) : grid0.Coords := coordsV ⟨c.val, c.isLt⟩ ⟨i.val, i.isLt⟩

omit [FloatOps F] in
theorem LofV_cV_jV (L : grid0.Coords) : LofV (cV L) (jV L) = L := by
  funext a
  match a with
  | 0 => rfl
  | 1 => rfl

/-- The tile's slice of the padded output, as the kernel slices it. -/
abbrev oSl (L : grid0.Coords) : Memref sig .scVector .hbm S5184 .f32 :=
  (oV : Memref sig .scVector .hbm S165888 .f32).slice (Rect.unit (s := S165888) (k0_off3 L) S5184.size (k0_off3_inb L)) (fun _ => rfl)
abbrev oSet (L : grid0.Coords) : Finset S165888.Idx := (oSl L).view.set

/-! ## The kernel's cells -/

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

abbrev N0 : ℕ := (sF : Memref sig .scVector .vmem S1664 .i32).view.dmaCredit
abbrev N1 : ℕ := (sV : Memref sig .scVector .vmem S1664 .f32).view.dmaCredit
abbrev N2 : ℕ := sig.dmaCredit .scVector (Kind.scVector.table .hbm) (main_v18_scv : Ref sig .scVector).idx S5184 .f32
theorem N0_pos : 0 < N0 := View.dmaCredit_pos _ (by decide)
theorem N1_pos : 0 < N1 := View.dmaCredit_pos _ (by decide)
theorem N2_pos : 0 < N2 := sig.dmaCredit_pos _ _ _ _ _ (by decide)

inductive CellKind | c0 | c1 | c2
  deriving DecidableEq

def cellKind (g : GSem nD τ sig) : Option CellKind :=
  match g with
  | ((_, .scVector _ _), sm) =>
      if sm = .dma cc0_scoped0.sem then some .c0 else if sm = .dma cc0_scoped1.sem then some .c1
      else if sm = .dma cc0_scoped2.sem then some .c2 else none
  | _ => none

@[simp] theorem cellKind_c0 (d : Dev nD) (c : Fin τ.nSC) (i : Fin τ.nSub) : cellKind (c0cell d c i) = some .c0 := by simp [cellKind]
@[simp] theorem cellKind_c1 (d : Dev nD) (c : Fin τ.nSC) (i : Fin τ.nSub) : cellKind (c1cell d c i) = some .c1 := by
  simp [cellKind, show (cc0_scoped1.sem : DmaSem sig) ≠ cc0_scoped0.sem from by decide]
@[simp] theorem cellKind_c2 (d : Dev nD) (c : Fin τ.nSC) (i : Fin τ.nSub) : cellKind (c2cell d c i) = some .c2 := by
  simp [cellKind, show (cc0_scoped2.sem : DmaSem sig) ≠ cc0_scoped0.sem from by decide, show (cc0_scoped2.sem : DmaSem sig) ≠ cc0_scoped1.sem from by decide]

variable (flat : Dev nD → IVec S1664 32) (vals : Dev nD → FVec F S1664 .f32)
variable (qf qv : Fin τ.nSC → Fin τ.nSub → PosShare TreeShare)

/-- What a landing hands back: a fetch's, the scratch holding the array's contents and the read share of the array
    back; the write-out's, the tile's slice of the output holding what `tileOut` says, and the scratch at some contents. -/
def kPay (g : GSem nD τ sig) : sProp 𝕄 :=
  match g with
  | ((d, .scVector c i), sm) =>
      if sm = .dma cc0_scoped0.sem then
        iprop(((V d c i).loc cc0_scratch0 ↦{fullShare} flat d) ∗ flatLoc d ↦{qf c i} flat d)
      else if sm = .dma cc0_scoped1.sem then
        iprop(((V d c i).loc cc0_scratch1 ↦{fullShare} vals d) ∗ valsLoc d ↦{qv c i} vals d)
      else iprop((∃ g : Buf (Elt F) (outLoc d), ⌜∀ j : S5184.Idx, g ((oSl (LofV c i)).view.emb j) = tileOut (LofV c i) (flat d) (vals d) j⌝
            ∗ outLoc d ↦[oSet (LofV c i)]{fullShare} g)
          ∗ ∃ f, (V d c i).loc cc0_scratch2 ↦{fullShare} f)
  | _ => iprop(emp)

def kRd : Rounds.Schedule (GSem nD τ sig) Unit 𝕄 where
  duties g r := if (cellKind g).isSome ∧ r = 0 then {()} else ∅
  amount g _ _ := match cellKind g with | some .c0 => N0 | some .c1 => N1 | _ => N2
  payload g _ _ := kPay flat vals qf qv g
  amount_pos g _ _ _ := by
    rcases cellKind g with _ | ⟨_ | _ | _⟩
    · exact N2_pos
    · exact N0_pos
    · exact N1_pos
    · exact N2_pos

instance kRd_payload_storable (g : GSem nD τ sig) (r : ℕ) (u : Unit) :
    BI.Storable (upEmb : UEmb _ 𝕄) ((kRd (F := F) flat vals qf qv).payload g r u) := by
  show BI.Storable upEmb (kPay flat vals qf qv g)
  unfold kPay
  rcases g with ⟨⟨d, _ | c | ⟨c, i⟩⟩, sm⟩ <;> dsimp only <;> (repeat' split) <;> infer_instance

def kit (g : GSem nD τ sig) : sProp 𝕄 :=
  iprop(roundState EK (kRd flat vals qf qv) g 0 ∗ atPos EK g 0 ∅ 0 ∗ reached EK g 0 ∗ dutyTok EK g 0 ())

/-! ## The task -/

section Tile

variable (d : Dev nD) (L : grid0.Coords)

theorem kRd_duties₀ {g : GSem nD τ sig} (h : (cellKind g).isSome) : (kRd (F := F) flat vals qf qv).duties g 0 = {()} := if_pos ⟨h, rfl⟩
theorem kRd_mem₀ {g : GSem nD τ sig} (h : (cellKind g).isSome) : () ∈ (kRd (F := F) flat vals qf qv).duties g 0 := by
  rw [kRd_duties₀ flat vals qf qv h]; exact Finset.mem_singleton_self _
theorem kRd_later (g : GSem nD τ sig) : ∀ r, 0 + 1 ≤ r → (kRd (F := F) flat vals qf qv).duties g r = ∅ :=
  fun r hr => if_neg fun ⟨_, h⟩ => by omega
theorem kRd_back {g : GSem nD τ sig} (h : (cellKind g).isSome) :
    bigSep ((kRd (F := F) flat vals qf qv).duties g 0 \ ∅) (fun u => (kRd (F := F) flat vals qf qv).payload g 0 u)
      ⊢ (kRd (F := F) flat vals qf qv).payload g 0 () := by
  rw [Finset.sdiff_empty, kRd_duties₀ flat vals qf qv h, bigSep_singleton]
theorem kRd_expect {g : GSem nD τ sig} (h : (cellKind g).isSome) :
    (kRd (F := F) flat vals qf qv).expect g 0 = (kRd (F := F) flat vals qf qv).amount g 0 () := by
  unfold Rounds.Schedule.expect; rw [kRd_duties₀ flat vals qf qv h]; exact Finset.sum_singleton _ _
theorem kRd_amount_c0 (c : Fin τ.nSC) (i : Fin τ.nSub) : (kRd (F := F) flat vals qf qv).amount (c0cell d c i) 0 () = N0 := by simp [kRd]
theorem kRd_amount_c1 (c : Fin τ.nSC) (i : Fin τ.nSub) : (kRd (F := F) flat vals qf qv).amount (c1cell d c i) 0 () = N1 := by simp [kRd]
theorem kRd_amount_c2 (c : Fin τ.nSC) (i : Fin τ.nSub) : (kRd (F := F) flat vals qf qv).amount (c2cell d c i) 0 () = N2 := by simp [kRd]
theorem kRd_payload_c0 (c : Fin τ.nSC) (i : Fin τ.nSub) :
    (kRd (F := F) flat vals qf qv).payload (c0cell d c i) 0 ()
      = iprop(((V d c i).loc cc0_scratch0 ↦{fullShare} flat d) ∗ flatLoc d ↦{qf c i} flat d) := by
  show kPay flat vals qf qv (c0cell d c i) = _; unfold kPay; exact if_pos rfl
theorem kRd_payload_c1 (c : Fin τ.nSC) (i : Fin τ.nSub) :
    (kRd (F := F) flat vals qf qv).payload (c1cell d c i) 0 ()
      = iprop(((V d c i).loc cc0_scratch1 ↦{fullShare} vals d) ∗ valsLoc d ↦{qv c i} vals d) := by
  show kPay flat vals qf qv (c1cell d c i) = _; unfold kPay; exact (if_neg (by decide)).trans (if_pos rfl)
theorem kRd_payload_c2 (c : Fin τ.nSC) (i : Fin τ.nSub) :
    (kRd (F := F) flat vals qf qv).payload (c2cell d c i) 0 ()
      = iprop((∃ g : Buf (Elt F) (outLoc d), ⌜∀ j : S5184.Idx, g ((oSl (LofV c i)).view.emb j) = tileOut (LofV c i) (flat d) (vals d) j⌝
            ∗ outLoc d ↦[oSet (LofV c i)]{fullShare} g)
          ∗ ∃ f, (V d c i).loc cc0_scratch2 ↦{fullShare} f) := by
  show kPay flat vals qf qv (c2cell d c i) = _; unfold kPay; exact (if_neg (by decide)).trans (if_neg (by decide))

theorem kRd_payload_c2L :
    (kRd (F := F) flat vals qf qv).payload (c2cell d (cV L) (jV L)) 0 ()
      = iprop((∃ g : Buf (Elt F) (outLoc d), ⌜∀ j : S5184.Idx, g ((oSl L).view.emb j) = tileOut L (flat d) (vals d) j⌝
            ∗ outLoc d ↦[oSet L]{fullShare} g)
          ∗ ∃ f, (V d (cV L) (jV L)).loc cc0_scratch2 ↦{fullShare} f) := by
  rw [kRd_payload_c2, LofV_cV_jV]

omit [FloatOps F] in
theorem pts_fV (q : PosShare TreeShare) (f : Buf (Elt F) (flatLoc d)) :
    ((fV : Memref sig .scVector .hbm S1664 .i32).view.loc (V d (cV L) (jV L)) ↦[(fV : Memref sig .scVector .hbm S1664 .i32).view.set]{q} f : sProp 𝕄)
      = flatLoc d ↦{q} f := by
  simp only [Memref.view_whole, View.set_whole]
omit [FloatOps F] in
theorem pts_vV (q : PosShare TreeShare) (f : Buf (Elt F) (valsLoc d)) :
    ((vV : Memref sig .scVector .hbm S1664 .f32).view.loc (V d (cV L) (jV L)) ↦[(vV : Memref sig .scVector .hbm S1664 .f32).view.set]{q} f : sProp 𝕄)
      = valsLoc d ↦{q} f := by
  simp only [Memref.view_whole, View.set_whole]
omit [FloatOps F] in
theorem pts_oSl (f : Buf (Elt F) (outLoc d)) :
    ((oSl L).view.loc (V d (cV L) (jV L)) ↦[(oSl L).view.set]{fullShare} f : sProp 𝕄) = outLoc d ↦[oSet L]{fullShare} f := rfl
omit [FloatOps F] in
theorem pts_sF (f : Buf (Elt F) ((V d (cV L) (jV L)).loc cc0_scratch0)) :
    ((sF : Memref sig .scVector .vmem S1664 .i32).view.loc (V d (cV L) (jV L)) ↦[(sF : Memref sig .scVector .vmem S1664 .i32).view.set]{fullShare} f : sProp 𝕄)
      = (V d (cV L) (jV L)).loc cc0_scratch0 ↦{fullShare} f := by
  simp only [Memref.view_whole, View.set_whole]
omit [FloatOps F] in
theorem pts_sV (f : Buf (Elt F) ((V d (cV L) (jV L)).loc cc0_scratch1)) :
    ((sV : Memref sig .scVector .vmem S1664 .f32).view.loc (V d (cV L) (jV L)) ↦[(sV : Memref sig .scVector .vmem S1664 .f32).view.set]{fullShare} f : sProp 𝕄)
      = (V d (cV L) (jV L)).loc cc0_scratch1 ↦{fullShare} f := by
  simp only [Memref.view_whole, View.set_whole]
omit [FloatOps F] in
theorem pts_sO (f : Buf (Elt F) ((V d (cV L) (jV L)).loc cc0_scratch2)) :
    ((sO : Memref sig .scVector .vmem S5184 .f32).view.loc (V d (cV L) (jV L)) ↦[(sO : Memref sig .scVector .vmem S5184 .f32).view.set]{fullShare} f : sProp 𝕄)
      = (V d (cV L) (jV L)).loc cc0_scratch2 ↦{fullShare} f := by
  simp only [Memref.view_whole, View.set_whole]
omit [FloatOps F] in
theorem pts_sO_accessW (f : Buf (Elt F) ((V d (cV L) (jV L)).loc cc0_scratch2)) :
    (((sO : Memref sig .scVector .vmem S5184 .f32).access (.whole S5184)).loc (V d (cV L) (jV L))
        ↦[((sO : Memref sig .scVector .vmem S5184 .f32).access (.whole S5184)).set]{fullShare} f : sProp 𝕄)
      = (V d (cV L) (jV L)).loc cc0_scratch2 ↦{fullShare} f := by
  rw [show ((sO : Memref sig .scVector .vmem S5184 .f32).access (.whole S5184)).set = Finset.univ from Memref.set_access_whole cc0_scratch2]
omit [FloatOps F] in
theorem pts_sO_univ (f : Buf (Elt F) ((V d (cV L) (jV L)).loc cc0_scratch2)) :
    ((sO : Memref sig .scVector .vmem S5184 .f32).view.loc (V d (cV L) (jV L)) ↦{fullShare} f : sProp 𝕄) = (V d (cV L) (jV L)).loc cc0_scratch2 ↦{fullShare} f := rfl
omit [FloatOps F] in
theorem pts_sF_univ (f : Buf (Elt F) ((V d (cV L) (jV L)).loc cc0_scratch0)) :
    ((sF : Memref sig .scVector .vmem S1664 .i32).view.loc (V d (cV L) (jV L)) ↦{fullShare} f : sProp 𝕄) = (V d (cV L) (jV L)).loc cc0_scratch0 ↦{fullShare} f := rfl
omit [FloatOps F] in
theorem pts_sV_univ (f : Buf (Elt F) ((V d (cV L) (jV L)).loc cc0_scratch1)) :
    ((sV : Memref sig .scVector .vmem S1664 .f32).view.loc (V d (cV L) (jV L)) ↦{fullShare} f : sProp 𝕄) = (V d (cV L) (jV L)).loc cc0_scratch1 ↦{fullShare} f := rfl
/-- The sixteen words trip `k` of the zero fill rewrites. -/
abbrev r1 (k : Fin k0_t1_loop.trips) : Rect S5184 := Rect.unit (s := S5184) (k0_off1 k) S16.size (k0_off1_inb k)
/-- The sixteen words trip `k` of the scatter loop loads, of the positions and of the values. -/
abbrev r2 (k : Fin k0_t2_loop.trips) : Rect S1664 := Rect.unit (s := S1664) (k0_off2 k) S16.size (k0_off2_inb k)
omit [FloatOps F] in
theorem pts_sO_acc1 (k : Fin k0_t1_loop.trips) (f : Buf (Elt F) ((V d (cV L) (jV L)).loc cc0_scratch2)) :
    (((sO : Memref sig .scVector .vmem S5184 .f32).access (r1 k)).loc (V d (cV L) (jV L)) ↦{fullShare} f : sProp 𝕄) = (V d (cV L) (jV L)).loc cc0_scratch2 ↦{fullShare} f := rfl

omit [FloatOps F] in
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The two loops -/

omit [FloatOps F] in
theorem trips1 : k0_t1_loop.trips = 324 := by decide +kernel
omit [FloatOps F] in
theorem trips2 : k0_t2_loop.trips = 104 := by decide +kernel

/-- Before trip `k` of the zero fill the first `16 k` words of the slice scratch are zero. -/
def inv1 (k : ℕ) (_ : Unit) : sProp 𝕄 :=
  iprop(∃ g : Buf (Elt F) ((V d (cV L) (jV L)).loc cc0_scratch2),
    ⌜∀ j : S5184.Idx, (j 0).val < 16 * k → g j = (Scalar.ofBits .f32 0x00000000#32 : F .f32)⌝ ∗ (V d (cV L) (jV L)).loc cc0_scratch2 ↦{fullShare} g)

/-- Before trip `k` of the scatter loop the two fetched scratches hold the positions and the values, and the slice
    scratch what the first `k` chunks leave. -/
def inv2 (k : ℕ) (_ : Unit) : sProp 𝕄 :=
  iprop(((V d (cV L) (jV L)).loc cc0_scratch0 ↦{fullShare} flat d) ∗ ((V d (cV L) (jV L)).loc cc0_scratch1 ↦{fullShare} vals d)
    ∗ (V d (cV L) (jV L)).loc cc0_scratch2 ↦{fullShare} chunkAfter L (flat d) (vals d) k)

/-- A trip of the zero fill extends the zero prefix by its sixteen words. -/
theorem zero_step (k : Fin k0_t1_loop.trips) (g : Buf (Elt F) ((V d (cV L) (jV L)).loc cc0_scratch2))
    (hg : ∀ j : S5184.Idx, (j 0).val < 16 * k.val → g j = (Scalar.ofBits .f32 0x00000000#32 : F .f32)) :
    ∀ j : S5184.Idx, (j 0).val < 16 * (k.val + 1) →
      ((sO : Memref sig .scVector .vmem S5184 .f32).access (r1 k)).write (Elt F) g (k0_pay1 (F := F)) Finset.univ j
        = (Scalar.ofBits .f32 0x00000000#32 : F .f32) := by
  intro j hj
  have ho : k0_off1 k 0 = 16 * k.val := by rw [k0_off1_eq]; rfl
  by_cases hm : j ∈ ((sO : Memref sig .scVector .vmem S5184 .f32).access (r1 k)).setOn Finset.univ
  · obtain ⟨x, -, rfl⟩ := Finset.mem_map.mp hm
    rw [View.write_emb_of_mem _ _ (Finset.mem_univ x)]; rfl
  · rw [View.write_of_not_mem _ _ _ hm]
    apply hg
    by_contra hlt
    apply hm
    have hx : (j 0).val - 16 * k.val < 16 := by omega
    refine Finset.mem_map.mpr ⟨fun a => ⟨(j 0).val - 16 * k.val, by obtain rfl : a = 0 := Subsingleton.elim _ _; exact hx⟩, Finset.mem_univ _, ?_⟩
    funext a
    obtain rfl : a = 0 := Subsingleton.elim _ _
    apply Fin.ext
    show k0_off1 k 0 + 1 * ((j 0).val - 16 * k.val) = (j 0).val
    rw [ho]; omega

theorem region1 (k : Fin k0_t1_loop.trips) (acc : Unit) :
    inv1 (F := F) d L k.val acc ⊢ wp frame (wpE (defs₀ (F := F)) 𝒱₀ (V d (cV L) (jV L)) none) Set.univ
      (k0_t1_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2 k acc)
      (inv1 (F := F) d L (k.val + 1)) := by
  unfold k0_t1_body inv1
  simp only [Prog.lift, Prog.bind_op, Prog.bind_ret, Prog.pure_eq_ret]
  iintro ⟨%g, %hg, Hc⟩
  ihave Hc' := (Entails.of_eq (pts_sO_univ (F := F) d L _).symm) $$ Hc
  iapply (wp_load 𝒱₀ (V d (cV L) (jV L)) none Set.univ (m := (sO : Memref sig .scVector .vmem S5184 .f32)) (S := Finset.univ) (Finset.subset_univ _)) $$ Hc'; iintro Hc'
  ihave Hc := (Entails.of_eq ((pts_sO_univ (F := F) d L _).trans (pts_sO_acc1 (F := F) d L k _).symm)) $$ Hc'
  iapply (wp_store 𝒱₀ (V d (cV L) (jV L)) none Set.univ (m := (sO : Memref sig .scVector .vmem S5184 .f32)) (r := r1 k) (Mk := Finset.univ) (S := Finset.univ) (Finset.subset_univ _)) $$ Hc; iintro Hc
  rw [wp_ret]; imodintro
  iexists _; isplitr
  · ipureintro; exact zero_step (F := F) d L k g hg
  · iexact Hc

omit [FloatOps F] in
theorem lanes_flat (k : Fin k0_t2_loop.trips) (hk : k.val < 104) (fl : IVec S1664 32) :
    (sF : Memref sig .scVector .vmem S1664 .i32).view.readAt (Elt F) (r2 k).toLoadRect fl = chunkOf fl ⟨k.val, hk⟩ := by
  have ho : k0_off2 k 0 = 16 * k.val := by rw [k0_off2_eq]; rfl
  funext x
  rw [View.readAt_apply]
  show fl ((r2 k).toLoadRect.idx x) = fl (laneIdx ⟨k.val, hk⟩ x)
  congr 1
  funext a
  obtain rfl : a = 0 := Subsingleton.elim _ _
  apply Fin.ext
  show k0_off2 k 0 + 1 * (x 0).val = 16 * k.val + (x 0).val
  rw [ho]; omega
omit [FloatOps F] in
theorem lanes_vals (k : Fin k0_t2_loop.trips) (hk : k.val < 104) (vl : FVec F S1664 .f32) :
    (sV : Memref sig .scVector .vmem S1664 .f32).view.readAt (Elt F) (r2 k).toLoadRect vl = chunkOf vl ⟨k.val, hk⟩ := by
  have ho : k0_off2 k 0 = 16 * k.val := by rw [k0_off2_eq]; rfl
  funext x
  rw [View.readAt_apply]
  show vl ((r2 k).toLoadRect.idx x) = vl (laneIdx ⟨k.val, hk⟩ x)
  congr 1
  funext a
  obtain rfl : a = 0 := Subsingleton.elim _ _
  apply Fin.ext
  show k0_off2 k 0 + 1 * (x 0).val = 16 * k.val + (x 0).val
  rw [ho]; omega

/-- The indexed store of loaded lanes that are chunk `k`'s is the pure step. -/
theorem step2_eq (k : ℕ) (hk : k < 104) (fl : IVec S1664 32) (vl : FVec F S1664 .f32) (v10 : IVec S16 32) (v12 : FVec F S16 .f32)
    (h10 : v10 = chunkOf fl ⟨k, hk⟩) (h12 : v12 = chunkOf vl ⟨k, hk⟩)
    (h : ∀ a x, ((![k0_pay4 (F := F) L v10] : Fin 1 → IVec S16 32) a x).toNat < S5184.size a) :
    storeIdx (F := F) (s := S5184) (e := .f32) (chunkAfter L fl vl k) ![k0_pay4 (F := F) L v10] v12 (k0_pay3 (F := F) L v10) false h
      = chunkAfter L fl vl (k + 1) := by
  subst h10 h12
  show _ = (if h : k < 104 then chunkStep L fl vl ⟨k, h⟩ (chunkAfter L fl vl k) else chunkAfter L fl vl k)
  rw [dif_pos hk]; rfl

theorem pts_after (k : Fin k0_t2_loop.trips)
    (h : ∀ a x, ((![k0_pay4 (F := F) L ((sF : Memref sig .scVector .vmem S1664 .i32).view.readAt (Elt F) (r2 k).toLoadRect (flat d))] : Fin 1 → IVec S16 32) a x).toNat < S5184.size a) :
    (((sO : Memref sig .scVector .vmem S5184 .f32).access (.whole S5184)).loc (V d (cV L) (jV L))
        ↦[((sO : Memref sig .scVector .vmem S5184 .f32).access (.whole S5184)).set]{fullShare}
          (((sO : Memref sig .scVector .vmem S5184 .f32).access (.whole S5184)).write (Elt F) (chunkAfter L (flat d) (vals d) k.val)
            (storeIdx (((sO : Memref sig .scVector .vmem S5184 .f32).access (.whole S5184)).read (Elt F) (chunkAfter L (flat d) (vals d) k.val))
              ![k0_pay4 (F := F) L ((sF : Memref sig .scVector .vmem S1664 .i32).view.readAt (Elt F) (r2 k).toLoadRect (flat d))]
              ((sV : Memref sig .scVector .vmem S1664 .f32).view.readAt (Elt F) (r2 k).toLoadRect (vals d))
              (k0_pay3 (F := F) L ((sF : Memref sig .scVector .vmem S1664 .i32).view.readAt (Elt F) (r2 k).toLoadRect (flat d))) false h)
            Finset.univ) : sProp 𝕄)
      = (V d (cV L) (jV L)).loc cc0_scratch2 ↦{fullShare} chunkAfter L (flat d) (vals d) (k.val + 1) := by
  have hk : k.val < 104 := Nat.lt_of_lt_of_le k.isLt (le_of_eq trips2)
  rw [show ((sO : Memref sig .scVector .vmem S5184 .f32).access (.whole S5184)).write (Elt F) (chunkAfter L (flat d) (vals d) k.val) _ Finset.univ = _
      from Memref.write_access_whole_univ (Elt F) cc0_scratch2 _ _,
    show ((sO : Memref sig .scVector .vmem S5184 .f32).access (.whole S5184)).read (Elt F) (chunkAfter L (flat d) (vals d) k.val) = _
      from Memref.read_access_whole (Elt F) cc0_scratch2 _,
    step2_eq (F := F) L k.val hk (flat d) (vals d) _ _ (lanes_flat (F := F) k hk (flat d)) (lanes_vals (F := F) k hk (vals d)) h,
    pts_sO_accessW]

theorem region2 (k : Fin k0_t2_loop.trips) (acc : Unit) :
    inv2 (F := F) flat vals d L k.val acc ⊢ wp frame (wpE (defs₀ (F := F)) 𝒱₀ (V d (cV L) (jV L)) none) Set.univ
      (k0_t2_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2 k acc)
      (inv2 (F := F) flat vals d L (k.val + 1)) := by
  unfold k0_t2_body inv2
  simp only [Prog.lift, Prog.bind_op, Prog.bind_ret, Prog.pure_eq_ret]
  iintro ⟨Hs0, Hs1, Hs2⟩
  ihave Hs0' := (Entails.of_eq (pts_sF_univ (F := F) d L _).symm) $$ Hs0
  iapply (wp_load 𝒱₀ (V d (cV L) (jV L)) none Set.univ (m := (sF : Memref sig .scVector .vmem S1664 .i32)) (S := Finset.univ) (Finset.subset_univ _)) $$ Hs0'; iintro Hs0'
  ihave Hs1' := (Entails.of_eq (pts_sV_univ (F := F) d L _).symm) $$ Hs1
  iapply (wp_load 𝒱₀ (V d (cV L) (jV L)) none Set.univ (m := (sV : Memref sig .scVector .vmem S1664 .f32)) (S := Finset.univ) (Finset.subset_univ _)) $$ Hs1'; iintro Hs1'
  rw [wp_assume_of _ _ _ _ (chk_pay4 (F := F) L _)]
  ihave Hs2' := (Entails.of_eq (pts_sO_accessW (F := F) d L _).symm) $$ Hs2
  iapply (SparseCore.wp_vectorStoreIdx 𝒱₀ (V d (cV L) (jV L)) none Set.univ (base := (sO : Memref sig .scVector .vmem S5184 .f32))) $$ Hs2'; iintro Hs2'
  rw [wp_ret]; imodintro
  ihave Hs2 := (Entails.of_eq (pts_after (F := F) flat vals d L k _)) $$ Hs2'
  isplitl [Hs0']; · iexact Hs0'
  isplitl [Hs1']; · iexact Hs1'
  iexact Hs2

omit [FloatOps F] in
theorem fetch0_lands (fs : Buf (Elt F) ((V d (cV L) (jV L)).loc cc0_scratch0)) (fl : Buf (Elt F) (flatLoc d)) :
    (sF : Memref sig .scVector .vmem S1664 .i32).view.write (Elt F) fs ((fV : Memref sig .scVector .hbm S1664 .i32).view.read (Elt F) fl) Finset.univ = fl :=
  View.write_whole_univ _ _ _
omit [FloatOps F] in
theorem fetch1_lands (fs : Buf (Elt F) ((V d (cV L) (jV L)).loc cc0_scratch1)) (fl : Buf (Elt F) (valsLoc d)) :
    (sV : Memref sig .scVector .vmem S1664 .f32).view.write (Elt F) fs ((vV : Memref sig .scVector .hbm S1664 .f32).view.read (Elt F) fl) Finset.univ = fl :=
  View.write_whole_univ _ _ _

omit [FloatOps F] in
/-- What the write-out lands in the tile's slice is the slice scratch, word for word. -/
theorem out_lands (fo : Buf (Elt F) (outLoc d)) (fs : Buf (Elt F) ((V d (cV L) (jV L)).loc cc0_scratch2)) (j : S5184.Idx) :
    (oSl L).view.write (Elt F) fo ((sO : Memref sig .scVector .vmem S5184 .f32).view.read (Elt F) fs) Finset.univ ((oSl L).view.emb j) = fs j := by
  rw [View.write_emb_of_mem _ _ (Finset.mem_univ j)]; rfl

set_option maxHeartbeats 4000000 in
/-- The task on vector subcore `(L 0, L 1)` of device `d`. -/
theorem tile_body (hF : (K (F := F)).Facts) (f0 : (d : Dev nD) → Buf (Elt F) (outLoc d))
    (O : CellTallies nD τ sig (HIx 1)) (W : Waits sig (HIx 1)) (hO : ∀ g, O g none = 0) :
    iprop(levAts (K (F := F)).L (K (F := F)).lev
        ∗ (kit flat vals qf qv (c0cell d (cV L) (jV L)) ∗ kit flat vals qf qv (c1cell d (cV L) (jV L)) ∗ kit flat vals qf qv (c2cell d (cV L) (jV L)))
        ∗ ((flatLoc d ↦{qf (cV L) (jV L)} flat d) ∗ (valsLoc d ↦{qv (cV L) (jV L)} vals d) ∗ (outLoc d ↦[oSet L]{fullShare} f0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_scatter L fV (Memref.isWhole_whole _) vV (Memref.isWhole_whole _) oV (Memref.isWhole_whole _)
            sF (Memref.isWhole_whole _) sV (Memref.isWhole_whole _) sO (Memref.isWhole_whole _) cc0_scoped0 cc0_scoped1 cc0_scoped2)
          fun _ => iprop(((flatLoc d ↦{qf (cV L) (jV L)} flat d) ∗ (valsLoc d ↦{qv (cV L) (jV L)} vals d)
              ∗ ∃ g : Buf (Elt F) (outLoc d), ⌜∀ j : S5184.Idx, g ((oSl L).view.emb j) = tileOut L (flat d) (vals d) j⌝ ∗ outLoc d ↦[oSet L]{fullShare} g)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_scatter_eq_skeleton]; unfold cc0_sc_scatter_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kit
  iintro ⟨#Hlv, ⟨⟨Hst0, Hat0, #Hr0, Htok0⟩, ⟨Hst1, Hat1, #Hr1, Htok1⟩, ⟨Hst2, Hat2, #Hr2, Htok2⟩⟩, ⟨Hf, Hv, Ho⟩,
    ⟨⟨%fs0, Hs0⟩, ⟨%fs1, Hs1⟩, ⟨%fs2, Hs2⟩, Hbufs⟩, ⟨Hsem0, Hsem1, Hsem2, Hsems⟩, HO⟩
  imod ((Rounds.body_intro EK (kRd flat vals qf qv) (c0cell d (cV L) (jV L))).trans inv_alloc) $$ [Hsem0 Hst0] with ⟨%κ0, #Hinv0⟩
  · isplitl [Hsem0] <;> iassumption
  imod ((Rounds.body_intro EK (kRd flat vals qf qv) (c1cell d (cV L) (jV L))).trans inv_alloc) $$ [Hsem1 Hst1] with ⟨%κ1, #Hinv1⟩
  · isplitl [Hsem1] <;> iassumption
  imod ((Rounds.body_intro EK (kRd flat vals qf qv) (c2cell d (cV L) (jV L))).trans inv_alloc) $$ [Hsem2 Hst2] with ⟨%κ2, #Hinv2⟩
  · isplitl [Hsem2] <;> iassumption
  -- the fetch of the positions
  ihave Hf' := (Entails.of_eq (pts_fV (F := F) d L _ _).symm) $$ Hf
  ihave Hs0' := (Entails.of_eq (pts_sF (F := F) d L _).symm) $$ Hs0
  iapply (Rounds.wp_copy_pointsTo 𝒱₀ EK (kRd flat vals qf qv) (V d (cV L) (jV L)) none (q := qf (cV L) (jV L)) (fs := flat d) (fd := fs0) (κ := κ0)
      (kRd_mem₀ flat vals qf qv (by rw [cellKind_c0]; rfl)) none N0 rfl (kRd_amount_c0 flat vals qf qv d _ _) ?hpay0) $$ [Hf' Hs0' Htok0]
  case hpay0 =>
    rw [kRd_payload_c0, pts_fV, pts_sF, fetch0_lands]
  · isplitr; · iexact Hinv0
    isplitl [Hf']; · iexact Hf'
    isplitl [Hs0']; · iexact Hs0'
    isplitl [Htok0]; · iexact Htok0
    iexact Hr0
  iintro Hcred0
  iapply (Rounds.wp_wait_rest_token 𝒱₀ EK (kRd flat vals qf qv) (V d (cV L) (jV L)) none (κ := κ0)
      (wpE_waitDma2_eq 𝒱₀ (V d (cV L) (jV L)) none Set.univ) (Set.mem_univ κ0) none (O := O) (W := W) (R := 0) (m := 0) (T := ∅)
      (by rw [Nat.zero_add, kRd_expect flat vals qf qv (by rw [cellKind_c0]; rfl), kRd_amount_c0])) $$ [Hcred0 HO Hat0]
  · isplitr; · iexact Hinv0
    isplitl [Hcred0]; · iexact Hcred0
    isplitl [HO]; · iexact HO
    isplitr; · iapply ((K (F := F)).mayWait_none (SemLoc.dma cc0_scoped0.sem) hO); iexact Hlv
    iexact Hat0
  iintro ⟨HO, Hat0, -, Hpay⟩
  ihave Hp := ((kRd_back flat vals qf qv (g := c0cell d (cV L) (jV L)) (by rw [cellKind_c0]; rfl)).trans (Entails.of_eq (kRd_payload_c0 flat vals qf qv d _ _))) $$ Hpay
  icases Hp with ⟨Hs0, Hf⟩
  imod (Rounds.cell_close EK (kRd flat vals qf qv) (Set.mem_univ κ0) (fun h => h) (R := 0 + 1) (kRd_later flat vals qf qv (c0cell d _ _))) $$ [Hat0] with Hsem0
  · isplitr; · iexact Hinv0
    iexact Hat0
  -- the fetch of the values
  ihave Hv' := (Entails.of_eq (pts_vV (F := F) d L _ _).symm) $$ Hv
  ihave Hs1' := (Entails.of_eq (pts_sV (F := F) d L _).symm) $$ Hs1
  iapply (Rounds.wp_copy_pointsTo 𝒱₀ EK (kRd flat vals qf qv) (V d (cV L) (jV L)) none (q := qv (cV L) (jV L)) (fs := vals d) (fd := fs1) (κ := κ1)
      (kRd_mem₀ flat vals qf qv (by rw [cellKind_c1]; rfl)) none N1 rfl (kRd_amount_c1 flat vals qf qv d _ _) ?hpay1) $$ [Hv' Hs1' Htok1]
  case hpay1 =>
    rw [kRd_payload_c1, pts_vV, pts_sV, fetch1_lands]
  · isplitr; · iexact Hinv1
    isplitl [Hv']; · iexact Hv'
    isplitl [Hs1']; · iexact Hs1'
    isplitl [Htok1]; · iexact Htok1
    iexact Hr1
  iintro Hcred1
  iapply (Rounds.wp_wait_rest_token 𝒱₀ EK (kRd flat vals qf qv) (V d (cV L) (jV L)) none (κ := κ1)
      (wpE_waitDma2_eq 𝒱₀ (V d (cV L) (jV L)) none Set.univ) (Set.mem_univ κ1) none (O := O) (W := insert (SemLoc.dma cc0_scoped0.sem, none) W) (R := 0) (m := 0) (T := ∅)
      (by rw [Nat.zero_add, kRd_expect flat vals qf qv (by rw [cellKind_c1]; rfl), kRd_amount_c1])) $$ [Hcred1 HO Hat1]
  · isplitr; · iexact Hinv1
    isplitl [Hcred1]; · iexact Hcred1
    isplitl [HO]; · iexact HO
    isplitr; · iapply ((K (F := F)).mayWait_none (SemLoc.dma cc0_scoped1.sem) hO); iexact Hlv
    iexact Hat1
  iintro ⟨HO, Hat1, -, Hpay⟩
  ihave Hp := ((kRd_back flat vals qf qv (g := c1cell d (cV L) (jV L)) (by rw [cellKind_c1]; rfl)).trans (Entails.of_eq (kRd_payload_c1 flat vals qf qv d _ _))) $$ Hpay
  icases Hp with ⟨Hs1, Hv⟩
  imod (Rounds.cell_close EK (kRd flat vals qf qv) (Set.mem_univ κ1) (fun h => h) (R := 0 + 1) (kRd_later flat vals qf qv (c1cell d _ _))) $$ [Hat1] with Hsem1
  · isplitr; · iexact Hinv1
    iexact Hat1
  -- the zero fill
  iapply (Scf.wp_for_bind frame (wpE (defs₀ (F := F)) 𝒱₀ (V d (cV L) (jV L)) none) Set.univ k0_t1_loop.lb k0_t1_loop.ub k0_t1_loop.st k0_t1_ok ⟨⟩
      (k0_t1_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2)
      (inv1 (F := F) d L) (region1 (F := F) d L)) $$ [Hs2]
  · unfold inv1; iexists fs2; isplitr
    · ipureintro; intro j hj; omega
    · iexact Hs2
  iintro %_ HI
  unfold inv1
  icases HI with ⟨%g, %hg, Hs2⟩
  have hz : g = chunkAfter L (flat d) (vals d) 0 := funext fun j => hg j (by
    have h := (j 0).isLt
    have ht : Scf.trips k0_t1_loop.lb k0_t1_loop.ub k0_t1_loop.st = 324 := trips1
    rw [ht]; exact h)
  subst hz
  -- the scatter loop
  iapply (Scf.wp_for_bind frame (wpE (defs₀ (F := F)) 𝒱₀ (V d (cV L) (jV L)) none) Set.univ k0_t2_loop.lb k0_t2_loop.ub k0_t2_loop.st k0_t2_ok ⟨⟩
      (k0_t2_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2)
      (inv2 (F := F) flat vals d L) (region2 (F := F) flat vals d L)) $$ [Hs0 Hs1 Hs2]
  · unfold inv2
    isplitl [Hs0]; · iexact Hs0
    isplitl [Hs1]; · iexact Hs1
    iexact Hs2
  iintro %_ HI
  unfold inv2
  icases HI with ⟨Hs0, Hs1, Hs2⟩
  -- the write-out
  ihave Hs2' := (Entails.of_eq (pts_sO (F := F) d L _).symm) $$ Hs2
  ihave Ho' := (Entails.of_eq (pts_oSl (F := F) d L _).symm) $$ Ho
  iapply (Rounds.wp_copy_pointsTo 𝒱₀ EK (kRd flat vals qf qv) (V d (cV L) (jV L)) none (src := (sO : Memref sig .scVector .vmem S5184 .f32)) (dst := oSl L) (q := fullShare) (fd := f0 d) (κ := κ2)
      (kRd_mem₀ flat vals qf qv (by rw [cellKind_c2]; rfl)) none N2 rfl (kRd_amount_c2 flat vals qf qv d _ _) ?hpay2) $$ [Hs2' Ho' Htok2]
  rotate_left
  · isplitr; · iexact Hinv2
    isplitl [Hs2']; · iexact Hs2'
    isplitl [Ho']; · iexact Ho'
    isplitl [Htok2]; · iexact Htok2
    iexact Hr2
  case hpay2 =>
    rw [kRd_payload_c2L, pts_sO, pts_oSl]
    iintro ⟨Ho, Hc⟩
    isplitl [Ho]
    · iexists _; isplitr
      rotate_left
      · iexact Ho
      · ipureintro; intro j
        rw [out_lands]
        have ht : Scf.trips k0_t2_loop.lb k0_t2_loop.ub k0_t2_loop.st = 104 := trips2
        rw [ht]; rfl
    · iexists _; iexact Hc
  iintro Hcred2
  iapply (Rounds.wp_wait_rest_token 𝒱₀ EK (kRd flat vals qf qv) (V d (cV L) (jV L)) none (κ := κ2)
      (wpE_waitDma2_eq 𝒱₀ (V d (cV L) (jV L)) none Set.univ) (Set.mem_univ κ2) none (O := O)
      (W := insert (SemLoc.dma cc0_scoped1.sem, none) (insert (SemLoc.dma cc0_scoped0.sem, none) W)) (R := 0) (m := 0) (T := ∅)
      (by rw [Nat.zero_add, kRd_expect flat vals qf qv (by rw [cellKind_c2]; rfl), kRd_amount_c2]; try rfl)) $$ [Hcred2 HO Hat2]
  · isplitr; · iexact Hinv2
    isplitl [Hcred2]; · iexact Hcred2
    isplitl [HO]; · iexact HO
    isplitr; · iapply ((K (F := F)).mayWait_none (SemLoc.dma cc0_scoped2.sem) hO); iexact Hlv
    iexact Hat2
  iintro ⟨HO, Hat2, -, Hpay⟩
  ihave Hp := ((kRd_back flat vals qf qv (g := c2cell d (cV L) (jV L)) (by rw [cellKind_c2]; rfl)).trans (Entails.of_eq (kRd_payload_c2L flat vals qf qv d L))) $$ Hpay
  icases Hp with ⟨⟨%go, %hgo, Ho⟩, ⟨%fc, Hs2⟩⟩
  imod (Rounds.cell_close EK (kRd flat vals qf qv) (Set.mem_univ κ2) (fun h => h) (R := 0 + 1) (kRd_later flat vals qf qv (c2cell d _ _))) $$ [Hat2] with Hsem2
  · isplitr; · iexact Hinv2
    iexact Hat2
  rw [wp_ret]; imodintro
  isplitl [Hf Hv Ho]
  · isplitl [Hf]; · iexact Hf
    isplitl [Hv]; · iexact Hv
    iexists go; isplitr
    · ipureintro; exact hgo
    · iexact Ho
  isplitl [Hs0 Hs1 Hs2 Hbufs]
  · isplitl [Hs0]
    · iexists _; iexact Hs0
    isplitl [Hs1]
    · iexists _; iexact Hs1
    isplitl [Hs2]
    · iexists _; iexact Hs2
    · iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, none) (insert (SemLoc.dma cc0_scoped1.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KB

end
-- ==== Proof.KB.ScLaunch.lean ====
/-
  The launch data of the scatter's SparseCore call: what the handshakes carry (every tile a read share of the
  positions and of the values, and its own slice of the padded output), how a SparseCore's operands split among
  its sixteen tiles and gather from them, the launch element of the tiles' DMA cells, and the TensorCore's step
  at the call, from the three arrays whole to the three arrays whole with the output at the pure description.
-/
import proofs.«216126_g59949153517679_cont_9to1_m_442_25_alg».proof.Proof.KB.Tile
import Idealize.ShloMosaic.Lib.Transfers

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

/-! ## The thirty-two slices of the padded output -/

theorem LofV_zero (c : Fin τ.nSC) (i : Fin τ.nSub) : ((LofV c i) 0).val = c.val := rfl
theorem LofV_one (c : Fin τ.nSC) (i : Fin τ.nSub) : ((LofV c i) 1).val = i.val := rfl

/-- A tile's slice is the rectangle the kernel slices. -/
theorem oSet_eq (L : grid0.Coords) : oSet L = (Rect.unit (s := S165888) (k0_off3 L) S5184.size (k0_off3_inb L)).set := by
  show ((View.whole (main_v18_scv : Ref sig .scVector)).slice _).set = _
  rw [View.set_slice]; exact Finset.map_refl

/-- Tile `L`'s slice: the 5184 words from `10368 (L 1) + 5184 (L 0)`. -/
theorem mem_oSet (L : grid0.Coords) (p : S165888.Idx) :
    p ∈ oSet L ↔ 10368 * (L 1).val + 5184 * (L 0).val ≤ (p 0).val ∧ (p 0).val < 10368 * (L 1).val + 5184 * (L 0).val + 5184 := by
  rw [oSet_eq, Rect.mem_set_unit, k0_off3_eq]
  constructor
  · intro h; exact h 0
  · intro h a
    have ha : a = 0 := Subsingleton.elim _ _
    subst ha; exact h

/-- Two tiles' slices do not meet. -/
theorem oSets_disjoint : ∀ x ∈ (Finset.univ : Finset (Fin τ.nSC × Fin τ.nSub)), ∀ y ∈ (Finset.univ : Finset (Fin τ.nSC × Fin τ.nSub)),
    x ≠ y → Disjoint (oSet (LofV x.1 x.2)) (oSet (LofV y.1 y.2)) := by
  intro x _ y _ hxy
  refine Finset.disjoint_left.mpr fun p hx hy => hxy ?_
  rw [mem_oSet, LofV_zero, LofV_one] at hx hy
  have h1 : x.1.val < 2 := x.1.isLt
  have h2 : y.1.val < 2 := y.1.isLt
  exact Prod.ext (Fin.ext (by omega)) (Fin.ext (by omega))

/-- The slices cover the output. -/
theorem oSets_cover : (Finset.univ : Finset (Fin τ.nSC × Fin τ.nSub)).biUnion (fun x => oSet (LofV x.1 x.2)) = Finset.univ := by
  ext p
  simp only [Finset.mem_biUnion, Finset.mem_univ, true_and, iff_true]
  have hp : (p 0).val < 165888 := (p 0).isLt
  refine ⟨(⟨((p 0).val / 5184) % 2, Nat.mod_lt _ (by decide)⟩, ⟨(p 0).val / 10368, by show _ < 16; omega⟩), ?_⟩
  rw [mem_oSet, LofV_zero, LofV_one]
  show 10368 * ((p 0).val / 10368) + 5184 * (((p 0).val / 5184) % 2) ≤ (p 0).val ∧ (p 0).val < 10368 * ((p 0).val / 10368) + 5184 * (((p 0).val / 5184) % 2) + 5184
  omega

/-- Word `j` of tile `L`'s slice, in the output. -/
theorem oSl_emb_val (L : grid0.Coords) (j : S5184.Idx) : ((oSl L).view.emb j 0).val = 10368 * (L 1).val + 5184 * (L 0).val + (j 0).val := by
  show (k0_off3 L) 0 + 1 * (j 0).val = _
  rw [k0_off3_eq]; show 10368 * (L 1).val + 5184 * (L 0).val + 1 * (j 0).val = _; omega

section Spec
variable [FloatOps F]

/-- The pure description of the output, read on a tile's slice, is the tile's own. -/
theorem scOut_emb (L : grid0.Coords) (flat : IVec S1664 32) (vals : FVec F S1664 .f32) (j : S5184.Idx) :
    scOut (F := F) flat vals ((oSl L).view.emb j) = tileOut (F := F) L flat vals j := by
  have h0 : (L 0).val < 2 := (L 0).isLt
  have hj : (j 0).val < 5184 := (j 0).isLt
  have he := oSl_emb_val L j
  have hL : tileOf ((oSl L).view.emb j) = L := by
    funext a
    match a with
    | 0 => exact Fin.ext (by show (((oSl L).view.emb j 0).val / 5184) % 2 = (L 0).val; omega)
    | 1 => exact Fin.ext (by show ((oSl L).view.emb j 0).val / 10368 = (L 1).val; omega)
  have hw : tileWord ((oSl L).view.emb j) = j := by
    funext a
    have ha : a = 0 := Subsingleton.elim _ _
    subst ha
    exact Fin.ext (by show ((oSl L).view.emb j 0).val % 5184 = (j 0).val; omega)
  show tileOut (F := F) (tileOf ((oSl L).view.emb j)) flat vals (tileWord ((oSl L).view.emb j)) = _
  rw [hL, hw]

end Spec

/-! ## Read shares, and what the handshakes carry -/

/-- SparseCore `c`'s read share of an array every tile reads whole, and tile `(c, i)`'s share of that one. -/
abbrev shC (c : Fin τ.nSC) : PosShare TreeShare := shareTok fullShare τ.nSC c
abbrev shT (c : Fin τ.nSC) (i : Fin τ.nSub) : PosShare TreeShare := shareTok (shC c) τ.nSub i

section Pay

variable [FloatOps F]
variable (flat : Dev nD → IVec S1664 32) (vals : Dev nD → FVec F S1664 .f32) (f0 : (d : Dev nD) → Buf (Elt F) (outLoc d))

abbrev fPts (d : Dev nD) (q : PosShare TreeShare) : sProp 𝕄 := flatLoc d ↦{q} (flat d : Buf (Elt F) (flatLoc d))
abbrev vPts (d : Dev nD) (q : PosShare TreeShare) : sProp 𝕄 := valsLoc d ↦{q} (vals d : Buf (Elt F) (valsLoc d))
abbrev oPc (d : Dev nD) (L : grid0.Coords) (f : Buf (Elt F) (outLoc d)) : sProp 𝕄 := outLoc d ↦[oSet L]{fullShare} f
/-- Tile `L`'s slice of the output at what the tile leaves there. -/
def oDone (d : Dev nD) (L : grid0.Coords) : sProp 𝕄 :=
  iprop(∃ g : Buf (Elt F) (outLoc d), ⌜∀ j : S5184.Idx, g ((oSl L).view.emb j) = tileOut (F := F) L (flat d) (vals d) j⌝ ∗ oPc d L g)

instance oDone_storable (d : Dev nD) (L : grid0.Coords) : BI.Storable (upEmb : UEmb _ 𝕄) (oDone flat vals d L) := by
  unfold oDone; infer_instance

/-- The call takes, per SparseCore, a read share of the positions and of the values and the sixteen slices its tiles
    write; a tile, a share of those shares and its slice; back come the shares and the slices at what the tiles left. -/
def P : (K (F := F)).Pay (nD := nD) (Val := Elt F) (Name := ℕ) (U := UU) where
  st := fun q d c => match q with
    | 0 => iprop(fPts flat d (shC ((K (F := F)).core 0 c)) ∗ vPts vals d (shC ((K (F := F)).core 0 c))
        ∗ bigSep Finset.univ fun i : Fin τ.nSub => oPc d (LofV ((K (F := F)).core 0 c) i) (f0 d))
  dn := fun q d c => match q with
    | 0 => iprop(fPts flat d (shC ((K (F := F)).core 0 c)) ∗ vPts vals d (shC ((K (F := F)).core 0 c))
        ∗ bigSep Finset.univ fun i : Fin τ.nSub => oDone flat vals d (LofV ((K (F := F)).core 0 c) i))
  go := fun q d c i => match q with
    | 0 => iprop(fPts flat d (shT ((K (F := F)).core 0 c) ((K (F := F)).sub 0 i)) ∗ vPts vals d (shT ((K (F := F)).core 0 c) ((K (F := F)).sub 0 i))
        ∗ oPc d (LofV ((K (F := F)).core 0 c) ((K (F := F)).sub 0 i)) (f0 d))
  td := fun q d c i => match q with
    | 0 => iprop(fPts flat d (shT ((K (F := F)).core 0 c) ((K (F := F)).sub 0 i)) ∗ vPts vals d (shT ((K (F := F)).core 0 c) ((K (F := F)).sub 0 i))
        ∗ oDone flat vals d (LofV ((K (F := F)).core 0 c) ((K (F := F)).sub 0 i)))
  x := fun q thr => match q, thr with
    | 0, (d, .scVector c i) => iprop(kit flat vals shT shT (c0cell d c i) ∗ kit flat vals shT shT (c1cell d c i) ∗ kit flat vals shT shT (c2cell d c i))
    | _, _ => iprop(emp)

theorem P_st (d : Dev nD) (c : Fin ((K (F := F)).nCore 0)) : (P flat vals f0).st 0 d c
    = iprop(fPts flat d (shC ((K (F := F)).core 0 c)) ∗ vPts vals d (shC ((K (F := F)).core 0 c))
        ∗ bigSep Finset.univ fun i : Fin τ.nSub => oPc d (LofV ((K (F := F)).core 0 c) i) (f0 d)) := rfl
theorem P_dn (d : Dev nD) (c : Fin ((K (F := F)).nCore 0)) : (P flat vals f0).dn 0 d c
    = iprop(fPts flat d (shC ((K (F := F)).core 0 c)) ∗ vPts vals d (shC ((K (F := F)).core 0 c))
        ∗ bigSep Finset.univ fun i : Fin τ.nSub => oDone flat vals d (LofV ((K (F := F)).core 0 c) i)) := rfl
theorem P_go (d : Dev nD) (c : Fin ((K (F := F)).nCore 0)) (i : Fin ((K (F := F)).nSub 0)) : (P flat vals f0).go 0 d c i
    = iprop(fPts flat d (shT ((K (F := F)).core 0 c) ((K (F := F)).sub 0 i)) ∗ vPts vals d (shT ((K (F := F)).core 0 c) ((K (F := F)).sub 0 i))
        ∗ oPc d (LofV ((K (F := F)).core 0 c) ((K (F := F)).sub 0 i)) (f0 d)) := rfl
theorem P_td (d : Dev nD) (c : Fin ((K (F := F)).nCore 0)) (i : Fin ((K (F := F)).nSub 0)) : (P flat vals f0).td 0 d c i
    = iprop(fPts flat d (shT ((K (F := F)).core 0 c) ((K (F := F)).sub 0 i)) ∗ vPts vals d (shT ((K (F := F)).core 0 c) ((K (F := F)).sub 0 i))
        ∗ oDone flat vals d (LofV ((K (F := F)).core 0 c) ((K (F := F)).sub 0 i))) := rfl
theorem P_x_V (d : Dev nD) (c : Fin τ.nSC) (i : Fin τ.nSub) : (P flat vals f0).x 0 (V d c i)
    = iprop(kit flat vals shT shT (c0cell d c i) ∗ kit flat vals shT shT (c1cell d c i) ∗ kit flat vals shT shT (c2cell d c i)) := rfl

instance P_storable : (P (F := F) flat vals f0).IsStorable where
  st q d c := match q with
    | 0 => by rw [P_st]; infer_instance
  dn q d c := match q with
    | 0 => by rw [P_dn]; infer_instance
  go q d c i := match q with
    | 0 => by rw [P_go]; infer_instance
  td q d c i := match q with
    | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0_sc_scatter (coordsV c s)
          fV (Memref.isWhole_whole _) vV (Memref.isWhole_whole _) oV (Memref.isWhole_whole _)
          sF (Memref.isWhole_whole _) sV (Memref.isWhole_whole _) sO (Memref.isWhole_whole _) cc0_scoped0 cc0_scoped1 cc0_scoped2) ⟨⟩ c s := rfl

omit [FloatOps F] in
/-- A task that recorded no wait of the call's own leaves the records the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P flat vals f0) v₀ 0 := by
  intro d c i O W hO _ _
  -- the kernel has no protocol of its own beyond its DMA cells: nothing owed for one
  simp only [show (P flat vals f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x_V, P_go, P_td]
  exact (tile_body flat vals shT shT d (coordsV ⟨_, hc.1⟩ ⟨_, hc.2⟩) hF f0 O W hO).trans (wp_mono frame _ _ fun _ => obl_post)

omit [FloatOps F] in
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)
omit [FloatOps F] in
theorem bigSep_cores (Φ : Fin τ.nSC → sProp 𝕄) :
    (bigSep Finset.univ fun c : Fin ((K (F := F)).nCore 0) => Φ ((K (F := F)).core 0 c)) = bigSep Finset.univ Φ :=
  bigSep_congr fun _ _ => congrArg Φ (Fin.ext rfl)

/-- A SparseCore deals each tile a share of its two read shares and the tile's slice, and gathers them back. -/
theorem vecSplit : (K (F := F)).VecSplit' (P flat vals f0) 0 := by
  intro d c
  rw [P_st, P_dn]
  simp only [P_go, P_td]
  rw [bigSep_tasks (F := F) (fun i => iprop(fPts flat d (shT ((K (F := F)).core 0 c) i) ∗ vPts vals d (shT ((K (F := F)).core 0 c) i)
        ∗ oPc d (LofV ((K (F := F)).core 0 c) i) (f0 d))),
    bigSep_tasks (F := F) (fun i => iprop(fPts flat d (shT ((K (F := F)).core 0 c) i) ∗ vPts vals d (shT ((K (F := F)).core 0 c) i)
        ∗ oDone flat vals d (LofV ((K (F := F)).core 0 c) i))),
    bigSep_sep', bigSep_sep', bigSep_sep', bigSep_sep']
  iintro ⟨Hf, Hv, Ho⟩
  ihave Hf' := (pointsTo_toks_split (shC ((K (F := F)).core 0 c)) τ.nSub) $$ Hf
  icases Hf' with ⟨Hfr, Hft⟩
  ihave Hv' := (pointsTo_toks_split (shC ((K (F := F)).core 0 c)) τ.nSub) $$ Hv
  icases Hv' with ⟨Hvr, Hvt⟩
  imodintro
  isplitl [Hft Hvt Ho]
  · isplitl [Hft]; · iexact Hft
    isplitl [Hvt]; · iexact Hvt
    iexact Ho
  iintro ⟨Hft, Hvt, Ho⟩
  isplitl [Hfr Hft]
  · iapply (pointsTo_toks_join (shC ((K (F := F)).core 0 c)) τ.nSub)
    isplitl [Hfr]; · iexact Hfr
    iexact Hft
  isplitl [Hvr Hvt]
  · iapply (pointsTo_toks_join (shC ((K (F := F)).core 0 c)) τ.nSub)
    isplitl [Hvr]; · iexact Hvr
    iexact Hvt
  iexact Ho

/-! ## The launch element of the tiles' DMA cells -/

def kCells : Finset (GSem nD τ sig) :=
  ((Finset.univ.image fun dci : Dev nD × Fin τ.nSC × Fin τ.nSub => c0cell dci.1 dci.2.1 dci.2.2)
    ∪ (Finset.univ.image fun dci : Dev nD × Fin τ.nSC × Fin τ.nSub => c1cell dci.1 dci.2.1 dci.2.2))
    ∪ (Finset.univ.image fun dci : Dev nD × Fin τ.nSC × Fin τ.nSub => c2cell dci.1 dci.2.1 dci.2.2)
def kToks : Finset (GSem nD τ sig × ℕ × Unit) := kCells.map ⟨fun g => (g, 0, ()), fun _ _ e => (Prod.mk.inj e).1⟩

omit [FloatOps F] in
theorem toks_eq : (bigSep kToks fun x => (dutyTok EK x.1 x.2.1 x.2.2 : sProp 𝕄)) = bigSep kCells fun g => dutyTok EK g 0 () := by
  unfold kToks; rw [bigSep_map]; rfl

/-- The launch element funds every tile's three cells: each cell's round, its owner's position, its round reached, its duty's token. -/
theorem kits_intro : (BI.own (EK (initOf kCells kToks)) : sProp 𝕄) ⊢ iprop(|==> bigSep kCells (kit flat vals shT shT)) := by
  iintro H
  imod (Rounds.fund EK (kRd flat vals shT shT) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

omit [FloatOps F] in
theorem bigSep_emp' {I : Type} (s : Finset I) : (bigSep s fun _ => iprop(emp)) = (iprop(emp) : sProp 𝕄) := bigSep_emp_const s

theorem Px_T (d : Dev nD) : (bigSep Finset.univ fun q : Fin 1 => (P (F := F) flat vals f0).x q (SparseCore.T d)) = iprop(emp) :=
  bigSep_univ_of_subsingleton (0 : Fin 1)
theorem Px_S (d : Dev nD) (c : Fin τ.nSC) : (bigSep Finset.univ fun q : Fin 1 => (P (F := F) flat vals f0).x q (S d c)) = iprop(emp) :=
  bigSep_univ_of_subsingleton (0 : Fin 1)
theorem Px_V (d : Dev nD) (c : Fin τ.nSC) (i : Fin τ.nSub) :
    (bigSep Finset.univ fun q : Fin 1 => (P (F := F) flat vals f0).x q (V d c i))
      = iprop(kit flat vals shT shT (c0cell d c i) ∗ kit flat vals shT shT (c1cell d c i) ∗ kit flat vals shT shT (c2cell d c i)) :=
  bigSep_univ_of_subsingleton (0 : Fin 1)

omit [FloatOps F] in
theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

/-- The funded cells, dealt: every tile its own three. -/
theorem kits_deal : (bigSep kCells (kit (F := F) flat vals shT shT) : sProp 𝕄)
    ⊢ bigSep Finset.univ fun thr : Thread nD τ => bigSep Finset.univ fun q : Fin 1 => (P flat vals f0).x q thr := by
  rw [SparseCore.Cfg.bigSep_threads (fun thr : Thread nD τ => bigSep Finset.univ fun q : Fin 1 => (P flat vals f0).x q thr)]
  simp only [Px_T, Px_S, Px_V, bigSep_emp']
  unfold kCells
  rw [SparseCore.bigSep_union' ?d1, SparseCore.bigSep_union' ?d2,
    SparseCore.bigSep_image_of_injOn (inj3 _) (kit flat vals shT shT), SparseCore.bigSep_image_of_injOn (inj3 _) (kit flat vals shT shT),
    SparseCore.bigSep_image_of_injOn (inj3 _) (kit flat vals shT shT)]
  case d1 =>
    refine Finset.disjoint_left.mpr fun g h1 h2 => ?_
    obtain ⟨b, -, e⟩ := Finset.mem_image.mp h2
    rcases Finset.mem_union.mp h1 with h1 | h1
    · obtain ⟨a, -, rfl⟩ := Finset.mem_image.mp h1
      exact absurd (Prod.mk.inj e).2 (by decide)
    · obtain ⟨a, -, rfl⟩ := Finset.mem_image.mp h1
      exact absurd (Prod.mk.inj e).2 (by decide)
  case d2 =>
    refine Finset.disjoint_left.mpr fun g h1 h2 => ?_
    obtain ⟨a, -, rfl⟩ := Finset.mem_image.mp h1
    obtain ⟨b, -, e⟩ := Finset.mem_image.mp h2
    exact absurd (Prod.mk.inj e).2 (by decide)
  rw [bigSep_sep' (Finset.univ : Finset (Dev nD × Fin τ.nSC × Fin τ.nSub)), bigSep_sep' (Finset.univ : Finset (Dev nD × Fin τ.nSC × Fin τ.nSub))]
  iintro ⟨⟨H0, H1⟩, H2⟩
  isplitr; · iempintro
  isplitr; · iempintro
  isplitl [H0]; · iexact H0
  isplitl [H1]; · iexact H1
  iexact H2

/-! ## The TensorCore's step at the call -/

/-- The padded output as the buffer's contents. -/
abbrev scBuf (d : Dev nD) : Buf (Elt F) (outLoc d) := (scOut (F := F) (flat d) (vals d) : Buf (Elt F) (outLoc d))

omit [FloatOps F] in
/-- The output whole is its thirty-two slices. -/
theorem out_slices (d : Dev nD) (f : Buf (Elt F) (outLoc d)) :
    (outLoc d ↦{fullShare} f : sProp 𝕄) = bigSep Finset.univ fun c : Fin τ.nSC => bigSep Finset.univ fun i : Fin τ.nSub => oPc d (LofV c i) f := by
  rw [← bigSep_univ_prod (fun x : Fin τ.nSC × Fin τ.nSub => oPc d (LofV x.1 x.2) f),
    ← pointsTo_biUnion Finset.univ (ℓ := outLoc d) (fun x : Fin τ.nSC × Fin τ.nSub => oSet (LofV x.1 x.2)) oSets_disjoint, oSets_cover]
  try rfl

/-- A slice at what its tile left is the slice at the pure description of the whole output. -/
theorem oDone_elim (d : Dev nD) (L : grid0.Coords) : oDone flat vals d L ⊢ oPc d L (scBuf flat vals d) := by
  unfold oDone
  iintro ⟨%g, %hg, H⟩
  have e : (oPc d L g : sProp 𝕄) = oPc d L (scBuf flat vals d) := by
    refine pointsTo_congr fun p hp => ?_
    obtain ⟨j, -, rfl⟩ := Finset.mem_map.mp hp
    exact (hg j).trans (scOut_emb L (flat d) (vals d) j).symm
  rw [← e]; iexact H

/-- The thirty-two slices at what their tiles left are the output whole at the pure description. -/
theorem out_done (d : Dev nD) :
    (bigSep Finset.univ fun c : Fin τ.nSC => bigSep Finset.univ fun i : Fin τ.nSub => oDone flat vals d (LofV c i))
      ⊢ (outLoc d ↦{fullShare} scBuf flat vals d : sProp 𝕄) := by
  rw [out_slices d (scBuf flat vals d)]
  exact bigSep_mono fun c _ => bigSep_mono fun i _ => oDone_elim flat vals d (LofV c i)

theorem st_all (d : Dev nD) : (bigSep Finset.univ fun c : Fin ((K (F := F)).nCore 0) => (P flat vals f0).st 0 d c)
    = iprop((bigSep Finset.univ fun c : Fin τ.nSC => fPts flat d (shC c)) ∗ (bigSep Finset.univ fun c : Fin τ.nSC => vPts vals d (shC c))
        ∗ bigSep Finset.univ fun c : Fin τ.nSC => bigSep Finset.univ fun i : Fin τ.nSub => oPc d (LofV c i) (f0 d)) := by
  simp only [P_st]
  rw [bigSep_cores (F := F) (fun c => iprop(fPts flat d (shC c) ∗ vPts vals d (shC c) ∗ bigSep Finset.univ fun i : Fin τ.nSub => oPc d (LofV c i) (f0 d))),
    bigSep_sep', bigSep_sep']
theorem dn_all (d : Dev nD) : (bigSep Finset.univ fun c : Fin ((K (F := F)).nCore 0) => (P flat vals f0).dn 0 d c)
    = iprop((bigSep Finset.univ fun c : Fin τ.nSC => fPts flat d (shC c)) ∗ (bigSep Finset.univ fun c : Fin τ.nSC => vPts vals d (shC c))
        ∗ bigSep Finset.univ fun c : Fin τ.nSC => bigSep Finset.univ fun i : Fin τ.nSub => oDone flat vals d (LofV c i)) := by
  simp only [P_dn]
  rw [bigSep_cores (F := F) (fun c => iprop(fPts flat d (shC c) ∗ vPts vals d (shC c) ∗ bigSep Finset.univ fun i : Fin τ.nSub => oDone flat vals d (LofV c i))),
    bigSep_sep', bigSep_sep']

/-- The TensorCore at the SparseCore call: it hands each SparseCore a read share of the positions and of the values and
    its tiles' slices of the output, keeps the rest of the two arrays' shares, and after the call holds the three arrays
    whole again, the output at the pure description. -/
theorem sc_call (κ : GSem nD τ sig → ℕ) (d : Dev nD) {Φ : PUnit → sProp 𝕄} :
    iprop((K (F := F)).ctx EH (P flat vals f0) κ ∗ (K (F := F)).tcSt EH d 0
        ∗ fPts flat d fullShare ∗ vPts vals d fullShare ∗ (outLoc d ↦{fullShare} f0 d)
        ∗ (((K (F := F)).tcSt EH d 1 ∗ fPts flat d fullShare ∗ vPts vals d fullShare ∗ (outLoc d ↦{fullShare} scBuf flat vals d)) -∗ Φ ⟨⟩))
      ⊢ wp frame (wpE ((K (F := F)).defs (D (F := F))) 𝒱 (SparseCore.T d) none) Set.univ ((K (F := F)).run d 0) Φ := by
  iintro ⟨#Hctx, Hst, Hf, Hv, Ho, Hk⟩
  ihave Hf' := (pointsTo_toks_split fullShare τ.nSC) $$ Hf
  icases Hf' with ⟨Hfr, Hft⟩
  ihave Hv' := (pointsTo_toks_split fullShare τ.nSC) $$ Hv
  icases Hv' with ⟨Hvr, Hvt⟩
  ihave Ho' := (Entails.of_eq (out_slices d (f0 d))) $$ Ho
  iapply ((K (F := F)).wp_run (D (F := F)) 𝒱 (EH := EH) (P := P flat vals f0) κ d 0) $$ [Hst Hft Hvt Ho' Hfr Hvr Hk]
  isplitr; · iexact Hctx
  isplitl [Hst]; · iexact Hst
  isplitl [Hft Hvt Ho']
  · rw [st_all]
    isplitl [Hft]; · iexact Hft
    isplitl [Hvt]; · iexact Hvt
    iexact Ho'
  iintro ⟨Hst, Hdn⟩
  ihave Hdn' := (Entails.of_eq (dn_all flat vals f0 d)) $$ Hdn
  icases Hdn' with ⟨Hft, Hvt, Ho⟩
  iapply Hk
  isplitl [Hst]; · iexact Hst
  isplitl [Hfr Hft]
  · iapply (pointsTo_toks_join fullShare τ.nSC)
    isplitl [Hfr]; · iexact Hfr
    iexact Hft
  isplitl [Hvr Hvt]
  · iapply (pointsTo_toks_join fullShare τ.nSC)
    isplitl [Hvr]; · iexact Hvr
    iexact Hvt
  iapply (out_done flat vals d)
  iexact Ho

/-- The same with what follows the call. -/
theorem sc_call_bind (κ : GSem nD τ sig → ℕ) (d : Dev nD) {α : Type}
    (k : PUnit → Prog (TpuEff nD τ sig (Elt F) (SparseCore.Sig (ΛP (F := F)) 1) .tc) α) {Ψ : α → sProp 𝕄} :
    iprop((K (F := F)).ctx EH (P flat vals f0) κ ∗ (K (F := F)).tcSt EH d 0
        ∗ fPts flat d fullShare ∗ vPts vals d fullShare ∗ (outLoc d ↦{fullShare} f0 d)
        ∗ (((K (F := F)).tcSt EH d 1 ∗ fPts flat d fullShare ∗ vPts vals d fullShare ∗ (outLoc d ↦{fullShare} scBuf flat vals d))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ ((K (F := F)).run d 0 >>= k) Ψ := by
  rw [wp_bind]
  exact sc_call flat vals f0 κ d (Φ := fun a => wp frame (wpE ((K (F := F)).defs (D (F := F))) 𝒱 (SparseCore.T d) none) Set.univ (k a) Ψ)

end Pay

end Cert.Proof.KB

end
-- ==== Proof.KB.Region.lean ====
/-
  Entering the TensorCore's pipelined region from inside the SparseCore program's @main: the rounds ghost state
  of the pipeline's staging cells as the launch deals it, and the rule for the region's call line in @main —
  from the region boundary, the four windowed arrays, that ghost state and the TensorCore's handshake state
  after the SparseCore call, the line runs the pipeline and hands back the same with the arrays at what the
  pipeline's proof data computes.
-/
import proofs.«216126_g59949153517679_cont_9to1_m_442_25_alg».proof.Proof.KB.Common
import Idealize.ShloMosaic.Lib.Pipeline.Regions

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig (HIx 1) (Elt F) ℕ UU ℕ

/-! ## The pipeline's ghost state at launch -/

/-- The one admissible contents of the (absent) prefetched tables. -/
abbrev adm : (p : Fin 1) → (pcfgs (F := F) p).Adm := fun p => (cfgs p).toPCfg_adm

/-- The launch element of the staging cells' rounds: every cell's launch state and every transfer's duty token. -/
def uP₀ : UP := initOf (Pipeline.cells (nD := nD) (τ := τ) cfgs cellOf_inj) (Pipeline.launchToks (nD := nD) (τ := τ) cfgs cellOf_inj)

/-- What the launch deals @main on device `d` for the region: the staging cells' launch ghost state and the
    duty tokens of the transfers the pipeline's loop issues. -/
def regionGhost (d : Dev nD) : sProp 𝕄 :=
  iprop(Pipeline.cellsGhost cfgs EP 0 d ∗ Pipeline.toksInit cfgs EP 0 d)

/-- Conjoined over the one pipeline is the pipeline's conjunct. -/
theorem bigSep_fin1 {M : Type} [URA M] (X : Fin 1 → sProp M) : bigSep Finset.univ X = X 0 := by
  rw [show (Finset.univ : Finset (Fin 1)) = {0} from rfl, bigSep_singleton]

/-- Funding: the staging cells' launch element yields every device's region ghost state. -/
theorem fund_region : BI.own ((EP : Emb UP 𝕄) uP₀) ⊢ |==> bigSep Finset.univ (regionGhost (F := F)) := by
  refine (Pipeline.fund_ghost (nD := nD) (τ := τ) cfgs (EP : Emb UP 𝕄) cellOf_inj).trans (BI.bupd_mono ?_)
  unfold regionGhost
  rw [← bigSep_sep']
  refine bigSep_mono fun c _ => ?_
  rw [bigSep_fin1, bigSep_fin1]
  exact BI.Entails.refl _

/-! ## The region's call -/

/-- The recorded pairs of the TensorCore after the SparseCore call: at or below the call's band. -/
abbrev tcRec (d : Dev nD) : Set (SemLoc sig × HIx 1) := {p | (K (F := F)).lev (T d, p.1) p.2 ≤ 8}

/-- The TensorCore's handshake state after the call but for what it owes. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

/-- After the program's only SparseCore call the TensorCore owes nothing more: its handshake state is what it
    owes — nothing, its recorded pairs within the call's band — beside the rest. -/
theorem tcSt_eq (d : Dev nD) :
    ((K (F := F)).tcSt EH d 1 : sProp 𝕄)
      = iprop((∃ W, ⌜(K (F := F)).WBelow (T d) W (8 * 1)⌝ ∗ owes (T d) (0 : CellTallies nD τ sig (HIx 1)) W) ∗ tcTail d) := by
  unfold SparseCore.Cfg.tcSt tcTail
  rw [(K (F := F)).Otc_end d (le_refl 1)]

/-- The pipeline's proof data as the family over the program's one pipeline. -/
abbrev pd (dats : (c : Dev nD) → Pipeline.Dat τ (Elt F) (HIx 1) ℕ UU ℕ cfg1 c) :
    (p : Fin 1) → (c : Dev nD) → Pipeline.Dat τ (Elt F) (HIx 1) ℕ UU ℕ (Pipeline.pin (pcfgs (F := F)) adm p) c :=
  fun _ c => dats c

/-- The pipeline prefetches no table. -/
theorem prefHeld_none (c : Dev nD) :
    (Pipeline.prefHeld ((pcfgs (F := F)) 0).pre c (fun _ => fullShare) (adm (F := F) 0).1 : sProp 𝕄) = BI.emp := by
  unfold Pipeline.prefHeld
  exact bigSep_empty

/-- The region as a segment of @main between two states of the TensorCore: the windowed arrays and the
    handshake state after the SparseCore call, before and after. -/
def regionSeg (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hΦ : ∀ c t, (dats c).Φ t = (BI.emp : sProp 𝕄))
    (lv : GSem nD τ sig → HIx 1 → ℕ) :
    Pipeline.RegionSeg (pcfgs (F := F)) adm (pd dats) (none : HIx 1) defs₀ 𝒱₀ (K (F := F)).L lv (0 : Fin 1) where
  win := winFacts1.to₀
  block_pos := block_pos1
  stage_whole := stage_whole1
  K := PEmpty
  osem := fun k => k.elim
  ho := Pipeline.OwnSemFacts.none _
  hbody := hbody
  hwaits := Pipeline.hwaits_of_owed_zero (pcfgs (F := F)) adm (pd dats) (none : HIx 1) (K (F := F)).L lv 0 howed
  pre := fun c => iprop((dats c).arrays ((dats c).arrAt · 0) ∗ (K (F := F)).tcSt EH c 1)
  post := fun c => iprop((dats c).arrays ((dats c).arrAt · cfg1.N) ∗ (K (F := F)).tcSt EH c 1)
  X := fun _ => BI.emp
  Y := fun _ => BI.emp
  Z := fun c => tcTail c
  hentry := fun c => by
    beta_reduce
    rw [tcSt_eq, prefHeld_none]
    iintro ⟨⟨Harr, ⟨%W, %hW, HO⟩, Htail⟩, -, -⟩
    imodintro
    isplitl [Harr]; · iexact Harr
    isplitr; · iempintro
    isplitl [HO]
    · iexists W
      isplitr
      · ipureintro
        intro p hp
        refine Or.inl ?_
        rw [hrec]
        exact hW p (Finset.mem_coe.mp hp)
      · rw [howed]; iexact HO
    isplitr; · iempintro
    iexact Htail
  hin := fun c => by
    beta_reduce
    rw [hΦ]
    iintro -; iempintro
  hout := fun c => by
    beta_reduce
    rw [hΦ, Pipeline.ownSems0_none (nD := nD) (τ := τ) (sig := sig) (Ix := HIx 1) (Val := Elt F) (Name := ℕ) (U := UU) (Lvl := ℕ) c]
    iintro -
    isplitr; · iempintro
    isplitr; · iempintro
    iapply (Entails.of_eq (scopedRest1_eq (Ix := HIx 1) (Val := Elt F) (Name := ℕ) (U := UU) (Lvl := ℕ) c).symm)
    iempintro
  hexit := fun c => by
    beta_reduce
    rw [tcSt_eq]
    iintro ⟨Harr, ⟨%W, %hW, HO⟩, -, Htail⟩
    imodintro
    isplitl [Harr]; · iexact Harr
    isplitl [HO]
    · iexists W
      isplitr
      · ipureintro
        intro p hp
        rcases hW (Finset.mem_coe.mpr hp) with h | ⟨w, s, rfl⟩
        · rw [hrec] at h; exact Nat.le_trans h (by decide)
        · exact Nat.zero_le _
      · rw [howed]; iexact HO
    iexact Htail

/-- The region's call line in @main. From the level facts, the region boundary, the windowed arrays at the proof
    data's entry contents, the region's ghost state and the TensorCore's handshake state after the SparseCore call,
    the call runs the pipeline — the body obligation at every grid point, the core owing nothing, its recorded pairs
    kept within the call's band — and the continuation resumes from the boundary, the arrays after every write-back
    and the same handshake state. -/
theorem region_call
    (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hq : ∀ c w, (dats c).q w = fullShare)
    (hΦ : ∀ c t, (dats c).Φ t = (BI.emp : sProp 𝕄))
    (lv : GSem nD τ sig → HIx 1 → ℕ) (hlv : (K (F := F)).Refines lv)
    (d : Dev nD) {α : Type} (k : PUnit → Prog (TpuEff nD τ sig (Elt F) (SparseCore.Sig (ΛP (F := F)) 1) .tc) α) (Q : α → sProp 𝕄) :
    iprop(levAts (K (F := F)).L lv ∗ boundary (T d) ∗ (dats d).arrays ((dats d).arrAt · 0) ∗ regionGhost d ∗ (K (F := F)).tcSt EH d 1
        ∗ (iprop(boundary (T d) ∗ (dats d).arrays ((dats d).arrAt · cfg1.N) ∗ (K (F := F)).tcSt EH d 1)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q := by
  classical
  rw [wp_bind]
  refine BIBase.Entails.trans ?_ ((K (F := F)).wp_liftProg D 𝒱 (T d) Set.univ none
    (Prog.op (.customCall (Pipeline.entry (0 : Fin 1)) ()) Prog.ret)
    (fun x => wp frame (wpE ((K (F := F)).defs D) 𝒱 (T d) none) Set.univ (k x) Q))
  refine BIBase.Entails.trans ?_ (Pipeline.RegionSeg.wp (pcfgs (F := F)) adm (pd dats) (none : HIx 1) cellOf_inj (EP : Emb UP 𝕄) defs₀ 𝒱₀
    (K (F := F)).L lv (regionSeg dats hbody howed hrec hΦ lv) d none (fun u h => nomatch h) Prog.ret _)
  unfold regionGhost
  rw [show (regionSeg dats hbody howed hrec hΦ lv).post d
        = iprop((dats d).arrays ((dats d).arrAt · cfg1.N) ∗ (K (F := F)).tcSt EH d 1) from rfl,
    show (regionSeg dats hbody howed hrec hΦ lv).pre d
        = iprop((dats d).arrays ((dats d).arrAt · 0) ∗ (K (F := F)).tcSt EH d 1) from rfl]
  iintro ⟨#Hla, Hbd, Harr, ⟨Hg, Ht⟩, Hst, Hk⟩
  isplitl [Hk]
  · iintro ⟨Hbd, Harr, Hst⟩
    rw [wp_ret]
    imodintro
    iapply Hk
    isplitl [Hbd]; · iexact Hbd
    isplitl [Harr]; · iexact Harr
    iexact Hst
  isplitl [Hbd]; · iexact Hbd
  isplitl [Harr Hst]
  · isplitl [Harr]; · iexact Harr
    iexact Hst
  isplitr; · iexact Hla
  isplitl [Hg]; · iexact Hg
  iexact Ht

/-- Every windowed array is held outright. -/
theorem share_full (dats : (c : Dev nD) → Pipeline.Dat τ (Elt F) (HIx 1) ℕ UU ℕ cfg1 c)
    (hq : ∀ c w, (dats c).q w = fullShare) (c : Dev nD) (w : Fin cfg1.W) : (dats c).share w = fullShare := by
  unfold Pipeline.Dat.share
  split
  · rfl
  · exact hq c w

/-- Before any write-back an array holds its entry contents. -/
theorem arrAt_zero (dats : (c : Dev nD) → Pipeline.Dat τ (Elt F) (HIx 1) ℕ UU ℕ cfg1 c) (d : Dev nD) (w : Fin cfg1.W) :
    (dats d).arrAt w 0 = (dats d).A w := rfl

/-- The four windowed arrays, one by one: the transposed input, the scattered weights, the bias column, the result. -/
theorem arrays_locs (dats : (c : Dev nD) → Pipeline.Dat τ (Elt F) (HIx 1) ℕ UU ℕ cfg1 c)
    (hq : ∀ c w, (dats c).q w = fullShare) (d : Dev nD)
    (Fc : (w : Fin cfg1.W) → Buf (Elt F) ((cfg1.win w).arr.view.loc (d.tc : Thread nD τ)))
    (x0 : Buf (Elt F) ((T d : Thread nD τ).loc main_v0)) (x1 : Buf (Elt F) ((T d : Thread nD τ).loc main_v20))
    (x2 : Buf (Elt F) ((T d : Thread nD τ).loc main_v21)) (x3 : Buf (Elt F) ((T d : Thread nD τ).loc main_v22))
    (h0 : Fc 0 = x0) (h1 : Fc 1 = x1) (h2 : Fc 2 = x2) (h3 : Fc 3 = x3) :
    ((dats d).arrays Fc : sProp 𝕄)
      = iprop(((T d : Thread nD τ).loc main_v0 ↦{fullShare} x0) ∗ ((T d : Thread nD τ).loc main_v20 ↦{fullShare} x1)
          ∗ ((T d : Thread nD τ).loc main_v21 ↦{fullShare} x2) ∗ ((T d : Thread nD τ).loc main_v22 ↦{fullShare} x3)) := by
  subst h0 h1 h2 h3
  rw [Pipeline.arrays_eq cfgs (fun (_ : Fin 1) c => dats c) 0 d arr_whole1 (share_full dats hq d) Fc, bigSep_W1]

/-- The region's call with the four arrays named: the transposed input, the weights and the bias column come back
    as they were, the result array at what the write-backs leave. -/
theorem region_call_locs
    (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hq : ∀ c w, (dats c).q w = fullShare)
    (hΦ : ∀ c t, (dats c).Φ t = (BI.emp : sProp 𝕄))
    (lv : GSem nD τ sig → HIx 1 → ℕ) (hlv : (K (F := F)).Refines lv)
    (d : Dev nD)
    (xt : Buf (Elt F) ((T d : Thread nD τ).loc main_v0)) (wd : Buf (Elt F) ((T d : Thread nD τ).loc main_v20))
    (b2 : Buf (Elt F) ((T d : Thread nD τ).loc main_v21)) (o0 o1 : Buf (Elt F) ((T d : Thread nD τ).loc main_v22))
    (hA0 : (dats d).A 0 = xt) (hA1 : (dats d).A 1 = wd) (hA2 : (dats d).A 2 = b2) (hA3 : (dats d).A 3 = o0)
    (hN0 : (dats d).arrAt 0 cfg1.N = xt) (hN1 : (dats d).arrAt 1 cfg1.N = wd) (hN2 : (dats d).arrAt 2 cfg1.N = b2)
    (hN3 : (dats d).arrAt 3 cfg1.N = o1)
    {α : Type} (k : PUnit → Prog (TpuEff nD τ sig (Elt F) (SparseCore.Sig (ΛP (F := F)) 1) .tc) α) (Q : α → sProp 𝕄) :
    iprop(levAts (K (F := F)).L lv ∗ boundary (T d)
        ∗ ((T d : Thread nD τ).loc main_v0 ↦{fullShare} xt) ∗ ((T d : Thread nD τ).loc main_v20 ↦{fullShare} wd)
        ∗ ((T d : Thread nD τ).loc main_v21 ↦{fullShare} b2) ∗ ((T d : Thread nD τ).loc main_v22 ↦{fullShare} o0)
        ∗ regionGhost d ∗ (K (F := F)).tcSt EH d 1
        ∗ (iprop(boundary (T d)
              ∗ ((T d : Thread nD τ).loc main_v0 ↦{fullShare} xt) ∗ ((T d : Thread nD τ).loc main_v20 ↦{fullShare} wd)
              ∗ ((T d : Thread nD τ).loc main_v21 ↦{fullShare} b2) ∗ ((T d : Thread nD τ).loc main_v22 ↦{fullShare} o1)
              ∗ (K (F := F)).tcSt EH d 1)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q := by
  have e0 := arrays_locs dats hq d ((dats d).arrAt · 0) xt wd b2 o0
    ((arrAt_zero dats d 0).trans hA0) ((arrAt_zero dats d 1).trans hA1) ((arrAt_zero dats d 2).trans hA2) ((arrAt_zero dats d 3).trans hA3)
  have eN := arrays_locs dats hq d ((dats d).arrAt · cfg1.N) xt wd b2 o1 hN0 hN1 hN2 hN3
  iintro ⟨#Hla, Hbd, H0, H1, H2, H3, Hg, Hst, Hk⟩
  iapply (region_call dats hbody howed hrec hq hΦ lv hlv d k Q)
  isplitr; · iexact Hla
  isplitl [Hbd]; · iexact Hbd
  isplitl [H0 H1 H2 H3]
  · iapply (Entails.of_eq e0.symm)
    isplitl [H0]; · iexact H0
    isplitl [H1]; · iexact H1
    isplitl [H2]; · iexact H2
    iexact H3
  isplitl [Hg]; · iexact Hg
  isplitl [Hst]; · iexact Hst
  iintro ⟨Hbd, Harr, Hst⟩
  ihave Harr' := (Entails.of_eq eN) $$ Harr
  icases Harr' with ⟨H0, H1, H2, H3⟩
  iapply Hk
  isplitl [Hbd]; · iexact Hbd
  isplitl [H0]; · iexact H0
  isplitl [H1]; · iexact H1
  isplitl [H2]; · iexact H2
  isplitl [H3]; · iexact H3
  iexact Hst

/-- The same, the inputs' final contents discharged: an input window never writes back, so its array ends as it
    began; only the result array's final contents are left to the value side. -/
theorem region_call_out
    (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hq : ∀ c w, (dats c).q w = fullShare)
    (hΦ : ∀ c t, (dats c).Φ t = (BI.emp : sProp 𝕄))
    (lv : GSem nD τ sig → HIx 1 → ℕ) (hlv : (K (F := F)).Refines lv)
    (d : Dev nD)
    (xt : Buf (Elt F) ((T d : Thread nD τ).loc main_v0)) (wd : Buf (Elt F) ((T d : Thread nD τ).loc main_v20))
    (b2 : Buf (Elt F) ((T d : Thread nD τ).loc main_v21)) (o0 o1 : Buf (Elt F) ((T d : Thread nD τ).loc main_v22))
    (hA0 : (dats d).A 0 = xt) (hA1 : (dats d).A 1 = wd) (hA2 : (dats d).A 2 = b2) (hA3 : (dats d).A 3 = o0)
    (hN3 : (dats d).arrAt 3 cfg1.N = o1)
    {α : Type} (k : PUnit → Prog (TpuEff nD τ sig (Elt F) (SparseCore.Sig (ΛP (F := F)) 1) .tc) α) (Q : α → sProp 𝕄) :
    iprop(levAts (K (F := F)).L lv ∗ boundary (T d)
        ∗ ((T d : Thread nD τ).loc main_v0 ↦{fullShare} xt) ∗ ((T d : Thread nD τ).loc main_v20 ↦{fullShare} wd)
        ∗ ((T d : Thread nD τ).loc main_v21 ↦{fullShare} b2) ∗ ((T d : Thread nD τ).loc main_v22 ↦{fullShare} o0)
        ∗ regionGhost d ∗ (K (F := F)).tcSt EH d 1
        ∗ (iprop(boundary (T d)
              ∗ ((T d : Thread nD τ).loc main_v0 ↦{fullShare} xt) ∗ ((T d : Thread nD τ).loc main_v20 ↦{fullShare} wd)
              ∗ ((T d : Thread nD τ).loc main_v21 ↦{fullShare} b2) ∗ ((T d : Thread nD τ).loc main_v22 ↦{fullShare} o1)
              ∗ (K (F := F)).tcSt EH d 1)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q :=
  region_call_locs dats hbody howed hrec hq hΦ lv hlv d xt wd b2 o0 o1 hA0 hA1 hA2 hA3
    (((dats d).arrAt_in 0 rfl cfg1.N).trans hA0) (((dats d).arrAt_in 1 rfl cfg1.N).trans hA1)
    (((dats d).arrAt_in 2 rfl cfg1.N).trans hA2) hN3 k Q

end Cert.Proof.KB

end
-- ==== Proof.KB.ConvSpec.lean ====
/-
  The convolution the TensorCore kernel computes, as pure functions of its operands' contents: what one grid
  point's body leaves in the output window's block (six output rows, each the canon of one covering store whose
  payload is a function of eight loaded input rows, the three weight planes and the bias column), and the whole
  output array assembled from those blocks.
-/
import proofs.«216126_g59949153517679_cont_9to1_m_442_25_alg».proof.Proof.KB.Common
import Idealize.ShloMosaic.Lib.Pipeline.FrameBody

noncomputable section

namespace Cert.Proof.KB

open Cert.Kernel Cert.Kernel.Gen
open Idealize.ShloMosaic

variable {F : FTy → Type} [FloatOps F]

/-! ## The body's rectangles -/

/-- Row `6 * (i 1) + r` of the input block: the rectangle of the body's `r`-th load of it. -/
abbrev rX (i : grid1.Coords) (r : Fin 8) : Rect S1x224x96x224 :=
  Rect.unit (s := S1x224x96x224) (k1_off1 i (BitVec.ofNat 32 r.val)) S1x1x96x224.size (k1_off1_inb i r)

/-- The three weight planes. -/
abbrev rW0 : Rect S3x192x288 := Rect.unit (s := S3x192x288) ![0, 0, 0] S1x192x288.size inb_S3x192x288_S1x192x288_0_0_0
abbrev rW1 : Rect S3x192x288 := Rect.unit (s := S3x192x288) ![1, 0, 0] S1x192x288.size inb_S3x192x288_S1x192x288_1_0_0
abbrev rW2 : Rect S3x192x288 := Rect.unit (s := S3x192x288) ![2, 0, 0] S1x192x288.size inb_S3x192x288_S1x192x288_2_0_0

/-- The bias column, whole. -/
abbrev rB : Rect S192x1 := Rect.unit (s := S192x1) ![0, 0] S192x1.size inb_S192x1_S192x1_0_0

/-- The six rows of the output block. -/
abbrev rO0 : Rect S1x6x192x222 := Rect.unit (s := S1x6x192x222) ![0, 0, 0, 0] S1x1x192x222.size inb_S1x6x192x222_S1x1x192x222_0_0_0_0
abbrev rO1 : Rect S1x6x192x222 := Rect.unit (s := S1x6x192x222) ![0, 1, 0, 0] S1x1x192x222.size inb_S1x6x192x222_S1x1x192x222_0_1_0_0
abbrev rO2 : Rect S1x6x192x222 := Rect.unit (s := S1x6x192x222) ![0, 2, 0, 0] S1x1x192x222.size inb_S1x6x192x222_S1x1x192x222_0_2_0_0
abbrev rO3 : Rect S1x6x192x222 := Rect.unit (s := S1x6x192x222) ![0, 3, 0, 0] S1x1x192x222.size inb_S1x6x192x222_S1x1x192x222_0_3_0_0
abbrev rO4 : Rect S1x6x192x222 := Rect.unit (s := S1x6x192x222) ![0, 4, 0, 0] S1x1x192x222.size inb_S1x6x192x222_S1x1x192x222_0_4_0_0
abbrev rO5 : Rect S1x6x192x222 := Rect.unit (s := S1x6x192x222) ![0, 5, 0, 0] S1x1x192x222.size inb_S1x6x192x222_S1x1x192x222_0_5_0_0

/-! ## The values the body carries from part to part, over the loaded rows -/

section Carried

variable (x0 x1 x2 x3 x4 x5 x6 x7 : Vec F S1x1x96x224 .f32) (w : Vec F S3x192x288 .bf16) (b2 : Vec F S192x1 .f32)

/-- The eight loaded input rows stacked and rounded to bf16. -/
def cv34 : FVec F S768x224 .bf16 :=
  k1_pay9 (k1_pay2 x0) (k1_pay3 x1) (k1_pay4 x2) (k1_pay5 x3) (k1_pay6 x4) (k1_pay7 x5) (k1_pay8 x6) x7

/-- Rows 1 to 3 of the stack, which the second output row reads. -/
def cv57 : FVec F S288x224 .bf16 :=
  k1_pay11 (k1_pay2 x0) (k1_pay3 x1) (k1_pay4 x2) (k1_pay5 x3) (k1_pay6 x4) (k1_pay7 x5) (k1_pay8 x6) x7

/-- Their product with the first weight plane. -/
def cv60 : FVec F S192x224 .f32 :=
  k1_pay12 (k1_pay2 x0) (k1_pay3 x1) (k1_pay4 x2) (k1_pay5 x3) (k1_pay6 x4) (k1_pay7 x5) (k1_pay8 x6) x7 (View.ld w rW0)

/-- The payloads of the six stores, in row order. -/
def cpay0 : FVec F S1x1x192x222 .f32 :=
  k1_pay10 (k1_pay2 x0) (k1_pay3 x1) (k1_pay4 x2) (k1_pay5 x3) (k1_pay6 x4) (k1_pay7 x5) (k1_pay8 x6) x7
    (View.ld w rW0) (View.ld w rW1) (View.ld w rW2) (View.ld b2 rB)
def cpay1 : FVec F S1x1x192x222 .f32 :=
  k1_pay13 (cv57 x0 x1 x2 x3 x4 x5 x6 x7) (cv60 x0 x1 x2 x3 x4 x5 x6 x7 w) (View.ld w rW1) (View.ld w rW2) (View.ld b2 rB)
def cpay2 : FVec F S1x1x192x222 .f32 :=
  k1_pay15 (k1_pay14 (cv34 x0 x1 x2 x3 x4 x5 x6 x7) (View.ld w rW0) (View.ld w rW1) (View.ld w rW2)) (View.ld b2 rB)
def cpay3 : FVec F S1x1x192x222 .f32 :=
  k1_pay16 (cv34 x0 x1 x2 x3 x4 x5 x6 x7) (View.ld w rW0) (View.ld w rW1) (View.ld w rW2) (View.ld b2 rB)
def cpay4 : FVec F S1x1x192x222 .f32 :=
  k1_pay19 (k1_pay17 (cv34 x0 x1 x2 x3 x4 x5 x6 x7)) (k1_pay18 (View.ld w rW0)) (View.ld w rW1) (View.ld w rW2) (View.ld b2 rB)
def cpay5 : FVec F S1x1x192x222 .f32 :=
  k1_pay1 (k1_pay21 (cv34 x0 x1 x2 x3 x4 x5 x6 x7) (View.ld w rW2))
    (k1_pay22 (cv34 x0 x1 x2 x3 x4 x5 x6 x7) (View.ld w rW0) (View.ld w rW1)) (View.ld b2 rB)

/-- The output block from the eight input rows the body loads, the weights and the bias: its six stores as
    pieces, last first. -/
def convBlockOf : Vec F S1x6x192x222 .f32 :=
  View.canon [⟨rO5, cpay5 x0 x1 x2 x3 x4 x5 x6 x7 w b2⟩, ⟨rO4, cpay4 x0 x1 x2 x3 x4 x5 x6 x7 w b2⟩,
    ⟨rO3, cpay3 x0 x1 x2 x3 x4 x5 x6 x7 w b2⟩, ⟨rO2, cpay2 x0 x1 x2 x3 x4 x5 x6 x7 w b2⟩,
    ⟨rO1, cpay1 x0 x1 x2 x3 x4 x5 x6 x7 w b2⟩, ⟨rO0, cpay0 x0 x1 x2 x3 x4 x5 x6 x7 w b2⟩]

end Carried

/-- What the body at grid point `i` leaves in the output window's block, the input windows' blocks reading `xb`,
    `w`, `b2`: the rows are rows `6 * (i 1) + r`, `r < 8`, of the input block. -/
def convBlockAt (i : grid1.Coords) (xb : Vec F S1x224x96x224 .f32) (w : Vec F S3x192x288 .bf16) (b2 : Vec F S192x1 .f32) :
    Vec F S1x6x192x222 .f32 :=
  convBlockOf (View.ld xb (rX i 0)) (View.ld xb (rX i 1)) (View.ld xb (rX i 2)) (View.ld xb (rX i 3))
    (View.ld xb (rX i 4)) (View.ld xb (rX i 5)) (View.ld xb (rX i 6)) (View.ld xb (rX i 7)) w b2

/-- The six stores tile the block, so they cover it. -/
theorem cover_convBlock (p5 p4 p3 p2 p1 p0 : Vec F S1x1x192x222 .f32) (y : S1x6x192x222.Idx) :
    ∃ pc ∈ ([⟨rO5, p5⟩, ⟨rO4, p4⟩, ⟨rO3, p3⟩, ⟨rO2, p2⟩, ⟨rO1, p1⟩, ⟨rO0, p0⟩] : List (View.Piece (Elt F) S1x6x192x222 .f32)), y ∈ pc.1.set :=
  View.cover_of_tiled [⟨rO5, p5⟩, ⟨rO4, p4⟩, ⟨rO3, p3⟩, ⟨rO2, p2⟩, ⟨rO1, p1⟩, ⟨rO0, p0⟩] S1x1x192x222.size (by rfl) y

/-! ## The block at a row index, and the whole output -/

/-- A grid point of second coordinate `ii` (the body reads no other coordinate). -/
def ptOf (ii : Fin 37) : grid1.Coords := fun | 0 => (0 : Fin 2) | 1 => ii | ⟨_ + 2, h⟩ => absurd h (Nat.not_lt.2 (Nat.le_add_left _ _))

/-- The body's input-row offsets read the second coordinate only. -/
theorem k1_off1_congr (i i' : grid1.Coords) (h : i 1 = i' 1) (r : BitVec 32) : k1_off1 i r = k1_off1 i' r := by
  unfold k1_off1; rw [h]

/-- The output block the body leaves at a point of second coordinate `ii`. -/
def convBlock (xb : FVec F S1x224x96x224 .f32) (w : FVec F S3x192x288 .bf16) (b2 : FVec F S192x1 .f32) (ii : Fin 37) :
    FVec F S1x6x192x222 .f32 :=
  convBlockAt (ptOf ii) xb w b2

/-- A load through a unit rectangle reads the offsets only. -/
theorem ld_unit_congr (xb : Vec F S1x224x96x224 .f32) (o o' : Fin 4 → Nat) (h : o = o')
    (p : ∀ a, o a + S1x1x96x224.size a ≤ S1x224x96x224.size a) (p' : ∀ a, o' a + S1x1x96x224.size a ≤ S1x224x96x224.size a) :
    (View.ld xb (Rect.unit (s := S1x224x96x224) o S1x1x96x224.size p) : Vec F S1x1x96x224 .f32)
      = View.ld xb (Rect.unit (s := S1x224x96x224) o' S1x1x96x224.size p') := by
  subst h; rfl

theorem ld_rX_congr (xb : Vec F S1x224x96x224 .f32) (i i' : grid1.Coords) (h : i 1 = i' 1) (r : Fin 8) :
    (View.ld xb (rX i r) : Vec F S1x1x96x224 .f32) = View.ld xb (rX i' r) :=
  ld_unit_congr xb _ _ (k1_off1_congr i i' h _) _ _

theorem convBlockAt_eq (i : grid1.Coords) (xb : FVec F S1x224x96x224 .f32) (w : FVec F S3x192x288 .bf16) (b2 : FVec F S192x1 .f32) :
    convBlockAt i xb w b2 = convBlock xb w b2 (i 1) := by
  have e : ∀ r, (View.ld xb (rX i r) : Vec F S1x1x96x224 .f32) = View.ld xb (rX (ptOf (i 1)) r) :=
    fun r => ld_rX_congr xb i (ptOf (i 1)) rfl r
  unfold convBlock convBlockAt
  rw [e 0, e 1, e 2, e 3, e 4, e 5, e 6, e 7]

/-- Batch `b` of the input array, as a block. -/
def xBlock (xt : FVec F S2x224x96x224 .f32) (b : Fin 2) : FVec F S1x224x96x224 .f32 :=
  fun x => xt fun | 0 => b | 1 => x 1 | 2 => x 2 | 3 => x 3 | ⟨_ + 4, h⟩ => absurd h (Nat.not_lt.2 (Nat.le_add_left _ _))

/-- The whole output: at `(b, h, f, j)`, row `h % 6` of the block of batch `b` at row index `h / 6`. -/
def convOut (xt : FVec F S2x224x96x224 .f32) (w : FVec F S3x192x288 .bf16) (b2 : FVec F S192x1 .f32) :
    FVec F S2x222x192x222 .f32 :=
  fun y => convBlock (xBlock xt (y 0)) w b2 ⟨(y 1).val / 6, by have := (y 1).isLt; change (y 1).val < 222 at this; omega⟩
    fun | 0 => (0 : Fin 1) | 1 => (⟨(y 1).val % 6, Nat.mod_lt _ (by decide)⟩ : Fin 6) | 2 => y 2 | 3 => y 3 | ⟨_ + 4, h⟩ => absurd h (Nat.not_lt.2 (Nat.le_add_left _ _))

end Cert.Proof.KB

end
-- ==== Proof.KB.Body.lean ====
/-
  The TensorCore kernel's body at a symbolic grid point, and the pipeline's proof data: what each window's staging
  buffer holds after the body (an input's its block, the output's the block of the convolution of the staged input
  blocks), the body's triple, and the pipeline rule's body obligation at every point.
-/
import proofs.«216126_g59949153517679_cont_9to1_m_442_25_alg».proof.Proof.KB.ConvSpec
import Idealize.ShloMosaic.Lib.Pipeline.FrameBody
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The windows' blocks -/

/-- The contents of the pipeline's four arrays on core `c`. -/
abbrev Arrs (c : Dev nD) : Type := (w : Fin cfg1.W) → Buf (Elt F) ((cfg1.win w).arr.view.loc (c.tc : Thread nD τ))

/-- Window `w`'s block at point `t`, read off its array at contents `A w`. -/
def iblk (c : Dev nD) (A : Arrs (F := F) c) (w : Fin cfg1.W) (t : Fin cfg1.N) :
    ((cfg1.win w).xblock (cfg1.grid.coords t)).Idx → Elt F (cfg1.win w).elt :=
  ((cfg1.win w).blk t).view.read (Elt F) (A w)

/-! ## The pipeline's proof data -/

/-- The proof data of the pipeline on core `c`, the arrays entered at `A`: after the body at point `t` each
    input's buffer at its block and the output's at the convolution block of the input blocks; the invariant a
    constant `Φ₀`, the tallies owed a constant `O` and the bound on the recorded pairs a constant `R`, all three
    the region's to choose (the body reads none of them). -/
def dats (c : Dev nD) (A : Arrs (F := F) c) (Φ₀ : sProp 𝕄) (O : CellTallies nD τ sig (HIx 1)) (R : Set (SemLoc sig × HIx 1)) :
    Dat τ (Elt F) (HIx 1) ℕ UU ℕ cfg1 c where
  A := A
  after w t := match w with
    | ⟨0, _⟩ => iblk c A 0 t
    | ⟨1, _⟩ => iblk c A 1 t
    | ⟨2, _⟩ => iblk c A 2 t
    | ⟨3, _⟩ => convBlock (iblk c A 0 t) (iblk c A 1 t) (iblk c A 2 t) ((grid1.coords t) 1)
  Φ _ := Φ₀
  q _ := fullShare
  owed _ := O
  recorded _ := R

theorem A_eq (c : Dev nD) (A : Arrs (F := F) c) (Φ₀ : sProp 𝕄) (O : CellTallies nD τ sig (HIx 1)) (R : Set (SemLoc sig × HIx 1)) (w : Fin cfg1.W) : (dats c A Φ₀ O R).A w = A w := by dsimp only [dats]
theorem after1_0 (c : Dev nD) (A : Arrs (F := F) c) (Φ₀ : sProp 𝕄) (O : CellTallies nD τ sig (HIx 1)) (R : Set (SemLoc sig × HIx 1)) (t : Fin cfg1.N) : (dats c A Φ₀ O R).after 0 t = iblk c A 0 t := by dsimp only [dats]
theorem after1_1 (c : Dev nD) (A : Arrs (F := F) c) (Φ₀ : sProp 𝕄) (O : CellTallies nD τ sig (HIx 1)) (R : Set (SemLoc sig × HIx 1)) (t : Fin cfg1.N) : (dats c A Φ₀ O R).after 1 t = iblk c A 1 t := by dsimp only [dats]
theorem after1_2 (c : Dev nD) (A : Arrs (F := F) c) (Φ₀ : sProp 𝕄) (O : CellTallies nD τ sig (HIx 1)) (R : Set (SemLoc sig × HIx 1)) (t : Fin cfg1.N) : (dats c A Φ₀ O R).after 2 t = iblk c A 2 t := by dsimp only [dats]
theorem after1_3 (c : Dev nD) (A : Arrs (F := F) c) (Φ₀ : sProp 𝕄) (O : CellTallies nD τ sig (HIx 1)) (R : Set (SemLoc sig × HIx 1)) (t : Fin cfg1.N) : (dats c A Φ₀ O R).after 3 t
    = convBlock (iblk c A 0 t) (iblk c A 1 t) (iblk c A 2 t) ((grid1.coords t) 1) := by dsimp only [dats]

/-! ## What the body finds in the inputs' buffers -/

/-- Input window 0's current staging buffer holds its block at every point, fetched there or not: an unfetched
    point has the block index of the point before, and the body leaves the block in place. -/
theorem before1_0 (c : Dev nD) (A : Arrs (F := F) c) (Φ₀ : sProp 𝕄) (O : CellTallies nD τ sig (HIx 1)) (R : Set (SemLoc sig × HIx 1)) (t : Fin cfg1.N) (d) : (dats c A Φ₀ O R).before 0 t d = iblk c A 0 t :=
  ((dats c A Φ₀ O R).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (c : Dev nD) (A : Arrs (F := F) c) (Φ₀ : sProp 𝕄) (O : CellTallies nD τ sig (HIx 1)) (R : Set (SemLoc sig × HIx 1)) (t : Fin cfg1.N) (d) : (dats c A Φ₀ O R).before 1 t d = iblk c A 1 t :=
  ((dats c A Φ₀ O R).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
theorem before1_2 (c : Dev nD) (A : Arrs (F := F) c) (Φ₀ : sProp 𝕄) (O : CellTallies nD τ sig (HIx 1)) (R : Set (SemLoc sig × HIx 1)) (t : Fin cfg1.N) (d) : (dats c A Φ₀ O R).before 2 t d = iblk c A 2 t :=
  ((dats c A Φ₀ O R).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)

/-! ## The body's triple -/

set_option maxHeartbeats 4000000 in
/-- The kernel body at grid point `i` on whole staging memrefs, the inputs' at read contents and the output's at
    anything, runs to the continuation holding the inputs' as they were and the output's at the convolution block:
    the body is its sequence of memory operations over the named payloads, run part by part. -/
theorem sound_kernel (c : Dev nD) (E : Set ℕ) (i : grid1.Coords)
    (arg2 : Memref sig .tc .vmem S1x224x96x224 .f32) (harg2 : arg2.IsWhole) (arg3 : Memref sig .tc .vmem S3x192x288 .bf16) (harg3 : arg3.IsWhole)
    (arg4 : Memref sig .tc .vmem S192x1 .f32) (harg4 : arg4.IsWhole) (arg5 : Memref sig .tc .vmem S1x6x192x222 .f32) (harg5 : arg5.IsWhole)
    (xb : Vec F S1x224x96x224 .f32) (w : Vec F S3x192x288 .bf16) (b2 : Vec F S192x1 .f32) (K : PUnit → sProp 𝕄) :
    iprop(owns (c : Thread nD τ) arg2 fullShare xb ∗ owns (c : Thread nD τ) arg3 fullShare w ∗ owns (c : Thread nD τ) arg4 fullShare b2
        ∗ (∃ d, owns (c : Thread nD τ) arg5 fullShare d)
        ∗ (iprop(owns (c : Thread nD τ) arg2 fullShare xb ∗ owns (c : Thread nD τ) arg3 fullShare w ∗ owns (c : Thread nD τ) arg4 fullShare b2
            ∗ owns (c : Thread nD τ) arg5 fullShare (convBlockAt i xb w b2)) -∗ K ⟨⟩))
      ⊢ wp frame (wpE (defs₀ (F := F)) Variants.none c none) E (cc1_body i arg2 harg2 arg3 harg3 arg4 harg4 arg5 harg5) K := by
  simp only [cc1_body_eq_skeleton]; unfold cc1_body_skel
  unfold owns
  iintro ⟨⟨%f0, %hf0, H0⟩, ⟨%f1, %hf1, H1⟩, ⟨%f2, %hf2, H2⟩, ⟨%d3, %f3, -, H3⟩, Hk⟩
  subst hf0 hf1 hf2
  -- the five parts and the tail, each part a theorem of its own
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the six stores cover the block, so the buffer reads their canon
  exact View.read_writes_eq_canon _ _ _ (cover_convBlock _ _ _ _ _ _)

/-! ## The body obligation -/

/-- The body at any point: the inputs' memrefs hold their blocks, so the triple applies; the invariant and the core's
    `owes` pass through unread. -/
theorem body_obligation (c : Dev nD) (A : Arrs (F := F) c) (Φ₀ : sProp 𝕄) (O : CellTallies nD τ sig (HIx 1)) (R : Set (SemLoc sig × HIx 1)) (ι : HIx 1) :
    BodyObligation (dats c A Φ₀ O R) (defs₀ (F := F)) 𝒱₀ ι Set.univ := fun t => by
  rw [bigSep_W1, bigSep_W1]
  show iprop(Φ₀ ∗ (dats c A Φ₀ O R).owesAt ι t.castSucc
      ∗ (∃ d, owns (c : Thread nD τ) (st1_0 t) fullShare ((dats c A Φ₀ O R).before 0 t d))
      ∗ (∃ d, owns (c : Thread nD τ) (st1_1 t) fullShare ((dats c A Φ₀ O R).before 1 t d))
      ∗ (∃ d, owns (c : Thread nD τ) (st1_2 t) fullShare ((dats c A Φ₀ O R).before 2 t d))
      ∗ (∃ d, owns (c : Thread nD τ) (st1_3 t) fullShare ((dats c A Φ₀ O R).before 3 t d)))
    ⊢ wp frame (wpE (defs₀ (F := F)) Variants.none c none) Set.univ (bodyAt1 t) (fun _ =>
      iprop(Φ₀ ∗ (dats c A Φ₀ O R).owesAt ι t.castSucc
        ∗ owns (c : Thread nD τ) (st1_0 t) fullShare ((dats c A Φ₀ O R).after 0 t)
        ∗ owns (c : Thread nD τ) (st1_1 t) fullShare ((dats c A Φ₀ O R).after 1 t)
        ∗ owns (c : Thread nD τ) (st1_2 t) fullShare ((dats c A Φ₀ O R).after 2 t)
        ∗ owns (c : Thread nD τ) (st1_3 t) fullShare ((dats c A Φ₀ O R).after 3 t)))
  simp only [before1_0, before1_1, before1_2]
  rw [after1_0, after1_1, after1_2, after1_3, ← convBlockAt_eq]
  iintro ⟨HΦ, Ho, ⟨%d0, H0⟩, ⟨%d1, H1⟩, ⟨%d2, H2⟩, ⟨%d3, H3⟩⟩
  iapply (sound_kernel c Set.univ (grid1.coords t) _ _ _ _ _ _ _ _ (iblk c A 0 t) (iblk c A 1 t) (iblk c A 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Proof.KB

end
-- ==== Proof.KB.BodyArr.lean ====
/-
  The pipeline's arrays after the region: each input array as the region found it (no point writes it back), and
  the output array the whole convolution of the inputs, its 74 blocks written back one by one covering it.
-/
import proofs.«216126_g59949153517679_cont_9to1_m_442_25_alg».proof.Proof.KB.Body
import Idealize.ShloMosaic.Lib.Pipeline.Value

set_option maxRecDepth 16384

noncomputable section

namespace Cert.Proof.KB

open Cert.Kernel Cert.Kernel.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

/-! ## The index maps and the grid in closed form -/

theorem tr0_eq : ∀ i : grid1.Coords, cc1_transform_0 i = ![(i 0).val, 0, 0, 0] := by decide +kernel
theorem tr1_eq : ∀ i : grid1.Coords, cc1_transform_1 i = ![0, 0, 0] := by decide +kernel
theorem tr2_eq : ∀ i : grid1.Coords, cc1_transform_2 i = ![0, 0] := by decide +kernel
theorem tr3_eq : ∀ i : grid1.Coords, cc1_transform_3 i = ![(i 0).val, (i 1).val, 0, 0] := by decide +kernel
theorem stride1_0 : grid1.stride 0 = 37 := by decide
theorem stride1_1 : grid1.stride 1 = 1 := by decide

/-! ## The input arrays -/

theorem arrAt_in0 (c : Dev nD) (A : Arrs (F := F) c) (Φ₀ : sProp 𝕄) (O : CellTallies nD τ sig (HIx 1)) (R : Set (SemLoc sig × HIx 1)) (n : Nat) : (dats c A Φ₀ O R).arrAt 0 n = A 0 :=
  ((dats c A Φ₀ O R).arrAt_in 0 rfl n).trans (A_eq c A Φ₀ O R 0)
theorem arrAt_in1 (c : Dev nD) (A : Arrs (F := F) c) (Φ₀ : sProp 𝕄) (O : CellTallies nD τ sig (HIx 1)) (R : Set (SemLoc sig × HIx 1)) (n : Nat) : (dats c A Φ₀ O R).arrAt 1 n = A 1 :=
  ((dats c A Φ₀ O R).arrAt_in 1 rfl n).trans (A_eq c A Φ₀ O R 1)
theorem arrAt_in2 (c : Dev nD) (A : Arrs (F := F) c) (Φ₀ : sProp 𝕄) (O : CellTallies nD τ sig (HIx 1)) (R : Set (SemLoc sig × HIx 1)) (n : Nat) : (dats c A Φ₀ O R).arrAt 2 n = A 2 :=
  ((dats c A Φ₀ O R).arrAt_in 2 rfl n).trans (A_eq c A Φ₀ O R 2)

/-! ## The input blocks -/

/-- The input window's block at a point is the batch of its first coordinate. -/
theorem iblk0_eq (c : Dev nD) (A : Arrs (F := F) c) (t : Fin cfg1.N) : iblk c A 0 t = xBlock (A 0) ((grid1.coords t) 0) := by
  funext z
  show A 0 (((cfg1.win 0).rect t).emb z) = A 0 _
  congr 1
  have h0 : (z 0).val = 0 := by have := (z 0).isLt; change (z 0).val < 1 at this; omega
  have key : ∀ a, ((((cfg1.win 0).rect t).emb z) a).val = cc1_transform_0 (grid1.coords t) a * S1x224x96x224.size a + 1 * (z a).val := fun a => rfl
  funext a
  apply Fin.ext
  rw [key, tr0_eq]
  fin_cases a
  · show (grid1.coords t 0).val * 1 + 1 * (z 0).val = (grid1.coords t 0).val; omega
  · show 0 * 224 + 1 * (z 1).val = (z 1).val; omega
  · show 0 * 96 + 1 * (z 2).val = (z 2).val; omega
  · show 0 * 224 + 1 * (z 3).val = (z 3).val; omega

/-- The weights' and the bias's windows are their whole arrays. -/
theorem iblk1_eq (c : Dev nD) (A : Arrs (F := F) c) (t : Fin cfg1.N) : iblk c A 1 t = A 1 := by
  funext z
  show A 1 (((cfg1.win 1).rect t).emb z) = A 1 z
  congr 1
  have key : ∀ a, ((((cfg1.win 1).rect t).emb z) a).val = cc1_transform_1 (grid1.coords t) a * S3x192x288.size a + 1 * (z a).val := fun a => rfl
  funext a
  apply Fin.ext
  rw [key, tr1_eq]
  fin_cases a
  · show 0 * 3 + 1 * (z 0).val = (z 0).val; omega
  · show 0 * 192 + 1 * (z 1).val = (z 1).val; omega
  · show 0 * 288 + 1 * (z 2).val = (z 2).val; omega
theorem iblk2_eq (c : Dev nD) (A : Arrs (F := F) c) (t : Fin cfg1.N) : iblk c A 2 t = A 2 := by
  funext z
  show A 2 (((cfg1.win 2).rect t).emb z) = A 2 z
  congr 1
  have key : ∀ a, ((((cfg1.win 2).rect t).emb z) a).val = cc1_transform_2 (grid1.coords t) a * S192x1.size a + 1 * (z a).val := fun a => rfl
  funext a
  apply Fin.ext
  rw [key, tr2_eq]
  fin_cases a
  · show 0 * 192 + 1 * (z 0).val = (z 0).val; omega
  · show 0 * 1 + 1 * (z 1).val = (z 1).val; omega

/-! ## The output array -/

/-- The whole output at an index of the block of batch `b` and row index `ii` is that block there. -/
theorem convOut_apply_of (xt : FVec F S2x224x96x224 .f32) (w : FVec F S3x192x288 .bf16) (b2 : FVec F S192x1 .f32)
    (y : S2x222x192x222.Idx) (b : Fin 2) (ii : Fin 37) (x : S1x6x192x222.Idx)
    (h0 : (y 0).val = b.val) (h1 : (y 1).val = 6 * ii.val + (x 1).val) (h2 : (y 2).val = (x 2).val) (h3 : (y 3).val = (x 3).val) :
    convOut xt w b2 y = convBlock (xBlock xt b) w b2 ii x := by
  have hx0 : (x 0).val = 0 := by have := (x 0).isLt; change (x 0).val < 1 at this; omega
  have hx1 : (x 1).val < 6 := (x 1).isLt
  have e0 : y 0 = b := Fin.ext h0
  have hy1 : (y 1).val / 6 < 37 := by omega
  have e1 : (⟨(y 1).val / 6, hy1⟩ : Fin 37) = ii := Fin.ext (by show (y 1).val / 6 = ii.val; omega)
  show convBlock (xBlock xt (y 0)) w b2 ⟨(y 1).val / 6, _⟩ _ = _
  rw [e0]
  refine congrArg₂ (fun (k : Fin 37) (z : S1x6x192x222.Idx) => convBlock (xBlock xt b) w b2 k z) e1 ?_
  funext a
  apply Fin.ext
  fin_cases a
  · show 0 = (x 0).val; omega
  · show (y 1).val % 6 = (x 1).val; omega
  · exact h2
  · exact h3

/-- Every pair of coordinates is a point's. -/
theorem exists_point (b : Fin 2) (ii : Fin 37) :
    ∃ t : Fin cfg1.N, (grid1.coords t 0).val = b.val ∧ (grid1.coords t 1).val = ii.val := by
  have hb := b.isLt
  have hi := ii.isLt
  refine ⟨⟨37 * b.val + ii.val, lt_of_lt_of_eq (by omega : _ < 74) N_1.symm⟩, ?_, ?_⟩
  · show (37 * b.val + ii.val) / grid1.stride 0 % 2 = _
    rw [stride1_0]; omega
  · show (37 * b.val + ii.val) / grid1.stride 1 % 37 = _
    rw [stride1_1]; omega

/-- An index of the output block from its row, feature and column. -/
def rowIdx (r : Fin 6) (f : Fin 192) (j : Fin 222) : S1x6x192x222.Idx :=
  fun | 0 => (0 : Fin 1) | 1 => r | 2 => f | 3 => j | ⟨_ + 4, h⟩ => absurd h (Nat.not_lt.2 (Nat.le_add_left _ _))

/-- Where an element of the output block at point `t` sits in the output array. -/
theorem emb3_val (t : Fin cfg1.N) (x : S1x6x192x222.Idx) (a : Fin 4) :
    ((((cfg1.win 3).blk t).view.emb x) a).val = cc1_transform_3 (grid1.coords t) a * S1x6x192x222.size a + 1 * (x a).val := rfl

/-- An index of the output array lies in the block of the point of its batch and row index. -/
theorem mem_blk3 (i : S2x222x192x222.Idx) (t : Fin cfg1.N) (hc0 : (grid1.coords t 0).val = (i 0).val)
    (hc1 : (grid1.coords t 1).val = (i 1).val / 6) : i ∈ ((cfg1.win 3).blk t).view.set := by
  have hm : (i 1).val % 6 < 6 := Nat.mod_lt _ (by decide)
  have hx : ∀ a : Fin 4, ((((cfg1.win 3).blk t).view.emb (rowIdx ⟨(i 1).val % 6, hm⟩ (i 2) (i 3))) a).val = (i a).val := by
    intro a
    rw [emb3_val, tr3_eq]
    fin_cases a
    · show (grid1.coords t 0).val * 1 + 1 * 0 = (i 0).val; omega
    · show (grid1.coords t 1).val * 6 + 1 * ((i 1).val % 6) = (i 1).val; omega
    · show 0 * 192 + 1 * (i 2).val = (i 2).val; omega
    · show 0 * 222 + 1 * (i 3).val = (i 3).val; omega
  have hx' : ((cfg1.win 3).blk t).view.emb (rowIdx ⟨(i 1).val % 6, hm⟩ (i 2) (i 3)) = i := funext fun a => Fin.ext (hx a)
  rw [← hx']
  exact View.emb_mem_set _ _

/-- What the write-back at point `t` writes is block `t` of the whole output. -/
theorem flushed_eq (xt : FVec F S2x224x96x224 .f32) (w : FVec F S3x192x288 .bf16) (b2 : FVec F S192x1 .f32) (t : Fin cfg1.N) :
    (cfg1.win 3).cut (cfg1.grid.coords t) (convBlock (xBlock xt ((grid1.coords t) 0)) w b2 ((grid1.coords t) 1))
      = ((cfg1.win 3).blk t).view.read (Elt F) (convOut xt w b2 : S2x222x192x222.Idx → F .f32) := by
  funext x
  rw [View.read_apply]
  have key : ∀ a : Fin 4, ((((cfg1.win 3).blk t).view.emb x) a).val
      = cc1_transform_3 (grid1.coords t) a * S1x6x192x222.size a + 1 * (x a).val := fun a => rfl
  have hx0 : (x 0).val = 0 := by have := (x 0).isLt; change (x 0).val < 1 at this; omega
  refine ((convOut_apply_of xt w b2 (((cfg1.win 3).blk t).view.emb x) ((grid1.coords t) 0) ((grid1.coords t) 1)
    ((cfg1.win 3).xinj (cfg1.grid.coords t) x) ?_ ?_ ?_ ?_).symm.trans (cast_eq _ _).symm)
  · rw [key, tr3_eq]; show (grid1.coords t 0).val * 1 + 1 * (x 0).val = _; omega
  · rw [key, tr3_eq]; show (grid1.coords t 1).val * 6 + 1 * (x 1).val = 6 * (grid1.coords t 1).val + (x 1).val; omega
  · rw [key, tr3_eq]; show 0 * 192 + 1 * (x 2).val = (x 2).val; omega
  · rw [key, tr3_eq]; show 0 * 222 + 1 * (x 3).val = (x 3).val; omega

/-- The output array after the region is the whole convolution of the input arrays: every point writes its block
    back, each block that of the whole output, and the 74 blocks cover the array. -/
theorem arrAt_out (c : Dev nD) (A : Arrs (F := F) c) (Φ₀ : sProp 𝕄) (O : CellTallies nD τ sig (HIx 1)) (R : Set (SemLoc sig × HIx 1)) :
    (dats c A Φ₀ O R).arrAt 3 cfg1.N = (convOut (A 0) (A 1) (A 2) : S2x222x192x222.Idx → F .f32) := by
  refine (dats c A Φ₀ O R).arrAt_eq_of_cover 3 _ (fun t _ => ?_) (fun i => ?_)
  · unfold Dat.flushed
    rw [after1_3, iblk0_eq, iblk1_eq, iblk2_eq]
    exact flushed_eq (A 0) (A 1) (A 2) t
  · obtain ⟨t, hc0, hc1⟩ := exists_point (i 0) ⟨(i 1).val / 6, by have := (i 1).isLt; change (i 1).val < 222 at this; omega⟩
    exact ⟨t, flush1_3 t, mem_blk3 i t hc0 hc1⟩

end Cert.Proof.KB

end
-- ==== Proof.KB.HostSpec.lean ====
/-
  What @main's host operations compute, as pure functions of the arguments' contents: the flat positions and the
  padded values the scatter is given, the transposed input, the scattered weights rounded to bf16 and cut into
  three planes, the bias as a column, and the result as the composite of all of it.
-/
import proofs.«216126_g59949153517679_cont_9to1_m_442_25_alg».proof.Proof.KB.ScSpec
import proofs.«216126_g59949153517679_cont_9to1_m_442_25_alg».proof.Proof.KB.ConvSpec

noncomputable section

namespace Cert.Proof.KB

open Cert.Kernel Cert.Kernel.Gen
open Idealize.ShloMosaic

variable {F : FTy → Type} [FloatOps F]

/-! ## What the host arithmetic computes, as pure functions of the arguments -/

/-- A scalar spread over the 1658 entries. -/
abbrev spread {α : Type} (x : S_.Idx → α) : S1658.Idx → α := broadcastInDim S1658 ![] bcast_S_S1658 x

/-- `@floor_divide`: the quotient rounded toward minus infinity — the truncated quotient, less one where the signs
    differ and the remainder is not zero. -/
def floorDivV (a : IVec S1658 32) (c : IVec S_ 32) : IVec S1658 32 :=
  select (andi (cmpi .ne (signi a) (spread (signi c))) (cmpi .ne (Host.remsi a (spread c)) (spread (constantI S_ 32 0#32))))
    (subi (Host.divsi a (spread c)) (spread (constantI S_ 32 1#32))) (Host.divsi a (spread c))

/-- The divisor `@remainder` uses: one in place of zero. -/
def remDiv (c : IVec S_ 32) : IVec S_ 32 := select (cmpi .eq c (constantI S_ 32 0#32)) (constantI S_ 32 1#32) c

/-- `@remainder`: the remainder with the divisor's sign — the truncated remainder, plus the divisor where it is not zero
    and its sign differs from the divisor's. -/
def remV (a : IVec S1658 32) (c : IVec S_ 32) : IVec S1658 32 :=
  select (andi (cmpi .ne (cmpi .slt (Host.remsi a (spread (remDiv c))) (spread (constantI S_ 32 0#32)))
                  (spread (cmpi .slt (remDiv c) (constantI S_ 32 0#32))))
            (cmpi .ne (Host.remsi a (spread (remDiv c))) (spread (constantI S_ 32 0#32))))
    (addi (Host.remsi a (spread (remDiv c))) (spread (remDiv c))) (Host.remsi a (spread (remDiv c)))

/-- The flat position of entry `j`, before padding: with `q = row ÷ 96` (floored),
    `((q mod 3) · 192 + col) · 288 + (q ÷ 3) · 96 + row mod 96`. -/
def flatCore (row col : IVec S1658 32) : IVec S1658 32 :=
  addi (addi (muli (addi (muli (remV (floorDivV row (constantI S_ 32 96#32)) (constantI S_ 32 3#32)) (spread (constantI S_ 32 192#32))) col)
                (spread (constantI S_ 32 288#32)))
          (muli (floorDivV (floorDivV row (constantI S_ 32 96#32)) (constantI S_ 32 3#32)) (spread (constantI S_ 32 96#32))))
    (remV row (constantI S_ 32 96#32))

/-- The flat positions, padded to 1664 entries with the out-of-range position 165888. -/
def flatOf (row col : IVec S1658 32) : IVec S1664 32 :=
  concatenate S1664 0 [⟨S1658, flatCore row col⟩, ⟨S6, broadcastInDim S6 ![] bcast_S_S6 (constantI S_ 32 165888#32)⟩] concatenates_S1658_S6_S1664_d0

/-- The values, padded to 1664 entries with zeros. -/
def valsOf (kv : FVec F S1658 .f32) : FVec F S1664 .f32 :=
  concatenate S1664 0 [⟨S1658, kv⟩, ⟨S6, broadcastInDim S6 ![] bcast_S_S6 (constant (F := F) S_ .f32 0x00000000#32)⟩] concatenates_S1658_S6_S1664_d0

/-! ## The operands of the TensorCore kernel, and the result -/

/-- The input with its two minor dimensions exchanged. -/
def xOf (x : FVec F S2x224x224x96 .f32) : FVec F S2x224x96x224 .f32 :=
  transpose S2x224x96x224 [0, 1, 3, 2] x transposes_S2x224x224x96_S2x224x96x224_0_1_3_2

/-- The scattered weights as three planes of 192 by 288, rounded to bf16. -/
def wOf (sc : FVec F S165888 .f32) : FVec F S3x192x288 .bf16 :=
  truncf .bf16 (shapeCast S3x192x288 sc shapeCasts_S165888_S3x192x288) bitsLt_bf16_f32

/-- The bias as a column. -/
def bOf (b : FVec F S192 .f32) : FVec F S192x1 .f32 := shapeCast S192x1 b shapeCasts_S192_S192x1

/-- The kernel's output with its two minor dimensions exchanged back. -/
def yOf (y : FVec F S2x222x192x222 .f32) : FVec F S2x222x222x192 .f32 :=
  transpose S2x222x222x192 [0, 1, 3, 2] y transposes_S2x222x192x222_S2x222x222x192_0_1_3_2

/-- The program's result from its five arguments: the input, the values, the bias, the rows and the columns. -/
def OUT (x : FVec F S2x224x224x96 .f32) (kv : FVec F S1658 .f32) (b : FVec F S192 .f32) (row col : IVec S1658 32) :
    FVec F S2x222x222x192 .f32 :=
  yOf (convOut (xOf x) (wOf (scOut (flatOf row col) (valsOf kv))) (bOf b))

end Cert.Proof.KB

end
-- ==== Proof.KB.Host.lean ====
/-
  @main's host operations on the TensorCore: the three straight lines (before the SparseCore call, between the two
  calls, after the TensorCore kernel) as lists of operations, @main as their sequence around the two calls, the
  rule that runs each line over the TensorCore's unscoped buffers held whole, and what each line leaves in the
  buffers the calls and the claim read, as the pure functions of the arguments stated beside the program.
-/
import proofs.«216126_g59949153517679_cont_9to1_m_442_25_alg».proof.Proof.KB.Common
import proofs.«216126_g59949153517679_cont_9to1_m_442_25_alg».proof.Proof.KB.HostSpec
import Idealize.ShloMosaic.Lib.Pipeline.Regions
import Idealize.ShloMosaic.Lib.Pipeline.Frame

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Pipeline (chain chain_cons chain_nil ucRefs unscopedBufs_held sub_ucRefs)

variable {F : FTy → Type} [FloatOps F]

local notation "𝕄" => MT nD τ sig (HIx 1) (Elt F) ℕ UU ℕ

/-! ## The host operations of @main, as lists

Each module-local function's body is a list of operations over its arguments and the buffers of one call;
@main's stretches between the calls are lists over @main's own buffers. -/

/-- `@_where`: one select. -/
def whereOps (arg0 : StableHlo.TRef sig ⟨S1658, .i1⟩) (arg1 arg2 : StableHlo.TRef sig ⟨S1658, .i32⟩) (φ : fn_where.Bufs) : List (HloOp τ sig (Elt F)) :=
  [StableHlo.TRef.ternary arg0 arg1 arg2 φ.v0 select]

/-- `@_where_0`: one select on scalars. -/
def where0Ops (arg0 : StableHlo.TRef sig ⟨S_, .i1⟩) (arg1 arg2 : StableHlo.TRef sig ⟨S_, .i32⟩) (φ : fn_where_0.Bufs) : List (HloOp τ sig (Elt F)) :=
  [StableHlo.TRef.ternary arg0 arg1 arg2 φ.v0 select]

/-- `@floor_divide` up to its call of `@_where`. -/
def fdOps (arg0 : StableHlo.TRef sig ⟨S1658, .i32⟩) (arg1 : StableHlo.TRef sig ⟨S_, .i32⟩) (φ : fn_floor_divide.Bufs) : List (HloOp τ sig (Elt F)) :=
  [StableHlo.TRef.unary arg1 φ.v0 id,
    StableHlo.TRef.unary φ.v0 φ.v1 (broadcastInDim S1658 ![] bcast_S_S1658),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S1658 ![] bcast_S_S1658),
    StableHlo.TRef.binary φ.v3 φ.v5 φ.v6 (cmpi .ne),
    StableHlo.TRef.unary φ.v0 φ.v7 (broadcastInDim S1658 ![] bcast_S_S1658),
    StableHlo.TRef.binary arg0 φ.v7 φ.v8 Host.remsi,
    StableHlo.TRef.nullary φ.c (constantI S_ 32 0#32),
    StableHlo.TRef.unary φ.c φ.v9 (broadcastInDim S1658 ![] bcast_S_S1658),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S1658 ![] bcast_S_S1658),
    StableHlo.TRef.binary φ.v2 φ.v12 φ.v13 subi]

/-- `@floor_divide_1` up to its call of `@_where`. -/
def fd1Ops (arg0 : StableHlo.TRef sig ⟨S1658, .i32⟩) (arg1 : StableHlo.TRef sig ⟨S_, .i32⟩) (φ : fn_floor_divide_1.Bufs) : List (HloOp τ sig (Elt F)) :=
  [StableHlo.TRef.unary arg1 φ.v0 id,
    StableHlo.TRef.unary φ.v0 φ.v1 (broadcastInDim S1658 ![] bcast_S_S1658),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S1658 ![] bcast_S_S1658),
    StableHlo.TRef.binary φ.v3 φ.v5 φ.v6 (cmpi .ne),
    StableHlo.TRef.unary φ.v0 φ.v7 (broadcastInDim S1658 ![] bcast_S_S1658),
    StableHlo.TRef.binary arg0 φ.v7 φ.v8 Host.remsi,
    StableHlo.TRef.nullary φ.c (constantI S_ 32 0#32),
    StableHlo.TRef.unary φ.c φ.v9 (broadcastInDim S1658 ![] bcast_S_S1658),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S1658 ![] bcast_S_S1658),
    StableHlo.TRef.binary φ.v2 φ.v12 φ.v13 subi]

/-- `@remainder` up to its call of `@_where_0`, -/
def remOpsA (arg0 : StableHlo.TRef sig ⟨S1658, .i32⟩) (arg1 : StableHlo.TRef sig ⟨S_, .i32⟩) (φ : fn_remainder.Bufs) : List (HloOp τ sig (Elt F)) :=
  [StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32)]
/-- and after it. -/
def remOpsB (arg0 : StableHlo.TRef sig ⟨S1658, .i32⟩) (arg1 : StableHlo.TRef sig ⟨S_, .i32⟩) (φ : fn_remainder.Bufs) : List (HloOp τ sig (Elt F)) :=
  [StableHlo.TRef.unary φ.call0.v0 φ.v3 (broadcastInDim S1658 ![] bcast_S_S1658),
    StableHlo.TRef.binary arg0 φ.v3 φ.v4 Host.remsi,
    StableHlo.TRef.nullary φ.c_1 (constantI S_ 32 0#32),
    StableHlo.TRef.unary φ.c_1 φ.v5 (broadcastInDim S1658 ![] bcast_S_S1658),
    StableHlo.TRef.binary φ.v4 φ.v5 φ.v6 (cmpi .ne),
    StableHlo.TRef.nullary φ.c_2 (constantI S_ 32 0#32),
    StableHlo.TRef.unary φ.c_2 φ.v7 (broadcastInDim S1658 ![] bcast_S_S1658),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S1658 ![] bcast_S_S1658),
    StableHlo.TRef.binary φ.v8 φ.v10 φ.v11 (cmpi .ne),
    StableHlo.TRef.binary φ.v11 φ.v6 φ.v12 andi,
    StableHlo.TRef.unary φ.call0.v0 φ.v13 (broadcastInDim S1658 ![] bcast_S_S1658),
    StableHlo.TRef.binary φ.v4 φ.v13 φ.v14 addi,
    StableHlo.TRef.ternary φ.v12 φ.v14 φ.v4 φ.v15 select]

/-- `@remainder_2` up to its call of `@_where_0`, -/
def rem2OpsA (arg0 : StableHlo.TRef sig ⟨S1658, .i32⟩) (arg1 : StableHlo.TRef sig ⟨S_, .i32⟩) (φ : fn_remainder_2.Bufs) : List (HloOp τ sig (Elt F)) :=
  [StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32)]
/-- and after it. -/
def rem2OpsB (arg0 : StableHlo.TRef sig ⟨S1658, .i32⟩) (arg1 : StableHlo.TRef sig ⟨S_, .i32⟩) (φ : fn_remainder_2.Bufs) : List (HloOp τ sig (Elt F)) :=
  [StableHlo.TRef.unary φ.call0.v0 φ.v3 (broadcastInDim S1658 ![] bcast_S_S1658),
    StableHlo.TRef.binary arg0 φ.v3 φ.v4 Host.remsi,
    StableHlo.TRef.nullary φ.c_1 (constantI S_ 32 0#32),
    StableHlo.TRef.unary φ.c_1 φ.v5 (broadcastInDim S1658 ![] bcast_S_S1658),
    StableHlo.TRef.binary φ.v4 φ.v5 φ.v6 (cmpi .ne),
    StableHlo.TRef.nullary φ.c_2 (constantI S_ 32 0#32),
    StableHlo.TRef.unary φ.c_2 φ.v7 (broadcastInDim S1658 ![] bcast_S_S1658),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S1658 ![] bcast_S_S1658),
    StableHlo.TRef.binary φ.v8 φ.v10 φ.v11 (cmpi .ne),
    StableHlo.TRef.binary φ.v11 φ.v6 φ.v12 andi,
    StableHlo.TRef.unary φ.call0.v0 φ.v13 (broadcastInDim S1658 ![] bcast_S_S1658),
    StableHlo.TRef.binary φ.v4 φ.v13 φ.v14 addi,
    StableHlo.TRef.ternary φ.v12 φ.v14 φ.v4 φ.v15 select]

/-- @main before the SparseCore call, stretch by stretch: an item opens and closes at every call. -/
def hostOpssA : List (List (HloOp τ sig (Elt F))) :=
  [[StableHlo.unary main_arg0 main_v0 ((transpose S2x224x96x224 [0, 1, 3, 2] · transposes_S2x224x224x96_S2x224x96x224_0_1_3_2) : (⟨S2x224x224x96, .f32⟩ : BufTy).Contents (Elt F) → (⟨S2x224x96x224, .f32⟩ : BufTy).Contents (Elt F)),
    StableHlo.nullary main_c (constantI S_ 32 96#32)],
   fdOps (.of main_arg3) (.of main_c) main_call0,
   whereOps main_call0.v11 main_call0.v13 main_call0.v2 main_call0.call0,
   [StableHlo.nullary main_c_0 (constantI S_ 32 96#32)],
   remOpsA (.of main_arg3) (.of main_c_0) main_call1,
   where0Ops main_call1.v1 main_call1.c_0 main_call1.v0 main_call1.call0,
   remOpsB (.of main_arg3) (.of main_c_0) main_call1,
   [StableHlo.nullary main_c_1 (constantI S_ 32 3#32)],
   fd1Ops (.of main_v1) (.of main_c_1) main_call2,
   whereOps main_call2.v11 main_call2.v13 main_call2.v2 main_call2.call0,
   [StableHlo.nullary main_c_2 (constantI S_ 32 3#32)],
   rem2OpsA (.of main_v1) (.of main_c_2) main_call3,
   where0Ops main_call3.v1 main_call3.c_0 main_call3.v0 main_call3.call0,
   rem2OpsB (.of main_v1) (.of main_c_2) main_call3,
   [StableHlo.nullary main_c_3 (constantI S_ 32 192#32),
    StableHlo.unary main_c_3 main_v5 (broadcastInDim S1658 ![] bcast_S_S1658 : (⟨S_, .i32⟩ : BufTy).Contents (Elt F) → (⟨S1658, .i32⟩ : BufTy).Contents (Elt F)),
    StableHlo.binary main_v4 main_v5 main_v6 (muli : (⟨S1658, .i32⟩ : BufTy).Contents (Elt F) → (⟨S1658, .i32⟩ : BufTy).Contents (Elt F) → (⟨S1658, .i32⟩ : BufTy).Contents (Elt F)),
    StableHlo.binary main_v6 main_arg4 main_v7 (addi : (⟨S1658, .i32⟩ : BufTy).Contents (Elt F) → (⟨S1658, .i32⟩ : BufTy).Contents (Elt F) → (⟨S1658, .i32⟩ : BufTy).Contents (Elt F)),
    StableHlo.nullary main_c_4 (constantI S_ 32 288#32),
    StableHlo.unary main_c_4 main_v8 (broadcastInDim S1658 ![] bcast_S_S1658 : (⟨S_, .i32⟩ : BufTy).Contents (Elt F) → (⟨S1658, .i32⟩ : BufTy).Contents (Elt F)),
    StableHlo.binary main_v7 main_v8 main_v9 (muli : (⟨S1658, .i32⟩ : BufTy).Contents (Elt F) → (⟨S1658, .i32⟩ : BufTy).Contents (Elt F) → (⟨S1658, .i32⟩ : BufTy).Contents (Elt F)),
    StableHlo.nullary main_c_5 (constantI S_ 32 96#32),
    StableHlo.unary main_c_5 main_v10 (broadcastInDim S1658 ![] bcast_S_S1658 : (⟨S_, .i32⟩ : BufTy).Contents (Elt F) → (⟨S1658, .i32⟩ : BufTy).Contents (Elt F)),
    StableHlo.binary main_v3 main_v10 main_v11 (muli : (⟨S1658, .i32⟩ : BufTy).Contents (Elt F) → (⟨S1658, .i32⟩ : BufTy).Contents (Elt F) → (⟨S1658, .i32⟩ : BufTy).Contents (Elt F)),
    StableHlo.binary main_v9 main_v11 main_v12 (addi : (⟨S1658, .i32⟩ : BufTy).Contents (Elt F) → (⟨S1658, .i32⟩ : BufTy).Contents (Elt F) → (⟨S1658, .i32⟩ : BufTy).Contents (Elt F)),
    StableHlo.binary main_v12 main_v2 main_v13 (addi : (⟨S1658, .i32⟩ : BufTy).Contents (Elt F) → (⟨S1658, .i32⟩ : BufTy).Contents (Elt F) → (⟨S1658, .i32⟩ : BufTy).Contents (Elt F)),
    StableHlo.nullary main_c_6 (constantI S_ 32 165888#32),
    StableHlo.unary main_c_6 main_v14 (broadcastInDim S6 ![] bcast_S_S6 : (⟨S_, .i32⟩ : BufTy).Contents (Elt F) → (⟨S6, .i32⟩ : BufTy).Contents (Elt F)),
    StableHlo.binary main_v13 main_v14 main_v15 ((fun a b => concatenate S1664 0 [⟨S1658, a⟩, ⟨S6, b⟩] concatenates_S1658_S6_S1664_d0) : (⟨S1658, .i32⟩ : BufTy).Contents (Elt F) → (⟨S6, .i32⟩ : BufTy).Contents (Elt F) → (⟨S1664, .i32⟩ : BufTy).Contents (Elt F)),
    StableHlo.nullary main_cst (constant S_ .f32 0x00000000#32),
    StableHlo.unary main_cst main_v16 (broadcastInDim S6 ![] bcast_S_S6 : (⟨S_, .f32⟩ : BufTy).Contents (Elt F) → (⟨S6, .f32⟩ : BufTy).Contents (Elt F)),
    StableHlo.binary main_arg1 main_v16 main_v17 ((fun a b => concatenate S1664 0 [⟨S1658, a⟩, ⟨S6, b⟩] concatenates_S1658_S6_S1664_d0) : (⟨S1658, .f32⟩ : BufTy).Contents (Elt F) → (⟨S6, .f32⟩ : BufTy).Contents (Elt F) → (⟨S1664, .f32⟩ : BufTy).Contents (Elt F))]]

/-- Between the SparseCore call and the TensorCore region. -/
def hostOpsB : List (HloOp τ sig (Elt F)) :=
  [StableHlo.reshape main_v18 main_v19 rfl shapeCasts_S165888_S3x192x288,
    StableHlo.unary main_v19 main_v20 ((truncf .bf16 · bitsLt_bf16_f32) : (⟨S3x192x288, .f32⟩ : BufTy).Contents (Elt F) → (⟨S3x192x288, .bf16⟩ : BufTy).Contents (Elt F)),
    StableHlo.reshape main_arg2 main_v21 rfl shapeCasts_S192_S192x1]

/-- After the region. -/
def hostOpsC : List (HloOp τ sig (Elt F)) :=
  [StableHlo.unary main_v22 main_v23 ((transpose S2x222x222x192 [0, 1, 3, 2] · transposes_S2x222x192x222_S2x222x222x192_0_1_3_2) : (⟨S2x222x192x222, .f32⟩ : BufTy).Contents (Elt F) → (⟨S2x222x222x192, .f32⟩ : BufTy).Contents (Elt F))]

/-- The operations before the SparseCore call, in order. -/
def hostOpsA : List (HloOp τ sig (Elt F)) := (hostOpssA (F := F)).flatten

/-! ## @main as the lines around the calls -/

/-- The TensorCore kernel's call as @main spells it. -/
abbrev regionCall : Prog (TpuEff nD τ sig (Elt F) (SparseCore.Sig (ΛP (F := F)) 1) .tc) PUnit :=
  Prog.lift (.customCall (SparseCore.inner (Pipeline.entry 0)) ())

/-- Stretches run one after the other, then the rest: the stretches' concatenation run as one line, then the rest. -/
theorem chain_stretches (opss : List (List (HloOp τ sig (Elt F))))
    (qs : List (Prog (TpuEff nD τ sig (Elt F) (SparseCore.Sig (ΛP (F := F)) 1) .tc) PUnit)) :
    chain (opss.map seq ++ qs) = (seq opss.flatten >>= fun _ => chain qs) := by
  induction opss with
  | nil => rw [List.map_nil, List.nil_append, List.flatten_nil, StableHlo.seq, pure_bind]
  | cons ops opss ih =>
    rw [List.map_cons, List.cons_append, chain_cons, ih, List.flatten_cons, StableHlo.seq_append, bind_assoc]

/-- @main, item by item: a stretch of operations opens and closes at every module-local function's call. -/
theorem main_chain (d : Dev nD) :
    main (F := F) d = chain ((hostOpssA (F := F)).map seq ++ [(K (F := F)).run d 0, seq hostOpsB, regionCall, seq hostOpsC]) := by
  chain_rfl

/-- @main is the first line, the SparseCore call, the second line, the TensorCore kernel, the last line. -/
theorem main_eq (d : Dev nD) :
    main (F := F) d = (seq (hostOpsA (F := F)) >>= fun _ => chain [(K (F := F)).run d 0, seq hostOpsB, regionCall, seq hostOpsC]) := by
  rw [main_chain, chain_stretches]; rfl

/-! ## Running a line

Every operation of the three lines touches the TensorCore's unscoped references only and determines all it writes. -/

/-- An operation the rule for a line accepts over the unscoped buffers. -/
def Okay (op : HloOp τ sig (Elt F)) : Prop := op.bufs ⊆ ucRefs τ sig ∧ op.fresh = ∅

theorem okay_nullary (y : Ref sig .tc) (v : y.ty.Contents (Elt F)) (hy) : Okay (StableHlo.nullary (τ := τ) y v hy) :=
  ⟨sub_ucRefs _ (StableHlo.nullary_bufs_sub ..), rfl⟩
theorem okay_unary (x y : Ref sig .tc) (f : x.ty.Contents (Elt F) → y.ty.Contents (Elt F)) (hx hy) :
    Okay (StableHlo.unary (τ := τ) x y f hx hy) :=
  ⟨sub_ucRefs _ (StableHlo.unary_bufs_sub ..), rfl⟩
theorem okay_binary (a b y : Ref sig .tc) (f : a.ty.Contents (Elt F) → b.ty.Contents (Elt F) → y.ty.Contents (Elt F)) (ha hb hy) :
    Okay (StableHlo.binary (τ := τ) a b y f ha hb hy) :=
  ⟨sub_ucRefs _ (StableHlo.binary_bufs_sub ..), rfl⟩
theorem okay_ternary (c a b y : Ref sig .tc)
    (f : c.ty.Contents (Elt F) → a.ty.Contents (Elt F) → b.ty.Contents (Elt F) → y.ty.Contents (Elt F)) (hc ha hb hy) :
    Okay (StableHlo.ternary (τ := τ) c a b y f hc ha hb hy) :=
  ⟨sub_ucRefs _ (StableHlo.ternary_bufs_sub ..), rfl⟩
theorem okay_reshape (x y : Ref sig .tc) (he hn hx hy) : Okay (StableHlo.reshape (τ := τ) (Val := Elt F) x y he hn hx hy) :=
  ⟨sub_ucRefs _ (StableHlo.reshape_bufs_sub ..), rfl⟩

theorem hostOpsA_ok : ∀ op ∈ hostOpsA (F := F), Okay op := by
  simp only [hostOpsA, hostOpssA, fdOps, fd1Ops, remOpsA, remOpsB, rem2OpsA, rem2OpsB, whereOps, where0Ops,
    List.flatten_cons, List.flatten_nil, List.cons_append, List.nil_append, List.append_nil, List.forall_mem_cons,
    List.not_mem_nil, false_imp_iff, implies_true, and_true]
  simp only [okay_nullary, okay_unary, okay_binary, okay_ternary, and_self]

theorem hostOpsB_ok : ∀ op ∈ hostOpsB (F := F), Okay op := by
  simp only [hostOpsB, List.forall_mem_cons, List.not_mem_nil, false_imp_iff, implies_true, and_true]
  exact ⟨okay_reshape .., okay_unary .., okay_reshape ..⟩

theorem hostOpsC_ok : ∀ op ∈ hostOpsC (F := F), Okay op := by
  simp only [hostOpsC, List.forall_mem_cons, List.not_mem_nil, false_imp_iff, implies_true, and_true]
  exact okay_unary ..

-- `T d` is the thread `d.tc`, the thread the rule for a line is stated at
set_option backward.isDefEq.respectTransparency.types false in
/-- A line of accepted operations, over the unscoped buffers held whole at `W`: it leaves them at `after ops W`. -/
theorem wp_line (ops : List (HloOp τ sig (Elt F))) (hok : ∀ op ∈ ops, Okay op) (d : Dev nD) {β : Type}
    (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after ops W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq ops >>= k) Φ) := by
  have hseq := StableHlo.wp_seq (defs := (K (F := F)).defs (D (F := F))) 𝒱 none Set.univ d (ucRefs τ sig) k (K := Φ) ops
    (fun op h => (hok op h).1) (fun op h => (hok op h).2) W
  exact hseq

/-- The first line. -/
theorem wp_hostA (d : Dev nD) {β : Type} (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after (hostOpsA (F := F)) W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq (hostOpsA (F := F)) >>= k) Φ) :=
  wp_line (hostOpsA (F := F)) hostOpsA_ok d k W

/-- The second line. -/
theorem wp_hostB (d : Dev nD) {β : Type} (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after (hostOpsB (F := F)) W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq (hostOpsB (F := F)) >>= k) Φ) :=
  wp_line (hostOpsB (F := F)) hostOpsB_ok d k W

/-- The last line. -/
theorem wp_hostC (d : Dev nD) {β : Type} (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after (hostOpsC (F := F)) W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq (hostOpsC (F := F)) >>= k) Φ) :=
  wp_line (hostOpsC (F := F)) hostOpsC_ok d k W

/-! ## What the lines leave -/

/-- The references the first line writes: one per operation, its result. -/
def writtenA : List (Ref sig .tc) :=
  [main_v0, main_c, main_c_0, main_c_1, main_c_2, main_c_3, main_v5, main_v6, main_v7, main_c_4,
   main_v8, main_v9, main_c_5, main_v10, main_v11, main_v12, main_v13, main_c_6, main_v14, main_v15,
   main_cst, main_v16, main_v17, main_v1, main_call0_v0, main_call0_v1, main_call0_v2, main_call0_v3, main_call0_v4, main_call0_v5,
   main_call0_v6, main_call0_v7, main_call0_v8, main_call0_c, main_call0_v9, main_call0_v10, main_call0_v11, main_call0_c_0, main_call0_v12, main_call0_v13,
   main_call1_v2, main_call1_v0, main_call1_c, main_call1_v1, main_call1_c_0, main_call1_v3, main_call1_v4, main_call1_c_1, main_call1_v5, main_call1_v6,
   main_call1_c_2, main_call1_v7, main_call1_v8, main_call1_c_3, main_call1_v9, main_call1_v10, main_call1_v11, main_call1_v12, main_call1_v13, main_call1_v14,
   main_v2, main_v3, main_call2_v0, main_call2_v1, main_call2_v2, main_call2_v3, main_call2_v4, main_call2_v5, main_call2_v6, main_call2_v7,
   main_call2_v8, main_call2_c, main_call2_v9, main_call2_v10, main_call2_v11, main_call2_c_0, main_call2_v12, main_call2_v13, main_call3_v2, main_call3_v0,
   main_call3_c, main_call3_v1, main_call3_c_0, main_call3_v3, main_call3_v4, main_call3_c_1, main_call3_v5, main_call3_v6, main_call3_c_2, main_call3_v7,
   main_call3_v8, main_call3_c_3, main_call3_v9, main_call3_v10, main_call3_v11, main_call3_v12, main_call3_v13, main_call3_v14, main_v4]
/-- The references the second line writes. -/
def writtenB : List (Ref sig .tc) := [main_v19, main_v20, main_v21]
/-- The reference the last line writes. -/
def writtenC : List (Ref sig .tc) := [main_v23]

/-- An operation that writes references of the list `Wl` only. -/
def WritesIn (Wl : List (Ref sig .tc)) (op : HloOp τ sig (Elt F)) : Prop :=
  op.writes ⊆ (Wl.map (Proc.devRef (τ := τ) .tc)).toFinset

theorem single_sub {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

theorem writesIn_nullary {Wl : List (Ref sig .tc)} (y : Ref sig .tc) (v : y.ty.Contents (Elt F)) (hy) (h : y ∈ Wl) :
    WritesIn Wl (StableHlo.nullary (τ := τ) y v hy) := by
  unfold WritesIn; rw [StableHlo.nullary_writes]; exact single_sub h
theorem writesIn_unary {Wl : List (Ref sig .tc)} (x y : Ref sig .tc) (f : x.ty.Contents (Elt F) → y.ty.Contents (Elt F)) (hx hy)
    (h : y ∈ Wl) : WritesIn Wl (StableHlo.unary (τ := τ) x y f hx hy) := by
  unfold WritesIn; rw [StableHlo.unary_writes]; exact single_sub h
theorem writesIn_binary {Wl : List (Ref sig .tc)} (a b y : Ref sig .tc)
    (f : a.ty.Contents (Elt F) → b.ty.Contents (Elt F) → y.ty.Contents (Elt F)) (ha hb hy) (h : y ∈ Wl) :
    WritesIn Wl (StableHlo.binary (τ := τ) a b y f ha hb hy) := by
  unfold WritesIn; rw [StableHlo.binary_writes]; exact single_sub h
theorem writesIn_ternary {Wl : List (Ref sig .tc)} (c a b y : Ref sig .tc)
    (f : c.ty.Contents (Elt F) → a.ty.Contents (Elt F) → b.ty.Contents (Elt F) → y.ty.Contents (Elt F)) (hc ha hb hy) (h : y ∈ Wl) :
    WritesIn Wl (StableHlo.ternary (τ := τ) c a b y f hc ha hb hy) := by
  unfold WritesIn; rw [StableHlo.ternary_writes]; exact single_sub h
theorem writesIn_reshape {Wl : List (Ref sig .tc)} (x y : Ref sig .tc) (he hn hx hy) (h : y ∈ Wl) :
    WritesIn Wl (StableHlo.reshape (τ := τ) (Val := Elt F) x y he hn hx hy) := by
  unfold WritesIn; rw [StableHlo.reshape_writes]; exact single_sub h

theorem hostOpsA_writes : ∀ op ∈ hostOpsA (F := F), WritesIn writtenA op := by
  simp only [hostOpsA, hostOpssA, fdOps, fd1Ops, remOpsA, remOpsB, rem2OpsA, rem2OpsB, whereOps, where0Ops,
    List.flatten_cons, List.flatten_nil, List.cons_append, List.nil_append, List.append_nil, List.forall_mem_cons,
    List.not_mem_nil, false_imp_iff, implies_true, and_true]
  simp (disch := decide) only [writesIn_nullary, writesIn_unary, writesIn_binary, writesIn_ternary, and_self]

theorem hostOpsB_writes : ∀ op ∈ hostOpsB (F := F), WritesIn writtenB op := by
  simp only [hostOpsB, List.forall_mem_cons, List.not_mem_nil, false_imp_iff, implies_true, and_true]
  exact ⟨writesIn_reshape _ _ _ _ _ _ (by decide), writesIn_unary _ _ _ _ _ (by decide), writesIn_reshape _ _ _ _ _ _ (by decide)⟩

theorem hostOpsC_writes : ∀ op ∈ hostOpsC (F := F), WritesIn writtenC op := by
  simp only [hostOpsC, List.forall_mem_cons, List.not_mem_nil, false_imp_iff, implies_true, and_true]
  exact writesIn_unary _ _ _ _ _ (by decide)

/-- A reference the first line does not write keeps its contents, -/
theorem afterA_keep (W : Valuation τ sig (Elt F)) {r : Ref sig .tc} (hr : r ∉ writtenA) :
    after (hostOpsA (F := F)) W (Proc.devRef .tc r) = W (Proc.devRef .tc r) :=
  StableHlo.after_of_writes_sub _ W (List.forall_iff_forall_mem.mpr hostOpsA_writes) hr
/-- one the second line does not write, -/
theorem afterB_keep (W : Valuation τ sig (Elt F)) {r : Ref sig .tc} (hr : r ∉ writtenB) :
    after (hostOpsB (F := F)) W (Proc.devRef .tc r) = W (Proc.devRef .tc r) :=
  StableHlo.after_of_writes_sub _ W (List.forall_iff_forall_mem.mpr hostOpsB_writes) hr
/-- one the last line does not write. -/
theorem afterC_keep (W : Valuation τ sig (Elt F)) {r : Ref sig .tc} (hr : r ∉ writtenC) :
    after (hostOpsC (F := F)) W (Proc.devRef .tc r) = W (Proc.devRef .tc r) :=
  StableHlo.after_of_writes_sub _ W (List.forall_iff_forall_mem.mpr hostOpsC_writes) hr

/-- A typed reference's two transports undo each other. -/
theorem ofBuf_toBuf {Ty : BufTy} (x : StableHlo.TRef sig Ty) (v : Ty.Contents (Elt F)) : x.ofBuf (x.toBuf v) = v := by
  obtain ⟨r, h, _, _⟩ := x
  subst h; rfl

/-- Two concatenations of a 1658-vector and a 6-vector agree when their parts do. -/
theorem concat2_congr {α : Type} {a a' : S1658.Idx → α} {b b' : S6.Idx → α} (ha : a = a') (hb : b = b') :
    concatenate S1664 0 [⟨S1658, a⟩, ⟨S6, b⟩] concatenates_S1658_S6_S1664_d0
      = concatenate S1664 0 [⟨S1658, a'⟩, ⟨S6, b'⟩] concatenates_S1658_S6_S1664_d0 := by
  subst ha hb; rfl

open Idealize.ShloMosaic.StableHlo in
/-- The first line leaves the flat positions in `main_v15`, -/
theorem afterA_v15 (W : Valuation τ sig (Elt F)) :
    after (hostOpsA (F := F)) W (Proc.devRef .tc main_v15)
      = flatOf (W (Proc.devRef .tc main_arg3)) (W (Proc.devRef .tc main_arg4)) := by
  simp only [hostOpsA, hostOpssA, List.flatten_cons, List.flatten_nil, List.append_nil, StableHlo.after_append,
    fdOps, fd1Ops, remOpsA, remOpsB, rem2OpsA, rem2OpsB, whereOps, where0Ops]
  after_results_simp
  unfold flatOf
  apply concat2_congr
  · after_results_simp
    simp only [ofBuf_toBuf, id]
    rfl
  · after_results_simp

open Idealize.ShloMosaic.StableHlo in
/-- the padded values in `main_v17`, -/
theorem afterA_v17 (W : Valuation τ sig (Elt F)) :
    after (hostOpsA (F := F)) W (Proc.devRef .tc main_v17) = valsOf (F := F) (W (Proc.devRef .tc main_arg1)) := by
  simp only [hostOpsA, hostOpssA, List.flatten_cons, List.flatten_nil, List.append_nil, StableHlo.after_append,
    fdOps, fd1Ops, remOpsA, remOpsB, rem2OpsA, rem2OpsB, whereOps, where0Ops]
  after_results_simp
  unfold valsOf
  apply concat2_congr
  · after_results_simp
  · after_results_simp

open Idealize.ShloMosaic.StableHlo in
/-- the transposed input in `main_v0`. -/
theorem afterA_v0 (W : Valuation τ sig (Elt F)) :
    after (hostOpsA (F := F)) W (Proc.devRef .tc main_v0) = xOf (F := F) (W (Proc.devRef .tc main_arg0)) := by
  simp only [hostOpsA, hostOpssA, List.flatten_cons, List.flatten_nil, List.append_nil, StableHlo.after_append,
    fdOps, fd1Ops, remOpsA, remOpsB, rem2OpsA, rem2OpsB, whereOps, where0Ops]
  after_results_simp
  rfl

open Idealize.ShloMosaic.StableHlo in
/-- The second line leaves the scattered weights, as planes rounded to bf16, in `main_v20`, -/
theorem afterB_v20 (W : Valuation τ sig (Elt F)) :
    after (hostOpsB (F := F)) W (Proc.devRef .tc main_v20) = wOf (F := F) (W (Proc.devRef .tc main_v18)) := by
  simp only [hostOpsB]
  after_results_simp
  rfl

open Idealize.ShloMosaic.StableHlo in
/-- and the bias as a column in `main_v21`. -/
theorem afterB_v21 (W : Valuation τ sig (Elt F)) :
    after (hostOpsB (F := F)) W (Proc.devRef .tc main_v21) = bOf (F := F) (W (Proc.devRef .tc main_arg2)) := by
  simp only [hostOpsB]
  after_results_simp
  rfl

open Idealize.ShloMosaic.StableHlo in
/-- The last line leaves the kernel's output, transposed back, in `main_v23`. -/
theorem afterC_v23 (W : Valuation τ sig (Elt F)) :
    after (hostOpsC (F := F)) W (Proc.devRef .tc main_v23) = yOf (F := F) (W (Proc.devRef .tc main_v22)) := by
  simp only [hostOpsC]
  after_results_simp
  rfl

end Cert.Proof.KB

end
-- ==== Proof.KB.Fin.lean ====
/-
  What @main leaves on a device and what the claim reads off it: the result buffer at the composite of the five
  arguments' launch contents, the five arguments as launched; and that a final memory consistent with those
  holdings has exactly those contents.
-/
import proofs.«216126_g59949153517679_cont_9to1_m_442_25_alg».proof.Proof.KB.Common
import proofs.«216126_g59949153517679_cont_9to1_m_442_25_alg».proof.Proof.KB.HostSpec

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Pipeline (chain chain_cons chain_nil ucRefs unscopedBufs_held sub_ucRefs)

variable {F : FTy → Type} [FloatOps F]

local notation "𝕄" => MT nD τ sig (HIx 1) (Elt F) ℕ UU ℕ

/-- Where device `d`'s TensorCore keeps the buffer of reference `r`. -/
abbrev aLoc (d : Dev nD) (r : Ref sig .tc) : Loc nD τ sig := (T d : Thread nD τ).loc r

/-- The result on device `d`, from the launch memory `m`: the composite of its five arguments. -/
abbrev outM (m : (ℓ : Loc nD τ sig) → Buf (Elt F) ℓ) (d : Dev nD) : FVec F S2x222x222x192 .f32 :=
  OUT (F := F) (m (aLoc d main_arg0)) (m (aLoc d main_arg1)) (m (aLoc d main_arg2)) (m (aLoc d main_arg3)) (m (aLoc d main_arg4))

/-- What @main leaves: the result at the composite of the arguments, the five arguments as they were. -/
def FIN (m : (ℓ : Loc nD τ sig) → Buf (Elt F) ℓ) (d : Dev nD) : sProp 𝕄 :=
  iprop((aLoc d main_v23 ↦{fullShare} (outM m d : Buf (Elt F) (aLoc d main_v23)))
    ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)))

/-- What the claim reads off the final memory of device `d`: the result, then the five arguments. -/
def fq (m : (ℓ : Loc nD τ sig) → Buf (Elt F) ℓ) (d : Dev nD) (s' : Phys nD τ sig (Elt F)) : Prop :=
  s'.mem.mem (aLoc d main_v23) = (outM m d : Buf (Elt F) (aLoc d main_v23))
    ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4)

theorem hfin (m : (ℓ : Loc nD τ sig) → Buf (Elt F) ℓ) (d : Dev nD) (s' : Phys nD τ sig (Elt F)) :
    iprop(FIN (F := F) m d ∗ SI s') ⊢ (⌜fq (F := F) m d s'⌝ : sProp 𝕄) := by
  unfold FIN fq
  iintro ⟨⟨Ho, H0, H1, H2, H3, H4⟩, HSI⟩
  ihave H := (persistent_entails_right (SI_pointsTo_agree (st := s') (ℓ := aLoc d main_v23) (I := Finset.univ) (q := fullShare) (f := (outM m d : Buf (Elt F) (aLoc d main_v23))))) $$ [HSI Ho]
  · isplitl [HSI] <;> iassumption
  icases H with ⟨%ho, HSI, -⟩
  ihave H := (persistent_entails_right (SI_pointsTo_agree (st := s') (ℓ := aLoc d main_arg0) (I := Finset.univ) (q := fullShare) (f := m (aLoc d main_arg0)))) $$ [HSI H0]
  · isplitl [HSI] <;> iassumption
  icases H with ⟨%h0, HSI, -⟩
  ihave H := (persistent_entails_right (SI_pointsTo_agree (st := s') (ℓ := aLoc d main_arg1) (I := Finset.univ) (q := fullShare) (f := m (aLoc d main_arg1)))) $$ [HSI H1]
  · isplitl [HSI] <;> iassumption
  icases H with ⟨%h1, HSI, -⟩
  ihave H := (persistent_entails_right (SI_pointsTo_agree (st := s') (ℓ := aLoc d main_arg2) (I := Finset.univ) (q := fullShare) (f := m (aLoc d main_arg2)))) $$ [HSI H2]
  · isplitl [HSI] <;> iassumption
  icases H with ⟨%h2, HSI, -⟩
  ihave H := (persistent_entails_right (SI_pointsTo_agree (st := s') (ℓ := aLoc d main_arg3) (I := Finset.univ) (q := fullShare) (f := m (aLoc d main_arg3)))) $$ [HSI H3]
  · isplitl [HSI] <;> iassumption
  icases H with ⟨%h3, HSI, -⟩
  ihave H := (SI_pointsTo_agree (st := s') (ℓ := aLoc d main_arg4) (I := Finset.univ) (q := fullShare) (f := m (aLoc d main_arg4))) $$ [HSI H4]
  · isplitl [HSI] <;> iassumption
  icases H with %h4
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

end Cert.Proof.KB

end
-- ==== Proof.KB.Main.lean ====
/-
  @main on a device's TensorCore, for the launch theorem: holding its region boundary and every unscoped buffer
  whole at the launch contents, it runs the first line of host operations, hands the positions, the values and the
  output buffer to the SparseCore call and takes the scattered weights back, runs the second line, hands the
  transposed input, the weights, the bias and the output buffer to the TensorCore kernel and takes the convolution
  back, runs the last line, and ends holding the result at the composite of the arguments and the arguments as launched.
-/
import proofs.«216126_g59949153517679_cont_9to1_m_442_25_alg».proof.Proof.KB.Common
import proofs.«216126_g59949153517679_cont_9to1_m_442_25_alg».proof.Proof.KB.HostSpec
import proofs.«216126_g59949153517679_cont_9to1_m_442_25_alg».proof.Proof.KB.Host
import proofs.«216126_g59949153517679_cont_9to1_m_442_25_alg».proof.Proof.KB.Fin

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Pipeline (chain chain_cons chain_nil ucRefs unscopedBufs_held sub_ucRefs)

variable {F : FTy → Type} [FloatOps F]

local notation "𝕄" => MT nD τ sig (HIx 1) (Elt F) ℕ UU ℕ

/-! ## The launch's data on device `d` -/

/-- Device `d`'s buffers at the launch. -/
abbrev V₀ (m : (ℓ : Loc nD τ sig) → Buf (Elt F) ℓ) (d : Dev nD) : Valuation τ sig (Elt F) := fun b => m (d, b)

/-- The positions and the values the scatter is given, -/
abbrev flatM (m : (ℓ : Loc nD τ sig) → Buf (Elt F) ℓ) (d : Dev nD) : IVec S1664 32 :=
  flatOf (m (aLoc d main_arg3)) (m (aLoc d main_arg4))
abbrev valsM (m : (ℓ : Loc nD τ sig) → Buf (Elt F) ℓ) (d : Dev nD) : FVec F S1664 .f32 := valsOf (F := F) (m (aLoc d main_arg1))
/-- and the three operands of the TensorCore kernel. -/
abbrev xM (m : (ℓ : Loc nD τ sig) → Buf (Elt F) ℓ) (d : Dev nD) : FVec F S2x224x96x224 .f32 := xOf (F := F) (m (aLoc d main_arg0))
abbrev wM (m : (ℓ : Loc nD τ sig) → Buf (Elt F) ℓ) (d : Dev nD) : FVec F S3x192x288 .bf16 :=
  wOf (F := F) (scOut (F := F) (flatM m d) (valsM m d))
abbrev bM (m : (ℓ : Loc nD τ sig) → Buf (Elt F) ℓ) (d : Dev nD) : FVec F S192x1 .f32 := bOf (F := F) (m (aLoc d main_arg2))

/-! ## The two calls, as the modules that prove them state them -/

/-- The SparseCore call: from the positions, the values and the output buffer whole, to the output at the scatter's value. -/
abbrev ScCall (m : (ℓ : Loc nD τ sig) → Buf (Elt F) ℓ)
    (P : (K (F := F)).Pay (nD := nD) (Val := Elt F) (Name := ℕ) (U := UU)) : Prop :=
  ∀ (κ : GSem nD τ sig → ℕ) (d : Dev nD) {Φ : PUnit → sProp 𝕄},
    iprop((K (F := F)).ctx EH P κ ∗ (K (F := F)).tcSt EH d 0
        ∗ (aLoc d main_v15 ↦{fullShare} (flatM m d : Buf (Elt F) (aLoc d main_v15)))
        ∗ (aLoc d main_v17 ↦{fullShare} (valsM m d : Buf (Elt F) (aLoc d main_v17)))
        ∗ (aLoc d main_v18 ↦{fullShare} m (aLoc d main_v18))
        ∗ (((K (F := F)).tcSt EH d 1
            ∗ (aLoc d main_v15 ↦{fullShare} (flatM m d : Buf (Elt F) (aLoc d main_v15)))
            ∗ (aLoc d main_v17 ↦{fullShare} (valsM m d : Buf (Elt F) (aLoc d main_v17)))
            ∗ (aLoc d main_v18 ↦{fullShare} (scOut (F := F) (flatM m d) (valsM m d) : Buf (Elt F) (aLoc d main_v18)))) -∗ Φ ⟨⟩))
      ⊢ wp frame (wpE ((K (F := F)).defs (D (F := F))) 𝒱 (T d) none) Set.univ ((K (F := F)).run d 0) Φ

/-- The TensorCore kernel's call: from its three operands and the output buffer whole, with the ghost state `G d` the
    launch dealt it, to the output at the convolution. -/
abbrev RegionCall (m : (ℓ : Loc nD τ sig) → Buf (Elt F) ℓ) (G : Dev nD → sProp (MT nD τ sig (HIx 1) (Elt F) ℕ UU ℕ)) : Prop :=
  ∀ (d : Dev nD) {α : Type} (k : PUnit → Prog (TpuEff nD τ sig (Elt F) (SparseCore.Sig (ΛP (F := F)) 1) .tc) α) (Q : α → sProp 𝕄),
    iprop(levAts (K (F := F)).L (K (F := F)).lev ∗ boundary (T d : Thread nD τ)
        ∗ (aLoc d main_v0 ↦{fullShare} (xM m d : Buf (Elt F) (aLoc d main_v0)))
        ∗ (aLoc d main_v20 ↦{fullShare} (wM m d : Buf (Elt F) (aLoc d main_v20)))
        ∗ (aLoc d main_v21 ↦{fullShare} (bM m d : Buf (Elt F) (aLoc d main_v21)))
        ∗ (aLoc d main_v22 ↦{fullShare} m (aLoc d main_v22))
        ∗ G d ∗ (K (F := F)).tcSt EH d 1
        ∗ (iprop(boundary (T d : Thread nD τ)
            ∗ (aLoc d main_v0 ↦{fullShare} (xM m d : Buf (Elt F) (aLoc d main_v0)))
            ∗ (aLoc d main_v20 ↦{fullShare} (wM m d : Buf (Elt F) (aLoc d main_v20)))
            ∗ (aLoc d main_v21 ↦{fullShare} (bM m d : Buf (Elt F) (aLoc d main_v21)))
            ∗ (aLoc d main_v22 ↦{fullShare} (convOut (F := F) (xM m d) (wM m d) (bM m d) : Buf (Elt F) (aLoc d main_v22)))
            ∗ (K (F := F)).tcSt EH d 1)
          -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 0)) ()) >>= k) Q

/-! ## Buffers out of the held set, and back at new contents -/

/-- An unscoped TensorCore reference is among the held buffers. -/
theorem mem_ucRefs (r : Ref sig .tc) (h : (Proc.devRef .tc r : DevRef τ sig).isScoped = false := by rfl) :
    (Proc.devRef .tc r : DevRef τ sig) ∈ ucRefs τ sig :=
  Finset.mem_filter.mpr ⟨StableHlo.devRef_mem_tcRefs r, fun h' => Bool.false_ne_true (h.symm.trans h')⟩

/-- One buffer of a held set, apart from the rest. -/
theorem held_take (thr : Thread nD τ) {S : Finset (DevRef τ sig)} {a : DevRef τ sig} (ha : a ∈ S) (W : Valuation τ sig (Elt F)) :
    (held thr S W : sProp 𝕄) = iprop(((thr.1, a) ↦{fullShare} W a) ∗ held thr (S.erase a) W) := by
  unfold StableHlo.held
  exact SparseCore.bigSep_erase' ha

/-- The rest does not see the buffer's new contents. -/
theorem held_erase_update (thr : Thread nD τ) (S : Finset (DevRef τ sig)) (a : DevRef τ sig) (W : Valuation τ sig (Elt F))
    (v : a.ty.Contents (Elt F)) :
    (held thr (S.erase a) (Function.update W a v) : sProp 𝕄) = held thr (S.erase a) W :=
  StableHlo.held_congr thr fun b hb => Function.update_of_ne (Finset.ne_of_mem_erase hb) v W

/-! ## The valuations along @main -/

/-- The buffers after the first line, -/
abbrev VA (m : (ℓ : Loc nD τ sig) → Buf (Elt F) ℓ) (d : Dev nD) : Valuation τ sig (Elt F) := after (hostOpsA (F := F)) (V₀ m d)
/-- after the SparseCore call, -/
abbrev VA' (m : (ℓ : Loc nD τ sig) → Buf (Elt F) ℓ) (d : Dev nD) : Valuation τ sig (Elt F) :=
  Function.update (VA m d) (Proc.devRef .tc main_v18 : DevRef τ sig) (scOut (F := F) (flatM m d) (valsM m d))
/-- after the second line, -/
abbrev VB (m : (ℓ : Loc nD τ sig) → Buf (Elt F) ℓ) (d : Dev nD) : Valuation τ sig (Elt F) := after (hostOpsB (F := F)) (VA' m d)
/-- after the TensorCore kernel, -/
abbrev VB' (m : (ℓ : Loc nD τ sig) → Buf (Elt F) ℓ) (d : Dev nD) : Valuation τ sig (Elt F) :=
  Function.update (VB m d) (Proc.devRef .tc main_v22 : DevRef τ sig) (convOut (F := F) (xM m d) (wM m d) (bM m d))
/-- and after the last line. -/
abbrev VC (m : (ℓ : Loc nD τ sig) → Buf (Elt F) ℓ) (d : Dev nD) : Valuation τ sig (Elt F) := after (hostOpsC (F := F)) (VB' m d)

/-- The held buffers but the three of the SparseCore call, -/
abbrev Rsc : Finset (DevRef τ sig) :=
  (((ucRefs τ sig).erase (Proc.devRef .tc main_v15 : DevRef τ sig)).erase (Proc.devRef .tc main_v17 : DevRef τ sig)).erase (Proc.devRef .tc main_v18 : DevRef τ sig)
/-- but the four of the TensorCore kernel, -/
abbrev Rreg : Finset (DevRef τ sig) :=
  ((((ucRefs τ sig).erase (Proc.devRef .tc main_v0 : DevRef τ sig)).erase (Proc.devRef .tc main_v20 : DevRef τ sig)).erase (Proc.devRef .tc main_v21 : DevRef τ sig)).erase (Proc.devRef .tc main_v22 : DevRef τ sig)
/-- but the result and the five arguments. -/
abbrev Rfin : Finset (DevRef τ sig) :=
  ((((((ucRefs τ sig).erase (Proc.devRef .tc main_v23 : DevRef τ sig)).erase (Proc.devRef .tc main_arg0 : DevRef τ sig)).erase (Proc.devRef .tc main_arg1 : DevRef τ sig)).erase (Proc.devRef .tc main_arg2 : DevRef τ sig)).erase
    (Proc.devRef .tc main_arg3 : DevRef τ sig)).erase (Proc.devRef .tc main_arg4 : DevRef τ sig)

theorem sc_split (d : Dev nD) (W : Valuation τ sig (Elt F)) :
    (held (T d : Thread nD τ) (ucRefs τ sig) W : sProp 𝕄)
      = iprop(((d, (Proc.devRef .tc main_v15 : DevRef τ sig)) ↦{fullShare} W (Proc.devRef .tc main_v15 : DevRef τ sig)) ∗ ((d, (Proc.devRef .tc main_v17 : DevRef τ sig)) ↦{fullShare} W (Proc.devRef .tc main_v17 : DevRef τ sig))
          ∗ ((d, (Proc.devRef .tc main_v18 : DevRef τ sig)) ↦{fullShare} W (Proc.devRef .tc main_v18 : DevRef τ sig)) ∗ held (T d : Thread nD τ) Rsc W) := by
  rw [held_take (T d) (mem_ucRefs main_v15) W,
    held_take (T d) (Finset.mem_erase.mpr ⟨StableHlo.devRef_ne_of_ne (by decide), mem_ucRefs main_v17⟩) W,
    held_take (T d) (Finset.mem_erase.mpr ⟨StableHlo.devRef_ne_of_ne (by decide),
      Finset.mem_erase.mpr ⟨StableHlo.devRef_ne_of_ne (by decide), mem_ucRefs main_v18⟩⟩) W]

theorem reg_split (d : Dev nD) (W : Valuation τ sig (Elt F)) :
    (held (T d : Thread nD τ) (ucRefs τ sig) W : sProp 𝕄)
      = iprop(((d, (Proc.devRef .tc main_v0 : DevRef τ sig)) ↦{fullShare} W (Proc.devRef .tc main_v0 : DevRef τ sig)) ∗ ((d, (Proc.devRef .tc main_v20 : DevRef τ sig)) ↦{fullShare} W (Proc.devRef .tc main_v20 : DevRef τ sig))
          ∗ ((d, (Proc.devRef .tc main_v21 : DevRef τ sig)) ↦{fullShare} W (Proc.devRef .tc main_v21 : DevRef τ sig)) ∗ ((d, (Proc.devRef .tc main_v22 : DevRef τ sig)) ↦{fullShare} W (Proc.devRef .tc main_v22 : DevRef τ sig))
          ∗ held (T d : Thread nD τ) Rreg W) := by
  rw [held_take (T d) (mem_ucRefs main_v0) W,
    held_take (T d) (Finset.mem_erase.mpr ⟨StableHlo.devRef_ne_of_ne (by decide), mem_ucRefs main_v20⟩) W,
    held_take (T d) (Finset.mem_erase.mpr ⟨StableHlo.devRef_ne_of_ne (by decide),
      Finset.mem_erase.mpr ⟨StableHlo.devRef_ne_of_ne (by decide), mem_ucRefs main_v21⟩⟩) W,
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide), mem_ucRefs main_v22⟩⟩⟩) W]

/-- A reference no line writes and neither call returns holds its launch contents at the end. -/
theorem kept (m : (ℓ : Loc nD τ sig) → Buf (Elt F) ℓ) (d : Dev nD) {r : Ref sig .tc} (hA : r ∉ writtenA) (hB : r ∉ writtenB)
    (hC : r ∉ writtenC) (h18 : r ≠ main_v18) (h22 : r ≠ main_v22) :
    VC m d (Proc.devRef .tc r) = m (aLoc d r) := by
  show after (hostOpsC (F := F)) (VB' m d) (Proc.devRef .tc r) = _
  rw [afterC_keep _ hC]
  show Function.update (VB m d) _ _ (Proc.devRef .tc r) = _
  rw [Function.update_of_ne (StableHlo.devRef_ne_of_ne h22)]
  show after (hostOpsB (F := F)) (VA' m d) (Proc.devRef .tc r) = _
  rw [afterB_keep _ hB]
  show Function.update (VA m d) _ _ (Proc.devRef .tc r) = _
  rw [Function.update_of_ne (StableHlo.devRef_ne_of_ne h18)]
  show after (hostOpsA (F := F)) (V₀ m d) (Proc.devRef .tc r) = _
  rw [afterA_keep _ hA]

/-! ## The held buffers around the calls -/

/-- Before the SparseCore call: the positions, the values and the output buffer as launched, apart from the rest. -/
theorem heldA_eq (m : (ℓ : Loc nD τ sig) → Buf (Elt F) ℓ) (d : Dev nD) :
    (held (T d : Thread nD τ) (ucRefs τ sig) (VA m d) : sProp 𝕄)
      = iprop((aLoc d main_v15 ↦{fullShare} (flatM m d : Buf (Elt F) (aLoc d main_v15))) ∗ (aLoc d main_v17 ↦{fullShare} (valsM m d : Buf (Elt F) (aLoc d main_v17)))
          ∗ (aLoc d main_v18 ↦{fullShare} m (aLoc d main_v18)) ∗ held (T d : Thread nD τ) Rsc (VA m d)) := by
  rw [sc_split d (VA m d), show VA m d (Proc.devRef .tc main_v15 : DevRef τ sig) = flatM m d from afterA_v15 (V₀ m d),
    show VA m d (Proc.devRef .tc main_v17 : DevRef τ sig) = valsM m d from afterA_v17 (V₀ m d),
    show VA m d (Proc.devRef .tc main_v18 : DevRef τ sig) = m (aLoc d main_v18) from afterA_keep (V₀ m d) (by decide)]

/-- After it: the output buffer at the scatter's value. -/
theorem heldA'_eq (m : (ℓ : Loc nD τ sig) → Buf (Elt F) ℓ) (d : Dev nD) :
    (held (T d : Thread nD τ) (ucRefs τ sig) (VA' m d) : sProp 𝕄)
      = iprop((aLoc d main_v15 ↦{fullShare} (flatM m d : Buf (Elt F) (aLoc d main_v15))) ∗ (aLoc d main_v17 ↦{fullShare} (valsM m d : Buf (Elt F) (aLoc d main_v17)))
          ∗ (aLoc d main_v18 ↦{fullShare} (scOut (F := F) (flatM m d) (valsM m d) : Buf (Elt F) (aLoc d main_v18))) ∗ held (T d : Thread nD τ) Rsc (VA m d)) := by
  rw [sc_split d (VA' m d), held_erase_update,
    show VA' m d (Proc.devRef .tc main_v15 : DevRef τ sig) = flatM m d from
      (Function.update_of_ne (StableHlo.devRef_ne_of_ne (by decide)) _ _).trans (afterA_v15 (V₀ m d)),
    show VA' m d (Proc.devRef .tc main_v17 : DevRef τ sig) = valsM m d from
      (Function.update_of_ne (StableHlo.devRef_ne_of_ne (by decide)) _ _).trans (afterA_v17 (V₀ m d)),
    show VA' m d (Proc.devRef .tc main_v18 : DevRef τ sig) = scOut (F := F) (flatM m d) (valsM m d) from Function.update_self _ _ _]

/-- Before the TensorCore kernel: its three operands and the output buffer as launched, apart from the rest. -/
theorem heldB_eq (m : (ℓ : Loc nD τ sig) → Buf (Elt F) ℓ) (d : Dev nD) :
    (held (T d : Thread nD τ) (ucRefs τ sig) (VB m d) : sProp 𝕄)
      = iprop((aLoc d main_v0 ↦{fullShare} (xM m d : Buf (Elt F) (aLoc d main_v0))) ∗ (aLoc d main_v20 ↦{fullShare} (wM m d : Buf (Elt F) (aLoc d main_v20))) ∗ (aLoc d main_v21 ↦{fullShare} (bM m d : Buf (Elt F) (aLoc d main_v21)))
          ∗ (aLoc d main_v22 ↦{fullShare} m (aLoc d main_v22)) ∗ held (T d : Thread nD τ) Rreg (VB m d)) := by
  have e0 : VB m d (Proc.devRef .tc main_v0 : DevRef τ sig) = xM m d :=
    (afterB_keep (VA' m d) (by decide)).trans ((Function.update_of_ne (StableHlo.devRef_ne_of_ne (by decide)) _ _).trans (afterA_v0 (V₀ m d)))
  have e20 : VB m d (Proc.devRef .tc main_v20 : DevRef τ sig) = wM m d :=
    (afterB_v20 (VA' m d)).trans (congrArg (wOf (F := F)) (Function.update_self _ _ _))
  have e21 : VB m d (Proc.devRef .tc main_v21 : DevRef τ sig) = bM m d :=
    (afterB_v21 (VA' m d)).trans (congrArg (bOf (F := F))
      ((Function.update_of_ne (StableHlo.devRef_ne_of_ne (by decide)) _ _).trans (afterA_keep (V₀ m d) (by decide))))
  have e22 : VB m d (Proc.devRef .tc main_v22 : DevRef τ sig) = m (aLoc d main_v22) :=
    (afterB_keep (VA' m d) (by decide)).trans ((Function.update_of_ne (StableHlo.devRef_ne_of_ne (by decide)) _ _).trans
      (afterA_keep (V₀ m d) (by decide)))
  rw [reg_split d (VB m d), e0, e20, e21, e22]

/-- After it: the output buffer at the convolution. -/
theorem heldB'_eq (m : (ℓ : Loc nD τ sig) → Buf (Elt F) ℓ) (d : Dev nD) :
    (held (T d : Thread nD τ) (ucRefs τ sig) (VB' m d) : sProp 𝕄)
      = iprop((aLoc d main_v0 ↦{fullShare} (xM m d : Buf (Elt F) (aLoc d main_v0))) ∗ (aLoc d main_v20 ↦{fullShare} (wM m d : Buf (Elt F) (aLoc d main_v20))) ∗ (aLoc d main_v21 ↦{fullShare} (bM m d : Buf (Elt F) (aLoc d main_v21)))
          ∗ (aLoc d main_v22 ↦{fullShare} (convOut (F := F) (xM m d) (wM m d) (bM m d) : Buf (Elt F) (aLoc d main_v22))) ∗ held (T d : Thread nD τ) Rreg (VB m d)) := by
  have e0 : VB' m d (Proc.devRef .tc main_v0 : DevRef τ sig) = xM m d :=
    (Function.update_of_ne (StableHlo.devRef_ne_of_ne (by decide)) _ _).trans ((afterB_keep (VA' m d) (by decide)).trans
      ((Function.update_of_ne (StableHlo.devRef_ne_of_ne (by decide)) _ _).trans (afterA_v0 (V₀ m d))))
  have e20 : VB' m d (Proc.devRef .tc main_v20 : DevRef τ sig) = wM m d :=
    (Function.update_of_ne (StableHlo.devRef_ne_of_ne (by decide)) _ _).trans
      ((afterB_v20 (VA' m d)).trans (congrArg (wOf (F := F)) (Function.update_self _ _ _)))
  have e21 : VB' m d (Proc.devRef .tc main_v21 : DevRef τ sig) = bM m d :=
    (Function.update_of_ne (StableHlo.devRef_ne_of_ne (by decide)) _ _).trans
      ((afterB_v21 (VA' m d)).trans (congrArg (bOf (F := F))
        ((Function.update_of_ne (StableHlo.devRef_ne_of_ne (by decide)) _ _).trans (afterA_keep (V₀ m d) (by decide)))))
  have e22 : VB' m d (Proc.devRef .tc main_v22 : DevRef τ sig) = convOut (F := F) (xM m d) (wM m d) (bM m d) := Function.update_self _ _ _
  rw [reg_split d (VB' m d), held_erase_update, e0, e20, e21, e22]

/-- At the end: the result at the composite of the arguments, the arguments as launched. -/
theorem heldC_fin (m : (ℓ : Loc nD τ sig) → Buf (Elt F) ℓ) (d : Dev nD) :
    (held (T d : Thread nD τ) (ucRefs τ sig) (VC m d) : sProp 𝕄) ⊢ FIN (F := F) m d := by
  have e23 : VC m d (Proc.devRef .tc main_v23 : DevRef τ sig) = outM m d :=
    (afterC_v23 (VB' m d)).trans (congrArg (yOf (F := F)) (Function.update_self _ _ _))
  have e0 := kept m d (r := main_arg0) (by decide) (by decide) (by decide) (by decide) (by decide)
  have e1 := kept m d (r := main_arg1) (by decide) (by decide) (by decide) (by decide) (by decide)
  have e2 := kept m d (r := main_arg2) (by decide) (by decide) (by decide) (by decide) (by decide)
  have e3 := kept m d (r := main_arg3) (by decide) (by decide) (by decide) (by decide) (by decide)
  have e4 := kept m d (r := main_arg4) (by decide) (by decide) (by decide) (by decide) (by decide)
  rw [held_take (T d) (mem_ucRefs main_v23) (VC m d),
    held_take (T d) (Finset.mem_erase.mpr ⟨StableHlo.devRef_ne_of_ne (by decide), mem_ucRefs main_arg0⟩) (VC m d),
    held_take (T d) (Finset.mem_erase.mpr ⟨StableHlo.devRef_ne_of_ne (by decide),
      Finset.mem_erase.mpr ⟨StableHlo.devRef_ne_of_ne (by decide), mem_ucRefs main_arg1⟩⟩) (VC m d),
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide), mem_ucRefs main_arg2⟩⟩⟩) (VC m d),
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide),
          Finset.mem_erase.mpr ⟨StableHlo.devRef_ne_of_ne (by decide), mem_ucRefs main_arg3⟩⟩⟩⟩) (VC m d),
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide),
          Finset.mem_erase.mpr ⟨StableHlo.devRef_ne_of_ne (by decide),
            Finset.mem_erase.mpr ⟨StableHlo.devRef_ne_of_ne (by decide), mem_ucRefs main_arg4⟩⟩⟩⟩⟩) (VC m d),
    e23, e0, e1, e2, e3, e4]
  unfold FIN
  iintro ⟨H23, H0, H1, H2, H3, H4, -⟩
  isplitl [H23]; · iexact H23
  isplitl [H0]; · iexact H0
  isplitl [H1]; · iexact H1
  isplitl [H2]; · iexact H2
  isplitl [H3]; · iexact H3
  iexact H4

/-! ## @main on the TensorCore -/

-- `T d` is the thread `d.tc`, at which the rules for the lines are stated
set_option backward.isDefEq.respectTransparency.types false in
/-- @main on device `d`'s TensorCore: from the launch's holdings, through the three lines and the two calls, to the
    handshake state after the one SparseCore call and `FIN`. -/
theorem hmain (m : (ℓ : Loc nD τ sig) → Buf (Elt F) ℓ) (ρ : Dev nD → PrngReg)
    (P : (K (F := F)).Pay (nD := nD) (Val := Elt F) (Name := ℕ) (U := UU)) (G : Dev nD → sProp (MT nD τ sig (HIx 1) (Elt F) ℕ UU ℕ))
    (hsc : ScCall (F := F) m P) (hreg : RegionCall (F := F) m G) (κ : GSem nD τ sig → ℕ) (d : Dev nD) :
    iprop((K (F := F)).ctx EH P κ ∗ (K (F := F)).tcSt EH d 0 ∗ (K (F := F)).tcRes m ρ d ∗ G d)
      ⊢ wp frame (wpE ((K (F := F)).defs (D (F := F))) 𝒱 (T d) none) Set.univ (main (F := F) d)
          fun _ => iprop((K (F := F)).tcSt EH d 1 ∗ FIN (F := F) m d) := by
  unfold SparseCore.Cfg.tcRes
  rw [show (unscopedBufs d (fun b => m ((T d : Thread nD τ).loc b)) : sProp 𝕄) = held (T d : Thread nD τ) (ucRefs τ sig) (V₀ m d)
        from unscopedBufs_held d (V₀ m d), main_eq]
  simp only [chain_cons, chain_nil]
  iintro ⟨#Hctx, Hst, ⟨Hb, Hh, -, -⟩, HG⟩
  -- the first line
  iapply (wp_hostA d _ (V₀ m d)) $$ [Hb Hh]
  · isplitl [Hb]; · iexact Hb
    iexact Hh
  iintro ⟨Hb, Hh⟩
  -- the SparseCore call
  ihave Hh' := (Entails.of_eq (heldA_eq m d)) $$ Hh
  icases Hh' with ⟨H15, H17, H18, Hrest⟩
  rw [wp_bind]
  iapply (hsc κ d) $$ [Hst H15 H17 H18 Hb HG Hrest]
  isplitr; · iexact Hctx
  isplitl [Hst]; · iexact Hst
  isplitl [H15]; · iexact H15
  isplitl [H17]; · iexact H17
  isplitl [H18]; · iexact H18
  iintro ⟨Hst, H15, H17, H18⟩
  ihave Hh := (Entails.of_eq (heldA'_eq m d).symm) $$ [H15 H17 H18 Hrest]
  · isplitl [H15]; · iexact H15
    isplitl [H17]; · iexact H17
    isplitl [H18]; · iexact H18
    iexact Hrest
  -- the second line
  iapply (wp_hostB d _ (VA' m d)) $$ [Hb Hh]
  · isplitl [Hb]; · iexact Hb
    iexact Hh
  iintro ⟨Hb, Hh⟩
  -- the TensorCore kernel
  ihave Hh' := (Entails.of_eq (heldB_eq m d)) $$ Hh
  icases Hh' with ⟨H0, H20, H21, H22, Hrest⟩
  ihave Hlev := (SparseCore.Cfg.ctx_levAts κ) $$ Hctx
  iapply (hreg d _ _) $$ [Hb H0 H20 H21 H22 HG Hst Hrest]
  isplitr; · iexact Hlev
  isplitl [Hb]; · iexact Hb
  isplitl [H0]; · iexact H0
  isplitl [H20]; · iexact H20
  isplitl [H21]; · iexact H21
  isplitl [H22]; · iexact H22
  isplitl [HG]; · iexact HG
  isplitl [Hst]; · iexact Hst
  iintro ⟨Hb, H0, H20, H21, H22, Hst⟩
  ihave Hh := (Entails.of_eq (heldB'_eq m d).symm) $$ [H0 H20 H21 H22 Hrest]
  · isplitl [H0]; · iexact H0
    isplitl [H20]; · iexact H20
    isplitl [H21]; · iexact H21
    isplitl [H22]; · iexact H22
    iexact Hrest
  -- the last line
  iapply (wp_hostC d _ (VB' m d)) $$ [Hb Hh]
  · isplitl [Hb]; · iexact Hb
    iexact Hh
  iintro ⟨Hb, Hh⟩
  rw [wp_pure]
  imodintro
  isplitl [Hst]; · iexact Hst
  iapply (heldC_fin m d); iexact Hh

end Cert.Proof.KB

end
-- ==== Proof.KB.Run.lean ====
/-
  The launch element of the three ghost states — the handshakes' rounds, the rounds of the tiles' DMA cells, the rounds
  of the TensorCore region's staging cells — and the launch theorem applied: every weakly fair execution of the threads
  terminates, nothing faulting, and leaves the result at the pure description and the five arguments unchanged.
-/
import proofs.«216126_g59949153517679_cont_9to1_m_442_25_alg».proof.Proof.KB.ScLaunch
import proofs.«216126_g59949153517679_cont_9to1_m_442_25_alg».proof.Proof.KB.Region
import proofs.«216126_g59949153517679_cont_9to1_m_442_25_alg».proof.Proof.KB.BodyArr
import proofs.«216126_g59949153517679_cont_9to1_m_442_25_alg».proof.Proof.KB.Main

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Run

variable [FloatOps F]
variable (m : (ℓ : Loc nD τ sig) → Buf (Elt F) ℓ) (ρ : Dev nD → PrngReg)

/-- The output buffer of the scatter as launched. -/
abbrev f0M (d : Dev nD) : Buf (Elt F) (outLoc d) := m (aLoc d main_v18)

/-! ## The launch element -/

/-- The handshakes' launch element, the tiles' DMA cells', the region's staging cells'. -/
def u₀ : UU := (initOf (K (F := F)).hsCells (K (F := F)).hsToks, (initOf kCells kToks, uP₀))

/-- The launch element splits into its three components; the second funds every tile's three cells, dealt to the tiles;
    the third funds every device's region. -/
theorem hu₀ : (ownU (u₀ (F := F)) : sProp 𝕄)
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P (flatM m) (valsM m) (f0M m)).x q thr) := by
  unfold u₀
  iintro Hu
  ihave H := (ownU_split _ _ _) $$ Hu
  icases H with ⟨HH, HK, HP⟩
  imod (kits_intro (flatM m) (valsM m)) $$ HK with Hkits
  imod (fund_region (F := F)) $$ HP with Hreg
  imodintro
  isplitl [HH]; · iexact HH
  isplitl [Hreg]; · iexact Hreg
  iapply (kits_deal (flatM m) (valsM m) (f0M m)); iexact Hkits

/-! ## The TensorCore's two calls -/

/-- The SparseCore call, at the positions and values the host operations computed. -/
theorem sc_call_at : ScCall m (P (flatM m) (valsM m) (f0M m)) :=
  fun κ d => sc_call (flatM m) (valsM m) (f0M m) κ d

/-- The pipeline's four arrays at the region's entry on device `c`: the transposed input, the scattered weights in
    three rounded planes, the bias column, and the result array as launched. -/
def AM (c : Dev nD) : Arrs (F := F) c := fun w => match w with
  | ⟨0, _⟩ => xM m c
  | ⟨1, _⟩ => wM m c
  | ⟨2, _⟩ => bM m c
  | ⟨3, _⟩ => m (aLoc c main_v22)

/-- The pipelined region's call: the pipeline's proof data at those arrays, nothing owed, no invariant, the recorded
    pairs within the SparseCore call's band; the inputs come back as they were and the result is the convolution. -/
theorem region_call_at : RegionCall m (regionGhost (F := F)) := fun d _ k Q =>
  region_call_locs (fun c => dats c (AM m c) BI.emp 0 (tcRec (F := F) c))
    (fun c => (body_obligation c (AM m c) BI.emp 0 (tcRec (F := F) c) none).loose)
    (fun _ _ => rfl) (fun _ _ => rfl) (fun _ _ => rfl) (fun _ _ => rfl)
    (K (F := F)).lev (K (F := F)).refines_self d (xM m d) (wM m d) (bM m d) (m (aLoc d main_v22)) (convOut (F := F) (xM m d) (wM m d) (bM m d))
    rfl rfl rfl rfl
    (arrAt_in0 d (AM m d) BI.emp 0 (tcRec (F := F) d) cfg1.N) (arrAt_in1 d (AM m d) BI.emp 0 (tcRec (F := F) d) cfg1.N)
    (arrAt_in2 d (AM m d) BI.emp 0 (tcRec (F := F) d) cfg1.N) (arrAt_out d (AM m d) BI.emp 0 (tcRec (F := F) d)) k Q

/-! ## The program's run -/

/-- The result at the pure description, and the five arguments unchanged, on every device. -/
def QC : PUnit × MemSt nD τ sig (Elt F) → Prop := fun r => ∀ c : Dev nD,
  r.2.mem (aLoc c main_v23) = (outM m c : Buf (Elt F) (aLoc c main_v23))
    ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4)

theorem run_main [∀ e, Nonempty (Elt F e)] :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (flatM m) (valsM m) (f0M m)) facts v₀
    (fun q hq => match q with | 0 => nomatch hq)
    (fun q _ => match q with | 0 => tileObl (flatM m) (valsM m) (f0M m) facts)
    (fun q _ => match q with | 0 => SparseCore.Cfg.VecSplit.of_plain (vecSplit (flatM m) (valsM m) (f0M m)))
    m ρ main (regionGhost (F := F)) (FIN m) (u₀ (F := F)) (sep_elim_left.trans (hu₀ m))
    (hmain m ρ (P (flatM m) (valsM m) (f0M m)) (regionGhost (F := F)) (sc_call_at m) (region_call_at m)) (fq m) (hfin m) (QC m) (fun _ h => h)

end Run

end Cert.Proof.KB

end
-- ==== Proof.KI.Common.lean ====
/-
  The SparseCore program as the launch theorem reads it, and the ghost state every module of the frame shares:
  the handshakes' rounds, the rounds of the tiles' own DMA semaphores, and the rounds of the TensorCore
  region's staging cells, as three components of one resource algebra with an embedding each.
-/
import proofs.«216126_g59949153517679_cont_9to1_m_442_25_alg».proof.KernelIdeal
import proofs.«216126_g59949153517679_cont_9to1_m_442_25_alg».proof.Proof.Gen.KernelIdeal
import proofs.«216126_g59949153517679_cont_9to1_m_442_25_alg».proof.Proof.Gen.KernelIdeal.Skeleton
import proofs.«216126_g59949153517679_cont_9to1_m_442_25_alg».proof.Proof.Gen.KernelIdeal.Launch
import proofs.«216126_g59949153517679_cont_9to1_m_442_25_alg».proof.Proof.Gen.KernelIdeal.Points
import Idealize.ShloMosaic.Lib.SparseCore.Launch
import Idealize.ShloMosaic.Lib.SparseCore.Ops
import Idealize.ShloMosaic.Lib.StableHlo.Run
import Idealize.ShloMosaic.Lib.Tactic

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshakes, the tiles' DMA cells, the region's staging cells -/

abbrev UH : Type := URounds (GSem nD τ sig) ℕ
abbrev UK : Type := URounds (GSem nD τ sig) Unit
abbrev UP : Type := URounds (GSem nD τ sig) Unit
abbrev UU : Type := UH × (UK × UP)

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EK : Emb UK (MT nD τ sig (HIx 1) (Elt F) ℕ UU ℕ) :=
  ((Emb.inl : Emb UK (UK × UP)).trans (Emb.inr : Emb (UK × UP) UU)).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inr : Emb UP (UK × UP)).trans (Emb.inr : Emb (UK × UP) UU)).trans (uEmb (nD := nD) (sig := sig) (Ix := HIx 1) (Val := Elt F) (Name := ℕ) (U := UU) (Lvl := ℕ)).toEmb

local notation "𝕄" => MT nD τ sig (HIx 1) (Elt F) ℕ UU ℕ

instance EH_landsIn : (EH : Emb UH 𝕄).LandsIn (upEmb : UEmb _ 𝕄) := by unfold EH; infer_instance
instance EK_landsIn : (EK : Emb UK 𝕄).LandsIn (upEmb : UEmb _ 𝕄) := by unfold EK; infer_instance
instance EP_landsIn : (EP : Emb UP 𝕄).LandsIn (upEmb : UEmb _ 𝕄) := by unfold EP; infer_instance

/-- The element of the algebra splits into its three components. -/
theorem ownU_split (a : UH) (b : UK) (c : UP) :
    (ownU ((a, (b, c)) : UU) : sProp 𝕄) ⊢ iprop(BI.own (EH a) ∗ BI.own (EK b) ∗ BI.own (EP c)) := by
  have h1 : ((a, (b, c)) : UU) ∈ PCS.op ((a, 1) : UU) ((1, (b, c)) : UU) :=
    Prod.mk_mem_op (URA.mem_op_one a) (URA.mem_one_op ((b, c) : UK × UP))
  have h2 : ((1, (b, c)) : UU) ∈ PCS.op ((1, ((b, 1) : UK × UP)) : UU) ((1, ((1, c) : UK × UP)) : UU) :=
    Prod.mk_mem_op (URA.mem_op_one (1 : UH)) (Prod.mk_mem_op (URA.mem_op_one b) (URA.mem_one_op c))
  refine (BI.own_op_elim ((uEmb (nD := nD) (sig := sig) (Ix := HIx 1) (Val := Elt F) (Name := ℕ) (U := UU) (Lvl := ℕ)).toEmb.op_of_mem h1)).trans ?_
  exact sep_mono (BI.Entails.refl _)
    (BI.own_op_elim ((uEmb (nD := nD) (sig := sig) (Ix := HIx 1) (Val := Elt F) (Name := ℕ) (U := UU) (Lvl := ℕ)).toEmb.op_of_mem h2))

end Cert.Proof.KI

end
-- ==== Proof.KI.ScSpec.lean ====
/-
  What one tile of the scatter leaves in its slice of the padded output, as a pure function of the
  positions and the values: the zero fill, then for each of the 104 chunks of sixteen lanes the indexed
  store of the lanes whose position falls in the tile's own range of 5184 words, lanes in ascending
  order. The whole output is the thirty-two tiles' slices laid side by side.
-/
import proofs.«216126_g59949153517679_cont_9to1_m_442_25_alg».proof.KernelIdeal
import proofs.«216126_g59949153517679_cont_9to1_m_442_25_alg».proof.Proof.Gen.KernelIdeal
import proofs.«216126_g59949153517679_cont_9to1_m_442_25_alg».proof.Proof.Gen.KernelIdeal.Skeleton

noncomputable section

namespace Cert.Proof.KI

open Cert.KernelIdeal Cert.KernelIdeal.Gen
open Idealize.ShloMosaic

variable {F : FTy → Type} [FloatOps F]

/-- Lane `x` of chunk `k`: word `16 k + x` of the 1664. -/
def laneIdx (k : Fin 104) (x : S16.Idx) : S1664.Idx :=
  fun a => ⟨16 * k.val + (x 0).val, by
    obtain rfl : a = 0 := Subsingleton.elim _ _
    have h1 := k.isLt
    have h2 : (x 0).val < 16 := (x 0).isLt
    show 16 * k.val + (x 0).val < 1664
    omega⟩

/-- The sixteen lanes of chunk `k` of a vector of 1664. -/
def chunkOf {α : Type} (v : S1664.Idx → α) (k : Fin 104) : S16.Idx → α := fun x => v (laneIdx k x)

/-- A word that passes both signed tests, `0 ≤ loc` and `loc < 5184`, is below 5184 read unsigned. -/
theorem range_of_mask (loc : BitVec 32)
    (h : IntOp.andi (IntOp.cmpi .sge loc 0#32) (IntOp.cmpi .slt loc 5184#32) = 1) : loc.toNat < 5184 := by
  have h' : BitVec.ofBool ((0#32).sle loc) &&& BitVec.ofBool (loc.slt 5184#32) = 1#1 := h
  have h1 : ∀ a b : Bool, BitVec.ofBool a &&& BitVec.ofBool b = 1#1 → a = true ∧ b = true := by decide
  obtain ⟨ha, hb⟩ := h1 _ _ h'
  rw [BitVec.sle, decide_eq_true_eq] at ha
  rw [BitVec.slt, decide_eq_true_eq] at hb
  have h0 : (0#32).toInt = 0 := by decide
  have h5 : (5184#32).toInt = 5184 := by decide
  rw [h0] at ha; rw [h5] at hb
  have hc := BitVec.toInt_eq_toNat_cond loc
  have hl := loc.isLt
  split at hc <;> omega

/-- The index vector the tile stores at is in range on every lane, whatever was loaded: a lane whose
    mask bit is set passed the signed test `0 ≤ loc < 5184`, and a cleared lane's index is zero. -/
theorem chk_pay4 (L : grid0.Coords) (v10 : IVec S16 32) : k0_chk1 (k0_pay4 (F := F) L v10) := by
  intro a x
  obtain rfl : a = 0 := Subsingleton.elim _ _
  show (k0_pay4 (F := F) L v10 x).toNat < 5184
  unfold k0_pay4 k0_pay3
  simp only [select, Scalar.select, broadcast, cmpi, andi]
  split
  · rename_i h
    exact range_of_mask _ h
  · decide

/-- Trip `k`'s new scratch contents: the indexed store, under the range mask, of chunk `k`'s values
    at chunk `k`'s positions taken relative to the tile's base. -/
def chunkStep (L : grid0.Coords) (flat : IVec S1664 32) (vals : FVec F S1664 .f32) (k : Fin 104) (acc : FVec F S5184 .f32) :
    FVec F S5184 .f32 :=
  storeIdx (F := F) (s := S5184) (e := .f32) acc ![k0_pay4 (F := F) L (chunkOf flat k)] (chunkOf vals k)
    (k0_pay3 (F := F) L (chunkOf flat k)) false (k0_idx1_inb _ (chk_pay4 (F := F) L (chunkOf flat k)))

/-- The scratch after the zero fill and the first `n` chunks. -/
def chunkAfter (L : grid0.Coords) (flat : IVec S1664 32) (vals : FVec F S1664 .f32) : ℕ → FVec F S5184 .f32
  | 0 => fun _ => Scalar.ofBits .f32 0x00000000#32
  | n + 1 => if h : n < 104 then chunkStep L flat vals ⟨n, h⟩ (chunkAfter L flat vals n) else chunkAfter L flat vals n

/-- What tile `L` copies out to its slice. -/
def tileOut (L : grid0.Coords) (flat : IVec S1664 32) (vals : FVec F S1664 .f32) : FVec F S5184 .f32 :=
  chunkAfter L flat vals 104

/-- The tile that owns word `p` of the 165888: slices of 5184 words, tile `(c, s)`'s at `10368 s + 5184 c`. -/
def tileOf (p : S165888.Idx) : grid0.Coords :=
  fun
    | 0 => ⟨((p 0).val / 5184) % 2, by show (p 0).val / 5184 % 2 < 2; omega⟩
    | 1 => ⟨(p 0).val / 10368, by
        have h : (p 0).val < 165888 := (p 0).isLt
        show (p 0).val / 10368 < 16; omega⟩
    | ⟨_ + 2, h⟩ => absurd h (Nat.not_lt.2 (Nat.le_add_left _ _))

/-- Word `p`'s place inside its tile's slice. -/
def tileWord (p : S165888.Idx) : S5184.Idx :=
  fun a => ⟨(p 0).val % 5184, by
    obtain rfl : a = 0 := Subsingleton.elim _ _
    show (p 0).val % 5184 < 5184; omega⟩

/-- The padded output: at word `p`, what the tile that owns `p` leaves at `p`'s place in its slice. -/
def scOut (flat : IVec S1664 32) (vals : FVec F S1664 .f32) : FVec F S165888 .f32 :=
  fun p => tileOut (F := F) (tileOf p) flat vals (tileWord p)

end Cert.Proof.KI

end
-- ==== Proof.KI.Tile.lean ====
/-
  One tile of the scatter: its three DMA semaphores as cells of rounds, each with one round of one duty
  (the fetch of the positions, the fetch of the values, the write-out of the tile's slice), and the tile's
  body from those cells and its pieces of the three arrays: it gives the two read shares back unchanged and
  leaves in its slice of the padded output what the pure description `tileOut` says.
-/
import proofs.«216126_g59949153517679_cont_9to1_m_442_25_alg».proof.Proof.KI.Common
import proofs.«216126_g59949153517679_cont_9to1_m_442_25_alg».proof.Proof.KI.ScSpec

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## The arrays and the tile's names -/

/-- The positions, the values (the kernel's operands) and the padded output (its result), as locations of device `d`. -/
abbrev flatLoc (d : Dev nD) : Loc nD τ sig := (SparseCore.T d).loc main_v15
abbrev valsLoc (d : Dev nD) : Loc nD τ sig := (SparseCore.T d).loc main_v17
abbrev outLoc (d : Dev nD) : Loc nD τ sig := (SparseCore.T d).loc main_v18

variable [FloatOps F]

abbrev fV : Memref sig .scVector .hbm S1664 .i32 := Memref.whole main_v15_scv
abbrev vV : Memref sig .scVector .hbm S1664 .f32 := Memref.whole main_v17_scv
abbrev oV : Memref sig .scVector .hbm S165888 .f32 := Memref.whole main_v18_scv
/-- A tile's scratch: the fetched positions, the fetched values, the slice being built. -/
abbrev sF : Memref sig .scVector .vmem S1664 .i32 := Memref.whole cc0_scratch0
abbrev sV : Memref sig .scVector .vmem S1664 .f32 := Memref.whole cc0_scratch1
abbrev sO : Memref sig .scVector .vmem S5184 .f32 := Memref.whole cc0_scratch2

def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The grid point of the tile `(c, i)`. -/
def LofV (c : Fin τ.nSC) (i : Fin τ.nSub) : grid0.Coords := coordsV ⟨c.val, c.isLt⟩ ⟨i.val, i.isLt⟩

omit [FloatOps F] in
theorem LofV_cV_jV (L : grid0.Coords) : LofV (cV L) (jV L) = L := by
  funext a
  match a with
  | 0 => rfl
  | 1 => rfl

/-- The tile's slice of the padded output, as the kernel slices it. -/
abbrev oSl (L : grid0.Coords) : Memref sig .scVector .hbm S5184 .f32 :=
  (oV : Memref sig .scVector .hbm S165888 .f32).slice (Rect.unit (s := S165888) (k0_off3 L) S5184.size (k0_off3_inb L)) (fun _ => rfl)
abbrev oSet (L : grid0.Coords) : Finset S165888.Idx := (oSl L).view.set

/-! ## The kernel's cells -/

abbrev c0cell (d : Dev nD) (c : Fin τ.nSC) (i : Fin τ.nSub) : GSem nD τ sig := (V d c i, .dma cc0_scoped0.sem)
abbrev c1cell (d : Dev nD) (c : Fin τ.nSC) (i : Fin τ.nSub) : GSem nD τ sig := (V d c i, .dma cc0_scoped1.sem)
abbrev c2cell (d : Dev nD) (c : Fin τ.nSC) (i : Fin τ.nSub) : GSem nD τ sig := (V d c i, .dma cc0_scoped2.sem)

abbrev N0 : ℕ := (sF : Memref sig .scVector .vmem S1664 .i32).view.dmaCredit
abbrev N1 : ℕ := (sV : Memref sig .scVector .vmem S1664 .f32).view.dmaCredit
abbrev N2 : ℕ := sig.dmaCredit .scVector (Kind.scVector.table .hbm) (main_v18_scv : Ref sig .scVector).idx S5184 .f32
theorem N0_pos : 0 < N0 := View.dmaCredit_pos _ (by decide)
theorem N1_pos : 0 < N1 := View.dmaCredit_pos _ (by decide)
theorem N2_pos : 0 < N2 := sig.dmaCredit_pos _ _ _ _ _ (by decide)

inductive CellKind | c0 | c1 | c2
  deriving DecidableEq

def cellKind (g : GSem nD τ sig) : Option CellKind :=
  match g with
  | ((_, .scVector _ _), sm) =>
      if sm = .dma cc0_scoped0.sem then some .c0 else if sm = .dma cc0_scoped1.sem then some .c1
      else if sm = .dma cc0_scoped2.sem then some .c2 else none
  | _ => none

@[simp] theorem cellKind_c0 (d : Dev nD) (c : Fin τ.nSC) (i : Fin τ.nSub) : cellKind (c0cell d c i) = some .c0 := by simp [cellKind]
@[simp] theorem cellKind_c1 (d : Dev nD) (c : Fin τ.nSC) (i : Fin τ.nSub) : cellKind (c1cell d c i) = some .c1 := by
  simp [cellKind, show (cc0_scoped1.sem : DmaSem sig) ≠ cc0_scoped0.sem from by decide]
@[simp] theorem cellKind_c2 (d : Dev nD) (c : Fin τ.nSC) (i : Fin τ.nSub) : cellKind (c2cell d c i) = some .c2 := by
  simp [cellKind, show (cc0_scoped2.sem : DmaSem sig) ≠ cc0_scoped0.sem from by decide, show (cc0_scoped2.sem : DmaSem sig) ≠ cc0_scoped1.sem from by decide]

variable (flat : Dev nD → IVec S1664 32) (vals : Dev nD → FVec F S1664 .f32)
variable (qf qv : Fin τ.nSC → Fin τ.nSub → PosShare TreeShare)

/-- What a landing hands back: a fetch's, the scratch holding the array's contents and the read share of the array
    back; the write-out's, the tile's slice of the output holding what `tileOut` says, and the scratch at some contents. -/
def kPay (g : GSem nD τ sig) : sProp 𝕄 :=
  match g with
  | ((d, .scVector c i), sm) =>
      if sm = .dma cc0_scoped0.sem then
        iprop(((V d c i).loc cc0_scratch0 ↦{fullShare} flat d) ∗ flatLoc d ↦{qf c i} flat d)
      else if sm = .dma cc0_scoped1.sem then
        iprop(((V d c i).loc cc0_scratch1 ↦{fullShare} vals d) ∗ valsLoc d ↦{qv c i} vals d)
      else iprop((∃ g : Buf (Elt F) (outLoc d), ⌜∀ j : S5184.Idx, g ((oSl (LofV c i)).view.emb j) = tileOut (LofV c i) (flat d) (vals d) j⌝
            ∗ outLoc d ↦[oSet (LofV c i)]{fullShare} g)
          ∗ ∃ f, (V d c i).loc cc0_scratch2 ↦{fullShare} f)
  | _ => iprop(emp)

def kRd : Rounds.Schedule (GSem nD τ sig) Unit 𝕄 where
  duties g r := if (cellKind g).isSome ∧ r = 0 then {()} else ∅
  amount g _ _ := match cellKind g with | some .c0 => N0 | some .c1 => N1 | _ => N2
  payload g _ _ := kPay flat vals qf qv g
  amount_pos g _ _ _ := by
    rcases cellKind g with _ | ⟨_ | _ | _⟩
    · exact N2_pos
    · exact N0_pos
    · exact N1_pos
    · exact N2_pos

instance kRd_payload_storable (g : GSem nD τ sig) (r : ℕ) (u : Unit) :
    BI.Storable (upEmb : UEmb _ 𝕄) ((kRd (F := F) flat vals qf qv).payload g r u) := by
  show BI.Storable upEmb (kPay flat vals qf qv g)
  unfold kPay
  rcases g with ⟨⟨d, _ | c | ⟨c, i⟩⟩, sm⟩ <;> dsimp only <;> (repeat' split) <;> infer_instance

def kit (g : GSem nD τ sig) : sProp 𝕄 :=
  iprop(roundState EK (kRd flat vals qf qv) g 0 ∗ atPos EK g 0 ∅ 0 ∗ reached EK g 0 ∗ dutyTok EK g 0 ())

/-! ## The task -/

section Tile

variable (d : Dev nD) (L : grid0.Coords)

theorem kRd_duties₀ {g : GSem nD τ sig} (h : (cellKind g).isSome) : (kRd (F := F) flat vals qf qv).duties g 0 = {()} := if_pos ⟨h, rfl⟩
theorem kRd_mem₀ {g : GSem nD τ sig} (h : (cellKind g).isSome) : () ∈ (kRd (F := F) flat vals qf qv).duties g 0 := by
  rw [kRd_duties₀ flat vals qf qv h]; exact Finset.mem_singleton_self _
theorem kRd_later (g : GSem nD τ sig) : ∀ r, 0 + 1 ≤ r → (kRd (F := F) flat vals qf qv).duties g r = ∅ :=
  fun r hr => if_neg fun ⟨_, h⟩ => by omega
theorem kRd_back {g : GSem nD τ sig} (h : (cellKind g).isSome) :
    bigSep ((kRd (F := F) flat vals qf qv).duties g 0 \ ∅) (fun u => (kRd (F := F) flat vals qf qv).payload g 0 u)
      ⊢ (kRd (F := F) flat vals qf qv).payload g 0 () := by
  rw [Finset.sdiff_empty, kRd_duties₀ flat vals qf qv h, bigSep_singleton]
theorem kRd_expect {g : GSem nD τ sig} (h : (cellKind g).isSome) :
    (kRd (F := F) flat vals qf qv).expect g 0 = (kRd (F := F) flat vals qf qv).amount g 0 () := by
  unfold Rounds.Schedule.expect; rw [kRd_duties₀ flat vals qf qv h]; exact Finset.sum_singleton _ _
theorem kRd_amount_c0 (c : Fin τ.nSC) (i : Fin τ.nSub) : (kRd (F := F) flat vals qf qv).amount (c0cell d c i) 0 () = N0 := by simp [kRd]
theorem kRd_amount_c1 (c : Fin τ.nSC) (i : Fin τ.nSub) : (kRd (F := F) flat vals qf qv).amount (c1cell d c i) 0 () = N1 := by simp [kRd]
theorem kRd_amount_c2 (c : Fin τ.nSC) (i : Fin τ.nSub) : (kRd (F := F) flat vals qf qv).amount (c2cell d c i) 0 () = N2 := by simp [kRd]
theorem kRd_payload_c0 (c : Fin τ.nSC) (i : Fin τ.nSub) :
    (kRd (F := F) flat vals qf qv).payload (c0cell d c i) 0 ()
      = iprop(((V d c i).loc cc0_scratch0 ↦{fullShare} flat d) ∗ flatLoc d ↦{qf c i} flat d) := by
  show kPay flat vals qf qv (c0cell d c i) = _; unfold kPay; exact if_pos rfl
theorem kRd_payload_c1 (c : Fin τ.nSC) (i : Fin τ.nSub) :
    (kRd (F := F) flat vals qf qv).payload (c1cell d c i) 0 ()
      = iprop(((V d c i).loc cc0_scratch1 ↦{fullShare} vals d) ∗ valsLoc d ↦{qv c i} vals d) := by
  show kPay flat vals qf qv (c1cell d c i) = _; unfold kPay; exact (if_neg (by decide)).trans (if_pos rfl)
theorem kRd_payload_c2 (c : Fin τ.nSC) (i : Fin τ.nSub) :
    (kRd (F := F) flat vals qf qv).payload (c2cell d c i) 0 ()
      = iprop((∃ g : Buf (Elt F) (outLoc d), ⌜∀ j : S5184.Idx, g ((oSl (LofV c i)).view.emb j) = tileOut (LofV c i) (flat d) (vals d) j⌝
            ∗ outLoc d ↦[oSet (LofV c i)]{fullShare} g)
          ∗ ∃ f, (V d c i).loc cc0_scratch2 ↦{fullShare} f) := by
  show kPay flat vals qf qv (c2cell d c i) = _; unfold kPay; exact (if_neg (by decide)).trans (if_neg (by decide))

theorem kRd_payload_c2L :
    (kRd (F := F) flat vals qf qv).payload (c2cell d (cV L) (jV L)) 0 ()
      = iprop((∃ g : Buf (Elt F) (outLoc d), ⌜∀ j : S5184.Idx, g ((oSl L).view.emb j) = tileOut L (flat d) (vals d) j⌝
            ∗ outLoc d ↦[oSet L]{fullShare} g)
          ∗ ∃ f, (V d (cV L) (jV L)).loc cc0_scratch2 ↦{fullShare} f) := by
  rw [kRd_payload_c2, LofV_cV_jV]

omit [FloatOps F] in
theorem pts_fV (q : PosShare TreeShare) (f : Buf (Elt F) (flatLoc d)) :
    ((fV : Memref sig .scVector .hbm S1664 .i32).view.loc (V d (cV L) (jV L)) ↦[(fV : Memref sig .scVector .hbm S1664 .i32).view.set]{q} f : sProp 𝕄)
      = flatLoc d ↦{q} f := by
  simp only [Memref.view_whole, View.set_whole]
omit [FloatOps F] in
theorem pts_vV (q : PosShare TreeShare) (f : Buf (Elt F) (valsLoc d)) :
    ((vV : Memref sig .scVector .hbm S1664 .f32).view.loc (V d (cV L) (jV L)) ↦[(vV : Memref sig .scVector .hbm S1664 .f32).view.set]{q} f : sProp 𝕄)
      = valsLoc d ↦{q} f := by
  simp only [Memref.view_whole, View.set_whole]
omit [FloatOps F] in
theorem pts_oSl (f : Buf (Elt F) (outLoc d)) :
    ((oSl L).view.loc (V d (cV L) (jV L)) ↦[(oSl L).view.set]{fullShare} f : sProp 𝕄) = outLoc d ↦[oSet L]{fullShare} f := rfl
omit [FloatOps F] in
theorem pts_sF (f : Buf (Elt F) ((V d (cV L) (jV L)).loc cc0_scratch0)) :
    ((sF : Memref sig .scVector .vmem S1664 .i32).view.loc (V d (cV L) (jV L)) ↦[(sF : Memref sig .scVector .vmem S1664 .i32).view.set]{fullShare} f : sProp 𝕄)
      = (V d (cV L) (jV L)).loc cc0_scratch0 ↦{fullShare} f := by
  simp only [Memref.view_whole, View.set_whole]
omit [FloatOps F] in
theorem pts_sV (f : Buf (Elt F) ((V d (cV L) (jV L)).loc cc0_scratch1)) :
    ((sV : Memref sig .scVector .vmem S1664 .f32).view.loc (V d (cV L) (jV L)) ↦[(sV : Memref sig .scVector .vmem S1664 .f32).view.set]{fullShare} f : sProp 𝕄)
      = (V d (cV L) (jV L)).loc cc0_scratch1 ↦{fullShare} f := by
  simp only [Memref.view_whole, View.set_whole]
omit [FloatOps F] in
theorem pts_sO (f : Buf (Elt F) ((V d (cV L) (jV L)).loc cc0_scratch2)) :
    ((sO : Memref sig .scVector .vmem S5184 .f32).view.loc (V d (cV L) (jV L)) ↦[(sO : Memref sig .scVector .vmem S5184 .f32).view.set]{fullShare} f : sProp 𝕄)
      = (V d (cV L) (jV L)).loc cc0_scratch2 ↦{fullShare} f := by
  simp only [Memref.view_whole, View.set_whole]
omit [FloatOps F] in
theorem pts_sO_accessW (f : Buf (Elt F) ((V d (cV L) (jV L)).loc cc0_scratch2)) :
    (((sO : Memref sig .scVector .vmem S5184 .f32).access (.whole S5184)).loc (V d (cV L) (jV L))
        ↦[((sO : Memref sig .scVector .vmem S5184 .f32).access (.whole S5184)).set]{fullShare} f : sProp 𝕄)
      = (V d (cV L) (jV L)).loc cc0_scratch2 ↦{fullShare} f := by
  rw [show ((sO : Memref sig .scVector .vmem S5184 .f32).access (.whole S5184)).set = Finset.univ from Memref.set_access_whole cc0_scratch2]
omit [FloatOps F] in
theorem pts_sO_univ (f : Buf (Elt F) ((V d (cV L) (jV L)).loc cc0_scratch2)) :
    ((sO : Memref sig .scVector .vmem S5184 .f32).view.loc (V d (cV L) (jV L)) ↦{fullShare} f : sProp 𝕄) = (V d (cV L) (jV L)).loc cc0_scratch2 ↦{fullShare} f := rfl
omit [FloatOps F] in
theorem pts_sF_univ (f : Buf (Elt F) ((V d (cV L) (jV L)).loc cc0_scratch0)) :
    ((sF : Memref sig .scVector .vmem S1664 .i32).view.loc (V d (cV L) (jV L)) ↦{fullShare} f : sProp 𝕄) = (V d (cV L) (jV L)).loc cc0_scratch0 ↦{fullShare} f := rfl
omit [FloatOps F] in
theorem pts_sV_univ (f : Buf (Elt F) ((V d (cV L) (jV L)).loc cc0_scratch1)) :
    ((sV : Memref sig .scVector .vmem S1664 .f32).view.loc (V d (cV L) (jV L)) ↦{fullShare} f : sProp 𝕄) = (V d (cV L) (jV L)).loc cc0_scratch1 ↦{fullShare} f := rfl
/-- The sixteen words trip `k` of the zero fill rewrites. -/
abbrev r1 (k : Fin k0_t1_loop.trips) : Rect S5184 := Rect.unit (s := S5184) (k0_off1 k) S16.size (k0_off1_inb k)
/-- The sixteen words trip `k` of the scatter loop loads, of the positions and of the values. -/
abbrev r2 (k : Fin k0_t2_loop.trips) : Rect S1664 := Rect.unit (s := S1664) (k0_off2 k) S16.size (k0_off2_inb k)
omit [FloatOps F] in
theorem pts_sO_acc1 (k : Fin k0_t1_loop.trips) (f : Buf (Elt F) ((V d (cV L) (jV L)).loc cc0_scratch2)) :
    (((sO : Memref sig .scVector .vmem S5184 .f32).access (r1 k)).loc (V d (cV L) (jV L)) ↦{fullShare} f : sProp 𝕄) = (V d (cV L) (jV L)).loc cc0_scratch2 ↦{fullShare} f := rfl

omit [FloatOps F] in
theorem ownSems0_V :
    (ownSems0 (V d (cV L) (jV L)) : sProp 𝕄)
      = iprop(semVal (c0cell d (cV L) (jV L)) 0 ∗ semVal (c1cell d (cV L) (jV L)) 0 ∗ semVal (c2cell d (cV L) (jV L)) 0
          ∗ bigSep ((((ownCells (V d (cV L) (jV L))).erase (c0cell d (cV L) (jV L))).erase (c1cell d (cV L) (jV L))).erase (c2cell d (cV L) (jV L)))
              fun g => semVal g 0) := by
  unfold SparseCore.Cfg.ownSems0
  rw [SparseCore.bigSep_erase' ((mem_ownCells (g := c0cell d (cV L) (jV L))).mpr ⟨rfl, by
      show (SemLoc.dma cc0_scoped0.sem : SemLoc sig).isScoped .scVector = true; decide⟩),
    SparseCore.bigSep_erase' (Finset.mem_erase.mpr ⟨by simp [c0cell, c1cell]; decide, (mem_ownCells (g := c1cell d (cV L) (jV L))).mpr ⟨rfl, by
      show (SemLoc.dma cc0_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d (cV L) (jV L))).mpr ⟨rfl, by show (SemLoc.dma cc0_scoped2.sem : SemLoc sig).isScoped .scVector = true; decide⟩⟩⟩)]

omit [FloatOps F] in
/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-! ### The two loops -/

omit [FloatOps F] in
theorem trips1 : k0_t1_loop.trips = 324 := by decide +kernel
omit [FloatOps F] in
theorem trips2 : k0_t2_loop.trips = 104 := by decide +kernel

/-- Before trip `k` of the zero fill the first `16 k` words of the slice scratch are zero. -/
def inv1 (k : ℕ) (_ : Unit) : sProp 𝕄 :=
  iprop(∃ g : Buf (Elt F) ((V d (cV L) (jV L)).loc cc0_scratch2),
    ⌜∀ j : S5184.Idx, (j 0).val < 16 * k → g j = (Scalar.ofBits .f32 0x00000000#32 : F .f32)⌝ ∗ (V d (cV L) (jV L)).loc cc0_scratch2 ↦{fullShare} g)

/-- Before trip `k` of the scatter loop the two fetched scratches hold the positions and the values, and the slice
    scratch what the first `k` chunks leave. -/
def inv2 (k : ℕ) (_ : Unit) : sProp 𝕄 :=
  iprop(((V d (cV L) (jV L)).loc cc0_scratch0 ↦{fullShare} flat d) ∗ ((V d (cV L) (jV L)).loc cc0_scratch1 ↦{fullShare} vals d)
    ∗ (V d (cV L) (jV L)).loc cc0_scratch2 ↦{fullShare} chunkAfter L (flat d) (vals d) k)

/-- A trip of the zero fill extends the zero prefix by its sixteen words. -/
theorem zero_step (k : Fin k0_t1_loop.trips) (g : Buf (Elt F) ((V d (cV L) (jV L)).loc cc0_scratch2))
    (hg : ∀ j : S5184.Idx, (j 0).val < 16 * k.val → g j = (Scalar.ofBits .f32 0x00000000#32 : F .f32)) :
    ∀ j : S5184.Idx, (j 0).val < 16 * (k.val + 1) →
      ((sO : Memref sig .scVector .vmem S5184 .f32).access (r1 k)).write (Elt F) g (k0_pay1 (F := F)) Finset.univ j
        = (Scalar.ofBits .f32 0x00000000#32 : F .f32) := by
  intro j hj
  have ho : k0_off1 k 0 = 16 * k.val := by rw [k0_off1_eq]; rfl
  by_cases hm : j ∈ ((sO : Memref sig .scVector .vmem S5184 .f32).access (r1 k)).setOn Finset.univ
  · obtain ⟨x, -, rfl⟩ := Finset.mem_map.mp hm
    rw [View.write_emb_of_mem _ _ (Finset.mem_univ x)]; rfl
  · rw [View.write_of_not_mem _ _ _ hm]
    apply hg
    by_contra hlt
    apply hm
    have hx : (j 0).val - 16 * k.val < 16 := by omega
    refine Finset.mem_map.mpr ⟨fun a => ⟨(j 0).val - 16 * k.val, by obtain rfl : a = 0 := Subsingleton.elim _ _; exact hx⟩, Finset.mem_univ _, ?_⟩
    funext a
    obtain rfl : a = 0 := Subsingleton.elim _ _
    apply Fin.ext
    show k0_off1 k 0 + 1 * ((j 0).val - 16 * k.val) = (j 0).val
    rw [ho]; omega

theorem region1 (k : Fin k0_t1_loop.trips) (acc : Unit) :
    inv1 (F := F) d L k.val acc ⊢ wp frame (wpE (defs₀ (F := F)) 𝒱₀ (V d (cV L) (jV L)) none) Set.univ
      (k0_t1_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2 k acc)
      (inv1 (F := F) d L (k.val + 1)) := by
  unfold k0_t1_body inv1
  simp only [Prog.lift, Prog.bind_op, Prog.bind_ret, Prog.pure_eq_ret]
  iintro ⟨%g, %hg, Hc⟩
  ihave Hc' := (Entails.of_eq (pts_sO_univ (F := F) d L _).symm) $$ Hc
  iapply (wp_load 𝒱₀ (V d (cV L) (jV L)) none Set.univ (m := (sO : Memref sig .scVector .vmem S5184 .f32)) (S := Finset.univ) (Finset.subset_univ _)) $$ Hc'; iintro Hc'
  ihave Hc := (Entails.of_eq ((pts_sO_univ (F := F) d L _).trans (pts_sO_acc1 (F := F) d L k _).symm)) $$ Hc'
  iapply (wp_store 𝒱₀ (V d (cV L) (jV L)) none Set.univ (m := (sO : Memref sig .scVector .vmem S5184 .f32)) (r := r1 k) (Mk := Finset.univ) (S := Finset.univ) (Finset.subset_univ _)) $$ Hc; iintro Hc
  rw [wp_ret]; imodintro
  iexists _; isplitr
  · ipureintro; exact zero_step (F := F) d L k g hg
  · iexact Hc

omit [FloatOps F] in
theorem lanes_flat (k : Fin k0_t2_loop.trips) (hk : k.val < 104) (fl : IVec S1664 32) :
    (sF : Memref sig .scVector .vmem S1664 .i32).view.readAt (Elt F) (r2 k).toLoadRect fl = chunkOf fl ⟨k.val, hk⟩ := by
  have ho : k0_off2 k 0 = 16 * k.val := by rw [k0_off2_eq]; rfl
  funext x
  rw [View.readAt_apply]
  show fl ((r2 k).toLoadRect.idx x) = fl (laneIdx ⟨k.val, hk⟩ x)
  congr 1
  funext a
  obtain rfl : a = 0 := Subsingleton.elim _ _
  apply Fin.ext
  show k0_off2 k 0 + 1 * (x 0).val = 16 * k.val + (x 0).val
  rw [ho]; omega
omit [FloatOps F] in
theorem lanes_vals (k : Fin k0_t2_loop.trips) (hk : k.val < 104) (vl : FVec F S1664 .f32) :
    (sV : Memref sig .scVector .vmem S1664 .f32).view.readAt (Elt F) (r2 k).toLoadRect vl = chunkOf vl ⟨k.val, hk⟩ := by
  have ho : k0_off2 k 0 = 16 * k.val := by rw [k0_off2_eq]; rfl
  funext x
  rw [View.readAt_apply]
  show vl ((r2 k).toLoadRect.idx x) = vl (laneIdx ⟨k.val, hk⟩ x)
  congr 1
  funext a
  obtain rfl : a = 0 := Subsingleton.elim _ _
  apply Fin.ext
  show k0_off2 k 0 + 1 * (x 0).val = 16 * k.val + (x 0).val
  rw [ho]; omega

/-- The indexed store of loaded lanes that are chunk `k`'s is the pure step. -/
theorem step2_eq (k : ℕ) (hk : k < 104) (fl : IVec S1664 32) (vl : FVec F S1664 .f32) (v10 : IVec S16 32) (v12 : FVec F S16 .f32)
    (h10 : v10 = chunkOf fl ⟨k, hk⟩) (h12 : v12 = chunkOf vl ⟨k, hk⟩)
    (h : ∀ a x, ((![k0_pay4 (F := F) L v10] : Fin 1 → IVec S16 32) a x).toNat < S5184.size a) :
    storeIdx (F := F) (s := S5184) (e := .f32) (chunkAfter L fl vl k) ![k0_pay4 (F := F) L v10] v12 (k0_pay3 (F := F) L v10) false h
      = chunkAfter L fl vl (k + 1) := by
  subst h10 h12
  show _ = (if h : k < 104 then chunkStep L fl vl ⟨k, h⟩ (chunkAfter L fl vl k) else chunkAfter L fl vl k)
  rw [dif_pos hk]; rfl

theorem pts_after (k : Fin k0_t2_loop.trips)
    (h : ∀ a x, ((![k0_pay4 (F := F) L ((sF : Memref sig .scVector .vmem S1664 .i32).view.readAt (Elt F) (r2 k).toLoadRect (flat d))] : Fin 1 → IVec S16 32) a x).toNat < S5184.size a) :
    (((sO : Memref sig .scVector .vmem S5184 .f32).access (.whole S5184)).loc (V d (cV L) (jV L))
        ↦[((sO : Memref sig .scVector .vmem S5184 .f32).access (.whole S5184)).set]{fullShare}
          (((sO : Memref sig .scVector .vmem S5184 .f32).access (.whole S5184)).write (Elt F) (chunkAfter L (flat d) (vals d) k.val)
            (storeIdx (((sO : Memref sig .scVector .vmem S5184 .f32).access (.whole S5184)).read (Elt F) (chunkAfter L (flat d) (vals d) k.val))
              ![k0_pay4 (F := F) L ((sF : Memref sig .scVector .vmem S1664 .i32).view.readAt (Elt F) (r2 k).toLoadRect (flat d))]
              ((sV : Memref sig .scVector .vmem S1664 .f32).view.readAt (Elt F) (r2 k).toLoadRect (vals d))
              (k0_pay3 (F := F) L ((sF : Memref sig .scVector .vmem S1664 .i32).view.readAt (Elt F) (r2 k).toLoadRect (flat d))) false h)
            Finset.univ) : sProp 𝕄)
      = (V d (cV L) (jV L)).loc cc0_scratch2 ↦{fullShare} chunkAfter L (flat d) (vals d) (k.val + 1) := by
  have hk : k.val < 104 := Nat.lt_of_lt_of_le k.isLt (le_of_eq trips2)
  rw [show ((sO : Memref sig .scVector .vmem S5184 .f32).access (.whole S5184)).write (Elt F) (chunkAfter L (flat d) (vals d) k.val) _ Finset.univ = _
      from Memref.write_access_whole_univ (Elt F) cc0_scratch2 _ _,
    show ((sO : Memref sig .scVector .vmem S5184 .f32).access (.whole S5184)).read (Elt F) (chunkAfter L (flat d) (vals d) k.val) = _
      from Memref.read_access_whole (Elt F) cc0_scratch2 _,
    step2_eq (F := F) L k.val hk (flat d) (vals d) _ _ (lanes_flat (F := F) k hk (flat d)) (lanes_vals (F := F) k hk (vals d)) h,
    pts_sO_accessW]

theorem region2 (k : Fin k0_t2_loop.trips) (acc : Unit) :
    inv2 (F := F) flat vals d L k.val acc ⊢ wp frame (wpE (defs₀ (F := F)) 𝒱₀ (V d (cV L) (jV L)) none) Set.univ
      (k0_t2_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2 k acc)
      (inv2 (F := F) flat vals d L (k.val + 1)) := by
  unfold k0_t2_body inv2
  simp only [Prog.lift, Prog.bind_op, Prog.bind_ret, Prog.pure_eq_ret]
  iintro ⟨Hs0, Hs1, Hs2⟩
  ihave Hs0' := (Entails.of_eq (pts_sF_univ (F := F) d L _).symm) $$ Hs0
  iapply (wp_load 𝒱₀ (V d (cV L) (jV L)) none Set.univ (m := (sF : Memref sig .scVector .vmem S1664 .i32)) (S := Finset.univ) (Finset.subset_univ _)) $$ Hs0'; iintro Hs0'
  ihave Hs1' := (Entails.of_eq (pts_sV_univ (F := F) d L _).symm) $$ Hs1
  iapply (wp_load 𝒱₀ (V d (cV L) (jV L)) none Set.univ (m := (sV : Memref sig .scVector .vmem S1664 .f32)) (S := Finset.univ) (Finset.subset_univ _)) $$ Hs1'; iintro Hs1'
  rw [wp_assume_of _ _ _ _ (chk_pay4 (F := F) L _)]
  ihave Hs2' := (Entails.of_eq (pts_sO_accessW (F := F) d L _).symm) $$ Hs2
  iapply (SparseCore.wp_vectorStoreIdx 𝒱₀ (V d (cV L) (jV L)) none Set.univ (base := (sO : Memref sig .scVector .vmem S5184 .f32))) $$ Hs2'; iintro Hs2'
  rw [wp_ret]; imodintro
  ihave Hs2 := (Entails.of_eq (pts_after (F := F) flat vals d L k _)) $$ Hs2'
  isplitl [Hs0']; · iexact Hs0'
  isplitl [Hs1']; · iexact Hs1'
  iexact Hs2

omit [FloatOps F] in
theorem fetch0_lands (fs : Buf (Elt F) ((V d (cV L) (jV L)).loc cc0_scratch0)) (fl : Buf (Elt F) (flatLoc d)) :
    (sF : Memref sig .scVector .vmem S1664 .i32).view.write (Elt F) fs ((fV : Memref sig .scVector .hbm S1664 .i32).view.read (Elt F) fl) Finset.univ = fl :=
  View.write_whole_univ _ _ _
omit [FloatOps F] in
theorem fetch1_lands (fs : Buf (Elt F) ((V d (cV L) (jV L)).loc cc0_scratch1)) (fl : Buf (Elt F) (valsLoc d)) :
    (sV : Memref sig .scVector .vmem S1664 .f32).view.write (Elt F) fs ((vV : Memref sig .scVector .hbm S1664 .f32).view.read (Elt F) fl) Finset.univ = fl :=
  View.write_whole_univ _ _ _

omit [FloatOps F] in
/-- What the write-out lands in the tile's slice is the slice scratch, word for word. -/
theorem out_lands (fo : Buf (Elt F) (outLoc d)) (fs : Buf (Elt F) ((V d (cV L) (jV L)).loc cc0_scratch2)) (j : S5184.Idx) :
    (oSl L).view.write (Elt F) fo ((sO : Memref sig .scVector .vmem S5184 .f32).view.read (Elt F) fs) Finset.univ ((oSl L).view.emb j) = fs j := by
  rw [View.write_emb_of_mem _ _ (Finset.mem_univ j)]; rfl

set_option maxHeartbeats 4000000 in
/-- The task on vector subcore `(L 0, L 1)` of device `d`. -/
theorem tile_body (hF : (K (F := F)).Facts) (f0 : (d : Dev nD) → Buf (Elt F) (outLoc d))
    (O : CellTallies nD τ sig (HIx 1)) (W : Waits sig (HIx 1)) (hO : ∀ g, O g none = 0) :
    iprop(levAts (K (F := F)).L (K (F := F)).lev
        ∗ (kit flat vals qf qv (c0cell d (cV L) (jV L)) ∗ kit flat vals qf qv (c1cell d (cV L) (jV L)) ∗ kit flat vals qf qv (c2cell d (cV L) (jV L)))
        ∗ ((flatLoc d ↦{qf (cV L) (jV L)} flat d) ∗ (valsLoc d ↦{qv (cV L) (jV L)} vals d) ∗ (outLoc d ↦[oSet L]{fullShare} f0 d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_scatter L fV (Memref.isWhole_whole _) vV (Memref.isWhole_whole _) oV (Memref.isWhole_whole _)
            sF (Memref.isWhole_whole _) sV (Memref.isWhole_whole _) sO (Memref.isWhole_whole _) cc0_scoped0 cc0_scoped1 cc0_scoped2)
          fun _ => iprop(((flatLoc d ↦{qf (cV L) (jV L)} flat d) ∗ (valsLoc d ↦{qv (cV L) (jV L)} vals d)
              ∗ ∃ g : Buf (Elt F) (outLoc d), ⌜∀ j : S5184.Idx, g ((oSl L).view.emb j) = tileOut L (flat d) (vals d) j⌝ ∗ outLoc d ↦[oSet L]{fullShare} g)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_sc_scatter_eq_skeleton]; unfold cc0_sc_scatter_skel
  simp only [Prog.lift, Prog.bind_op, Prog.bind_ret, Prog.pure_eq_ret]
  rw [(K (F := F)).scopedBufs_V hF d (cV L) (jV L), SparseCore.Cfg.scopedSems0_V (Val := Elt F) d (cV L) (jV L), ownSems0_V, ownBufs_V]
  unfold kit
  iintro ⟨#Hlv, ⟨⟨Hst0, Hat0, #Hr0, Htok0⟩, ⟨Hst1, Hat1, #Hr1, Htok1⟩, ⟨Hst2, Hat2, #Hr2, Htok2⟩⟩, ⟨Hf, Hv, Ho⟩,
    ⟨⟨%fs0, Hs0⟩, ⟨%fs1, Hs1⟩, ⟨%fs2, Hs2⟩, Hbufs⟩, ⟨Hsem0, Hsem1, Hsem2, Hsems⟩, HO⟩
  imod ((Rounds.body_intro EK (kRd flat vals qf qv) (c0cell d (cV L) (jV L))).trans inv_alloc) $$ [Hsem0 Hst0] with ⟨%κ0, #Hinv0⟩
  · isplitl [Hsem0] <;> iassumption
  imod ((Rounds.body_intro EK (kRd flat vals qf qv) (c1cell d (cV L) (jV L))).trans inv_alloc) $$ [Hsem1 Hst1] with ⟨%κ1, #Hinv1⟩
  · isplitl [Hsem1] <;> iassumption
  imod ((Rounds.body_intro EK (kRd flat vals qf qv) (c2cell d (cV L) (jV L))).trans inv_alloc) $$ [Hsem2 Hst2] with ⟨%κ2, #Hinv2⟩
  · isplitl [Hsem2] <;> iassumption
  -- the fetch of the positions
  ihave Hf' := (Entails.of_eq (pts_fV (F := F) d L _ _).symm) $$ Hf
  ihave Hs0' := (Entails.of_eq (pts_sF (F := F) d L _).symm) $$ Hs0
  iapply (Rounds.wp_copy_pointsTo 𝒱₀ EK (kRd flat vals qf qv) (V d (cV L) (jV L)) none (q := qf (cV L) (jV L)) (fs := flat d) (fd := fs0) (κ := κ0)
      (kRd_mem₀ flat vals qf qv (by rw [cellKind_c0]; rfl)) none N0 rfl (kRd_amount_c0 flat vals qf qv d _ _) ?hpay0) $$ [Hf' Hs0' Htok0]
  case hpay0 =>
    rw [kRd_payload_c0, pts_fV, pts_sF, fetch0_lands]
  · isplitr; · iexact Hinv0
    isplitl [Hf']; · iexact Hf'
    isplitl [Hs0']; · iexact Hs0'
    isplitl [Htok0]; · iexact Htok0
    iexact Hr0
  iintro Hcred0
  iapply (Rounds.wp_wait_rest_token 𝒱₀ EK (kRd flat vals qf qv) (V d (cV L) (jV L)) none (κ := κ0)
      (wpE_waitDma2_eq 𝒱₀ (V d (cV L) (jV L)) none Set.univ) (Set.mem_univ κ0) none (O := O) (W := W) (R := 0) (m := 0) (T := ∅)
      (by rw [Nat.zero_add, kRd_expect flat vals qf qv (by rw [cellKind_c0]; rfl), kRd_amount_c0])) $$ [Hcred0 HO Hat0]
  · isplitr; · iexact Hinv0
    isplitl [Hcred0]; · iexact Hcred0
    isplitl [HO]; · iexact HO
    isplitr; · iapply ((K (F := F)).mayWait_none (SemLoc.dma cc0_scoped0.sem) hO); iexact Hlv
    iexact Hat0
  iintro ⟨HO, Hat0, -, Hpay⟩
  ihave Hp := ((kRd_back flat vals qf qv (g := c0cell d (cV L) (jV L)) (by rw [cellKind_c0]; rfl)).trans (Entails.of_eq (kRd_payload_c0 flat vals qf qv d _ _))) $$ Hpay
  icases Hp with ⟨Hs0, Hf⟩
  imod (Rounds.cell_close EK (kRd flat vals qf qv) (Set.mem_univ κ0) (fun h => h) (R := 0 + 1) (kRd_later flat vals qf qv (c0cell d _ _))) $$ [Hat0] with Hsem0
  · isplitr; · iexact Hinv0
    iexact Hat0
  -- the fetch of the values
  ihave Hv' := (Entails.of_eq (pts_vV (F := F) d L _ _).symm) $$ Hv
  ihave Hs1' := (Entails.of_eq (pts_sV (F := F) d L _).symm) $$ Hs1
  iapply (Rounds.wp_copy_pointsTo 𝒱₀ EK (kRd flat vals qf qv) (V d (cV L) (jV L)) none (q := qv (cV L) (jV L)) (fs := vals d) (fd := fs1) (κ := κ1)
      (kRd_mem₀ flat vals qf qv (by rw [cellKind_c1]; rfl)) none N1 rfl (kRd_amount_c1 flat vals qf qv d _ _) ?hpay1) $$ [Hv' Hs1' Htok1]
  case hpay1 =>
    rw [kRd_payload_c1, pts_vV, pts_sV, fetch1_lands]
  · isplitr; · iexact Hinv1
    isplitl [Hv']; · iexact Hv'
    isplitl [Hs1']; · iexact Hs1'
    isplitl [Htok1]; · iexact Htok1
    iexact Hr1
  iintro Hcred1
  iapply (Rounds.wp_wait_rest_token 𝒱₀ EK (kRd flat vals qf qv) (V d (cV L) (jV L)) none (κ := κ1)
      (wpE_waitDma2_eq 𝒱₀ (V d (cV L) (jV L)) none Set.univ) (Set.mem_univ κ1) none (O := O) (W := insert (SemLoc.dma cc0_scoped0.sem, none) W) (R := 0) (m := 0) (T := ∅)
      (by rw [Nat.zero_add, kRd_expect flat vals qf qv (by rw [cellKind_c1]; rfl), kRd_amount_c1])) $$ [Hcred1 HO Hat1]
  · isplitr; · iexact Hinv1
    isplitl [Hcred1]; · iexact Hcred1
    isplitl [HO]; · iexact HO
    isplitr; · iapply ((K (F := F)).mayWait_none (SemLoc.dma cc0_scoped1.sem) hO); iexact Hlv
    iexact Hat1
  iintro ⟨HO, Hat1, -, Hpay⟩
  ihave Hp := ((kRd_back flat vals qf qv (g := c1cell d (cV L) (jV L)) (by rw [cellKind_c1]; rfl)).trans (Entails.of_eq (kRd_payload_c1 flat vals qf qv d _ _))) $$ Hpay
  icases Hp with ⟨Hs1, Hv⟩
  imod (Rounds.cell_close EK (kRd flat vals qf qv) (Set.mem_univ κ1) (fun h => h) (R := 0 + 1) (kRd_later flat vals qf qv (c1cell d _ _))) $$ [Hat1] with Hsem1
  · isplitr; · iexact Hinv1
    iexact Hat1
  -- the zero fill
  iapply (Scf.wp_for_bind frame (wpE (defs₀ (F := F)) 𝒱₀ (V d (cV L) (jV L)) none) Set.univ k0_t1_loop.lb k0_t1_loop.ub k0_t1_loop.st k0_t1_ok ⟨⟩
      (k0_t1_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2)
      (inv1 (F := F) d L) (region1 (F := F) d L)) $$ [Hs2]
  · unfold inv1; iexists fs2; isplitr
    · ipureintro; intro j hj; omega
    · iexact Hs2
  iintro %_ HI
  unfold inv1
  icases HI with ⟨%g, %hg, Hs2⟩
  have hz : g = chunkAfter L (flat d) (vals d) 0 := funext fun j => hg j (by
    have h := (j 0).isLt
    have ht : Scf.trips k0_t1_loop.lb k0_t1_loop.ub k0_t1_loop.st = 324 := trips1
    rw [ht]; exact h)
  subst hz
  -- the scatter loop
  iapply (Scf.wp_for_bind frame (wpE (defs₀ (F := F)) 𝒱₀ (V d (cV L) (jV L)) none) Set.univ k0_t2_loop.lb k0_t2_loop.ub k0_t2_loop.st k0_t2_ok ⟨⟩
      (k0_t2_body L fV (Memref.isWhole_whole _) vV (Memref.isWhole_whole _) oV (Memref.isWhole_whole _)
        sF (Memref.isWhole_whole _) sV (Memref.isWhole_whole _) sO (Memref.isWhole_whole _) cc0_scoped0 cc0_scoped1 cc0_scoped2)
      (inv2 (F := F) flat vals d L) (region2 (F := F) flat vals d L)) $$ [Hs0 Hs1 Hs2]
  · unfold inv2
    isplitl [Hs0]; · iexact Hs0
    isplitl [Hs1]; · iexact Hs1
    iexact Hs2
  iintro %_ HI
  unfold inv2
  icases HI with ⟨Hs0, Hs1, Hs2⟩
  -- the write-out
  ihave Hs2' := (Entails.of_eq (pts_sO (F := F) d L _).symm) $$ Hs2
  ihave Ho' := (Entails.of_eq (pts_oSl (F := F) d L _).symm) $$ Ho
  iapply (Rounds.wp_copy_pointsTo 𝒱₀ EK (kRd flat vals qf qv) (V d (cV L) (jV L)) none (src := (sO : Memref sig .scVector .vmem S5184 .f32)) (dst := oSl L) (q := fullShare) (fd := f0 d) (κ := κ2)
      (kRd_mem₀ flat vals qf qv (by rw [cellKind_c2]; rfl)) none N2 rfl (kRd_amount_c2 flat vals qf qv d _ _) ?hpay2) $$ [Hs2' Ho' Htok2]
  rotate_left
  · isplitr; · iexact Hinv2
    isplitl [Hs2']; · iexact Hs2'
    isplitl [Ho']; · iexact Ho'
    isplitl [Htok2]; · iexact Htok2
    iexact Hr2
  case hpay2 =>
    rw [kRd_payload_c2L, pts_sO, pts_oSl]
    iintro ⟨Ho, Hc⟩
    isplitl [Ho]
    · iexists _; isplitr
      rotate_left
      · iexact Ho
      · ipureintro; intro j
        rw [out_lands]
        have ht : Scf.trips k0_t2_loop.lb k0_t2_loop.ub k0_t2_loop.st = 104 := trips2
        rw [ht]; rfl
    · iexists _; iexact Hc
  iintro Hcred2
  iapply (Rounds.wp_wait_rest_token 𝒱₀ EK (kRd flat vals qf qv) (V d (cV L) (jV L)) none (κ := κ2)
      (wpE_waitDma2_eq 𝒱₀ (V d (cV L) (jV L)) none Set.univ) (Set.mem_univ κ2) none (O := O)
      (W := insert (SemLoc.dma cc0_scoped1.sem, none) (insert (SemLoc.dma cc0_scoped0.sem, none) W)) (R := 0) (m := 0) (T := ∅)
      (by rw [Nat.zero_add, kRd_expect flat vals qf qv (by rw [cellKind_c2]; rfl), kRd_amount_c2]; try rfl)) $$ [Hcred2 HO Hat2]
  · isplitr; · iexact Hinv2
    isplitl [Hcred2]; · iexact Hcred2
    isplitl [HO]; · iexact HO
    isplitr; · iapply ((K (F := F)).mayWait_none (SemLoc.dma cc0_scoped2.sem) hO); iexact Hlv
    iexact Hat2
  iintro ⟨HO, Hat2, -, Hpay⟩
  ihave Hp := ((kRd_back flat vals qf qv (g := c2cell d (cV L) (jV L)) (by rw [cellKind_c2]; rfl)).trans (Entails.of_eq (kRd_payload_c2L flat vals qf qv d L))) $$ Hpay
  icases Hp with ⟨⟨%go, %hgo, Ho⟩, ⟨%fc, Hs2⟩⟩
  imod (Rounds.cell_close EK (kRd flat vals qf qv) (Set.mem_univ κ2) (fun h => h) (R := 0 + 1) (kRd_later flat vals qf qv (c2cell d _ _))) $$ [Hat2] with Hsem2
  · isplitr; · iexact Hinv2
    iexact Hat2
  rw [wp_ret]; imodintro
  isplitl [Hf Hv Ho]
  · isplitl [Hf]; · iexact Hf
    isplitl [Hv]; · iexact Hv
    iexists go; isplitr
    · ipureintro; exact hgo
    · iexact Ho
  isplitl [Hs0 Hs1 Hs2 Hbufs]
  · isplitl [Hs0]
    · iexists _; iexact Hs0
    isplitl [Hs1]
    · iexists _; iexact Hs1
    isplitl [Hs2]
    · iexists _; iexact Hs2
    · iexact Hbufs
  isplitl [Hsem0 Hsem1 Hsem2 Hsems]
  · isplitl [Hsem0]; · iexact Hsem0
    isplitl [Hsem1]; · iexact Hsem1
    isplitl [Hsem2]; · iexact Hsem2
    iexact Hsems
  iexists (insert (SemLoc.dma cc0_scoped2.sem, none) (insert (SemLoc.dma cc0_scoped1.sem, none) (insert (SemLoc.dma cc0_scoped0.sem, none) W))); isplitr
  · ipureintro; intro p hp
    rcases Finset.mem_insert.mp hp with rfl | hp
    · exact .inr rfl
    rcases Finset.mem_insert.mp hp with rfl | hp
    · exact .inr rfl
    rcases Finset.mem_insert.mp hp with rfl | hp
    · exact .inr rfl
    · exact .inl hp
  iexact HO

end Tile

end Cert.Proof.KI

end
-- ==== Proof.KI.ScLaunch.lean ====
/-
  The launch data of the scatter's SparseCore call: what the handshakes carry (every tile a read share of the
  positions and of the values, and its own slice of the padded output), how a SparseCore's operands split among
  its sixteen tiles and gather from them, the launch element of the tiles' DMA cells, and the TensorCore's step
  at the call, from the three arrays whole to the three arrays whole with the output at the pure description.
-/
import proofs.«216126_g59949153517679_cont_9to1_m_442_25_alg».proof.Proof.KI.Tile
import Idealize.ShloMosaic.Lib.Transfers

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split pointsTo_toks_join)

variable {F : FTy → Type}

local notation "𝕄" => MT nD τ sig (HIx 1) (Elt F) ℕ UU ℕ

/-! ## The thirty-two slices of the padded output -/

theorem LofV_zero (c : Fin τ.nSC) (i : Fin τ.nSub) : ((LofV c i) 0).val = c.val := rfl
theorem LofV_one (c : Fin τ.nSC) (i : Fin τ.nSub) : ((LofV c i) 1).val = i.val := rfl

/-- A tile's slice is the rectangle the kernel slices. -/
theorem oSet_eq (L : grid0.Coords) : oSet L = (Rect.unit (s := S165888) (k0_off3 L) S5184.size (k0_off3_inb L)).set := by
  show ((View.whole (main_v18_scv : Ref sig .scVector)).slice _).set = _
  rw [View.set_slice]; exact Finset.map_refl

/-- Tile `L`'s slice: the 5184 words from `10368 (L 1) + 5184 (L 0)`. -/
theorem mem_oSet (L : grid0.Coords) (p : S165888.Idx) :
    p ∈ oSet L ↔ 10368 * (L 1).val + 5184 * (L 0).val ≤ (p 0).val ∧ (p 0).val < 10368 * (L 1).val + 5184 * (L 0).val + 5184 := by
  rw [oSet_eq, Rect.mem_set_unit, k0_off3_eq]
  constructor
  · intro h; exact h 0
  · intro h a
    have ha : a = 0 := Subsingleton.elim _ _
    subst ha; exact h

/-- Two tiles' slices do not meet. -/
theorem oSets_disjoint : ∀ x ∈ (Finset.univ : Finset (Fin τ.nSC × Fin τ.nSub)), ∀ y ∈ (Finset.univ : Finset (Fin τ.nSC × Fin τ.nSub)),
    x ≠ y → Disjoint (oSet (LofV x.1 x.2)) (oSet (LofV y.1 y.2)) := by
  intro x _ y _ hxy
  refine Finset.disjoint_left.mpr fun p hx hy => hxy ?_
  rw [mem_oSet, LofV_zero, LofV_one] at hx hy
  have h1 : x.1.val < 2 := x.1.isLt
  have h2 : y.1.val < 2 := y.1.isLt
  exact Prod.ext (Fin.ext (by omega)) (Fin.ext (by omega))

/-- The slices cover the output. -/
theorem oSets_cover : (Finset.univ : Finset (Fin τ.nSC × Fin τ.nSub)).biUnion (fun x => oSet (LofV x.1 x.2)) = Finset.univ := by
  ext p
  simp only [Finset.mem_biUnion, Finset.mem_univ, true_and, iff_true]
  have hp : (p 0).val < 165888 := (p 0).isLt
  refine ⟨(⟨((p 0).val / 5184) % 2, Nat.mod_lt _ (by decide)⟩, ⟨(p 0).val / 10368, by show _ < 16; omega⟩), ?_⟩
  rw [mem_oSet, LofV_zero, LofV_one]
  show 10368 * ((p 0).val / 10368) + 5184 * (((p 0).val / 5184) % 2) ≤ (p 0).val ∧ (p 0).val < 10368 * ((p 0).val / 10368) + 5184 * (((p 0).val / 5184) % 2) + 5184
  omega

/-- Word `j` of tile `L`'s slice, in the output. -/
theorem oSl_emb_val (L : grid0.Coords) (j : S5184.Idx) : ((oSl L).view.emb j 0).val = 10368 * (L 1).val + 5184 * (L 0).val + (j 0).val := by
  show (k0_off3 L) 0 + 1 * (j 0).val = _
  rw [k0_off3_eq]; show 10368 * (L 1).val + 5184 * (L 0).val + 1 * (j 0).val = _; omega

section Spec
variable [FloatOps F]

/-- The pure description of the output, read on a tile's slice, is the tile's own. -/
theorem scOut_emb (L : grid0.Coords) (flat : IVec S1664 32) (vals : FVec F S1664 .f32) (j : S5184.Idx) :
    scOut (F := F) flat vals ((oSl L).view.emb j) = tileOut (F := F) L flat vals j := by
  have h0 : (L 0).val < 2 := (L 0).isLt
  have hj : (j 0).val < 5184 := (j 0).isLt
  have he := oSl_emb_val L j
  have hL : tileOf ((oSl L).view.emb j) = L := by
    funext a
    match a with
    | 0 => exact Fin.ext (by show (((oSl L).view.emb j 0).val / 5184) % 2 = (L 0).val; omega)
    | 1 => exact Fin.ext (by show ((oSl L).view.emb j 0).val / 10368 = (L 1).val; omega)
  have hw : tileWord ((oSl L).view.emb j) = j := by
    funext a
    have ha : a = 0 := Subsingleton.elim _ _
    subst ha
    exact Fin.ext (by show ((oSl L).view.emb j 0).val % 5184 = (j 0).val; omega)
  show tileOut (F := F) (tileOf ((oSl L).view.emb j)) flat vals (tileWord ((oSl L).view.emb j)) = _
  rw [hL, hw]

end Spec

/-! ## Read shares, and what the handshakes carry -/

/-- SparseCore `c`'s read share of an array every tile reads whole, and tile `(c, i)`'s share of that one. -/
abbrev shC (c : Fin τ.nSC) : PosShare TreeShare := shareTok fullShare τ.nSC c
abbrev shT (c : Fin τ.nSC) (i : Fin τ.nSub) : PosShare TreeShare := shareTok (shC c) τ.nSub i

section Pay

variable [FloatOps F]
variable (flat : Dev nD → IVec S1664 32) (vals : Dev nD → FVec F S1664 .f32) (f0 : (d : Dev nD) → Buf (Elt F) (outLoc d))

abbrev fPts (d : Dev nD) (q : PosShare TreeShare) : sProp 𝕄 := flatLoc d ↦{q} (flat d : Buf (Elt F) (flatLoc d))
abbrev vPts (d : Dev nD) (q : PosShare TreeShare) : sProp 𝕄 := valsLoc d ↦{q} (vals d : Buf (Elt F) (valsLoc d))
abbrev oPc (d : Dev nD) (L : grid0.Coords) (f : Buf (Elt F) (outLoc d)) : sProp 𝕄 := outLoc d ↦[oSet L]{fullShare} f
/-- Tile `L`'s slice of the output at what the tile leaves there. -/
def oDone (d : Dev nD) (L : grid0.Coords) : sProp 𝕄 :=
  iprop(∃ g : Buf (Elt F) (outLoc d), ⌜∀ j : S5184.Idx, g ((oSl L).view.emb j) = tileOut (F := F) L (flat d) (vals d) j⌝ ∗ oPc d L g)

instance oDone_storable (d : Dev nD) (L : grid0.Coords) : BI.Storable (upEmb : UEmb _ 𝕄) (oDone flat vals d L) := by
  unfold oDone; infer_instance

/-- The call takes, per SparseCore, a read share of the positions and of the values and the sixteen slices its tiles
    write; a tile, a share of those shares and its slice; back come the shares and the slices at what the tiles left. -/
def P : (K (F := F)).Pay (nD := nD) (Val := Elt F) (Name := ℕ) (U := UU) where
  st := fun q d c => match q with
    | 0 => iprop(fPts flat d (shC ((K (F := F)).core 0 c)) ∗ vPts vals d (shC ((K (F := F)).core 0 c))
        ∗ bigSep Finset.univ fun i : Fin τ.nSub => oPc d (LofV ((K (F := F)).core 0 c) i) (f0 d))
  dn := fun q d c => match q with
    | 0 => iprop(fPts flat d (shC ((K (F := F)).core 0 c)) ∗ vPts vals d (shC ((K (F := F)).core 0 c))
        ∗ bigSep Finset.univ fun i : Fin τ.nSub => oDone flat vals d (LofV ((K (F := F)).core 0 c) i))
  go := fun q d c i => match q with
    | 0 => iprop(fPts flat d (shT ((K (F := F)).core 0 c) ((K (F := F)).sub 0 i)) ∗ vPts vals d (shT ((K (F := F)).core 0 c) ((K (F := F)).sub 0 i))
        ∗ oPc d (LofV ((K (F := F)).core 0 c) ((K (F := F)).sub 0 i)) (f0 d))
  td := fun q d c i => match q with
    | 0 => iprop(fPts flat d (shT ((K (F := F)).core 0 c) ((K (F := F)).sub 0 i)) ∗ vPts vals d (shT ((K (F := F)).core 0 c) ((K (F := F)).sub 0 i))
        ∗ oDone flat vals d (LofV ((K (F := F)).core 0 c) ((K (F := F)).sub 0 i)))
  x := fun q thr => match q, thr with
    | 0, (d, .scVector c i) => iprop(kit flat vals shT shT (c0cell d c i) ∗ kit flat vals shT shT (c1cell d c i) ∗ kit flat vals shT shT (c2cell d c i))
    | _, _ => iprop(emp)

theorem P_st (d : Dev nD) (c : Fin ((K (F := F)).nCore 0)) : (P flat vals f0).st 0 d c
    = iprop(fPts flat d (shC ((K (F := F)).core 0 c)) ∗ vPts vals d (shC ((K (F := F)).core 0 c))
        ∗ bigSep Finset.univ fun i : Fin τ.nSub => oPc d (LofV ((K (F := F)).core 0 c) i) (f0 d)) := rfl
theorem P_dn (d : Dev nD) (c : Fin ((K (F := F)).nCore 0)) : (P flat vals f0).dn 0 d c
    = iprop(fPts flat d (shC ((K (F := F)).core 0 c)) ∗ vPts vals d (shC ((K (F := F)).core 0 c))
        ∗ bigSep Finset.univ fun i : Fin τ.nSub => oDone flat vals d (LofV ((K (F := F)).core 0 c) i)) := rfl
theorem P_go (d : Dev nD) (c : Fin ((K (F := F)).nCore 0)) (i : Fin ((K (F := F)).nSub 0)) : (P flat vals f0).go 0 d c i
    = iprop(fPts flat d (shT ((K (F := F)).core 0 c) ((K (F := F)).sub 0 i)) ∗ vPts vals d (shT ((K (F := F)).core 0 c) ((K (F := F)).sub 0 i))
        ∗ oPc d (LofV ((K (F := F)).core 0 c) ((K (F := F)).sub 0 i)) (f0 d)) := rfl
theorem P_td (d : Dev nD) (c : Fin ((K (F := F)).nCore 0)) (i : Fin ((K (F := F)).nSub 0)) : (P flat vals f0).td 0 d c i
    = iprop(fPts flat d (shT ((K (F := F)).core 0 c) ((K (F := F)).sub 0 i)) ∗ vPts vals d (shT ((K (F := F)).core 0 c) ((K (F := F)).sub 0 i))
        ∗ oDone flat vals d (LofV ((K (F := F)).core 0 c) ((K (F := F)).sub 0 i))) := rfl
theorem P_x_V (d : Dev nD) (c : Fin τ.nSC) (i : Fin τ.nSub) : (P flat vals f0).x 0 (V d c i)
    = iprop(kit flat vals shT shT (c0cell d c i) ∗ kit flat vals shT shT (c1cell d c i) ∗ kit flat vals shT shT (c2cell d c i)) := rfl

instance P_storable : (P (F := F) flat vals f0).IsStorable where
  st q d c := match q with
    | 0 => by rw [P_st]; infer_instance
  dn q d c := match q with
    | 0 => by rw [P_dn]; infer_instance
  go q d c i := match q with
    | 0 => by rw [P_go]; infer_instance
  td q d c i := match q with
    | 0 => by rw [P_td]; infer_instance

/-! ## The launch theorem's obligations -/

theorem defs₀_vector (c : Fin τ.nSC) (s : Fin τ.nSub) :
    defs₀ (F := F) (.scVector c s) 0 ()
      = SparseCore.onTile hcore0 hsub0 (fun c s => cc0_sc_scatter (coordsV c s)
          fV (Memref.isWhole_whole _) vV (Memref.isWhole_whole _) oV (Memref.isWhole_whole _)
          sF (Memref.isWhole_whole _) sV (Memref.isWhole_whole _) sO (Memref.isWhole_whole _) cc0_scoped0 cc0_scoped1 cc0_scoped2) ⟨⟩ c s := rfl

omit [FloatOps F] in
/-- A task that recorded no wait of the call's own leaves the records the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) : (K (F := F)).TileObl (D (F := F)) 𝒱 (P flat vals f0) v₀ 0 := by
  intro d c i O W hO _ _
  -- the kernel has no protocol of its own beyond its DMA cells: nothing owed for one
  simp only [show (P flat vals f0).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  rw [P_x_V, P_go, P_td]
  exact (tile_body flat vals shT shT d (coordsV ⟨_, hc.1⟩ ⟨_, hc.2⟩) hF f0 O W hO).trans (wp_mono frame _ _ fun _ => obl_post)

omit [FloatOps F] in
theorem bigSep_tasks (Φ : Fin τ.nSub → sProp 𝕄) :
    (bigSep Finset.univ fun i : Fin ((K (F := F)).nSub 0) => Φ ((K (F := F)).sub 0 i)) = bigSep Finset.univ Φ :=
  bigSep_congr fun _ _ => congrArg Φ (Fin.ext rfl)
omit [FloatOps F] in
theorem bigSep_cores (Φ : Fin τ.nSC → sProp 𝕄) :
    (bigSep Finset.univ fun c : Fin ((K (F := F)).nCore 0) => Φ ((K (F := F)).core 0 c)) = bigSep Finset.univ Φ :=
  bigSep_congr fun _ _ => congrArg Φ (Fin.ext rfl)

/-- A SparseCore deals each tile a share of its two read shares and the tile's slice, and gathers them back. -/
theorem vecSplit : (K (F := F)).VecSplit' (P flat vals f0) 0 := by
  intro d c
  rw [P_st, P_dn]
  simp only [P_go, P_td]
  rw [bigSep_tasks (F := F) (fun i => iprop(fPts flat d (shT ((K (F := F)).core 0 c) i) ∗ vPts vals d (shT ((K (F := F)).core 0 c) i)
        ∗ oPc d (LofV ((K (F := F)).core 0 c) i) (f0 d))),
    bigSep_tasks (F := F) (fun i => iprop(fPts flat d (shT ((K (F := F)).core 0 c) i) ∗ vPts vals d (shT ((K (F := F)).core 0 c) i)
        ∗ oDone flat vals d (LofV ((K (F := F)).core 0 c) i))),
    bigSep_sep', bigSep_sep', bigSep_sep', bigSep_sep']
  iintro ⟨Hf, Hv, Ho⟩
  ihave Hf' := (pointsTo_toks_split (shC ((K (F := F)).core 0 c)) τ.nSub) $$ Hf
  icases Hf' with ⟨Hfr, Hft⟩
  ihave Hv' := (pointsTo_toks_split (shC ((K (F := F)).core 0 c)) τ.nSub) $$ Hv
  icases Hv' with ⟨Hvr, Hvt⟩
  imodintro
  isplitl [Hft Hvt Ho]
  · isplitl [Hft]; · iexact Hft
    isplitl [Hvt]; · iexact Hvt
    iexact Ho
  iintro ⟨Hft, Hvt, Ho⟩
  isplitl [Hfr Hft]
  · iapply (pointsTo_toks_join (shC ((K (F := F)).core 0 c)) τ.nSub)
    isplitl [Hfr]; · iexact Hfr
    iexact Hft
  isplitl [Hvr Hvt]
  · iapply (pointsTo_toks_join (shC ((K (F := F)).core 0 c)) τ.nSub)
    isplitl [Hvr]; · iexact Hvr
    iexact Hvt
  iexact Ho

/-! ## The launch element of the tiles' DMA cells -/

def kCells : Finset (GSem nD τ sig) :=
  ((Finset.univ.image fun dci : Dev nD × Fin τ.nSC × Fin τ.nSub => c0cell dci.1 dci.2.1 dci.2.2)
    ∪ (Finset.univ.image fun dci : Dev nD × Fin τ.nSC × Fin τ.nSub => c1cell dci.1 dci.2.1 dci.2.2))
    ∪ (Finset.univ.image fun dci : Dev nD × Fin τ.nSC × Fin τ.nSub => c2cell dci.1 dci.2.1 dci.2.2)
def kToks : Finset (GSem nD τ sig × ℕ × Unit) := kCells.map ⟨fun g => (g, 0, ()), fun _ _ e => (Prod.mk.inj e).1⟩

omit [FloatOps F] in
theorem toks_eq : (bigSep kToks fun x => (dutyTok EK x.1 x.2.1 x.2.2 : sProp 𝕄)) = bigSep kCells fun g => dutyTok EK g 0 () := by
  unfold kToks; rw [bigSep_map]; rfl

/-- The launch element funds every tile's three cells: each cell's round, its owner's position, its round reached, its duty's token. -/
theorem kits_intro : (BI.own (EK (initOf kCells kToks)) : sProp 𝕄) ⊢ iprop(|==> bigSep kCells (kit flat vals shT shT)) := by
  iintro H
  imod (Rounds.fund EK (kRd flat vals shT shT) kCells kToks) $$ H with ⟨Hst, Hr, Hat, Htok⟩
  ihave Htok' := (Entails.of_eq (toks_eq (F := F))) $$ Htok
  imodintro
  unfold kit
  rw [bigSep_sep', bigSep_sep', bigSep_sep']
  isplitl [Hst]; · iexact Hst
  isplitl [Hat]; · iexact Hat
  isplitl [Hr]; · iexact Hr
  iexact Htok'

omit [FloatOps F] in
theorem bigSep_emp' {I : Type} (s : Finset I) : (bigSep s fun _ => iprop(emp)) = (iprop(emp) : sProp 𝕄) := bigSep_emp_const s

theorem Px_T (d : Dev nD) : (bigSep Finset.univ fun q : Fin 1 => (P (F := F) flat vals f0).x q (SparseCore.T d)) = iprop(emp) :=
  bigSep_univ_of_subsingleton (0 : Fin 1)
theorem Px_S (d : Dev nD) (c : Fin τ.nSC) : (bigSep Finset.univ fun q : Fin 1 => (P (F := F) flat vals f0).x q (S d c)) = iprop(emp) :=
  bigSep_univ_of_subsingleton (0 : Fin 1)
theorem Px_V (d : Dev nD) (c : Fin τ.nSC) (i : Fin τ.nSub) :
    (bigSep Finset.univ fun q : Fin 1 => (P (F := F) flat vals f0).x q (V d c i))
      = iprop(kit flat vals shT shT (c0cell d c i) ∗ kit flat vals shT shT (c1cell d c i) ∗ kit flat vals shT shT (c2cell d c i)) :=
  bigSep_univ_of_subsingleton (0 : Fin 1)

omit [FloatOps F] in
theorem inj3 (sm : SemLoc sig) :
    Set.InjOn (fun dci : Dev nD × Fin τ.nSC × Fin τ.nSub => ((V dci.1 dci.2.1 dci.2.2, sm) : GSem nD τ sig)) ((Finset.univ : Finset (Dev nD × Fin τ.nSC × Fin τ.nSub)) : Set _) := by
  intro a _ b _ e
  obtain ⟨h1, h2⟩ := Prod.mk.inj (Prod.mk.inj e).1; obtain ⟨h3, h4⟩ := Proc.scVector.inj h2
  exact Prod.ext h1 (Prod.ext h3 h4)

/-- The funded cells, dealt: every tile its own three. -/
theorem kits_deal : (bigSep kCells (kit (F := F) flat vals shT shT) : sProp 𝕄)
    ⊢ bigSep Finset.univ fun thr : Thread nD τ => bigSep Finset.univ fun q : Fin 1 => (P flat vals f0).x q thr := by
  rw [SparseCore.Cfg.bigSep_threads (fun thr : Thread nD τ => bigSep Finset.univ fun q : Fin 1 => (P flat vals f0).x q thr)]
  simp only [Px_T, Px_S, Px_V, bigSep_emp']
  unfold kCells
  rw [SparseCore.bigSep_union' ?d1, SparseCore.bigSep_union' ?d2,
    SparseCore.bigSep_image_of_injOn (inj3 _) (kit flat vals shT shT), SparseCore.bigSep_image_of_injOn (inj3 _) (kit flat vals shT shT),
    SparseCore.bigSep_image_of_injOn (inj3 _) (kit flat vals shT shT)]
  case d1 =>
    refine Finset.disjoint_left.mpr fun g h1 h2 => ?_
    obtain ⟨b, -, e⟩ := Finset.mem_image.mp h2
    rcases Finset.mem_union.mp h1 with h1 | h1
    · obtain ⟨a, -, rfl⟩ := Finset.mem_image.mp h1
      exact absurd (Prod.mk.inj e).2 (by decide)
    · obtain ⟨a, -, rfl⟩ := Finset.mem_image.mp h1
      exact absurd (Prod.mk.inj e).2 (by decide)
  case d2 =>
    refine Finset.disjoint_left.mpr fun g h1 h2 => ?_
    obtain ⟨a, -, rfl⟩ := Finset.mem_image.mp h1
    obtain ⟨b, -, e⟩ := Finset.mem_image.mp h2
    exact absurd (Prod.mk.inj e).2 (by decide)
  rw [bigSep_sep' (Finset.univ : Finset (Dev nD × Fin τ.nSC × Fin τ.nSub)), bigSep_sep' (Finset.univ : Finset (Dev nD × Fin τ.nSC × Fin τ.nSub))]
  iintro ⟨⟨H0, H1⟩, H2⟩
  isplitr; · iempintro
  isplitr; · iempintro
  isplitl [H0]; · iexact H0
  isplitl [H1]; · iexact H1
  iexact H2

/-! ## The TensorCore's step at the call -/

/-- The padded output as the buffer's contents. -/
abbrev scBuf (d : Dev nD) : Buf (Elt F) (outLoc d) := (scOut (F := F) (flat d) (vals d) : Buf (Elt F) (outLoc d))

omit [FloatOps F] in
/-- The output whole is its thirty-two slices. -/
theorem out_slices (d : Dev nD) (f : Buf (Elt F) (outLoc d)) :
    (outLoc d ↦{fullShare} f : sProp 𝕄) = bigSep Finset.univ fun c : Fin τ.nSC => bigSep Finset.univ fun i : Fin τ.nSub => oPc d (LofV c i) f := by
  rw [← bigSep_univ_prod (fun x : Fin τ.nSC × Fin τ.nSub => oPc d (LofV x.1 x.2) f),
    ← pointsTo_biUnion Finset.univ (ℓ := outLoc d) (fun x : Fin τ.nSC × Fin τ.nSub => oSet (LofV x.1 x.2)) oSets_disjoint, oSets_cover]
  try rfl

/-- A slice at what its tile left is the slice at the pure description of the whole output. -/
theorem oDone_elim (d : Dev nD) (L : grid0.Coords) : oDone flat vals d L ⊢ oPc d L (scBuf flat vals d) := by
  unfold oDone
  iintro ⟨%g, %hg, H⟩
  have e : (oPc d L g : sProp 𝕄) = oPc d L (scBuf flat vals d) := by
    refine pointsTo_congr fun p hp => ?_
    obtain ⟨j, -, rfl⟩ := Finset.mem_map.mp hp
    exact (hg j).trans (scOut_emb L (flat d) (vals d) j).symm
  rw [← e]; iexact H

/-- The thirty-two slices at what their tiles left are the output whole at the pure description. -/
theorem out_done (d : Dev nD) :
    (bigSep Finset.univ fun c : Fin τ.nSC => bigSep Finset.univ fun i : Fin τ.nSub => oDone flat vals d (LofV c i))
      ⊢ (outLoc d ↦{fullShare} scBuf flat vals d : sProp 𝕄) := by
  rw [out_slices d (scBuf flat vals d)]
  exact bigSep_mono fun c _ => bigSep_mono fun i _ => oDone_elim flat vals d (LofV c i)

theorem st_all (d : Dev nD) : (bigSep Finset.univ fun c : Fin ((K (F := F)).nCore 0) => (P flat vals f0).st 0 d c)
    = iprop((bigSep Finset.univ fun c : Fin τ.nSC => fPts flat d (shC c)) ∗ (bigSep Finset.univ fun c : Fin τ.nSC => vPts vals d (shC c))
        ∗ bigSep Finset.univ fun c : Fin τ.nSC => bigSep Finset.univ fun i : Fin τ.nSub => oPc d (LofV c i) (f0 d)) := by
  simp only [P_st]
  rw [bigSep_cores (F := F) (fun c => iprop(fPts flat d (shC c) ∗ vPts vals d (shC c) ∗ bigSep Finset.univ fun i : Fin τ.nSub => oPc d (LofV c i) (f0 d))),
    bigSep_sep', bigSep_sep']
theorem dn_all (d : Dev nD) : (bigSep Finset.univ fun c : Fin ((K (F := F)).nCore 0) => (P flat vals f0).dn 0 d c)
    = iprop((bigSep Finset.univ fun c : Fin τ.nSC => fPts flat d (shC c)) ∗ (bigSep Finset.univ fun c : Fin τ.nSC => vPts vals d (shC c))
        ∗ bigSep Finset.univ fun c : Fin τ.nSC => bigSep Finset.univ fun i : Fin τ.nSub => oDone flat vals d (LofV c i)) := by
  simp only [P_dn]
  rw [bigSep_cores (F := F) (fun c => iprop(fPts flat d (shC c) ∗ vPts vals d (shC c) ∗ bigSep Finset.univ fun i : Fin τ.nSub => oDone flat vals d (LofV c i))),
    bigSep_sep', bigSep_sep']

/-- The TensorCore at the SparseCore call: it hands each SparseCore a read share of the positions and of the values and
    its tiles' slices of the output, keeps the rest of the two arrays' shares, and after the call holds the three arrays
    whole again, the output at the pure description. -/
theorem sc_call (κ : GSem nD τ sig → ℕ) (d : Dev nD) {Φ : PUnit → sProp 𝕄} :
    iprop((K (F := F)).ctx EH (P flat vals f0) κ ∗ (K (F := F)).tcSt EH d 0
        ∗ fPts flat d fullShare ∗ vPts vals d fullShare ∗ (outLoc d ↦{fullShare} f0 d)
        ∗ (((K (F := F)).tcSt EH d 1 ∗ fPts flat d fullShare ∗ vPts vals d fullShare ∗ (outLoc d ↦{fullShare} scBuf flat vals d)) -∗ Φ ⟨⟩))
      ⊢ wp frame (wpE ((K (F := F)).defs (D (F := F))) 𝒱 (SparseCore.T d) none) Set.univ ((K (F := F)).run d 0) Φ := by
  iintro ⟨#Hctx, Hst, Hf, Hv, Ho, Hk⟩
  ihave Hf' := (pointsTo_toks_split fullShare τ.nSC) $$ Hf
  icases Hf' with ⟨Hfr, Hft⟩
  ihave Hv' := (pointsTo_toks_split fullShare τ.nSC) $$ Hv
  icases Hv' with ⟨Hvr, Hvt⟩
  ihave Ho' := (Entails.of_eq (out_slices d (f0 d))) $$ Ho
  iapply ((K (F := F)).wp_run (D (F := F)) 𝒱 (EH := EH) (P := P flat vals f0) κ d 0) $$ [Hst Hft Hvt Ho' Hfr Hvr Hk]
  isplitr; · iexact Hctx
  isplitl [Hst]; · iexact Hst
  isplitl [Hft Hvt Ho']
  · rw [st_all]
    isplitl [Hft]; · iexact Hft
    isplitl [Hvt]; · iexact Hvt
    iexact Ho'
  iintro ⟨Hst, Hdn⟩
  ihave Hdn' := (Entails.of_eq (dn_all flat vals f0 d)) $$ Hdn
  icases Hdn' with ⟨Hft, Hvt, Ho⟩
  iapply Hk
  isplitl [Hst]; · iexact Hst
  isplitl [Hfr Hft]
  · iapply (pointsTo_toks_join fullShare τ.nSC)
    isplitl [Hfr]; · iexact Hfr
    iexact Hft
  isplitl [Hvr Hvt]
  · iapply (pointsTo_toks_join fullShare τ.nSC)
    isplitl [Hvr]; · iexact Hvr
    iexact Hvt
  iapply (out_done flat vals d)
  iexact Ho

/-- The same with what follows the call. -/
theorem sc_call_bind (κ : GSem nD τ sig → ℕ) (d : Dev nD) {α : Type}
    (k : PUnit → Prog (TpuEff nD τ sig (Elt F) (SparseCore.Sig (ΛP (F := F)) 1) .tc) α) {Ψ : α → sProp 𝕄} :
    iprop((K (F := F)).ctx EH (P flat vals f0) κ ∗ (K (F := F)).tcSt EH d 0
        ∗ fPts flat d fullShare ∗ vPts vals d fullShare ∗ (outLoc d ↦{fullShare} f0 d)
        ∗ (((K (F := F)).tcSt EH d 1 ∗ fPts flat d fullShare ∗ vPts vals d fullShare ∗ (outLoc d ↦{fullShare} scBuf flat vals d))
            -∗ wp frame (wpE ((K (F := F)).defs (D (F := F))) 𝒱 (SparseCore.T d) none) Set.univ (k ⟨⟩) Ψ))
      ⊢ wp frame (wpE ((K (F := F)).defs (D (F := F))) 𝒱 (SparseCore.T d) none) Set.univ ((K (F := F)).run d 0 >>= k) Ψ := by
  rw [wp_bind]
  exact sc_call flat vals f0 κ d (Φ := fun a => wp frame (wpE ((K (F := F)).defs (D (F := F))) 𝒱 (SparseCore.T d) none) Set.univ (k a) Ψ)

end Pay

end Cert.Proof.KI

end
-- ==== Proof.KI.Region.lean ====
/-
  Entering the TensorCore's pipelined region from inside the SparseCore program's @main: the rounds ghost state
  of the pipeline's staging cells as the launch deals it, and the rule for the region's call line in @main —
  from the region boundary, the four windowed arrays, that ghost state and the TensorCore's handshake state
  after the SparseCore call, the line runs the pipeline and hands back the same with the arrays at what the
  pipeline's proof data computes.
-/
import proofs.«216126_g59949153517679_cont_9to1_m_442_25_alg».proof.Proof.KI.Common
import Idealize.ShloMosaic.Lib.Pipeline.Regions

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

set_option Elab.async false

variable {F : FTy → Type} [FloatOps F]

local notation "𝕄" => MT nD τ sig (HIx 1) (Elt F) ℕ UU ℕ

/-! ## The pipeline's ghost state at launch -/

/-- The one admissible contents of the (absent) prefetched tables. -/
abbrev adm : (p : Fin 1) → (pcfgs (F := F) p).Adm := fun p => (cfgs p).toPCfg_adm

/-- The launch element of the staging cells' rounds: every cell's launch state and every transfer's duty token. -/
def uP₀ : UP := initOf (Pipeline.cells (nD := nD) (τ := τ) cfgs cellOf_inj) (Pipeline.launchToks (nD := nD) (τ := τ) cfgs cellOf_inj)

/-- What the launch deals @main on device `d` for the region: the staging cells' launch ghost state and the
    duty tokens of the transfers the pipeline's loop issues. -/
def regionGhost (d : Dev nD) : sProp 𝕄 :=
  iprop(Pipeline.cellsGhost cfgs EP 0 d ∗ Pipeline.toksInit cfgs EP 0 d)

/-- Conjoined over the one pipeline is the pipeline's conjunct. -/
theorem bigSep_fin1 {M : Type} [URA M] (X : Fin 1 → sProp M) : bigSep Finset.univ X = X 0 := by
  rw [show (Finset.univ : Finset (Fin 1)) = {0} from rfl, bigSep_singleton]

/-- Funding: the staging cells' launch element yields every device's region ghost state. -/
theorem fund_region : BI.own ((EP : Emb UP 𝕄) uP₀) ⊢ |==> bigSep Finset.univ (regionGhost (F := F)) := by
  refine (Pipeline.fund_ghost (nD := nD) (τ := τ) cfgs (EP : Emb UP 𝕄) cellOf_inj).trans (BI.bupd_mono ?_)
  unfold regionGhost
  rw [← bigSep_sep']
  refine bigSep_mono fun c _ => ?_
  rw [bigSep_fin1, bigSep_fin1]
  exact BI.Entails.refl _

/-! ## The region's call -/

/-- The recorded pairs of the TensorCore after the SparseCore call: at or below the call's band. -/
abbrev tcRec (d : Dev nD) : Set (SemLoc sig × HIx 1) := {p | (K (F := F)).lev (T d, p.1) p.2 ≤ 8}

/-- The TensorCore's handshake state after the call but for what it owes. -/
def tcTail (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))

/-- After the program's only SparseCore call the TensorCore owes nothing more: its handshake state is what it
    owes — nothing, its recorded pairs within the call's band — beside the rest. -/
theorem tcSt_eq (d : Dev nD) :
    ((K (F := F)).tcSt EH d 1 : sProp 𝕄)
      = iprop((∃ W, ⌜(K (F := F)).WBelow (T d) W (8 * 1)⌝ ∗ owes (T d) (0 : CellTallies nD τ sig (HIx 1)) W) ∗ tcTail d) := by
  unfold SparseCore.Cfg.tcSt tcTail
  rw [(K (F := F)).Otc_end d (le_refl 1)]

/-- The pipeline's proof data as the family over the program's one pipeline. -/
abbrev pd (dats : (c : Dev nD) → Pipeline.Dat τ (Elt F) (HIx 1) ℕ UU ℕ cfg1 c) :
    (p : Fin 1) → (c : Dev nD) → Pipeline.Dat τ (Elt F) (HIx 1) ℕ UU ℕ (Pipeline.pin (pcfgs (F := F)) adm p) c :=
  fun _ c => dats c

/-- The pipeline prefetches no table. -/
theorem prefHeld_none (c : Dev nD) :
    (Pipeline.prefHeld ((pcfgs (F := F)) 0).pre c (fun _ => fullShare) (adm (F := F) 0).1 : sProp 𝕄) = BI.emp := by
  unfold Pipeline.prefHeld
  exact bigSep_empty

/-- The region as a segment of @main between two states of the TensorCore: the windowed arrays and the
    handshake state after the SparseCore call, before and after. -/
def regionSeg (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hΦ : ∀ c t, (dats c).Φ t = (BI.emp : sProp 𝕄))
    (lv : GSem nD τ sig → HIx 1 → ℕ) :
    Pipeline.RegionSeg (pcfgs (F := F)) adm (pd dats) (none : HIx 1) defs₀ 𝒱₀ (K (F := F)).L lv (0 : Fin 1) where
  win := winFacts1.to₀
  block_pos := block_pos1
  stage_whole := stage_whole1
  K := PEmpty
  osem := fun k => k.elim
  ho := Pipeline.OwnSemFacts.none _
  hbody := hbody
  hwaits := Pipeline.hwaits_of_owed_zero (pcfgs (F := F)) adm (pd dats) (none : HIx 1) (K (F := F)).L lv 0 howed
  pre := fun c => iprop((dats c).arrays ((dats c).arrAt · 0) ∗ (K (F := F)).tcSt EH c 1)
  post := fun c => iprop((dats c).arrays ((dats c).arrAt · cfg1.N) ∗ (K (F := F)).tcSt EH c 1)
  X := fun _ => BI.emp
  Y := fun _ => BI.emp
  Z := fun c => tcTail c
  hentry := fun c => by
    beta_reduce
    rw [tcSt_eq, prefHeld_none]
    iintro ⟨⟨Harr, ⟨%W, %hW, HO⟩, Htail⟩, -, -⟩
    imodintro
    isplitl [Harr]; · iexact Harr
    isplitr; · iempintro
    isplitl [HO]
    · iexists W
      isplitr
      · ipureintro
        intro p hp
        refine Or.inl ?_
        rw [hrec]
        exact hW p (Finset.mem_coe.mp hp)
      · rw [howed]; iexact HO
    isplitr; · iempintro
    iexact Htail
  hin := fun c => by
    beta_reduce
    rw [hΦ]
    iintro -; iempintro
  hout := fun c => by
    beta_reduce
    rw [hΦ, Pipeline.ownSems0_none (nD := nD) (τ := τ) (sig := sig) (Ix := HIx 1) (Val := Elt F) (Name := ℕ) (U := UU) (Lvl := ℕ) c]
    iintro -
    isplitr; · iempintro
    isplitr; · iempintro
    iapply (Entails.of_eq (scopedRest1_eq (Ix := HIx 1) (Val := Elt F) (Name := ℕ) (U := UU) (Lvl := ℕ) c).symm)
    iempintro
  hexit := fun c => by
    beta_reduce
    rw [tcSt_eq]
    iintro ⟨Harr, ⟨%W, %hW, HO⟩, -, Htail⟩
    imodintro
    isplitl [Harr]; · iexact Harr
    isplitl [HO]
    · iexists W
      isplitr
      · ipureintro
        intro p hp
        rcases hW (Finset.mem_coe.mpr hp) with h | ⟨w, s, rfl⟩
        · rw [hrec] at h; exact Nat.le_trans h (by decide)
        · exact Nat.zero_le _
      · rw [howed]; iexact HO
    iexact Htail

/-- The region's call line in @main. From the level facts, the region boundary, the windowed arrays at the proof
    data's entry contents, the region's ghost state and the TensorCore's handshake state after the SparseCore call,
    the call runs the pipeline — the body obligation at every grid point, the core owing nothing, its recorded pairs
    kept within the call's band — and the continuation resumes from the boundary, the arrays after every write-back
    and the same handshake state. -/
theorem region_call
    (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hq : ∀ c w, (dats c).q w = fullShare)
    (hΦ : ∀ c t, (dats c).Φ t = (BI.emp : sProp 𝕄))
    (lv : GSem nD τ sig → HIx 1 → ℕ) (hlv : (K (F := F)).Refines lv)
    (d : Dev nD) {α : Type} (k : PUnit → Prog (TpuEff nD τ sig (Elt F) (SparseCore.Sig (ΛP (F := F)) 1) .tc) α) (Q : α → sProp 𝕄) :
    iprop(levAts (K (F := F)).L lv ∗ boundary (T d) ∗ (dats d).arrays ((dats d).arrAt · 0) ∗ regionGhost d ∗ (K (F := F)).tcSt EH d 1
        ∗ (iprop(boundary (T d) ∗ (dats d).arrays ((dats d).arrAt · cfg1.N) ∗ (K (F := F)).tcSt EH d 1)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q := by
  classical
  rw [wp_bind]
  refine BIBase.Entails.trans ?_ ((K (F := F)).wp_liftProg D 𝒱 (T d) Set.univ none
    (Prog.op (.customCall (Pipeline.entry (0 : Fin 1)) ()) Prog.ret)
    (fun x => wp frame (wpE ((K (F := F)).defs D) 𝒱 (T d) none) Set.univ (k x) Q))
  refine BIBase.Entails.trans ?_ (Pipeline.RegionSeg.wp (pcfgs (F := F)) adm (pd dats) (none : HIx 1) cellOf_inj (EP : Emb UP 𝕄) defs₀ 𝒱₀
    (K (F := F)).L lv (regionSeg dats hbody howed hrec hΦ lv) d none (fun u h => nomatch h) Prog.ret _)
  unfold regionGhost
  rw [show (regionSeg dats hbody howed hrec hΦ lv).post d
        = iprop((dats d).arrays ((dats d).arrAt · cfg1.N) ∗ (K (F := F)).tcSt EH d 1) from rfl,
    show (regionSeg dats hbody howed hrec hΦ lv).pre d
        = iprop((dats d).arrays ((dats d).arrAt · 0) ∗ (K (F := F)).tcSt EH d 1) from rfl]
  iintro ⟨#Hla, Hbd, Harr, ⟨Hg, Ht⟩, Hst, Hk⟩
  isplitl [Hk]
  · iintro ⟨Hbd, Harr, Hst⟩
    rw [wp_ret]
    imodintro
    iapply Hk
    isplitl [Hbd]; · iexact Hbd
    isplitl [Harr]; · iexact Harr
    iexact Hst
  isplitl [Hbd]; · iexact Hbd
  isplitl [Harr Hst]
  · isplitl [Harr]; · iexact Harr
    iexact Hst
  isplitr; · iexact Hla
  isplitl [Hg]; · iexact Hg
  iexact Ht

/-- Every windowed array is held outright. -/
theorem share_full (dats : (c : Dev nD) → Pipeline.Dat τ (Elt F) (HIx 1) ℕ UU ℕ cfg1 c)
    (hq : ∀ c w, (dats c).q w = fullShare) (c : Dev nD) (w : Fin cfg1.W) : (dats c).share w = fullShare := by
  unfold Pipeline.Dat.share
  split
  · rfl
  · exact hq c w

/-- Before any write-back an array holds its entry contents. -/
theorem arrAt_zero (dats : (c : Dev nD) → Pipeline.Dat τ (Elt F) (HIx 1) ℕ UU ℕ cfg1 c) (d : Dev nD) (w : Fin cfg1.W) :
    (dats d).arrAt w 0 = (dats d).A w := rfl

/-- The four windowed arrays, one by one: the transposed input, the scattered weights, the bias column, the result. -/
theorem arrays_locs (dats : (c : Dev nD) → Pipeline.Dat τ (Elt F) (HIx 1) ℕ UU ℕ cfg1 c)
    (hq : ∀ c w, (dats c).q w = fullShare) (d : Dev nD)
    (Fc : (w : Fin cfg1.W) → Buf (Elt F) ((cfg1.win w).arr.view.loc (d.tc : Thread nD τ)))
    (x0 : Buf (Elt F) ((T d : Thread nD τ).loc main_v0)) (x1 : Buf (Elt F) ((T d : Thread nD τ).loc main_v20))
    (x2 : Buf (Elt F) ((T d : Thread nD τ).loc main_v21)) (x3 : Buf (Elt F) ((T d : Thread nD τ).loc main_v22))
    (h0 : Fc 0 = x0) (h1 : Fc 1 = x1) (h2 : Fc 2 = x2) (h3 : Fc 3 = x3) :
    ((dats d).arrays Fc : sProp 𝕄)
      = iprop(((T d : Thread nD τ).loc main_v0 ↦{fullShare} x0) ∗ ((T d : Thread nD τ).loc main_v20 ↦{fullShare} x1)
          ∗ ((T d : Thread nD τ).loc main_v21 ↦{fullShare} x2) ∗ ((T d : Thread nD τ).loc main_v22 ↦{fullShare} x3)) := by
  subst h0 h1 h2 h3
  rw [Pipeline.arrays_eq cfgs (fun (_ : Fin 1) c => dats c) 0 d arr_whole1 (share_full dats hq d) Fc, bigSep_W1]

/-- The region's call with the four arrays named: the transposed input, the weights and the bias column come back
    as they were, the result array at what the write-backs leave. -/
theorem region_call_locs
    (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hq : ∀ c w, (dats c).q w = fullShare)
    (hΦ : ∀ c t, (dats c).Φ t = (BI.emp : sProp 𝕄))
    (lv : GSem nD τ sig → HIx 1 → ℕ) (hlv : (K (F := F)).Refines lv)
    (d : Dev nD)
    (xt : Buf (Elt F) ((T d : Thread nD τ).loc main_v0)) (wd : Buf (Elt F) ((T d : Thread nD τ).loc main_v20))
    (b2 : Buf (Elt F) ((T d : Thread nD τ).loc main_v21)) (o0 o1 : Buf (Elt F) ((T d : Thread nD τ).loc main_v22))
    (hA0 : (dats d).A 0 = xt) (hA1 : (dats d).A 1 = wd) (hA2 : (dats d).A 2 = b2) (hA3 : (dats d).A 3 = o0)
    (hN0 : (dats d).arrAt 0 cfg1.N = xt) (hN1 : (dats d).arrAt 1 cfg1.N = wd) (hN2 : (dats d).arrAt 2 cfg1.N = b2)
    (hN3 : (dats d).arrAt 3 cfg1.N = o1)
    {α : Type} (k : PUnit → Prog (TpuEff nD τ sig (Elt F) (SparseCore.Sig (ΛP (F := F)) 1) .tc) α) (Q : α → sProp 𝕄) :
    iprop(levAts (K (F := F)).L lv ∗ boundary (T d)
        ∗ ((T d : Thread nD τ).loc main_v0 ↦{fullShare} xt) ∗ ((T d : Thread nD τ).loc main_v20 ↦{fullShare} wd)
        ∗ ((T d : Thread nD τ).loc main_v21 ↦{fullShare} b2) ∗ ((T d : Thread nD τ).loc main_v22 ↦{fullShare} o0)
        ∗ regionGhost d ∗ (K (F := F)).tcSt EH d 1
        ∗ (iprop(boundary (T d)
              ∗ ((T d : Thread nD τ).loc main_v0 ↦{fullShare} xt) ∗ ((T d : Thread nD τ).loc main_v20 ↦{fullShare} wd)
              ∗ ((T d : Thread nD τ).loc main_v21 ↦{fullShare} b2) ∗ ((T d : Thread nD τ).loc main_v22 ↦{fullShare} o1)
              ∗ (K (F := F)).tcSt EH d 1)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q := by
  have e0 := arrays_locs dats hq d ((dats d).arrAt · 0) xt wd b2 o0
    ((arrAt_zero dats d 0).trans hA0) ((arrAt_zero dats d 1).trans hA1) ((arrAt_zero dats d 2).trans hA2) ((arrAt_zero dats d 3).trans hA3)
  have eN := arrays_locs dats hq d ((dats d).arrAt · cfg1.N) xt wd b2 o1 hN0 hN1 hN2 hN3
  iintro ⟨#Hla, Hbd, H0, H1, H2, H3, Hg, Hst, Hk⟩
  iapply (region_call dats hbody howed hrec hq hΦ lv hlv d k Q)
  isplitr; · iexact Hla
  isplitl [Hbd]; · iexact Hbd
  isplitl [H0 H1 H2 H3]
  · iapply (Entails.of_eq e0.symm)
    isplitl [H0]; · iexact H0
    isplitl [H1]; · iexact H1
    isplitl [H2]; · iexact H2
    iexact H3
  isplitl [Hg]; · iexact Hg
  isplitl [Hst]; · iexact Hst
  iintro ⟨Hbd, Harr, Hst⟩
  ihave Harr' := (Entails.of_eq eN) $$ Harr
  icases Harr' with ⟨H0, H1, H2, H3⟩
  iapply Hk
  isplitl [Hbd]; · iexact Hbd
  isplitl [H0]; · iexact H0
  isplitl [H1]; · iexact H1
  isplitl [H2]; · iexact H2
  isplitl [H3]; · iexact H3
  iexact Hst

/-- The same, the inputs' final contents discharged: an input window never writes back, so its array ends as it
    began; only the result array's final contents are left to the value side. -/
theorem region_call_out
    (dats : (c : Dev nD) → Pipeline.Dat τ (Elt F) (HIx 1) ℕ UU ℕ cfg1 c)
    (hbody : ∀ c, Pipeline.BodyObligationLoose (dats c) defs₀ 𝒱₀ (none : HIx 1) Set.univ)
    (howed : ∀ c t, (dats c).owed t = 0)
    (hrec : ∀ c t, (dats c).recorded t = tcRec (F := F) c)
    (hq : ∀ c w, (dats c).q w = fullShare)
    (hΦ : ∀ c t, (dats c).Φ t = (BI.emp : sProp 𝕄))
    (lv : GSem nD τ sig → HIx 1 → ℕ) (hlv : (K (F := F)).Refines lv)
    (d : Dev nD)
    (xt : Buf (Elt F) ((T d : Thread nD τ).loc main_v0)) (wd : Buf (Elt F) ((T d : Thread nD τ).loc main_v20))
    (b2 : Buf (Elt F) ((T d : Thread nD τ).loc main_v21)) (o0 o1 : Buf (Elt F) ((T d : Thread nD τ).loc main_v22))
    (hA0 : (dats d).A 0 = xt) (hA1 : (dats d).A 1 = wd) (hA2 : (dats d).A 2 = b2) (hA3 : (dats d).A 3 = o0)
    (hN3 : (dats d).arrAt 3 cfg1.N = o1)
    {α : Type} (k : PUnit → Prog (TpuEff nD τ sig (Elt F) (SparseCore.Sig (ΛP (F := F)) 1) .tc) α) (Q : α → sProp 𝕄) :
    iprop(levAts (K (F := F)).L lv ∗ boundary (T d)
        ∗ ((T d : Thread nD τ).loc main_v0 ↦{fullShare} xt) ∗ ((T d : Thread nD τ).loc main_v20 ↦{fullShare} wd)
        ∗ ((T d : Thread nD τ).loc main_v21 ↦{fullShare} b2) ∗ ((T d : Thread nD τ).loc main_v22 ↦{fullShare} o0)
        ∗ regionGhost d ∗ (K (F := F)).tcSt EH d 1
        ∗ (iprop(boundary (T d)
              ∗ ((T d : Thread nD τ).loc main_v0 ↦{fullShare} xt) ∗ ((T d : Thread nD τ).loc main_v20 ↦{fullShare} wd)
              ∗ ((T d : Thread nD τ).loc main_v21 ↦{fullShare} b2) ∗ ((T d : Thread nD τ).loc main_v22 ↦{fullShare} o1)
              ∗ (K (F := F)).tcSt EH d 1)
            -∗ wp frame (wpE ((K (F := F)).defs D) 𝒱 (T d) none) Set.univ (k ⟨⟩) Q))
      ⊢ wp frame (wpE ((K (F := F)).defs D) 𝒱 (T d) none) Set.univ
          (Prog.lift (.customCall (SparseCore.inner (Pipeline.entry 0)) ()) >>= k) Q :=
  region_call_locs dats hbody howed hrec hq hΦ lv hlv d xt wd b2 o0 o1 hA0 hA1 hA2 hA3
    (((dats d).arrAt_in 0 rfl cfg1.N).trans hA0) (((dats d).arrAt_in 1 rfl cfg1.N).trans hA1)
    (((dats d).arrAt_in 2 rfl cfg1.N).trans hA2) hN3 k Q

end Cert.Proof.KI

end
-- ==== Proof.KI.ConvSpec.lean ====
/-
  The convolution the TensorCore kernel computes, as pure functions of its operands' contents: what one grid
  point's body leaves in the output window's block (six output rows, each the canon of one covering store whose
  payload is a function of eight loaded input rows, the three weight planes and the bias column), and the whole
  output array assembled from those blocks.
-/
import proofs.«216126_g59949153517679_cont_9to1_m_442_25_alg».proof.Proof.KI.Common
import Idealize.ShloMosaic.Lib.Pipeline.FrameBody

noncomputable section

namespace Cert.Proof.KI

open Cert.KernelIdeal Cert.KernelIdeal.Gen
open Idealize.ShloMosaic

variable {F : FTy → Type} [FloatOps F]

/-! ## The body's rectangles -/

/-- Row `6 * (i 1) + r` of the input block: the rectangle of the body's `r`-th load of it. -/
abbrev rX (i : grid1.Coords) (r : Fin 8) : Rect S1x224x96x224 :=
  Rect.unit (s := S1x224x96x224) (k1_off1 i (BitVec.ofNat 32 r.val)) S1x1x96x224.size (k1_off1_inb i r)

/-- The three weight planes. -/
abbrev rW0 : Rect S3x192x288 := Rect.unit (s := S3x192x288) ![0, 0, 0] S1x192x288.size inb_S3x192x288_S1x192x288_0_0_0
abbrev rW1 : Rect S3x192x288 := Rect.unit (s := S3x192x288) ![1, 0, 0] S1x192x288.size inb_S3x192x288_S1x192x288_1_0_0
abbrev rW2 : Rect S3x192x288 := Rect.unit (s := S3x192x288) ![2, 0, 0] S1x192x288.size inb_S3x192x288_S1x192x288_2_0_0

/-- The bias column, whole. -/
abbrev rB : Rect S192x1 := Rect.unit (s := S192x1) ![0, 0] S192x1.size inb_S192x1_S192x1_0_0

/-- The six rows of the output block. -/
abbrev rO0 : Rect S1x6x192x222 := Rect.unit (s := S1x6x192x222) ![0, 0, 0, 0] S1x1x192x222.size inb_S1x6x192x222_S1x1x192x222_0_0_0_0
abbrev rO1 : Rect S1x6x192x222 := Rect.unit (s := S1x6x192x222) ![0, 1, 0, 0] S1x1x192x222.size inb_S1x6x192x222_S1x1x192x222_0_1_0_0
abbrev rO2 : Rect S1x6x192x222 := Rect.unit (s := S1x6x192x222) ![0, 2, 0, 0] S1x1x192x222.size inb_S1x6x192x222_S1x1x192x222_0_2_0_0
abbrev rO3 : Rect S1x6x192x222 := Rect.unit (s := S1x6x192x222) ![0, 3, 0, 0] S1x1x192x222.size inb_S1x6x192x222_S1x1x192x222_0_3_0_0
abbrev rO4 : Rect S1x6x192x222 := Rect.unit (s := S1x6x192x222) ![0, 4, 0, 0] S1x1x192x222.size inb_S1x6x192x222_S1x1x192x222_0_4_0_0
abbrev rO5 : Rect S1x6x192x222 := Rect.unit (s := S1x6x192x222) ![0, 5, 0, 0] S1x1x192x222.size inb_S1x6x192x222_S1x1x192x222_0_5_0_0

/-! ## The values the body carries from part to part, over the loaded rows -/

section Carried

variable (x0 x1 x2 x3 x4 x5 x6 x7 : Vec F S1x1x96x224 .f32) (w : Vec F S3x192x288 .bf16) (b2 : Vec F S192x1 .f32)

/-- The eight loaded input rows stacked and rounded to bf16. -/
def cv34 : FVec F S768x224 .bf16 :=
  k1_pay9 (k1_pay2 x0) (k1_pay3 x1) (k1_pay4 x2) (k1_pay5 x3) (k1_pay6 x4) (k1_pay7 x5) (k1_pay8 x6) x7

/-- Rows 1 to 3 of the stack, which the second output row reads. -/
def cv57 : FVec F S288x224 .bf16 :=
  k1_pay11 (k1_pay2 x0) (k1_pay3 x1) (k1_pay4 x2) (k1_pay5 x3) (k1_pay6 x4) (k1_pay7 x5) (k1_pay8 x6) x7

/-- Their product with the first weight plane. -/
def cv60 : FVec F S192x224 .f32 :=
  k1_pay12 (k1_pay2 x0) (k1_pay3 x1) (k1_pay4 x2) (k1_pay5 x3) (k1_pay6 x4) (k1_pay7 x5) (k1_pay8 x6) x7 (View.ld w rW0)

/-- The payloads of the six stores, in row order. -/
def cpay0 : FVec F S1x1x192x222 .f32 :=
  k1_pay10 (k1_pay2 x0) (k1_pay3 x1) (k1_pay4 x2) (k1_pay5 x3) (k1_pay6 x4) (k1_pay7 x5) (k1_pay8 x6) x7
    (View.ld w rW0) (View.ld w rW1) (View.ld w rW2) (View.ld b2 rB)
def cpay1 : FVec F S1x1x192x222 .f32 :=
  k1_pay13 (cv57 x0 x1 x2 x3 x4 x5 x6 x7) (cv60 x0 x1 x2 x3 x4 x5 x6 x7 w) (View.ld w rW1) (View.ld w rW2) (View.ld b2 rB)
def cpay2 : FVec F S1x1x192x222 .f32 :=
  k1_pay15 (k1_pay14 (cv34 x0 x1 x2 x3 x4 x5 x6 x7) (View.ld w rW0) (View.ld w rW1) (View.ld w rW2)) (View.ld b2 rB)
def cpay3 : FVec F S1x1x192x222 .f32 :=
  k1_pay16 (cv34 x0 x1 x2 x3 x4 x5 x6 x7) (View.ld w rW0) (View.ld w rW1) (View.ld w rW2) (View.ld b2 rB)
def cpay4 : FVec F S1x1x192x222 .f32 :=
  k1_pay19 (k1_pay17 (cv34 x0 x1 x2 x3 x4 x5 x6 x7)) (k1_pay18 (View.ld w rW0)) (View.ld w rW1) (View.ld w rW2) (View.ld b2 rB)
def cpay5 : FVec F S1x1x192x222 .f32 :=
  k1_pay1 (k1_pay21 (cv34 x0 x1 x2 x3 x4 x5 x6 x7) (View.ld w rW2))
    (k1_pay22 (cv34 x0 x1 x2 x3 x4 x5 x6 x7) (View.ld w rW0) (View.ld w rW1)) (View.ld b2 rB)

/-- The output block from the eight input rows the body loads, the weights and the bias: its six stores as
    pieces, last first. -/
def convBlockOf : Vec F S1x6x192x222 .f32 :=
  View.canon [⟨rO5, cpay5 x0 x1 x2 x3 x4 x5 x6 x7 w b2⟩, ⟨rO4, cpay4 x0 x1 x2 x3 x4 x5 x6 x7 w b2⟩,
    ⟨rO3, cpay3 x0 x1 x2 x3 x4 x5 x6 x7 w b2⟩, ⟨rO2, cpay2 x0 x1 x2 x3 x4 x5 x6 x7 w b2⟩,
    ⟨rO1, cpay1 x0 x1 x2 x3 x4 x5 x6 x7 w b2⟩, ⟨rO0, cpay0 x0 x1 x2 x3 x4 x5 x6 x7 w b2⟩]

end Carried

/-- What the body at grid point `i` leaves in the output window's block, the input windows' blocks reading `xb`,
    `w`, `b2`: the rows are rows `6 * (i 1) + r`, `r < 8`, of the input block. -/
def convBlockAt (i : grid1.Coords) (xb : Vec F S1x224x96x224 .f32) (w : Vec F S3x192x288 .bf16) (b2 : Vec F S192x1 .f32) :
    Vec F S1x6x192x222 .f32 :=
  convBlockOf (View.ld xb (rX i 0)) (View.ld xb (rX i 1)) (View.ld xb (rX i 2)) (View.ld xb (rX i 3))
    (View.ld xb (rX i 4)) (View.ld xb (rX i 5)) (View.ld xb (rX i 6)) (View.ld xb (rX i 7)) w b2

/-- The six stores tile the block, so they cover it. -/
theorem cover_convBlock (p5 p4 p3 p2 p1 p0 : Vec F S1x1x192x222 .f32) (y : S1x6x192x222.Idx) :
    ∃ pc ∈ ([⟨rO5, p5⟩, ⟨rO4, p4⟩, ⟨rO3, p3⟩, ⟨rO2, p2⟩, ⟨rO1, p1⟩, ⟨rO0, p0⟩] : List (View.Piece (Elt F) S1x6x192x222 .f32)), y ∈ pc.1.set :=
  View.cover_of_tiled [⟨rO5, p5⟩, ⟨rO4, p4⟩, ⟨rO3, p3⟩, ⟨rO2, p2⟩, ⟨rO1, p1⟩, ⟨rO0, p0⟩] S1x1x192x222.size (by rfl) y

/-! ## The block at a row index, and the whole output -/

/-- A grid point of second coordinate `ii` (the body reads no other coordinate). -/
def ptOf (ii : Fin 37) : grid1.Coords := fun | 0 => (0 : Fin 2) | 1 => ii | ⟨_ + 2, h⟩ => absurd h (Nat.not_lt.2 (Nat.le_add_left _ _))

/-- The body's input-row offsets read the second coordinate only. -/
theorem k1_off1_congr (i i' : grid1.Coords) (h : i 1 = i' 1) (r : BitVec 32) : k1_off1 i r = k1_off1 i' r := by
  unfold k1_off1; rw [h]

/-- The output block the body leaves at a point of second coordinate `ii`. -/
def convBlock (xb : FVec F S1x224x96x224 .f32) (w : FVec F S3x192x288 .bf16) (b2 : FVec F S192x1 .f32) (ii : Fin 37) :
    FVec F S1x6x192x222 .f32 :=
  convBlockAt (ptOf ii) xb w b2

/-- A load through a unit rectangle reads the offsets only. -/
theorem ld_unit_congr (xb : Vec F S1x224x96x224 .f32) (o o' : Fin 4 → Nat) (h : o = o')
    (p : ∀ a, o a + S1x1x96x224.size a ≤ S1x224x96x224.size a) (p' : ∀ a, o' a + S1x1x96x224.size a ≤ S1x224x96x224.size a) :
    (View.ld xb (Rect.unit (s := S1x224x96x224) o S1x1x96x224.size p) : Vec F S1x1x96x224 .f32)
      = View.ld xb (Rect.unit (s := S1x224x96x224) o' S1x1x96x224.size p') := by
  subst h; rfl

theorem ld_rX_congr (xb : Vec F S1x224x96x224 .f32) (i i' : grid1.Coords) (h : i 1 = i' 1) (r : Fin 8) :
    (View.ld xb (rX i r) : Vec F S1x1x96x224 .f32) = View.ld xb (rX i' r) :=
  ld_unit_congr xb _ _ (k1_off1_congr i i' h _) _ _

theorem convBlockAt_eq (i : grid1.Coords) (xb : FVec F S1x224x96x224 .f32) (w : FVec F S3x192x288 .bf16) (b2 : FVec F S192x1 .f32) :
    convBlockAt i xb w b2 = convBlock xb w b2 (i 1) := by
  have e : ∀ r, (View.ld xb (rX i r) : Vec F S1x1x96x224 .f32) = View.ld xb (rX (ptOf (i 1)) r) :=
    fun r => ld_rX_congr xb i (ptOf (i 1)) rfl r
  unfold convBlock convBlockAt
  rw [e 0, e 1, e 2, e 3, e 4, e 5, e 6, e 7]

/-- Batch `b` of the input array, as a block. -/
def xBlock (xt : FVec F S2x224x96x224 .f32) (b : Fin 2) : FVec F S1x224x96x224 .f32 :=
  fun x => xt fun | 0 => b | 1 => x 1 | 2 => x 2 | 3 => x 3 | ⟨_ + 4, h⟩ => absurd h (Nat.not_lt.2 (Nat.le_add_left _ _))

/-- The whole output: at `(b, h, f, j)`, row `h % 6` of the block of batch `b` at row index `h / 6`. -/
def convOut (xt : FVec F S2x224x96x224 .f32) (w : FVec F S3x192x288 .bf16) (b2 : FVec F S192x1 .f32) :
    FVec F S2x222x192x222 .f32 :=
  fun y => convBlock (xBlock xt (y 0)) w b2 ⟨(y 1).val / 6, by have := (y 1).isLt; change (y 1).val < 222 at this; omega⟩
    fun | 0 => (0 : Fin 1) | 1 => (⟨(y 1).val % 6, Nat.mod_lt _ (by decide)⟩ : Fin 6) | 2 => y 2 | 3 => y 3 | ⟨_ + 4, h⟩ => absurd h (Nat.not_lt.2 (Nat.le_add_left _ _))

end Cert.Proof.KI

end
-- ==== Proof.KI.Body.lean ====
/-
  The TensorCore kernel's body at a symbolic grid point, and the pipeline's proof data: what each window's staging
  buffer holds after the body (an input's its block, the output's the block of the convolution of the staged input
  blocks), the body's triple, and the pipeline rule's body obligation at every point.
-/
import proofs.«216126_g59949153517679_cont_9to1_m_442_25_alg».proof.Proof.KI.ConvSpec
import Idealize.ShloMosaic.Lib.Pipeline.FrameBody
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The windows' blocks -/

/-- The contents of the pipeline's four arrays on core `c`. -/
abbrev Arrs (c : Dev nD) : Type := (w : Fin cfg1.W) → Buf (Elt F) ((cfg1.win w).arr.view.loc (c.tc : Thread nD τ))

/-- Window `w`'s block at point `t`, read off its array at contents `A w`. -/
def iblk (c : Dev nD) (A : Arrs (F := F) c) (w : Fin cfg1.W) (t : Fin cfg1.N) :
    ((cfg1.win w).xblock (cfg1.grid.coords t)).Idx → Elt F (cfg1.win w).elt :=
  ((cfg1.win w).blk t).view.read (Elt F) (A w)

/-! ## The pipeline's proof data -/

/-- The proof data of the pipeline on core `c`, the arrays entered at `A`: after the body at point `t` each
    input's buffer at its block and the output's at the convolution block of the input blocks; the invariant a
    constant `Φ₀`, the tallies owed a constant `O` and the bound on the recorded pairs a constant `R`, all three
    the region's to choose (the body reads none of them). -/
def dats (c : Dev nD) (A : Arrs (F := F) c) (Φ₀ : sProp 𝕄) (O : CellTallies nD τ sig (HIx 1)) (R : Set (SemLoc sig × HIx 1)) :
    Dat τ (Elt F) (HIx 1) ℕ UU ℕ cfg1 c where
  A := A
  after w t := match w with
    | ⟨0, _⟩ => iblk c A 0 t
    | ⟨1, _⟩ => iblk c A 1 t
    | ⟨2, _⟩ => iblk c A 2 t
    | ⟨3, _⟩ => convBlock (iblk c A 0 t) (iblk c A 1 t) (iblk c A 2 t) ((grid1.coords t) 1)
  Φ _ := Φ₀
  q _ := fullShare
  owed _ := O
  recorded _ := R

theorem A_eq (c : Dev nD) (A : Arrs (F := F) c) (Φ₀ : sProp 𝕄) (O : CellTallies nD τ sig (HIx 1)) (R : Set (SemLoc sig × HIx 1)) (w : Fin cfg1.W) : (dats c A Φ₀ O R).A w = A w := by dsimp only [dats]
theorem after1_0 (c : Dev nD) (A : Arrs (F := F) c) (Φ₀ : sProp 𝕄) (O : CellTallies nD τ sig (HIx 1)) (R : Set (SemLoc sig × HIx 1)) (t : Fin cfg1.N) : (dats c A Φ₀ O R).after 0 t = iblk c A 0 t := by dsimp only [dats]
theorem after1_1 (c : Dev nD) (A : Arrs (F := F) c) (Φ₀ : sProp 𝕄) (O : CellTallies nD τ sig (HIx 1)) (R : Set (SemLoc sig × HIx 1)) (t : Fin cfg1.N) : (dats c A Φ₀ O R).after 1 t = iblk c A 1 t := by dsimp only [dats]
theorem after1_2 (c : Dev nD) (A : Arrs (F := F) c) (Φ₀ : sProp 𝕄) (O : CellTallies nD τ sig (HIx 1)) (R : Set (SemLoc sig × HIx 1)) (t : Fin cfg1.N) : (dats c A Φ₀ O R).after 2 t = iblk c A 2 t := by dsimp only [dats]
theorem after1_3 (c : Dev nD) (A : Arrs (F := F) c) (Φ₀ : sProp 𝕄) (O : CellTallies nD τ sig (HIx 1)) (R : Set (SemLoc sig × HIx 1)) (t : Fin cfg1.N) : (dats c A Φ₀ O R).after 3 t
    = convBlock (iblk c A 0 t) (iblk c A 1 t) (iblk c A 2 t) ((grid1.coords t) 1) := by dsimp only [dats]

/-! ## What the body finds in the inputs' buffers -/

/-- Input window 0's current staging buffer holds its block at every point, fetched there or not: an unfetched
    point has the block index of the point before, and the body leaves the block in place. -/
theorem before1_0 (c : Dev nD) (A : Arrs (F := F) c) (Φ₀ : sProp 𝕄) (O : CellTallies nD τ sig (HIx 1)) (R : Set (SemLoc sig × HIx 1)) (t : Fin cfg1.N) (d) : (dats c A Φ₀ O R).before 0 t d = iblk c A 0 t :=
  ((dats c A Φ₀ O R).before_in_eq_fetched 0 rfl (fun _ => rfl) (fun _ _ _ => rfl)
      (fun t => by rw [after1_0]; unfold Dat.blockOf iblk; rw [A_eq]; try rfl) t d).trans
    (by unfold Dat.fetched Dat.blockOf iblk; rw [A_eq]; try rfl)
theorem before1_1 (c : Dev nD) (A : Arrs (F := F) c) (Φ₀ : sProp 𝕄) (O : CellTallies nD τ sig (HIx 1)) (R : Set (SemLoc sig × HIx 1)) (t : Fin cfg1.N) (d) : (dats c A Φ₀ O R).before 1 t d = iblk c A 1 t :=
  ((dats c A Φ₀ O R).before_in_eq_fetched 1 rfl (fun _ => rfl) (fun _ _ _ => rfl)
      (fun t => by rw [after1_1]; unfold Dat.blockOf iblk; rw [A_eq]; try rfl) t d).trans
    (by unfold Dat.fetched Dat.blockOf iblk; rw [A_eq]; try rfl)
theorem before1_2 (c : Dev nD) (A : Arrs (F := F) c) (Φ₀ : sProp 𝕄) (O : CellTallies nD τ sig (HIx 1)) (R : Set (SemLoc sig × HIx 1)) (t : Fin cfg1.N) (d) : (dats c A Φ₀ O R).before 2 t d = iblk c A 2 t :=
  ((dats c A Φ₀ O R).before_in_eq_fetched 2 rfl (fun _ => rfl) (fun _ _ _ => rfl)
      (fun t => by rw [after1_2]; unfold Dat.blockOf iblk; rw [A_eq]; try rfl) t d).trans
    (by unfold Dat.fetched Dat.blockOf iblk; rw [A_eq]; try rfl)

/-! ## The body's triple -/

set_option maxHeartbeats 4000000 in
/-- The kernel body at grid point `i` on whole staging memrefs, the inputs' at read contents and the output's at
    anything, runs to the continuation holding the inputs' as they were and the output's at the convolution block:
    the body is its sequence of memory operations over the named payloads, run part by part. -/
theorem sound_kernel (c : Dev nD) (E : Set ℕ) (i : grid1.Coords)
    (arg2 : Memref sig .tc .vmem S1x224x96x224 .f32) (harg2 : arg2.IsWhole) (arg3 : Memref sig .tc .vmem S3x192x288 .bf16) (harg3 : arg3.IsWhole)
    (arg4 : Memref sig .tc .vmem S192x1 .f32) (harg4 : arg4.IsWhole) (arg5 : Memref sig .tc .vmem S1x6x192x222 .f32) (harg5 : arg5.IsWhole)
    (xb : Vec F S1x224x96x224 .f32) (w : Vec F S3x192x288 .bf16) (b2 : Vec F S192x1 .f32) (K : PUnit → sProp 𝕄) :
    iprop(owns (c : Thread nD τ) arg2 fullShare xb ∗ owns (c : Thread nD τ) arg3 fullShare w ∗ owns (c : Thread nD τ) arg4 fullShare b2
        ∗ (∃ d, owns (c : Thread nD τ) arg5 fullShare d)
        ∗ (iprop(owns (c : Thread nD τ) arg2 fullShare xb ∗ owns (c : Thread nD τ) arg3 fullShare w ∗ owns (c : Thread nD τ) arg4 fullShare b2
            ∗ owns (c : Thread nD τ) arg5 fullShare (convBlockAt i xb w b2)) -∗ K ⟨⟩))
      ⊢ wp frame (wpE (defs₀ (F := F)) Variants.none c none) E (cc1_body i arg2 harg2 arg3 harg3 arg4 harg4 arg5 harg5) K := by
  simp only [cc1_body_eq_skeleton]; unfold cc1_body_skel
  unfold owns
  iintro ⟨⟨%f0, %hf0, H0⟩, ⟨%f1, %hf1, H1⟩, ⟨%f2, %hf2, H2⟩, ⟨%d3, %f3, -, H3⟩, Hk⟩
  subst hf0 hf1 hf2
  -- the five parts and the tail, each part a theorem of its own
  sl_exec_parts
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  -- the six stores cover the block, so the buffer reads their canon
  exact View.read_writes_eq_canon _ _ _ (cover_convBlock _ _ _ _ _ _)

/-! ## The body obligation -/

/-- The body at any point: the inputs' memrefs hold their blocks, so the triple applies; the invariant and the core's
    `owes` pass through unread. -/
theorem body_obligation (c : Dev nD) (A : Arrs (F := F) c) (Φ₀ : sProp 𝕄) (O : CellTallies nD τ sig (HIx 1)) (R : Set (SemLoc sig × HIx 1)) (ι : HIx 1) :
    BodyObligation (dats c A Φ₀ O R) (defs₀ (F := F)) 𝒱₀ ι Set.univ := fun t => by
  rw [bigSep_W1, bigSep_W1]
  show iprop(Φ₀ ∗ (dats c A Φ₀ O R).owesAt ι t.castSucc
      ∗ (∃ d, owns (c : Thread nD τ) (st1_0 t) fullShare ((dats c A Φ₀ O R).before 0 t d))
      ∗ (∃ d, owns (c : Thread nD τ) (st1_1 t) fullShare ((dats c A Φ₀ O R).before 1 t d))
      ∗ (∃ d, owns (c : Thread nD τ) (st1_2 t) fullShare ((dats c A Φ₀ O R).before 2 t d))
      ∗ (∃ d, owns (c : Thread nD τ) (st1_3 t) fullShare ((dats c A Φ₀ O R).before 3 t d)))
    ⊢ wp frame (wpE (defs₀ (F := F)) Variants.none c none) Set.univ (bodyAt1 t) (fun _ =>
      iprop(Φ₀ ∗ (dats c A Φ₀ O R).owesAt ι t.castSucc
        ∗ owns (c : Thread nD τ) (st1_0 t) fullShare ((dats c A Φ₀ O R).after 0 t)
        ∗ owns (c : Thread nD τ) (st1_1 t) fullShare ((dats c A Φ₀ O R).after 1 t)
        ∗ owns (c : Thread nD τ) (st1_2 t) fullShare ((dats c A Φ₀ O R).after 2 t)
        ∗ owns (c : Thread nD τ) (st1_3 t) fullShare ((dats c A Φ₀ O R).after 3 t)))
  simp only [before1_0, before1_1, before1_2]
  rw [after1_0, after1_1, after1_2, after1_3, ← convBlockAt_eq]
  iintro ⟨HΦ, Ho, ⟨%d0, H0⟩, ⟨%d1, H1⟩, ⟨%d2, H2⟩, ⟨%d3, H3⟩⟩
  iapply (sound_kernel c Set.univ (grid1.coords t) _ _ _ _ _ _ _ _ (iblk c A 0 t) (iblk c A 1 t) (iblk c A 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

end Cert.Proof.KI

end
-- ==== Proof.KI.BodyArr.lean ====
/-
  The pipeline's arrays after the region: each input array as the region found it (no point writes it back), and
  the output array the whole convolution of the inputs, its 74 blocks written back one by one covering it.
-/
import proofs.«216126_g59949153517679_cont_9to1_m_442_25_alg».proof.Proof.KI.Body
import Idealize.ShloMosaic.Lib.Pipeline.Value

set_option maxRecDepth 16384

noncomputable section

namespace Cert.Proof.KI

open Cert.KernelIdeal Cert.KernelIdeal.Gen
open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable {F : FTy → Type} [FloatOps F]

local notation "𝕄" => MT nD τ sig (HIx 1) (Elt F) ℕ UU ℕ

/-! ## The index maps and the grid in closed form -/

theorem tr0_eq : ∀ i : grid1.Coords, cc1_transform_0 i = ![(i 0).val, 0, 0, 0] := by decide +kernel
theorem tr1_eq : ∀ i : grid1.Coords, cc1_transform_1 i = ![0, 0, 0] := by decide +kernel
theorem tr2_eq : ∀ i : grid1.Coords, cc1_transform_2 i = ![0, 0] := by decide +kernel
theorem tr3_eq : ∀ i : grid1.Coords, cc1_transform_3 i = ![(i 0).val, (i 1).val, 0, 0] := by decide +kernel
theorem stride1_0 : grid1.stride 0 = 37 := by decide
theorem stride1_1 : grid1.stride 1 = 1 := by decide

/-! ## The input arrays -/

theorem arrAt_in0 (c : Dev nD) (A : Arrs (F := F) c) (Φ₀ : sProp 𝕄) (O : CellTallies nD τ sig (HIx 1)) (R : Set (SemLoc sig × HIx 1)) (n : Nat) : (dats c A Φ₀ O R).arrAt 0 n = A 0 :=
  ((dats c A Φ₀ O R).arrAt_in 0 rfl n).trans (A_eq c A Φ₀ O R 0)
theorem arrAt_in1 (c : Dev nD) (A : Arrs (F := F) c) (Φ₀ : sProp 𝕄) (O : CellTallies nD τ sig (HIx 1)) (R : Set (SemLoc sig × HIx 1)) (n : Nat) : (dats c A Φ₀ O R).arrAt 1 n = A 1 :=
  ((dats c A Φ₀ O R).arrAt_in 1 rfl n).trans (A_eq c A Φ₀ O R 1)
theorem arrAt_in2 (c : Dev nD) (A : Arrs (F := F) c) (Φ₀ : sProp 𝕄) (O : CellTallies nD τ sig (HIx 1)) (R : Set (SemLoc sig × HIx 1)) (n : Nat) : (dats c A Φ₀ O R).arrAt 2 n = A 2 :=
  ((dats c A Φ₀ O R).arrAt_in 2 rfl n).trans (A_eq c A Φ₀ O R 2)

/-! ## The input blocks -/

/-- The input window's block at a point is the batch of its first coordinate. -/
theorem iblk0_eq (c : Dev nD) (A : Arrs (F := F) c) (t : Fin cfg1.N) : iblk c A 0 t = xBlock (A 0) ((grid1.coords t) 0) := by
  funext z
  show A 0 (((cfg1.win 0).rect t).emb z) = A 0 _
  congr 1
  have h0 : (z 0).val = 0 := by have := (z 0).isLt; change (z 0).val < 1 at this; omega
  have key : ∀ a, ((((cfg1.win 0).rect t).emb z) a).val = cc1_transform_0 (grid1.coords t) a * S1x224x96x224.size a + 1 * (z a).val := fun a => rfl
  funext a
  apply Fin.ext
  rw [key, tr0_eq]
  fin_cases a
  · show (grid1.coords t 0).val * 1 + 1 * (z 0).val = (grid1.coords t 0).val; omega
  · show 0 * 224 + 1 * (z 1).val = (z 1).val; omega
  · show 0 * 96 + 1 * (z 2).val = (z 2).val; omega
  · show 0 * 224 + 1 * (z 3).val = (z 3).val; omega

/-- The weights' and the bias's windows are their whole arrays. -/
theorem iblk1_eq (c : Dev nD) (A : Arrs (F := F) c) (t : Fin cfg1.N) : iblk c A 1 t = A 1 := by
  funext z
  show A 1 (((cfg1.win 1).rect t).emb z) = A 1 z
  congr 1
  have key : ∀ a, ((((cfg1.win 1).rect t).emb z) a).val = cc1_transform_1 (grid1.coords t) a * S3x192x288.size a + 1 * (z a).val := fun a => rfl
  funext a
  apply Fin.ext
  rw [key, tr1_eq]
  fin_cases a
  · show 0 * 3 + 1 * (z 0).val = (z 0).val; omega
  · show 0 * 192 + 1 * (z 1).val = (z 1).val; omega
  · show 0 * 288 + 1 * (z 2).val = (z 2).val; omega
theorem iblk2_eq (c : Dev nD) (A : Arrs (F := F) c) (t : Fin cfg1.N) : iblk c A 2 t = A 2 := by
  funext z
  show A 2 (((cfg1.win 2).rect t).emb z) = A 2 z
  congr 1
  have key : ∀ a, ((((cfg1.win 2).rect t).emb z) a).val = cc1_transform_2 (grid1.coords t) a * S192x1.size a + 1 * (z a).val := fun a => rfl
  funext a
  apply Fin.ext
  rw [key, tr2_eq]
  fin_cases a
  · show 0 * 192 + 1 * (z 0).val = (z 0).val; omega
  · show 0 * 1 + 1 * (z 1).val = (z 1).val; omega

/-! ## The output array -/

/-- The whole output at an index of the block of batch `b` and row index `ii` is that block there. -/
theorem convOut_apply_of (xt : FVec F S2x224x96x224 .f32) (w : FVec F S3x192x288 .bf16) (b2 : FVec F S192x1 .f32)
    (y : S2x222x192x222.Idx) (b : Fin 2) (ii : Fin 37) (x : S1x6x192x222.Idx)
    (h0 : (y 0).val = b.val) (h1 : (y 1).val = 6 * ii.val + (x 1).val) (h2 : (y 2).val = (x 2).val) (h3 : (y 3).val = (x 3).val) :
    convOut xt w b2 y = convBlock (xBlock xt b) w b2 ii x := by
  have hx0 : (x 0).val = 0 := by have := (x 0).isLt; change (x 0).val < 1 at this; omega
  have hx1 : (x 1).val < 6 := (x 1).isLt
  have e0 : y 0 = b := Fin.ext h0
  have hy1 : (y 1).val / 6 < 37 := by omega
  have e1 : (⟨(y 1).val / 6, hy1⟩ : Fin 37) = ii := Fin.ext (by show (y 1).val / 6 = ii.val; omega)
  show convBlock (xBlock xt (y 0)) w b2 ⟨(y 1).val / 6, _⟩ _ = _
  rw [e0]
  refine congrArg₂ (fun (k : Fin 37) (z : S1x6x192x222.Idx) => convBlock (xBlock xt b) w b2 k z) e1 ?_
  funext a
  apply Fin.ext
  fin_cases a
  · show 0 = (x 0).val; omega
  · show (y 1).val % 6 = (x 1).val; omega
  · exact h2
  · exact h3

/-- Every pair of coordinates is a point's. -/
theorem exists_point (b : Fin 2) (ii : Fin 37) :
    ∃ t : Fin cfg1.N, (grid1.coords t 0).val = b.val ∧ (grid1.coords t 1).val = ii.val := by
  have hb := b.isLt
  have hi := ii.isLt
  refine ⟨⟨37 * b.val + ii.val, lt_of_lt_of_eq (by omega : _ < 74) N_1.symm⟩, ?_, ?_⟩
  · show (37 * b.val + ii.val) / grid1.stride 0 % 2 = _
    rw [stride1_0]; omega
  · show (37 * b.val + ii.val) / grid1.stride 1 % 37 = _
    rw [stride1_1]; omega

/-- An index of the output block from its row, feature and column. -/
def rowIdx (r : Fin 6) (f : Fin 192) (j : Fin 222) : S1x6x192x222.Idx :=
  fun | 0 => (0 : Fin 1) | 1 => r | 2 => f | 3 => j | ⟨_ + 4, h⟩ => absurd h (Nat.not_lt.2 (Nat.le_add_left _ _))

/-- Where an element of the output block at point `t` sits in the output array. -/
theorem emb3_val (t : Fin cfg1.N) (x : S1x6x192x222.Idx) (a : Fin 4) :
    ((((cfg1.win 3).blk t).view.emb x) a).val = cc1_transform_3 (grid1.coords t) a * S1x6x192x222.size a + 1 * (x a).val := rfl

/-- An index of the output array lies in the block of the point of its batch and row index. -/
theorem mem_blk3 (i : S2x222x192x222.Idx) (t : Fin cfg1.N) (hc0 : (grid1.coords t 0).val = (i 0).val)
    (hc1 : (grid1.coords t 1).val = (i 1).val / 6) : i ∈ ((cfg1.win 3).blk t).view.set := by
  have hm : (i 1).val % 6 < 6 := Nat.mod_lt _ (by decide)
  have hx : ∀ a : Fin 4, ((((cfg1.win 3).blk t).view.emb (rowIdx ⟨(i 1).val % 6, hm⟩ (i 2) (i 3))) a).val = (i a).val := by
    intro a
    rw [emb3_val, tr3_eq]
    fin_cases a
    · show (grid1.coords t 0).val * 1 + 1 * 0 = (i 0).val; omega
    · show (grid1.coords t 1).val * 6 + 1 * ((i 1).val % 6) = (i 1).val; omega
    · show 0 * 192 + 1 * (i 2).val = (i 2).val; omega
    · show 0 * 222 + 1 * (i 3).val = (i 3).val; omega
  have hx' : ((cfg1.win 3).blk t).view.emb (rowIdx ⟨(i 1).val % 6, hm⟩ (i 2) (i 3)) = i := funext fun a => Fin.ext (hx a)
  rw [← hx']
  exact View.emb_mem_set _ _

/-- What the write-back at point `t` writes is block `t` of the whole output. -/
theorem flushed_eq (xt : FVec F S2x224x96x224 .f32) (w : FVec F S3x192x288 .bf16) (b2 : FVec F S192x1 .f32) (t : Fin cfg1.N) :
    (cfg1.win 3).cut (cfg1.grid.coords t) (convBlock (xBlock xt ((grid1.coords t) 0)) w b2 ((grid1.coords t) 1))
      = ((cfg1.win 3).blk t).view.read (Elt F) (convOut xt w b2 : S2x222x192x222.Idx → F .f32) := by
  funext x
  rw [View.read_apply]
  have key : ∀ a : Fin 4, ((((cfg1.win 3).blk t).view.emb x) a).val
      = cc1_transform_3 (grid1.coords t) a * S1x6x192x222.size a + 1 * (x a).val := fun a => rfl
  have hx0 : (x 0).val = 0 := by have := (x 0).isLt; change (x 0).val < 1 at this; omega
  refine ((convOut_apply_of xt w b2 (((cfg1.win 3).blk t).view.emb x) ((grid1.coords t) 0) ((grid1.coords t) 1)
    ((cfg1.win 3).xinj (cfg1.grid.coords t) x) ?_ ?_ ?_ ?_).symm.trans (cast_eq _ _).symm)
  · rw [key, tr3_eq]; show (grid1.coords t 0).val * 1 + 1 * (x 0).val = _; omega
  · rw [key, tr3_eq]; show (grid1.coords t 1).val * 6 + 1 * (x 1).val = 6 * (grid1.coords t 1).val + (x 1).val; omega
  · rw [key, tr3_eq]; show 0 * 192 + 1 * (x 2).val = (x 2).val; omega
  · rw [key, tr3_eq]; show 0 * 222 + 1 * (x 3).val = (x 3).val; omega

/-- The output array after the region is the whole convolution of the input arrays: every point writes its block
    back, each block that of the whole output, and the 74 blocks cover the array. -/
theorem arrAt_out (c : Dev nD) (A : Arrs (F := F) c) (Φ₀ : sProp 𝕄) (O : CellTallies nD τ sig (HIx 1)) (R : Set (SemLoc sig × HIx 1)) :
    (dats c A Φ₀ O R).arrAt 3 cfg1.N = (convOut (A 0) (A 1) (A 2) : S2x222x192x222.Idx → F .f32) := by
  refine (dats c A Φ₀ O R).arrAt_eq_of_cover 3 _ (fun t _ => ?_) (fun i => ?_)
  · unfold Dat.flushed
    rw [after1_3, iblk0_eq, iblk1_eq, iblk2_eq]
    exact flushed_eq (A 0) (A 1) (A 2) t
  · obtain ⟨t, hc0, hc1⟩ := exists_point (i 0) ⟨(i 1).val / 6, by have := (i 1).isLt; change (i 1).val < 222 at this; omega⟩
    exact ⟨t, flush1_3 t, mem_blk3 i t hc0 hc1⟩

end Cert.Proof.KI

end
-- ==== Proof.KI.HostSpec.lean ====
/-
  What @main's host operations compute, as pure functions of the arguments' contents: the flat positions and the
  padded values the scatter is given, the transposed input, the scattered weights rounded to bf16 and cut into
  three planes, the bias as a column, and the result as the composite of all of it.
-/
import proofs.«216126_g59949153517679_cont_9to1_m_442_25_alg».proof.Proof.KI.ScSpec
import proofs.«216126_g59949153517679_cont_9to1_m_442_25_alg».proof.Proof.KI.ConvSpec

noncomputable section

namespace Cert.Proof.KI

open Cert.KernelIdeal Cert.KernelIdeal.Gen
open Idealize.ShloMosaic

variable {F : FTy → Type} [FloatOps F]

/-! ## What the host arithmetic computes, as pure functions of the arguments -/

/-- A scalar spread over the 1658 entries. -/
abbrev spread {α : Type} (x : S_.Idx → α) : S1658.Idx → α := broadcastInDim S1658 ![] bcast_S_S1658 x

/-- `@floor_divide`: the quotient rounded toward minus infinity — the truncated quotient, less one where the signs
    differ and the remainder is not zero. -/
def floorDivV (a : IVec S1658 32) (c : IVec S_ 32) : IVec S1658 32 :=
  select (andi (cmpi .ne (signi a) (spread (signi c))) (cmpi .ne (Host.remsi a (spread c)) (spread (constantI S_ 32 0#32))))
    (subi (Host.divsi a (spread c)) (spread (constantI S_ 32 1#32))) (Host.divsi a (spread c))

/-- The divisor `@remainder` uses: one in place of zero. -/
def remDiv (c : IVec S_ 32) : IVec S_ 32 := select (cmpi .eq c (constantI S_ 32 0#32)) (constantI S_ 32 1#32) c

/-- `@remainder`: the remainder with the divisor's sign — the truncated remainder, plus the divisor where it is not zero
    and its sign differs from the divisor's. -/
def remV (a : IVec S1658 32) (c : IVec S_ 32) : IVec S1658 32 :=
  select (andi (cmpi .ne (cmpi .slt (Host.remsi a (spread (remDiv c))) (spread (constantI S_ 32 0#32)))
                  (spread (cmpi .slt (remDiv c) (constantI S_ 32 0#32))))
            (cmpi .ne (Host.remsi a (spread (remDiv c))) (spread (constantI S_ 32 0#32))))
    (addi (Host.remsi a (spread (remDiv c))) (spread (remDiv c))) (Host.remsi a (spread (remDiv c)))

/-- The flat position of entry `j`, before padding: with `q = row ÷ 96` (floored),
    `((q mod 3) · 192 + col) · 288 + (q ÷ 3) · 96 + row mod 96`. -/
def flatCore (row col : IVec S1658 32) : IVec S1658 32 :=
  addi (addi (muli (addi (muli (remV (floorDivV row (constantI S_ 32 96#32)) (constantI S_ 32 3#32)) (spread (constantI S_ 32 192#32))) col)
                (spread (constantI S_ 32 288#32)))
          (muli (floorDivV (floorDivV row (constantI S_ 32 96#32)) (constantI S_ 32 3#32)) (spread (constantI S_ 32 96#32))))
    (remV row (constantI S_ 32 96#32))

/-- The flat positions, padded to 1664 entries with the out-of-range position 165888. -/
def flatOf (row col : IVec S1658 32) : IVec S1664 32 :=
  concatenate S1664 0 [⟨S1658, flatCore row col⟩, ⟨S6, broadcastInDim S6 ![] bcast_S_S6 (constantI S_ 32 165888#32)⟩] concatenates_S1658_S6_S1664_d0

/-- The values, padded to 1664 entries with zeros. -/
def valsOf (kv : FVec F S1658 .f32) : FVec F S1664 .f32 :=
  concatenate S1664 0 [⟨S1658, kv⟩, ⟨S6, broadcastInDim S6 ![] bcast_S_S6 (constant (F := F) S_ .f32 0x00000000#32)⟩] concatenates_S1658_S6_S1664_d0

/-! ## The operands of the TensorCore kernel, and the result -/

/-- The input with its two minor dimensions exchanged. -/
def xOf (x : FVec F S2x224x224x96 .f32) : FVec F S2x224x96x224 .f32 :=
  transpose S2x224x96x224 [0, 1, 3, 2] x transposes_S2x224x224x96_S2x224x96x224_0_1_3_2

/-- The scattered weights as three planes of 192 by 288, rounded to bf16. -/
def wOf (sc : FVec F S165888 .f32) : FVec F S3x192x288 .bf16 :=
  truncf .bf16 (shapeCast S3x192x288 sc shapeCasts_S165888_S3x192x288) bitsLt_bf16_f32

/-- The bias as a column. -/
def bOf (b : FVec F S192 .f32) : FVec F S192x1 .f32 := shapeCast S192x1 b shapeCasts_S192_S192x1

/-- The kernel's output with its two minor dimensions exchanged back. -/
def yOf (y : FVec F S2x222x192x222 .f32) : FVec F S2x222x222x192 .f32 :=
  transpose S2x222x222x192 [0, 1, 3, 2] y transposes_S2x222x192x222_S2x222x222x192_0_1_3_2

/-- The program's result from its five arguments: the input, the values, the bias, the rows and the columns. -/
def OUT (x : FVec F S2x224x224x96 .f32) (kv : FVec F S1658 .f32) (b : FVec F S192 .f32) (row col : IVec S1658 32) :
    FVec F S2x222x222x192 .f32 :=
  yOf (convOut (xOf x) (wOf (scOut (flatOf row col) (valsOf kv))) (bOf b))

end Cert.Proof.KI

end
-- ==== Proof.KI.Host.lean ====
/-
  @main's host operations on the TensorCore: the three straight lines (before the SparseCore call, between the two
  calls, after the TensorCore kernel) as lists of operations, @main as their sequence around the two calls, the
  rule that runs each line over the TensorCore's unscoped buffers held whole, and what each line leaves in the
  buffers the calls and the claim read, as the pure functions of the arguments stated beside the program.
-/
import proofs.«216126_g59949153517679_cont_9to1_m_442_25_alg».proof.Proof.KI.Common
import proofs.«216126_g59949153517679_cont_9to1_m_442_25_alg».proof.Proof.KI.HostSpec
import Idealize.ShloMosaic.Lib.Pipeline.Regions
import Idealize.ShloMosaic.Lib.Pipeline.Frame

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Pipeline (chain chain_cons chain_nil ucRefs unscopedBufs_held sub_ucRefs)

variable {F : FTy → Type} [FloatOps F]

local notation "𝕄" => MT nD τ sig (HIx 1) (Elt F) ℕ UU ℕ

/-! ## The host operations of @main, as lists

Each module-local function's body is a list of operations over its arguments and the buffers of one call;
@main's stretches between the calls are lists over @main's own buffers. -/

/-- `@_where`: one select. -/
def whereOps (arg0 : StableHlo.TRef sig ⟨S1658, .i1⟩) (arg1 arg2 : StableHlo.TRef sig ⟨S1658, .i32⟩) (φ : fn_where.Bufs) : List (HloOp τ sig (Elt F)) :=
  [StableHlo.TRef.ternary arg0 arg1 arg2 φ.v0 select]

/-- `@_where_0`: one select on scalars. -/
def where0Ops (arg0 : StableHlo.TRef sig ⟨S_, .i1⟩) (arg1 arg2 : StableHlo.TRef sig ⟨S_, .i32⟩) (φ : fn_where_0.Bufs) : List (HloOp τ sig (Elt F)) :=
  [StableHlo.TRef.ternary arg0 arg1 arg2 φ.v0 select]

/-- `@floor_divide` up to its call of `@_where`. -/
def fdOps (arg0 : StableHlo.TRef sig ⟨S1658, .i32⟩) (arg1 : StableHlo.TRef sig ⟨S_, .i32⟩) (φ : fn_floor_divide.Bufs) : List (HloOp τ sig (Elt F)) :=
  [StableHlo.TRef.unary arg1 φ.v0 id,
    StableHlo.TRef.unary φ.v0 φ.v1 (broadcastInDim S1658 ![] bcast_S_S1658),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S1658 ![] bcast_S_S1658),
    StableHlo.TRef.binary φ.v3 φ.v5 φ.v6 (cmpi .ne),
    StableHlo.TRef.unary φ.v0 φ.v7 (broadcastInDim S1658 ![] bcast_S_S1658),
    StableHlo.TRef.binary arg0 φ.v7 φ.v8 Host.remsi,
    StableHlo.TRef.nullary φ.c (constantI S_ 32 0#32),
    StableHlo.TRef.unary φ.c φ.v9 (broadcastInDim S1658 ![] bcast_S_S1658),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S1658 ![] bcast_S_S1658),
    StableHlo.TRef.binary φ.v2 φ.v12 φ.v13 subi]

/-- `@floor_divide_1` up to its call of `@_where`. -/
def fd1Ops (arg0 : StableHlo.TRef sig ⟨S1658, .i32⟩) (arg1 : StableHlo.TRef sig ⟨S_, .i32⟩) (φ : fn_floor_divide_1.Bufs) : List (HloOp τ sig (Elt F)) :=
  [StableHlo.TRef.unary arg1 φ.v0 id,
    StableHlo.TRef.unary φ.v0 φ.v1 (broadcastInDim S1658 ![] bcast_S_S1658),
    StableHlo.TRef.binary arg0 φ.v1 φ.v2 Host.divsi,
    StableHlo.TRef.unary arg0 φ.v3 signi,
    StableHlo.TRef.unary φ.v0 φ.v4 signi,
    StableHlo.TRef.unary φ.v4 φ.v5 (broadcastInDim S1658 ![] bcast_S_S1658),
    StableHlo.TRef.binary φ.v3 φ.v5 φ.v6 (cmpi .ne),
    StableHlo.TRef.unary φ.v0 φ.v7 (broadcastInDim S1658 ![] bcast_S_S1658),
    StableHlo.TRef.binary arg0 φ.v7 φ.v8 Host.remsi,
    StableHlo.TRef.nullary φ.c (constantI S_ 32 0#32),
    StableHlo.TRef.unary φ.c φ.v9 (broadcastInDim S1658 ![] bcast_S_S1658),
    StableHlo.TRef.binary φ.v8 φ.v9 φ.v10 (cmpi .ne),
    StableHlo.TRef.binary φ.v6 φ.v10 φ.v11 andi,
    StableHlo.TRef.nullary φ.c_0 (constantI S_ 32 1#32),
    StableHlo.TRef.unary φ.c_0 φ.v12 (broadcastInDim S1658 ![] bcast_S_S1658),
    StableHlo.TRef.binary φ.v2 φ.v12 φ.v13 subi]

/-- `@remainder` up to its call of `@_where_0`, -/
def remOpsA (arg0 : StableHlo.TRef sig ⟨S1658, .i32⟩) (arg1 : StableHlo.TRef sig ⟨S_, .i32⟩) (φ : fn_remainder.Bufs) : List (HloOp τ sig (Elt F)) :=
  [StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32)]
/-- and after it. -/
def remOpsB (arg0 : StableHlo.TRef sig ⟨S1658, .i32⟩) (arg1 : StableHlo.TRef sig ⟨S_, .i32⟩) (φ : fn_remainder.Bufs) : List (HloOp τ sig (Elt F)) :=
  [StableHlo.TRef.unary φ.call0.v0 φ.v3 (broadcastInDim S1658 ![] bcast_S_S1658),
    StableHlo.TRef.binary arg0 φ.v3 φ.v4 Host.remsi,
    StableHlo.TRef.nullary φ.c_1 (constantI S_ 32 0#32),
    StableHlo.TRef.unary φ.c_1 φ.v5 (broadcastInDim S1658 ![] bcast_S_S1658),
    StableHlo.TRef.binary φ.v4 φ.v5 φ.v6 (cmpi .ne),
    StableHlo.TRef.nullary φ.c_2 (constantI S_ 32 0#32),
    StableHlo.TRef.unary φ.c_2 φ.v7 (broadcastInDim S1658 ![] bcast_S_S1658),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S1658 ![] bcast_S_S1658),
    StableHlo.TRef.binary φ.v8 φ.v10 φ.v11 (cmpi .ne),
    StableHlo.TRef.binary φ.v11 φ.v6 φ.v12 andi,
    StableHlo.TRef.unary φ.call0.v0 φ.v13 (broadcastInDim S1658 ![] bcast_S_S1658),
    StableHlo.TRef.binary φ.v4 φ.v13 φ.v14 addi,
    StableHlo.TRef.ternary φ.v12 φ.v14 φ.v4 φ.v15 select]

/-- `@remainder_2` up to its call of `@_where_0`, -/
def rem2OpsA (arg0 : StableHlo.TRef sig ⟨S1658, .i32⟩) (arg1 : StableHlo.TRef sig ⟨S_, .i32⟩) (φ : fn_remainder_2.Bufs) : List (HloOp τ sig (Elt F)) :=
  [StableHlo.TRef.unary arg1 φ.v0 id,
    StableHlo.TRef.nullary φ.c (constantI S_ 32 0#32),
    StableHlo.TRef.binary φ.v0 φ.c φ.v1 (cmpi .eq),
    StableHlo.TRef.nullary φ.c_0 (constantI S_ 32 1#32)]
/-- and after it. -/
def rem2OpsB (arg0 : StableHlo.TRef sig ⟨S1658, .i32⟩) (arg1 : StableHlo.TRef sig ⟨S_, .i32⟩) (φ : fn_remainder_2.Bufs) : List (HloOp τ sig (Elt F)) :=
  [StableHlo.TRef.unary φ.call0.v0 φ.v3 (broadcastInDim S1658 ![] bcast_S_S1658),
    StableHlo.TRef.binary arg0 φ.v3 φ.v4 Host.remsi,
    StableHlo.TRef.nullary φ.c_1 (constantI S_ 32 0#32),
    StableHlo.TRef.unary φ.c_1 φ.v5 (broadcastInDim S1658 ![] bcast_S_S1658),
    StableHlo.TRef.binary φ.v4 φ.v5 φ.v6 (cmpi .ne),
    StableHlo.TRef.nullary φ.c_2 (constantI S_ 32 0#32),
    StableHlo.TRef.unary φ.c_2 φ.v7 (broadcastInDim S1658 ![] bcast_S_S1658),
    StableHlo.TRef.binary φ.v4 φ.v7 φ.v8 (cmpi .slt),
    StableHlo.TRef.nullary φ.c_3 (constantI S_ 32 0#32),
    StableHlo.TRef.binary φ.call0.v0 φ.c_3 φ.v9 (cmpi .slt),
    StableHlo.TRef.unary φ.v9 φ.v10 (broadcastInDim S1658 ![] bcast_S_S1658),
    StableHlo.TRef.binary φ.v8 φ.v10 φ.v11 (cmpi .ne),
    StableHlo.TRef.binary φ.v11 φ.v6 φ.v12 andi,
    StableHlo.TRef.unary φ.call0.v0 φ.v13 (broadcastInDim S1658 ![] bcast_S_S1658),
    StableHlo.TRef.binary φ.v4 φ.v13 φ.v14 addi,
    StableHlo.TRef.ternary φ.v12 φ.v14 φ.v4 φ.v15 select]

/-- @main before the SparseCore call, stretch by stretch: an item opens and closes at every call. -/
def hostOpssA : List (List (HloOp τ sig (Elt F))) :=
  [[StableHlo.unary main_arg0 main_v0 ((transpose S2x224x96x224 [0, 1, 3, 2] · transposes_S2x224x224x96_S2x224x96x224_0_1_3_2) : (⟨S2x224x224x96, .f32⟩ : BufTy).Contents (Elt F) → (⟨S2x224x96x224, .f32⟩ : BufTy).Contents (Elt F)),
    StableHlo.nullary main_c (constantI S_ 32 96#32)],
   fdOps (.of main_arg3) (.of main_c) main_call0,
   whereOps main_call0.v11 main_call0.v13 main_call0.v2 main_call0.call0,
   [StableHlo.nullary main_c_0 (constantI S_ 32 96#32)],
   remOpsA (.of main_arg3) (.of main_c_0) main_call1,
   where0Ops main_call1.v1 main_call1.c_0 main_call1.v0 main_call1.call0,
   remOpsB (.of main_arg3) (.of main_c_0) main_call1,
   [StableHlo.nullary main_c_1 (constantI S_ 32 3#32)],
   fd1Ops (.of main_v1) (.of main_c_1) main_call2,
   whereOps main_call2.v11 main_call2.v13 main_call2.v2 main_call2.call0,
   [StableHlo.nullary main_c_2 (constantI S_ 32 3#32)],
   rem2OpsA (.of main_v1) (.of main_c_2) main_call3,
   where0Ops main_call3.v1 main_call3.c_0 main_call3.v0 main_call3.call0,
   rem2OpsB (.of main_v1) (.of main_c_2) main_call3,
   [StableHlo.nullary main_c_3 (constantI S_ 32 192#32),
    StableHlo.unary main_c_3 main_v5 (broadcastInDim S1658 ![] bcast_S_S1658 : (⟨S_, .i32⟩ : BufTy).Contents (Elt F) → (⟨S1658, .i32⟩ : BufTy).Contents (Elt F)),
    StableHlo.binary main_v4 main_v5 main_v6 (muli : (⟨S1658, .i32⟩ : BufTy).Contents (Elt F) → (⟨S1658, .i32⟩ : BufTy).Contents (Elt F) → (⟨S1658, .i32⟩ : BufTy).Contents (Elt F)),
    StableHlo.binary main_v6 main_arg4 main_v7 (addi : (⟨S1658, .i32⟩ : BufTy).Contents (Elt F) → (⟨S1658, .i32⟩ : BufTy).Contents (Elt F) → (⟨S1658, .i32⟩ : BufTy).Contents (Elt F)),
    StableHlo.nullary main_c_4 (constantI S_ 32 288#32),
    StableHlo.unary main_c_4 main_v8 (broadcastInDim S1658 ![] bcast_S_S1658 : (⟨S_, .i32⟩ : BufTy).Contents (Elt F) → (⟨S1658, .i32⟩ : BufTy).Contents (Elt F)),
    StableHlo.binary main_v7 main_v8 main_v9 (muli : (⟨S1658, .i32⟩ : BufTy).Contents (Elt F) → (⟨S1658, .i32⟩ : BufTy).Contents (Elt F) → (⟨S1658, .i32⟩ : BufTy).Contents (Elt F)),
    StableHlo.nullary main_c_5 (constantI S_ 32 96#32),
    StableHlo.unary main_c_5 main_v10 (broadcastInDim S1658 ![] bcast_S_S1658 : (⟨S_, .i32⟩ : BufTy).Contents (Elt F) → (⟨S1658, .i32⟩ : BufTy).Contents (Elt F)),
    StableHlo.binary main_v3 main_v10 main_v11 (muli : (⟨S1658, .i32⟩ : BufTy).Contents (Elt F) → (⟨S1658, .i32⟩ : BufTy).Contents (Elt F) → (⟨S1658, .i32⟩ : BufTy).Contents (Elt F)),
    StableHlo.binary main_v9 main_v11 main_v12 (addi : (⟨S1658, .i32⟩ : BufTy).Contents (Elt F) → (⟨S1658, .i32⟩ : BufTy).Contents (Elt F) → (⟨S1658, .i32⟩ : BufTy).Contents (Elt F)),
    StableHlo.binary main_v12 main_v2 main_v13 (addi : (⟨S1658, .i32⟩ : BufTy).Contents (Elt F) → (⟨S1658, .i32⟩ : BufTy).Contents (Elt F) → (⟨S1658, .i32⟩ : BufTy).Contents (Elt F)),
    StableHlo.nullary main_c_6 (constantI S_ 32 165888#32),
    StableHlo.unary main_c_6 main_v14 (broadcastInDim S6 ![] bcast_S_S6 : (⟨S_, .i32⟩ : BufTy).Contents (Elt F) → (⟨S6, .i32⟩ : BufTy).Contents (Elt F)),
    StableHlo.binary main_v13 main_v14 main_v15 ((fun a b => concatenate S1664 0 [⟨S1658, a⟩, ⟨S6, b⟩] concatenates_S1658_S6_S1664_d0) : (⟨S1658, .i32⟩ : BufTy).Contents (Elt F) → (⟨S6, .i32⟩ : BufTy).Contents (Elt F) → (⟨S1664, .i32⟩ : BufTy).Contents (Elt F)),
    StableHlo.nullary main_cst (constant S_ .f32 0x00000000#32),
    StableHlo.unary main_cst main_v16 (broadcastInDim S6 ![] bcast_S_S6 : (⟨S_, .f32⟩ : BufTy).Contents (Elt F) → (⟨S6, .f32⟩ : BufTy).Contents (Elt F)),
    StableHlo.binary main_arg1 main_v16 main_v17 ((fun a b => concatenate S1664 0 [⟨S1658, a⟩, ⟨S6, b⟩] concatenates_S1658_S6_S1664_d0) : (⟨S1658, .f32⟩ : BufTy).Contents (Elt F) → (⟨S6, .f32⟩ : BufTy).Contents (Elt F) → (⟨S1664, .f32⟩ : BufTy).Contents (Elt F))]]

/-- Between the SparseCore call and the TensorCore region. -/
def hostOpsB : List (HloOp τ sig (Elt F)) :=
  [StableHlo.reshape main_v18 main_v19 rfl shapeCasts_S165888_S3x192x288,
    StableHlo.unary main_v19 main_v20 ((truncf .bf16 · bitsLt_bf16_f32) : (⟨S3x192x288, .f32⟩ : BufTy).Contents (Elt F) → (⟨S3x192x288, .bf16⟩ : BufTy).Contents (Elt F)),
    StableHlo.reshape main_arg2 main_v21 rfl shapeCasts_S192_S192x1]

/-- After the region. -/
def hostOpsC : List (HloOp τ sig (Elt F)) :=
  [StableHlo.unary main_v22 main_v23 ((transpose S2x222x222x192 [0, 1, 3, 2] · transposes_S2x222x192x222_S2x222x222x192_0_1_3_2) : (⟨S2x222x192x222, .f32⟩ : BufTy).Contents (Elt F) → (⟨S2x222x222x192, .f32⟩ : BufTy).Contents (Elt F))]

/-- The operations before the SparseCore call, in order. -/
def hostOpsA : List (HloOp τ sig (Elt F)) := (hostOpssA (F := F)).flatten

/-! ## @main as the lines around the calls -/

/-- The TensorCore kernel's call as @main spells it. -/
abbrev regionCall : Prog (TpuEff nD τ sig (Elt F) (SparseCore.Sig (ΛP (F := F)) 1) .tc) PUnit :=
  Prog.lift (.customCall (SparseCore.inner (Pipeline.entry 0)) ())

/-- Stretches run one after the other, then the rest: the stretches' concatenation run as one line, then the rest. -/
theorem chain_stretches (opss : List (List (HloOp τ sig (Elt F))))
    (qs : List (Prog (TpuEff nD τ sig (Elt F) (SparseCore.Sig (ΛP (F := F)) 1) .tc) PUnit)) :
    chain (opss.map seq ++ qs) = (seq opss.flatten >>= fun _ => chain qs) := by
  induction opss with
  | nil => rw [List.map_nil, List.nil_append, List.flatten_nil, StableHlo.seq, pure_bind]
  | cons ops opss ih =>
    rw [List.map_cons, List.cons_append, chain_cons, ih, List.flatten_cons, StableHlo.seq_append, bind_assoc]

/-- @main, item by item: a stretch of operations opens and closes at every module-local function's call. -/
theorem main_chain (d : Dev nD) :
    main (F := F) d = chain ((hostOpssA (F := F)).map seq ++ [(K (F := F)).run d 0, seq hostOpsB, regionCall, seq hostOpsC]) := by
  chain_rfl

/-- @main is the first line, the SparseCore call, the second line, the TensorCore kernel, the last line. -/
theorem main_eq (d : Dev nD) :
    main (F := F) d = (seq (hostOpsA (F := F)) >>= fun _ => chain [(K (F := F)).run d 0, seq hostOpsB, regionCall, seq hostOpsC]) := by
  rw [main_chain, chain_stretches]; rfl

/-! ## Running a line

Every operation of the three lines touches the TensorCore's unscoped references only and determines all it writes. -/

/-- An operation the rule for a line accepts over the unscoped buffers. -/
def Okay (op : HloOp τ sig (Elt F)) : Prop := op.bufs ⊆ ucRefs τ sig ∧ op.fresh = ∅

theorem okay_nullary (y : Ref sig .tc) (v : y.ty.Contents (Elt F)) (hy) : Okay (StableHlo.nullary (τ := τ) y v hy) :=
  ⟨sub_ucRefs _ (StableHlo.nullary_bufs_sub ..), rfl⟩
theorem okay_unary (x y : Ref sig .tc) (f : x.ty.Contents (Elt F) → y.ty.Contents (Elt F)) (hx hy) :
    Okay (StableHlo.unary (τ := τ) x y f hx hy) :=
  ⟨sub_ucRefs _ (StableHlo.unary_bufs_sub ..), rfl⟩
theorem okay_binary (a b y : Ref sig .tc) (f : a.ty.Contents (Elt F) → b.ty.Contents (Elt F) → y.ty.Contents (Elt F)) (ha hb hy) :
    Okay (StableHlo.binary (τ := τ) a b y f ha hb hy) :=
  ⟨sub_ucRefs _ (StableHlo.binary_bufs_sub ..), rfl⟩
theorem okay_ternary (c a b y : Ref sig .tc)
    (f : c.ty.Contents (Elt F) → a.ty.Contents (Elt F) → b.ty.Contents (Elt F) → y.ty.Contents (Elt F)) (hc ha hb hy) :
    Okay (StableHlo.ternary (τ := τ) c a b y f hc ha hb hy) :=
  ⟨sub_ucRefs _ (StableHlo.ternary_bufs_sub ..), rfl⟩
theorem okay_reshape (x y : Ref sig .tc) (he hn hx hy) : Okay (StableHlo.reshape (τ := τ) (Val := Elt F) x y he hn hx hy) :=
  ⟨sub_ucRefs _ (StableHlo.reshape_bufs_sub ..), rfl⟩

theorem hostOpsA_ok : ∀ op ∈ hostOpsA (F := F), Okay op := by
  simp only [hostOpsA, hostOpssA, fdOps, fd1Ops, remOpsA, remOpsB, rem2OpsA, rem2OpsB, whereOps, where0Ops,
    List.flatten_cons, List.flatten_nil, List.cons_append, List.nil_append, List.append_nil, List.forall_mem_cons,
    List.not_mem_nil, false_imp_iff, implies_true, and_true]
  simp only [okay_nullary, okay_unary, okay_binary, okay_ternary, and_self]

theorem hostOpsB_ok : ∀ op ∈ hostOpsB (F := F), Okay op := by
  simp only [hostOpsB, List.forall_mem_cons, List.not_mem_nil, false_imp_iff, implies_true, and_true]
  exact ⟨okay_reshape .., okay_unary .., okay_reshape ..⟩

theorem hostOpsC_ok : ∀ op ∈ hostOpsC (F := F), Okay op := by
  simp only [hostOpsC, List.forall_mem_cons, List.not_mem_nil, false_imp_iff, implies_true, and_true]
  exact okay_unary ..

-- `T d` is the thread `d.tc`, the thread the rule for a line is stated at
set_option backward.isDefEq.respectTransparency.types false in
/-- A line of accepted operations, over the unscoped buffers held whole at `W`: it leaves them at `after ops W`. -/
theorem wp_line (ops : List (HloOp τ sig (Elt F))) (hok : ∀ op ∈ ops, Okay op) (d : Dev nD) {β : Type}
    (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after ops W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq ops >>= k) Φ) := by
  have hseq := StableHlo.wp_seq (defs := (K (F := F)).defs (D (F := F))) 𝒱 none Set.univ d (ucRefs τ sig) k (K := Φ) ops
    (fun op h => (hok op h).1) (fun op h => (hok op h).2) W
  exact hseq

/-- The first line. -/
theorem wp_hostA (d : Dev nD) {β : Type} (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after (hostOpsA (F := F)) W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq (hostOpsA (F := F)) >>= k) Φ) :=
  wp_line (hostOpsA (F := F)) hostOpsA_ok d k W

/-- The second line. -/
theorem wp_hostB (d : Dev nD) {β : Type} (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after (hostOpsB (F := F)) W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq (hostOpsB (F := F)) >>= k) Φ) :=
  wp_line (hostOpsB (F := F)) hostOpsB_ok d k W

/-- The last line. -/
theorem wp_hostC (d : Dev nD) {β : Type} (k : PUnit → Prog (TpuEff nD τ sig (Elt F) (SparseCore.Sig (ΛP (F := F)) 1) .tc) β)
    {Φ : β → sProp 𝕄} (W : Valuation τ sig (Elt F)) :
    iprop(boundary (T d : Thread nD τ) ∗ (held (T d : Thread nD τ) (ucRefs τ sig) W : sProp 𝕄))
      ⊢ iprop(((boundary (T d : Thread nD τ) ∗ (held (T d : Thread nD τ) (ucRefs τ sig) (after (hostOpsC (F := F)) W) : sProp 𝕄))
                -∗ wp frame (wpE ((K (F := F)).defs (D (F := F))) 𝒱 (T d) none) Set.univ (k ⟨⟩) Φ)
          -∗ wp frame (wpE ((K (F := F)).defs (D (F := F))) 𝒱 (T d) none) Set.univ (seq (hostOpsC (F := F)) >>= k) Φ) :=
  wp_line (hostOpsC (F := F)) hostOpsC_ok d k W

/-! ## What the lines leave -/

/-- The references the first line writes: one per operation, its result. -/
def writtenA : List (Ref sig .tc) :=
  [main_v0, main_c, main_c_0, main_c_1, main_c_2, main_c_3, main_v5, main_v6, main_v7, main_c_4,
   main_v8, main_v9, main_c_5, main_v10, main_v11, main_v12, main_v13, main_c_6, main_v14, main_v15,
   main_cst, main_v16, main_v17, main_v1, main_call0_v0, main_call0_v1, main_call0_v2, main_call0_v3, main_call0_v4, main_call0_v5,
   main_call0_v6, main_call0_v7, main_call0_v8, main_call0_c, main_call0_v9, main_call0_v10, main_call0_v11, main_call0_c_0, main_call0_v12, main_call0_v13,
   main_call1_v2, main_call1_v0, main_call1_c, main_call1_v1, main_call1_c_0, main_call1_v3, main_call1_v4, main_call1_c_1, main_call1_v5, main_call1_v6,
   main_call1_c_2, main_call1_v7, main_call1_v8, main_call1_c_3, main_call1_v9, main_call1_v10, main_call1_v11, main_call1_v12, main_call1_v13, main_call1_v14,
   main_v2, main_v3, main_call2_v0, main_call2_v1, main_call2_v2, main_call2_v3, main_call2_v4, main_call2_v5, main_call2_v6, main_call2_v7,
   main_call2_v8, main_call2_c, main_call2_v9, main_call2_v10, main_call2_v11, main_call2_c_0, main_call2_v12, main_call2_v13, main_call3_v2, main_call3_v0,
   main_call3_c, main_call3_v1, main_call3_c_0, main_call3_v3, main_call3_v4, main_call3_c_1, main_call3_v5, main_call3_v6, main_call3_c_2, main_call3_v7,
   main_call3_v8, main_call3_c_3, main_call3_v9, main_call3_v10, main_call3_v11, main_call3_v12, main_call3_v13, main_call3_v14, main_v4]
/-- The references the second line writes. -/
def writtenB : List (Ref sig .tc) := [main_v19, main_v20, main_v21]
/-- The reference the last line writes. -/
def writtenC : List (Ref sig .tc) := [main_v23]

/-- An operation that writes references of the list `Wl` only. -/
def WritesIn (Wl : List (Ref sig .tc)) (op : HloOp τ sig (Elt F)) : Prop :=
  op.writes ⊆ (Wl.map (Proc.devRef (τ := τ) .tc)).toFinset

theorem single_sub {Wl : List (Ref sig .tc)} {y : Ref sig .tc} (h : y ∈ Wl) :
    ({Proc.devRef (τ := τ) .tc y} : Finset (DevRef τ sig)) ⊆ (Wl.map (Proc.devRef (τ := τ) .tc)).toFinset :=
  Finset.singleton_subset_iff.mpr (List.mem_toFinset.mpr (List.mem_map_of_mem h))

theorem writesIn_nullary {Wl : List (Ref sig .tc)} (y : Ref sig .tc) (v : y.ty.Contents (Elt F)) (hy) (h : y ∈ Wl) :
    WritesIn Wl (StableHlo.nullary (τ := τ) y v hy) := by
  unfold WritesIn; rw [StableHlo.nullary_writes]; exact single_sub h
theorem writesIn_unary {Wl : List (Ref sig .tc)} (x y : Ref sig .tc) (f : x.ty.Contents (Elt F) → y.ty.Contents (Elt F)) (hx hy)
    (h : y ∈ Wl) : WritesIn Wl (StableHlo.unary (τ := τ) x y f hx hy) := by
  unfold WritesIn; rw [StableHlo.unary_writes]; exact single_sub h
theorem writesIn_binary {Wl : List (Ref sig .tc)} (a b y : Ref sig .tc)
    (f : a.ty.Contents (Elt F) → b.ty.Contents (Elt F) → y.ty.Contents (Elt F)) (ha hb hy) (h : y ∈ Wl) :
    WritesIn Wl (StableHlo.binary (τ := τ) a b y f ha hb hy) := by
  unfold WritesIn; rw [StableHlo.binary_writes]; exact single_sub h
theorem writesIn_ternary {Wl : List (Ref sig .tc)} (c a b y : Ref sig .tc)
    (f : c.ty.Contents (Elt F) → a.ty.Contents (Elt F) → b.ty.Contents (Elt F) → y.ty.Contents (Elt F)) (hc ha hb hy) (h : y ∈ Wl) :
    WritesIn Wl (StableHlo.ternary (τ := τ) c a b y f hc ha hb hy) := by
  unfold WritesIn; rw [StableHlo.ternary_writes]; exact single_sub h
theorem writesIn_reshape {Wl : List (Ref sig .tc)} (x y : Ref sig .tc) (he hn hx hy) (h : y ∈ Wl) :
    WritesIn Wl (StableHlo.reshape (τ := τ) (Val := Elt F) x y he hn hx hy) := by
  unfold WritesIn; rw [StableHlo.reshape_writes]; exact single_sub h

theorem hostOpsA_writes : ∀ op ∈ hostOpsA (F := F), WritesIn writtenA op := by
  simp only [hostOpsA, hostOpssA, fdOps, fd1Ops, remOpsA, remOpsB, rem2OpsA, rem2OpsB, whereOps, where0Ops,
    List.flatten_cons, List.flatten_nil, List.cons_append, List.nil_append, List.append_nil, List.forall_mem_cons,
    List.not_mem_nil, false_imp_iff, implies_true, and_true]
  simp (disch := decide) only [writesIn_nullary, writesIn_unary, writesIn_binary, writesIn_ternary, and_self]

theorem hostOpsB_writes : ∀ op ∈ hostOpsB (F := F), WritesIn writtenB op := by
  simp only [hostOpsB, List.forall_mem_cons, List.not_mem_nil, false_imp_iff, implies_true, and_true]
  exact ⟨writesIn_reshape _ _ _ _ _ _ (by decide), writesIn_unary _ _ _ _ _ (by decide), writesIn_reshape _ _ _ _ _ _ (by decide)⟩

theorem hostOpsC_writes : ∀ op ∈ hostOpsC (F := F), WritesIn writtenC op := by
  simp only [hostOpsC, List.forall_mem_cons, List.not_mem_nil, false_imp_iff, implies_true, and_true]
  exact writesIn_unary _ _ _ _ _ (by decide)

/-- A reference the first line does not write keeps its contents, -/
theorem afterA_keep (W : Valuation τ sig (Elt F)) {r : Ref sig .tc} (hr : r ∉ writtenA) :
    after (hostOpsA (F := F)) W (Proc.devRef .tc r) = W (Proc.devRef .tc r) :=
  StableHlo.after_of_writes_sub _ W (List.forall_iff_forall_mem.mpr hostOpsA_writes) hr
/-- one the second line does not write, -/
theorem afterB_keep (W : Valuation τ sig (Elt F)) {r : Ref sig .tc} (hr : r ∉ writtenB) :
    after (hostOpsB (F := F)) W (Proc.devRef .tc r) = W (Proc.devRef .tc r) :=
  StableHlo.after_of_writes_sub _ W (List.forall_iff_forall_mem.mpr hostOpsB_writes) hr
/-- one the last line does not write. -/
theorem afterC_keep (W : Valuation τ sig (Elt F)) {r : Ref sig .tc} (hr : r ∉ writtenC) :
    after (hostOpsC (F := F)) W (Proc.devRef .tc r) = W (Proc.devRef .tc r) :=
  StableHlo.after_of_writes_sub _ W (List.forall_iff_forall_mem.mpr hostOpsC_writes) hr

/-- A typed reference's two transports undo each other. -/
theorem ofBuf_toBuf {Ty : BufTy} (x : StableHlo.TRef sig Ty) (v : Ty.Contents (Elt F)) : x.ofBuf (x.toBuf v) = v := by
  obtain ⟨r, h, _, _⟩ := x
  subst h; rfl

/-- Two concatenations of a 1658-vector and a 6-vector agree when their parts do. -/
theorem concat2_congr {α : Type} {a a' : S1658.Idx → α} {b b' : S6.Idx → α} (ha : a = a') (hb : b = b') :
    concatenate S1664 0 [⟨S1658, a⟩, ⟨S6, b⟩] concatenates_S1658_S6_S1664_d0
      = concatenate S1664 0 [⟨S1658, a'⟩, ⟨S6, b'⟩] concatenates_S1658_S6_S1664_d0 := by
  subst ha hb; rfl

open Idealize.ShloMosaic.StableHlo in
/-- The first line leaves the flat positions in `main_v15`, -/
theorem afterA_v15 (W : Valuation τ sig (Elt F)) :
    after (hostOpsA (F := F)) W (Proc.devRef .tc main_v15)
      = flatOf (W (Proc.devRef .tc main_arg3)) (W (Proc.devRef .tc main_arg4)) := by
  simp only [hostOpsA, hostOpssA, List.flatten_cons, List.flatten_nil, List.append_nil, StableHlo.after_append,
    fdOps, fd1Ops, remOpsA, remOpsB, rem2OpsA, rem2OpsB, whereOps, where0Ops]
  after_results_simp
  unfold flatOf
  apply concat2_congr
  · after_results_simp
    simp only [ofBuf_toBuf, id]
    rfl
  · after_results_simp

open Idealize.ShloMosaic.StableHlo in
/-- the padded values in `main_v17`, -/
theorem afterA_v17 (W : Valuation τ sig (Elt F)) :
    after (hostOpsA (F := F)) W (Proc.devRef .tc main_v17) = valsOf (F := F) (W (Proc.devRef .tc main_arg1)) := by
  simp only [hostOpsA, hostOpssA, List.flatten_cons, List.flatten_nil, List.append_nil, StableHlo.after_append,
    fdOps, fd1Ops, remOpsA, remOpsB, rem2OpsA, rem2OpsB, whereOps, where0Ops]
  after_results_simp
  unfold valsOf
  apply concat2_congr
  · after_results_simp
  · after_results_simp

open Idealize.ShloMosaic.StableHlo in
/-- the transposed input in `main_v0`. -/
theorem afterA_v0 (W : Valuation τ sig (Elt F)) :
    after (hostOpsA (F := F)) W (Proc.devRef .tc main_v0) = xOf (F := F) (W (Proc.devRef .tc main_arg0)) := by
  simp only [hostOpsA, hostOpssA, List.flatten_cons, List.flatten_nil, List.append_nil, StableHlo.after_append,
    fdOps, fd1Ops, remOpsA, remOpsB, rem2OpsA, rem2OpsB, whereOps, where0Ops]
  after_results_simp
  rfl

open Idealize.ShloMosaic.StableHlo in
/-- The second line leaves the scattered weights, as planes rounded to bf16, in `main_v20`, -/
theorem afterB_v20 (W : Valuation τ sig (Elt F)) :
    after (hostOpsB (F := F)) W (Proc.devRef .tc main_v20) = wOf (F := F) (W (Proc.devRef .tc main_v18)) := by
  simp only [hostOpsB]
  after_results_simp
  rfl

open Idealize.ShloMosaic.StableHlo in
/-- and the bias as a column in `main_v21`. -/
theorem afterB_v21 (W : Valuation τ sig (Elt F)) :
    after (hostOpsB (F := F)) W (Proc.devRef .tc main_v21) = bOf (F := F) (W (Proc.devRef .tc main_arg2)) := by
  simp only [hostOpsB]
  after_results_simp
  rfl

open Idealize.ShloMosaic.StableHlo in
/-- The last line leaves the kernel's output, transposed back, in `main_v23`. -/
theorem afterC_v23 (W : Valuation τ sig (Elt F)) :
    after (hostOpsC (F := F)) W (Proc.devRef .tc main_v23) = yOf (F := F) (W (Proc.devRef .tc main_v22)) := by
  simp only [hostOpsC]
  after_results_simp
  rfl

end Cert.Proof.KI

end
-- ==== Proof.KI.Fin.lean ====
/-
  What @main leaves on a device and what the claim reads off it: the result buffer at the composite of the five
  arguments' launch contents, the five arguments as launched; and that a final memory consistent with those
  holdings has exactly those contents.
-/
import proofs.«216126_g59949153517679_cont_9to1_m_442_25_alg».proof.Proof.KI.Common
import proofs.«216126_g59949153517679_cont_9to1_m_442_25_alg».proof.Proof.KI.HostSpec

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Pipeline (chain chain_cons chain_nil ucRefs unscopedBufs_held sub_ucRefs)

variable {F : FTy → Type} [FloatOps F]

local notation "𝕄" => MT nD τ sig (HIx 1) (Elt F) ℕ UU ℕ

/-- Where device `d`'s TensorCore keeps the buffer of reference `r`. -/
abbrev aLoc (d : Dev nD) (r : Ref sig .tc) : Loc nD τ sig := (T d : Thread nD τ).loc r

/-- The result on device `d`, from the launch memory `m`: the composite of its five arguments. -/
abbrev outM (m : (ℓ : Loc nD τ sig) → Buf (Elt F) ℓ) (d : Dev nD) : FVec F S2x222x222x192 .f32 :=
  OUT (F := F) (m (aLoc d main_arg0)) (m (aLoc d main_arg1)) (m (aLoc d main_arg2)) (m (aLoc d main_arg3)) (m (aLoc d main_arg4))

/-- What @main leaves: the result at the composite of the arguments, the five arguments as they were. -/
def FIN (m : (ℓ : Loc nD τ sig) → Buf (Elt F) ℓ) (d : Dev nD) : sProp 𝕄 :=
  iprop((aLoc d main_v23 ↦{fullShare} (outM m d : Buf (Elt F) (aLoc d main_v23)))
    ∗ (aLoc d main_arg0 ↦{fullShare} m (aLoc d main_arg0)) ∗ (aLoc d main_arg1 ↦{fullShare} m (aLoc d main_arg1))
    ∗ (aLoc d main_arg2 ↦{fullShare} m (aLoc d main_arg2)) ∗ (aLoc d main_arg3 ↦{fullShare} m (aLoc d main_arg3))
    ∗ (aLoc d main_arg4 ↦{fullShare} m (aLoc d main_arg4)))

/-- What the claim reads off the final memory of device `d`: the result, then the five arguments. -/
def fq (m : (ℓ : Loc nD τ sig) → Buf (Elt F) ℓ) (d : Dev nD) (s' : Phys nD τ sig (Elt F)) : Prop :=
  s'.mem.mem (aLoc d main_v23) = (outM m d : Buf (Elt F) (aLoc d main_v23))
    ∧ s'.mem.mem (aLoc d main_arg0) = m (aLoc d main_arg0) ∧ s'.mem.mem (aLoc d main_arg1) = m (aLoc d main_arg1)
    ∧ s'.mem.mem (aLoc d main_arg2) = m (aLoc d main_arg2) ∧ s'.mem.mem (aLoc d main_arg3) = m (aLoc d main_arg3)
    ∧ s'.mem.mem (aLoc d main_arg4) = m (aLoc d main_arg4)

theorem hfin (m : (ℓ : Loc nD τ sig) → Buf (Elt F) ℓ) (d : Dev nD) (s' : Phys nD τ sig (Elt F)) :
    iprop(FIN (F := F) m d ∗ SI s') ⊢ (⌜fq (F := F) m d s'⌝ : sProp 𝕄) := by
  unfold FIN fq
  iintro ⟨⟨Ho, H0, H1, H2, H3, H4⟩, HSI⟩
  ihave H := (persistent_entails_right (SI_pointsTo_agree (st := s') (ℓ := aLoc d main_v23) (I := Finset.univ) (q := fullShare) (f := (outM m d : Buf (Elt F) (aLoc d main_v23))))) $$ [HSI Ho]
  · isplitl [HSI] <;> iassumption
  icases H with ⟨%ho, HSI, -⟩
  ihave H := (persistent_entails_right (SI_pointsTo_agree (st := s') (ℓ := aLoc d main_arg0) (I := Finset.univ) (q := fullShare) (f := m (aLoc d main_arg0)))) $$ [HSI H0]
  · isplitl [HSI] <;> iassumption
  icases H with ⟨%h0, HSI, -⟩
  ihave H := (persistent_entails_right (SI_pointsTo_agree (st := s') (ℓ := aLoc d main_arg1) (I := Finset.univ) (q := fullShare) (f := m (aLoc d main_arg1)))) $$ [HSI H1]
  · isplitl [HSI] <;> iassumption
  icases H with ⟨%h1, HSI, -⟩
  ihave H := (persistent_entails_right (SI_pointsTo_agree (st := s') (ℓ := aLoc d main_arg2) (I := Finset.univ) (q := fullShare) (f := m (aLoc d main_arg2)))) $$ [HSI H2]
  · isplitl [HSI] <;> iassumption
  icases H with ⟨%h2, HSI, -⟩
  ihave H := (persistent_entails_right (SI_pointsTo_agree (st := s') (ℓ := aLoc d main_arg3) (I := Finset.univ) (q := fullShare) (f := m (aLoc d main_arg3)))) $$ [HSI H3]
  · isplitl [HSI] <;> iassumption
  icases H with ⟨%h3, HSI, -⟩
  ihave H := (SI_pointsTo_agree (st := s') (ℓ := aLoc d main_arg4) (I := Finset.univ) (q := fullShare) (f := m (aLoc d main_arg4))) $$ [HSI H4]
  · isplitl [HSI] <;> iassumption
  icases H with %h4
  ipureintro
  exact ⟨funext fun i => ho i (Finset.mem_univ i), funext fun i => h0 i (Finset.mem_univ i), funext fun i => h1 i (Finset.mem_univ i),
    funext fun i => h2 i (Finset.mem_univ i), funext fun i => h3 i (Finset.mem_univ i), funext fun i => h4 i (Finset.mem_univ i)⟩

end Cert.Proof.KI

end
-- ==== Proof.KI.Main.lean ====
/-
  @main on a device's TensorCore, for the launch theorem: holding its region boundary and every unscoped buffer
  whole at the launch contents, it runs the first line of host operations, hands the positions, the values and the
  output buffer to the SparseCore call and takes the scattered weights back, runs the second line, hands the
  transposed input, the weights, the bias and the output buffer to the TensorCore kernel and takes the convolution
  back, runs the last line, and ends holding the result at the composite of the arguments and the arguments as launched.
-/
import proofs.«216126_g59949153517679_cont_9to1_m_442_25_alg».proof.Proof.KI.Common
import proofs.«216126_g59949153517679_cont_9to1_m_442_25_alg».proof.Proof.KI.HostSpec
import proofs.«216126_g59949153517679_cont_9to1_m_442_25_alg».proof.Proof.KI.Host
import proofs.«216126_g59949153517679_cont_9to1_m_442_25_alg».proof.Proof.KI.Fin

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (seq after held)
open Idealize.ShloMosaic.Pipeline (chain chain_cons chain_nil ucRefs unscopedBufs_held sub_ucRefs)

variable {F : FTy → Type} [FloatOps F]

local notation "𝕄" => MT nD τ sig (HIx 1) (Elt F) ℕ UU ℕ

/-! ## The launch's data on device `d` -/

/-- Device `d`'s buffers at the launch. -/
abbrev V₀ (m : (ℓ : Loc nD τ sig) → Buf (Elt F) ℓ) (d : Dev nD) : Valuation τ sig (Elt F) := fun b => m (d, b)

/-- The positions and the values the scatter is given, -/
abbrev flatM (m : (ℓ : Loc nD τ sig) → Buf (Elt F) ℓ) (d : Dev nD) : IVec S1664 32 :=
  flatOf (m (aLoc d main_arg3)) (m (aLoc d main_arg4))
abbrev valsM (m : (ℓ : Loc nD τ sig) → Buf (Elt F) ℓ) (d : Dev nD) : FVec F S1664 .f32 := valsOf (F := F) (m (aLoc d main_arg1))
/-- and the three operands of the TensorCore kernel. -/
abbrev xM (m : (ℓ : Loc nD τ sig) → Buf (Elt F) ℓ) (d : Dev nD) : FVec F S2x224x96x224 .f32 := xOf (F := F) (m (aLoc d main_arg0))
abbrev wM (m : (ℓ : Loc nD τ sig) → Buf (Elt F) ℓ) (d : Dev nD) : FVec F S3x192x288 .bf16 :=
  wOf (F := F) (scOut (F := F) (flatM m d) (valsM m d))
abbrev bM (m : (ℓ : Loc nD τ sig) → Buf (Elt F) ℓ) (d : Dev nD) : FVec F S192x1 .f32 := bOf (F := F) (m (aLoc d main_arg2))

/-! ## The two calls, as the modules that prove them state them -/

/-- The SparseCore call: from the positions, the values and the output buffer whole, to the output at the scatter's value. -/
abbrev ScCall (m : (ℓ : Loc nD τ sig) → Buf (Elt F) ℓ)
    (P : (K (F := F)).Pay (nD := nD) (Val := Elt F) (Name := ℕ) (U := UU)) : Prop :=
  ∀ (κ : GSem nD τ sig → ℕ) (d : Dev nD) {Φ : PUnit → sProp 𝕄},
    iprop((K (F := F)).ctx EH P κ ∗ (K (F := F)).tcSt EH d 0
        ∗ (aLoc d main_v15 ↦{fullShare} (flatM m d : Buf (Elt F) (aLoc d main_v15)))
        ∗ (aLoc d main_v17 ↦{fullShare} (valsM m d : Buf (Elt F) (aLoc d main_v17)))
        ∗ (aLoc d main_v18 ↦{fullShare} m (aLoc d main_v18))
        ∗ (((K (F := F)).tcSt EH d 1
            ∗ (aLoc d main_v15 ↦{fullShare} (flatM m d : Buf (Elt F) (aLoc d main_v15)))
            ∗ (aLoc d main_v17 ↦{fullShare} (valsM m d : Buf (Elt F) (aLoc d main_v17)))
            ∗ (aLoc d main_v18 ↦{fullShare} (scOut (F := F) (flatM m d) (valsM m d) : Buf (Elt F) (aLoc d main_v18)))) -∗ Φ ⟨⟩))
      ⊢ wp frame (wpE ((K (F := F)).defs (D (F := F))) 𝒱 (T d) none) Set.univ ((K (F := F)).run d 0) Φ

/-- The TensorCore kernel's call: from its three operands and the output buffer whole, with the ghost state `G d` the
    launch dealt it, to the output at the convolution. -/
abbrev RegionCall (m : (ℓ : Loc nD τ sig) → Buf (Elt F) ℓ) (G : Dev nD → sProp (MT nD τ sig (HIx 1) (Elt F) ℕ UU ℕ)) : Prop :=
  ∀ (d : Dev nD) {α : Type} (k : PUnit → Prog (TpuEff nD τ sig (Elt F) (SparseCore.Sig (ΛP (F := F)) 1) .tc) α) (Q : α → sProp 𝕄),
    iprop(levAts (K (F := F)).L (K (F := F)).lev ∗ boundary (T d : Thread nD τ)
        ∗ (aLoc d main_v0 ↦{fullShare} (xM m d : Buf (Elt F) (aLoc d main_v0)))
        ∗ (aLoc d main_v20 ↦{fullShare} (wM m d : Buf (Elt F) (aLoc d main_v20)))
        ∗ (aLoc d main_v21 ↦{fullShare} (bM m d : Buf (Elt F) (aLoc d main_v21)))
        ∗ (aLoc d main_v22 ↦{fullShare} m (aLoc d main_v22))
        ∗ G d ∗ (K (F := F)).tcSt EH d 1
        ∗ (iprop(boundary (T d : Thread nD τ)
            ∗ (aLoc d main_v0 ↦{fullShare} (xM m d : Buf (Elt F) (aLoc d main_v0)))
            ∗ (aLoc d main_v20 ↦{fullShare} (wM m d : Buf (Elt F) (aLoc d main_v20)))
            ∗ (aLoc d main_v21 ↦{fullShare} (bM m d : Buf (Elt F) (aLoc d main_v21)))
            ∗ (aLoc d main_v22 ↦{fullShare} (convOut (F := F) (xM m d) (wM m d) (bM m d) : Buf (Elt F) (aLoc d main_v22)))
            ∗ (K (F := F)).tcSt EH d 1)
          -∗ wp frame (wpE ((K (F := F)).defs (D (F := F))) 𝒱 (T d) none) Set.univ (k ⟨⟩) Q))
      ⊢ wp frame (wpE ((K (F := F)).defs (D (F := F))) 𝒱 (T d) none) Set.univ
          (Prog.lift (.customCall (SparseCore.inner (Pipeline.entry 0)) ()) >>= k) Q

/-! ## Buffers out of the held set, and back at new contents -/

/-- An unscoped TensorCore reference is among the held buffers. -/
theorem mem_ucRefs (r : Ref sig .tc) (h : (Proc.devRef .tc r : DevRef τ sig).isScoped = false := by rfl) :
    (Proc.devRef .tc r : DevRef τ sig) ∈ ucRefs τ sig :=
  Finset.mem_filter.mpr ⟨StableHlo.devRef_mem_tcRefs r, fun h' => Bool.false_ne_true (h.symm.trans h')⟩

/-- One buffer of a held set, apart from the rest. -/
theorem held_take (thr : Thread nD τ) {S : Finset (DevRef τ sig)} {a : DevRef τ sig} (ha : a ∈ S) (W : Valuation τ sig (Elt F)) :
    (held thr S W : sProp 𝕄) = iprop(((thr.1, a) ↦{fullShare} W a) ∗ held thr (S.erase a) W) := by
  unfold StableHlo.held
  exact SparseCore.bigSep_erase' ha

/-- The rest does not see the buffer's new contents. -/
theorem held_erase_update (thr : Thread nD τ) (S : Finset (DevRef τ sig)) (a : DevRef τ sig) (W : Valuation τ sig (Elt F))
    (v : a.ty.Contents (Elt F)) :
    (held thr (S.erase a) (Function.update W a v) : sProp 𝕄) = held thr (S.erase a) W :=
  StableHlo.held_congr thr fun b hb => Function.update_of_ne (Finset.ne_of_mem_erase hb) v W

/-! ## The valuations along @main -/

/-- The buffers after the first line, -/
abbrev VA (m : (ℓ : Loc nD τ sig) → Buf (Elt F) ℓ) (d : Dev nD) : Valuation τ sig (Elt F) := after (hostOpsA (F := F)) (V₀ m d)
/-- after the SparseCore call, -/
abbrev VA' (m : (ℓ : Loc nD τ sig) → Buf (Elt F) ℓ) (d : Dev nD) : Valuation τ sig (Elt F) :=
  Function.update (VA m d) (Proc.devRef .tc main_v18 : DevRef τ sig) (scOut (F := F) (flatM m d) (valsM m d))
/-- after the second line, -/
abbrev VB (m : (ℓ : Loc nD τ sig) → Buf (Elt F) ℓ) (d : Dev nD) : Valuation τ sig (Elt F) := after (hostOpsB (F := F)) (VA' m d)
/-- after the TensorCore kernel, -/
abbrev VB' (m : (ℓ : Loc nD τ sig) → Buf (Elt F) ℓ) (d : Dev nD) : Valuation τ sig (Elt F) :=
  Function.update (VB m d) (Proc.devRef .tc main_v22 : DevRef τ sig) (convOut (F := F) (xM m d) (wM m d) (bM m d))
/-- and after the last line. -/
abbrev VC (m : (ℓ : Loc nD τ sig) → Buf (Elt F) ℓ) (d : Dev nD) : Valuation τ sig (Elt F) := after (hostOpsC (F := F)) (VB' m d)

/-- The held buffers but the three of the SparseCore call, -/
abbrev Rsc : Finset (DevRef τ sig) :=
  (((ucRefs τ sig).erase (Proc.devRef .tc main_v15 : DevRef τ sig)).erase (Proc.devRef .tc main_v17 : DevRef τ sig)).erase (Proc.devRef .tc main_v18 : DevRef τ sig)
/-- but the four of the TensorCore kernel, -/
abbrev Rreg : Finset (DevRef τ sig) :=
  ((((ucRefs τ sig).erase (Proc.devRef .tc main_v0 : DevRef τ sig)).erase (Proc.devRef .tc main_v20 : DevRef τ sig)).erase (Proc.devRef .tc main_v21 : DevRef τ sig)).erase (Proc.devRef .tc main_v22 : DevRef τ sig)
/-- but the result and the five arguments. -/
abbrev Rfin : Finset (DevRef τ sig) :=
  ((((((ucRefs τ sig).erase (Proc.devRef .tc main_v23 : DevRef τ sig)).erase (Proc.devRef .tc main_arg0 : DevRef τ sig)).erase (Proc.devRef .tc main_arg1 : DevRef τ sig)).erase (Proc.devRef .tc main_arg2 : DevRef τ sig)).erase
    (Proc.devRef .tc main_arg3 : DevRef τ sig)).erase (Proc.devRef .tc main_arg4 : DevRef τ sig)

theorem sc_split (d : Dev nD) (W : Valuation τ sig (Elt F)) :
    (held (T d : Thread nD τ) (ucRefs τ sig) W : sProp 𝕄)
      = iprop(((d, (Proc.devRef .tc main_v15 : DevRef τ sig)) ↦{fullShare} W (Proc.devRef .tc main_v15 : DevRef τ sig)) ∗ ((d, (Proc.devRef .tc main_v17 : DevRef τ sig)) ↦{fullShare} W (Proc.devRef .tc main_v17 : DevRef τ sig))
          ∗ ((d, (Proc.devRef .tc main_v18 : DevRef τ sig)) ↦{fullShare} W (Proc.devRef .tc main_v18 : DevRef τ sig)) ∗ held (T d : Thread nD τ) Rsc W) := by
  rw [held_take (T d) (mem_ucRefs main_v15) W,
    held_take (T d) (Finset.mem_erase.mpr ⟨StableHlo.devRef_ne_of_ne (by decide), mem_ucRefs main_v17⟩) W,
    held_take (T d) (Finset.mem_erase.mpr ⟨StableHlo.devRef_ne_of_ne (by decide),
      Finset.mem_erase.mpr ⟨StableHlo.devRef_ne_of_ne (by decide), mem_ucRefs main_v18⟩⟩) W]

theorem reg_split (d : Dev nD) (W : Valuation τ sig (Elt F)) :
    (held (T d : Thread nD τ) (ucRefs τ sig) W : sProp 𝕄)
      = iprop(((d, (Proc.devRef .tc main_v0 : DevRef τ sig)) ↦{fullShare} W (Proc.devRef .tc main_v0 : DevRef τ sig)) ∗ ((d, (Proc.devRef .tc main_v20 : DevRef τ sig)) ↦{fullShare} W (Proc.devRef .tc main_v20 : DevRef τ sig))
          ∗ ((d, (Proc.devRef .tc main_v21 : DevRef τ sig)) ↦{fullShare} W (Proc.devRef .tc main_v21 : DevRef τ sig)) ∗ ((d, (Proc.devRef .tc main_v22 : DevRef τ sig)) ↦{fullShare} W (Proc.devRef .tc main_v22 : DevRef τ sig))
          ∗ held (T d : Thread nD τ) Rreg W) := by
  rw [held_take (T d) (mem_ucRefs main_v0) W,
    held_take (T d) (Finset.mem_erase.mpr ⟨StableHlo.devRef_ne_of_ne (by decide), mem_ucRefs main_v20⟩) W,
    held_take (T d) (Finset.mem_erase.mpr ⟨StableHlo.devRef_ne_of_ne (by decide),
      Finset.mem_erase.mpr ⟨StableHlo.devRef_ne_of_ne (by decide), mem_ucRefs main_v21⟩⟩) W,
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide), mem_ucRefs main_v22⟩⟩⟩) W]

/-- A reference no line writes and neither call returns holds its launch contents at the end. -/
theorem kept (m : (ℓ : Loc nD τ sig) → Buf (Elt F) ℓ) (d : Dev nD) {r : Ref sig .tc} (hA : r ∉ writtenA) (hB : r ∉ writtenB)
    (hC : r ∉ writtenC) (h18 : r ≠ main_v18) (h22 : r ≠ main_v22) :
    VC m d (Proc.devRef .tc r) = m (aLoc d r) := by
  show after (hostOpsC (F := F)) (VB' m d) (Proc.devRef .tc r) = _
  rw [afterC_keep _ hC]
  show Function.update (VB m d) _ _ (Proc.devRef .tc r) = _
  rw [Function.update_of_ne (StableHlo.devRef_ne_of_ne h22)]
  show after (hostOpsB (F := F)) (VA' m d) (Proc.devRef .tc r) = _
  rw [afterB_keep _ hB]
  show Function.update (VA m d) _ _ (Proc.devRef .tc r) = _
  rw [Function.update_of_ne (StableHlo.devRef_ne_of_ne h18)]
  show after (hostOpsA (F := F)) (V₀ m d) (Proc.devRef .tc r) = _
  rw [afterA_keep _ hA]

/-! ## The held buffers around the calls -/

/-- Before the SparseCore call: the positions, the values and the output buffer as launched, apart from the rest. -/
theorem heldA_eq (m : (ℓ : Loc nD τ sig) → Buf (Elt F) ℓ) (d : Dev nD) :
    (held (T d : Thread nD τ) (ucRefs τ sig) (VA m d) : sProp 𝕄)
      = iprop((aLoc d main_v15 ↦{fullShare} (flatM m d : Buf (Elt F) (aLoc d main_v15))) ∗ (aLoc d main_v17 ↦{fullShare} (valsM m d : Buf (Elt F) (aLoc d main_v17)))
          ∗ (aLoc d main_v18 ↦{fullShare} m (aLoc d main_v18)) ∗ held (T d : Thread nD τ) Rsc (VA m d)) := by
  rw [sc_split d (VA m d), show VA m d (Proc.devRef .tc main_v15 : DevRef τ sig) = flatM m d from afterA_v15 (V₀ m d),
    show VA m d (Proc.devRef .tc main_v17 : DevRef τ sig) = valsM m d from afterA_v17 (V₀ m d),
    show VA m d (Proc.devRef .tc main_v18 : DevRef τ sig) = m (aLoc d main_v18) from afterA_keep (V₀ m d) (by decide)]

/-- After it: the output buffer at the scatter's value. -/
theorem heldA'_eq (m : (ℓ : Loc nD τ sig) → Buf (Elt F) ℓ) (d : Dev nD) :
    (held (T d : Thread nD τ) (ucRefs τ sig) (VA' m d) : sProp 𝕄)
      = iprop((aLoc d main_v15 ↦{fullShare} (flatM m d : Buf (Elt F) (aLoc d main_v15))) ∗ (aLoc d main_v17 ↦{fullShare} (valsM m d : Buf (Elt F) (aLoc d main_v17)))
          ∗ (aLoc d main_v18 ↦{fullShare} (scOut (F := F) (flatM m d) (valsM m d) : Buf (Elt F) (aLoc d main_v18))) ∗ held (T d : Thread nD τ) Rsc (VA m d)) := by
  rw [sc_split d (VA' m d), held_erase_update,
    show VA' m d (Proc.devRef .tc main_v15 : DevRef τ sig) = flatM m d from
      (Function.update_of_ne (StableHlo.devRef_ne_of_ne (by decide)) _ _).trans (afterA_v15 (V₀ m d)),
    show VA' m d (Proc.devRef .tc main_v17 : DevRef τ sig) = valsM m d from
      (Function.update_of_ne (StableHlo.devRef_ne_of_ne (by decide)) _ _).trans (afterA_v17 (V₀ m d)),
    show VA' m d (Proc.devRef .tc main_v18 : DevRef τ sig) = scOut (F := F) (flatM m d) (valsM m d) from Function.update_self _ _ _]

/-- Before the TensorCore kernel: its three operands and the output buffer as launched, apart from the rest. -/
theorem heldB_eq (m : (ℓ : Loc nD τ sig) → Buf (Elt F) ℓ) (d : Dev nD) :
    (held (T d : Thread nD τ) (ucRefs τ sig) (VB m d) : sProp 𝕄)
      = iprop((aLoc d main_v0 ↦{fullShare} (xM m d : Buf (Elt F) (aLoc d main_v0))) ∗ (aLoc d main_v20 ↦{fullShare} (wM m d : Buf (Elt F) (aLoc d main_v20))) ∗ (aLoc d main_v21 ↦{fullShare} (bM m d : Buf (Elt F) (aLoc d main_v21)))
          ∗ (aLoc d main_v22 ↦{fullShare} m (aLoc d main_v22)) ∗ held (T d : Thread nD τ) Rreg (VB m d)) := by
  have e0 : VB m d (Proc.devRef .tc main_v0 : DevRef τ sig) = xM m d :=
    (afterB_keep (VA' m d) (by decide)).trans ((Function.update_of_ne (StableHlo.devRef_ne_of_ne (by decide)) _ _).trans (afterA_v0 (V₀ m d)))
  have e20 : VB m d (Proc.devRef .tc main_v20 : DevRef τ sig) = wM m d :=
    (afterB_v20 (VA' m d)).trans (congrArg (wOf (F := F)) (Function.update_self _ _ _))
  have e21 : VB m d (Proc.devRef .tc main_v21 : DevRef τ sig) = bM m d :=
    (afterB_v21 (VA' m d)).trans (congrArg (bOf (F := F))
      ((Function.update_of_ne (StableHlo.devRef_ne_of_ne (by decide)) _ _).trans (afterA_keep (V₀ m d) (by decide))))
  have e22 : VB m d (Proc.devRef .tc main_v22 : DevRef τ sig) = m (aLoc d main_v22) :=
    (afterB_keep (VA' m d) (by decide)).trans ((Function.update_of_ne (StableHlo.devRef_ne_of_ne (by decide)) _ _).trans
      (afterA_keep (V₀ m d) (by decide)))
  rw [reg_split d (VB m d), e0, e20, e21, e22]

/-- After it: the output buffer at the convolution. -/
theorem heldB'_eq (m : (ℓ : Loc nD τ sig) → Buf (Elt F) ℓ) (d : Dev nD) :
    (held (T d : Thread nD τ) (ucRefs τ sig) (VB' m d) : sProp 𝕄)
      = iprop((aLoc d main_v0 ↦{fullShare} (xM m d : Buf (Elt F) (aLoc d main_v0))) ∗ (aLoc d main_v20 ↦{fullShare} (wM m d : Buf (Elt F) (aLoc d main_v20))) ∗ (aLoc d main_v21 ↦{fullShare} (bM m d : Buf (Elt F) (aLoc d main_v21)))
          ∗ (aLoc d main_v22 ↦{fullShare} (convOut (F := F) (xM m d) (wM m d) (bM m d) : Buf (Elt F) (aLoc d main_v22))) ∗ held (T d : Thread nD τ) Rreg (VB m d)) := by
  have e0 : VB' m d (Proc.devRef .tc main_v0 : DevRef τ sig) = xM m d :=
    (Function.update_of_ne (StableHlo.devRef_ne_of_ne (by decide)) _ _).trans ((afterB_keep (VA' m d) (by decide)).trans
      ((Function.update_of_ne (StableHlo.devRef_ne_of_ne (by decide)) _ _).trans (afterA_v0 (V₀ m d))))
  have e20 : VB' m d (Proc.devRef .tc main_v20 : DevRef τ sig) = wM m d :=
    (Function.update_of_ne (StableHlo.devRef_ne_of_ne (by decide)) _ _).trans
      ((afterB_v20 (VA' m d)).trans (congrArg (wOf (F := F)) (Function.update_self _ _ _)))
  have e21 : VB' m d (Proc.devRef .tc main_v21 : DevRef τ sig) = bM m d :=
    (Function.update_of_ne (StableHlo.devRef_ne_of_ne (by decide)) _ _).trans
      ((afterB_v21 (VA' m d)).trans (congrArg (bOf (F := F))
        ((Function.update_of_ne (StableHlo.devRef_ne_of_ne (by decide)) _ _).trans (afterA_keep (V₀ m d) (by decide)))))
  have e22 : VB' m d (Proc.devRef .tc main_v22 : DevRef τ sig) = convOut (F := F) (xM m d) (wM m d) (bM m d) := Function.update_self _ _ _
  rw [reg_split d (VB' m d), held_erase_update, e0, e20, e21, e22]

/-- At the end: the result at the composite of the arguments, the arguments as launched. -/
theorem heldC_fin (m : (ℓ : Loc nD τ sig) → Buf (Elt F) ℓ) (d : Dev nD) :
    (held (T d : Thread nD τ) (ucRefs τ sig) (VC m d) : sProp 𝕄) ⊢ FIN (F := F) m d := by
  have e23 : VC m d (Proc.devRef .tc main_v23 : DevRef τ sig) = outM m d :=
    (afterC_v23 (VB' m d)).trans (congrArg (yOf (F := F)) (Function.update_self _ _ _))
  have e0 := kept m d (r := main_arg0) (by decide) (by decide) (by decide) (by decide) (by decide)
  have e1 := kept m d (r := main_arg1) (by decide) (by decide) (by decide) (by decide) (by decide)
  have e2 := kept m d (r := main_arg2) (by decide) (by decide) (by decide) (by decide) (by decide)
  have e3 := kept m d (r := main_arg3) (by decide) (by decide) (by decide) (by decide) (by decide)
  have e4 := kept m d (r := main_arg4) (by decide) (by decide) (by decide) (by decide) (by decide)
  rw [held_take (T d) (mem_ucRefs main_v23) (VC m d),
    held_take (T d) (Finset.mem_erase.mpr ⟨StableHlo.devRef_ne_of_ne (by decide), mem_ucRefs main_arg0⟩) (VC m d),
    held_take (T d) (Finset.mem_erase.mpr ⟨StableHlo.devRef_ne_of_ne (by decide),
      Finset.mem_erase.mpr ⟨StableHlo.devRef_ne_of_ne (by decide), mem_ucRefs main_arg1⟩⟩) (VC m d),
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide), mem_ucRefs main_arg2⟩⟩⟩) (VC m d),
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide),
          Finset.mem_erase.mpr ⟨StableHlo.devRef_ne_of_ne (by decide), mem_ucRefs main_arg3⟩⟩⟩⟩) (VC m d),
    held_take (T d) (Finset.mem_erase.mpr ⟨StableHlo.devRef_ne_of_ne (by decide),
      Finset.mem_erase.mpr ⟨StableHlo.devRef_ne_of_ne (by decide),
        Finset.mem_erase.mpr ⟨StableHlo.devRef_ne_of_ne (by decide),
          Finset.mem_erase.mpr ⟨StableHlo.devRef_ne_of_ne (by decide),
            Finset.mem_erase.mpr ⟨StableHlo.devRef_ne_of_ne (by decide), mem_ucRefs main_arg4⟩⟩⟩⟩⟩) (VC m d),
    e23, e0, e1, e2, e3, e4]
  unfold FIN
  iintro ⟨H23, H0, H1, H2, H3, H4, -⟩
  isplitl [H23]; · iexact H23
  isplitl [H0]; · iexact H0
  isplitl [H1]; · iexact H1
  isplitl [H2]; · iexact H2
  isplitl [H3]; · iexact H3
  iexact H4

/-! ## @main on the TensorCore -/

-- `T d` is the thread `d.tc`, at which the rules for the lines are stated
set_option backward.isDefEq.respectTransparency.types false in
/-- @main on device `d`'s TensorCore: from the launch's holdings, through the three lines and the two calls, to the
    handshake state after the one SparseCore call and `FIN`. -/
theorem hmain (m : (ℓ : Loc nD τ sig) → Buf (Elt F) ℓ) (ρ : Dev nD → PrngReg)
    (P : (K (F := F)).Pay (nD := nD) (Val := Elt F) (Name := ℕ) (U := UU)) (G : Dev nD → sProp (MT nD τ sig (HIx 1) (Elt F) ℕ UU ℕ))
    (hsc : ScCall (F := F) m P) (hreg : RegionCall (F := F) m G) (κ : GSem nD τ sig → ℕ) (d : Dev nD) :
    iprop((K (F := F)).ctx EH P κ ∗ (K (F := F)).tcSt EH d 0 ∗ (K (F := F)).tcRes m ρ d ∗ G d)
      ⊢ wp frame (wpE ((K (F := F)).defs (D (F := F))) 𝒱 (T d) none) Set.univ (main (F := F) d)
          fun _ => iprop((K (F := F)).tcSt EH d 1 ∗ FIN (F := F) m d) := by
  unfold SparseCore.Cfg.tcRes
  rw [show (unscopedBufs d (fun b => m ((T d : Thread nD τ).loc b)) : sProp 𝕄) = held (T d : Thread nD τ) (ucRefs τ sig) (V₀ m d)
        from unscopedBufs_held d (V₀ m d), main_eq]
  simp only [chain_cons, chain_nil]
  iintro ⟨#Hctx, Hst, ⟨Hb, Hh, -, -⟩, HG⟩
  -- the first line
  iapply (wp_hostA d _ (V₀ m d)) $$ [Hb Hh]
  · isplitl [Hb]; · iexact Hb
    iexact Hh
  iintro ⟨Hb, Hh⟩
  -- the SparseCore call
  ihave Hh' := (Entails.of_eq (heldA_eq m d)) $$ Hh
  icases Hh' with ⟨H15, H17, H18, Hrest⟩
  rw [wp_bind]
  iapply (hsc κ d) $$ [Hst H15 H17 H18 Hb HG Hrest]
  isplitr; · iexact Hctx
  isplitl [Hst]; · iexact Hst
  isplitl [H15]; · iexact H15
  isplitl [H17]; · iexact H17
  isplitl [H18]; · iexact H18
  iintro ⟨Hst, H15, H17, H18⟩
  ihave Hh := (Entails.of_eq (heldA'_eq m d).symm) $$ [H15 H17 H18 Hrest]
  · isplitl [H15]; · iexact H15
    isplitl [H17]; · iexact H17
    isplitl [H18]; · iexact H18
    iexact Hrest
  -- the second line
  iapply (wp_hostB d _ (VA' m d)) $$ [Hb Hh]
  · isplitl [Hb]; · iexact Hb
    iexact Hh
  iintro ⟨Hb, Hh⟩
  -- the TensorCore kernel
  ihave Hh' := (Entails.of_eq (heldB_eq m d)) $$ Hh
  icases Hh' with ⟨H0, H20, H21, H22, Hrest⟩
  ihave Hlev := (SparseCore.Cfg.ctx_levAts κ) $$ Hctx
  iapply (hreg d _ _) $$ [Hb H0 H20 H21 H22 HG Hst Hrest]
  isplitr; · iexact Hlev
  isplitl [Hb]; · iexact Hb
  isplitl [H0]; · iexact H0
  isplitl [H20]; · iexact H20
  isplitl [H21]; · iexact H21
  isplitl [H22]; · iexact H22
  isplitl [HG]; · iexact HG
  isplitl [Hst]; · iexact Hst
  iintro ⟨Hb, H0, H20, H21, H22, Hst⟩
  ihave Hh := (Entails.of_eq (heldB'_eq m d).symm) $$ [H0 H20 H21 H22 Hrest]
  · isplitl [H0]; · iexact H0
    isplitl [H20]; · iexact H20
    isplitl [H21]; · iexact H21
    isplitl [H22]; · iexact H22
    iexact Hrest
  -- the last line
  iapply (wp_hostC d _ (VB' m d)) $$ [Hb Hh]
  · isplitl [Hb]; · iexact Hb
    iexact Hh
  iintro ⟨Hb, Hh⟩
  rw [wp_pure]
  imodintro
  isplitl [Hst]; · iexact Hst
  iapply (heldC_fin m d); iexact Hh

end Cert.Proof.KI

end
-- ==== Proof.KI.Run.lean ====
/-
  The launch element of the three ghost states — the handshakes' rounds, the rounds of the tiles' DMA cells, the rounds
  of the TensorCore region's staging cells — and the launch theorem applied: every weakly fair execution of the threads
  terminates, nothing faulting, and leaves the result at the pure description and the five arguments unchanged.
-/
import proofs.«216126_g59949153517679_cont_9to1_m_442_25_alg».proof.Proof.KI.ScLaunch
import proofs.«216126_g59949153517679_cont_9to1_m_442_25_alg».proof.Proof.KI.Region
import proofs.«216126_g59949153517679_cont_9to1_m_442_25_alg».proof.Proof.KI.BodyArr
import proofs.«216126_g59949153517679_cont_9to1_m_442_25_alg».proof.Proof.KI.Main

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

section Run

variable [FloatOps F]
variable (m : (ℓ : Loc nD τ sig) → Buf (Elt F) ℓ) (ρ : Dev nD → PrngReg)

/-- The output buffer of the scatter as launched. -/
abbrev f0M (d : Dev nD) : Buf (Elt F) (outLoc d) := m (aLoc d main_v18)

/-! ## The launch element -/

/-- The handshakes' launch element, the tiles' DMA cells', the region's staging cells'. -/
def u₀ : UU := (initOf (K (F := F)).hsCells (K (F := F)).hsToks, (initOf kCells kToks, uP₀))

/-- The launch element splits into its three components; the second funds every tile's three cells, dealt to the tiles;
    the third funds every device's region. -/
theorem hu₀ : (ownU (u₀ (F := F)) : sProp 𝕄)
    ⊢ |={Set.univ}=> iprop(BI.own (EH (initOf (K (F := F)).hsCells (K (F := F)).hsToks)) ∗ (bigSep Finset.univ fun d : Dev nD => regionGhost (F := F) d)
        ∗ bigSep Finset.univ fun thr : Thread nD τ => bigSep Finset.univ fun q : Fin 1 => (P (flatM m) (valsM m) (f0M m)).x q thr) := by
  unfold u₀
  iintro Hu
  ihave H := (ownU_split _ _ _) $$ Hu
  icases H with ⟨HH, HK, HP⟩
  imod (kits_intro (flatM m) (valsM m)) $$ HK with Hkits
  imod (fund_region (F := F)) $$ HP with Hreg
  imodintro
  isplitl [HH]; · iexact HH
  isplitl [Hreg]; · iexact Hreg
  iapply (kits_deal (flatM m) (valsM m) (f0M m)); iexact Hkits

/-! ## The TensorCore's two calls -/

/-- The SparseCore call, at the positions and values the host operations computed. -/
theorem sc_call_at : ScCall m (P (flatM m) (valsM m) (f0M m)) :=
  fun κ d => sc_call (flatM m) (valsM m) (f0M m) κ d

/-- The pipeline's four arrays at the region's entry on device `c`: the transposed input, the scattered weights in
    three rounded planes, the bias column, and the result array as launched. -/
def AM (c : Dev nD) : Arrs (F := F) c := fun w => match w with
  | ⟨0, _⟩ => xM m c
  | ⟨1, _⟩ => wM m c
  | ⟨2, _⟩ => bM m c
  | ⟨3, _⟩ => m (aLoc c main_v22)

/-- The pipelined region's call: the pipeline's proof data at those arrays, nothing owed, no invariant, the recorded
    pairs within the SparseCore call's band; the inputs come back as they were and the result is the convolution. -/
theorem region_call_at : RegionCall m (regionGhost (F := F)) := fun d _ k Q =>
  region_call_locs (fun c => dats c (AM m c) BI.emp 0 (tcRec (F := F) c))
    (fun c => (body_obligation c (AM m c) BI.emp 0 (tcRec (F := F) c) none).loose)
    (fun _ _ => rfl) (fun _ _ => rfl) (fun _ _ => rfl) (fun _ _ => rfl)
    (K (F := F)).lev (K (F := F)).refines_self d (xM m d) (wM m d) (bM m d) (m (aLoc d main_v22)) (convOut (F := F) (xM m d) (wM m d) (bM m d))
    rfl rfl rfl rfl
    (arrAt_in0 d (AM m d) BI.emp 0 (tcRec (F := F) d) cfg1.N) (arrAt_in1 d (AM m d) BI.emp 0 (tcRec (F := F) d) cfg1.N)
    (arrAt_in2 d (AM m d) BI.emp 0 (tcRec (F := F) d) cfg1.N) (arrAt_out d (AM m d) BI.emp 0 (tcRec (F := F) d)) k Q

/-! ## The program's run -/

/-- The result at the pure description, and the five arguments unchanged, on every device. -/
def QC : PUnit × MemSt nD τ sig (Elt F) → Prop := fun r => ∀ c : Dev nD,
  r.2.mem (aLoc c main_v23) = (outM m c : Buf (Elt F) (aLoc c main_v23))
    ∧ r.2.mem (aLoc c main_arg0) = m (aLoc c main_arg0) ∧ r.2.mem (aLoc c main_arg1) = m (aLoc c main_arg1)
    ∧ r.2.mem (aLoc c main_arg2) = m (aLoc c main_arg2) ∧ r.2.mem (aLoc c main_arg3) = m (aLoc c main_arg3)
    ∧ r.2.mem (aLoc c main_arg4) = m (aLoc c main_arg4)

theorem run_main [∀ e, Nonempty (Elt F e)] :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (flatM m) (valsM m) (f0M m)) facts v₀
    (fun q hq => match q with | 0 => nomatch hq)
    (fun q _ => match q with | 0 => tileObl (flatM m) (valsM m) (f0M m) facts)
    (fun q _ => match q with | 0 => SparseCore.Cfg.VecSplit.of_plain (vecSplit (flatM m) (valsM m) (f0M m)))
    m ρ main (regionGhost (F := F)) (FIN m) (u₀ (F := F)) (sep_elim_left.trans (hu₀ m))
    (hmain m ρ (P (flatM m) (valsM m) (f0M m)) (regionGhost (F := F)) (sc_call_at m) (region_call_at m)) (fq m) (hfin m) (QC m) (fun _ h => h)

end Run

end Cert.Proof.KI

end
-- ==== Proof.Val.Ref.lean ====
/-
  The reference program's run and its stages read at an index, as the generated modules state them.
-/
import proofs.«216126_g59949153517679_cont_9to1_m_442_25_alg».proof.Proof.Gen.ReferenceIdeal.Run
import proofs.«216126_g59949153517679_cont_9to1_m_442_25_alg».proof.Proof.Gen.ReferenceIdeal.Read
-- ==== Proof.Val.Pre.lean ====
/-
  The precondition read back: the two index arrays lie in their ranges, and (at the ideal instance) every
  entry of the three float arrays is a real number.
-/
import proofs.«216126_g59949153517679_cont_9to1_m_442_25_alg».proof.Pre_finite_inputs
import Idealize.ShloMosaic.Lib.StableHlo.Predicate
import Idealize.ShloMosaic.Lib.ReduceAll
import Idealize.ShloMosaic.Lib.ValueIdx
import Idealize.ShloMosaic.PureOps.Ideal

noncomputable section

namespace Cert.Proof.Val

open Idealize.ShloMosaic
open Cert.Pre_finite_inputs

instance : Subsingleton S_.Idx := ⟨fun a b => funext fun d => d.elim0⟩

/-- A 32-bit word that is non-negative as a signed integer and signed-below a small bound `n` has value below `n`. -/
theorem toNat_lt_of_signed (w : BitVec 32) (n : Nat) (hn : n < 2 ^ 31) (h0 : IntOp.cmpi .sge w (0#32) = 1#1)
    (hlt : IntOp.cmpi .slt w (BitVec.ofNat 32 n) = 1#1) : w.toNat < n := by
  have hw : w.toNat < 2 ^ 31 := by
    by_contra hc
    have hmsb : w.msb = true := by
      rw [BitVec.msb_eq_decide]; simp only [decide_eq_true_eq]; omega
    have hneg : w.toInt < 0 := by
      rw [BitVec.toInt_eq_msb_cond, hmsb]; have := w.isLt; simp only [if_true]; omega
    unfold IntOp.cmpi at h0
    rw [StableHlo.Predicate.ofBool_eq_one_iff] at h0
    simp only [BitVec.sle, decide_eq_true_eq] at h0
    have h00 : (0#32 : BitVec 32).toInt = 0 := by decide
    omega
  have hn' : (BitVec.ofNat 32 n).toNat = n := by simp only [BitVec.toNat_ofNat]; omega
  have := (StableHlo.Predicate.slt_iff_toNat hw (by rw [hn']; exact hn)).1 hlt
  rwa [hn'] at this

/-- The precondition's integer conjuncts: every row index is below 864 and every column index below 192. -/
theorem pre_ranges {F : FTy → Type} [FloatOps F] [Facts]
    (a0 : FVec F S2x224x224x96 .f32) (a1 : FVec F S1658 .f32) (a2 : FVec F S192 .f32) (row col : IVec S1658 32)
    (h : fn (F := F) a0 a1 a2 row col = (fun _ => 1#1)) :
    ∀ n : S1658.Idx, (row n).toNat < 864 ∧ (col n).toNat < 192 := by
  have e := congrFun h ValueIdx.ix0
  dsimp only [fn, fn_part1] at e
  simp only [andi, IntOp.andi_eq_one] at e
  obtain ⟨⟨⟨⟨-, hr0⟩, hr1⟩, hc0⟩, hc1⟩ := e
  intro n
  have r0 := Host.reduce_andi_all _ _ _ _ _ hr0 n
  have r1 := Host.reduce_andi_all _ _ _ _ _ hr1 n
  have c0 := Host.reduce_andi_all _ _ _ _ _ hc0 n
  have c1 := Host.reduce_andi_all _ _ _ _ _ hc1 n
  exact ⟨toNat_lt_of_signed (row n) 864 (by decide) r0 r1, toNat_lt_of_signed (col n) 192 (by decide) c0 c1⟩

/-- The pattern 0x7F800000 denotes +∞. -/
theorem inf_bits : Ideal.ofBits .f32 0x7F800000#32 = (⊤ : EReal) := by
  simp [Ideal.ofBits, Ideal.ieee]

/-- An extended real whose absolute value is below +∞ is a real. -/
theorem real_of_abs_lt (x : EReal) (h : Ideal.cmp .olt (max x (-x)) (⊤ : EReal) = 1#1) : ∃ r : ℝ, x = (r : EReal) := by
  unfold Ideal.cmp at h
  rw [StableHlo.Predicate.ofBool_eq_one_iff] at h
  simp only [decide_eq_true_eq] at h
  induction x using EReal.rec with
  | bot => simp at h
  | top => simp at h
  | coe r => exact ⟨r, rfl⟩

/-- The precondition's float conjuncts at the ideal instance: every entry of the three float arrays is a real. -/
theorem pre_real [Facts]
    (a0 : FVec Ideal S2x224x224x96 .f32) (a1 : FVec Ideal S1658 .f32) (a2 : FVec Ideal S192 .f32) (row col : IVec S1658 32)
    (h : fn (F := Ideal) a0 a1 a2 row col = (fun _ => 1#1)) :
    (∀ i, ∃ r : ℝ, a0 i = (r : EReal)) ∧ (∀ i, ∃ r : ℝ, a1 i = (r : EReal)) ∧ (∀ i, ∃ r : ℝ, a2 i = (r : EReal)) := by
  have e := congrFun h ValueIdx.ix0
  dsimp only [fn, fn_part1] at e
  simp only [andi, IntOp.andi_eq_one] at e
  obtain ⟨⟨⟨⟨⟨⟨h0, h1⟩, h2⟩, -⟩, -⟩, -⟩, -⟩ := e
  refine ⟨fun i => ?_, fun i => ?_, fun i => ?_⟩
  · have := Host.reduce_andi_all _ _ _ _ _ h0 i
    exact real_of_abs_lt (a0 i) (by rw [← inf_bits]; exact this)
  · have := Host.reduce_andi_all _ _ _ _ _ h1 i
    exact real_of_abs_lt (a1 i) (by rw [← inf_bits]; exact this)
  · have := Host.reduce_andi_all _ _ _ _ _ h2 i
    exact real_of_abs_lt (a2 i) (by rw [← inf_bits]; exact this)

end Cert.Proof.Val

end
-- ==== Proof.Val.RefValue.lean ====
/-
  The reference's result read at an index.  The nine shifted slices of the input, joined along the channel
  axis, put at patch channel `r = (3·di + dj)·96 + ch` of output position `(b, i, j)` the input element
  `(b, i + di, j + dj, ch)`; the contraction with the scattered weight matrix and the bias row then give
  `out (b, i, j, f) = (∑ r, x (b, i + di r, j + dj r, ch r) · Wk (r, f)) + bias f`.
-/
import proofs.«216126_g59949153517679_cont_9to1_m_442_25_alg».proof.Proof.Val.Ref

noncomputable section

namespace Cert.Proof.Val

open Cert.ReferenceIdeal Cert.ReferenceIdeal.Gen Cert.ReferenceIdeal.Read Idealize.ShloMosaic
open Idealize.ShloMosaic.ValueIdx

/-- The input position that patch channel `r = (3·di + dj)·96 + ch` reads at output position `(b, i, j)`:
    `(b, i + di, j + dj, ch)` with `di = r / 288`, `dj = r / 96 % 3`, `ch = r % 96`. -/
abbrev patchIdx (b : Fin 2) (i j : Fin 222) (r : Fin 864) : S2x224x224x96.Idx :=
  ix4 (n0 := 2) (n1 := 224) (n2 := 224) (n3 := 96) b
    ⟨i.val + r.val / 288, by have := i.isLt; have := r.isLt; omega⟩
    ⟨j.val + r.val / 96 % 3, by have := j.isLt; omega⟩
    ⟨r.val % 96, Nat.mod_lt _ (by decide)⟩

/-- The channel of a patch inside its slice. -/
abbrev chOf (r : Fin 864) : Fin 96 := ⟨r.val % 96, Nat.mod_lt _ (by decide)⟩

section layout
variable {F : FTy → Type} [FloatOps F]

/-- The joined patches at channel `r` are the slice numbered `r / 96` at channel `r % 96`. -/
theorem patches_piece (x0 : (⟨S2x224x224x96, .f32⟩ : BufTy).Contents (Elt F)) (b : Fin 2) (i j : Fin 222) (r : Fin 864)
    (k : Nat) (hk : k < 9) (hq : r.val / 96 = k) (p : S2x222x222x96.Idx → Elt F .f32)
    (hp : ([⟨S2x222x222x96, val_main_v0 (F := F) x0⟩, ⟨S2x222x222x96, val_main_v1 (F := F) x0⟩, ⟨S2x222x222x96, val_main_v2 (F := F) x0⟩,
            ⟨S2x222x222x96, val_main_v3 (F := F) x0⟩, ⟨S2x222x222x96, val_main_v4 (F := F) x0⟩, ⟨S2x222x222x96, val_main_v5 (F := F) x0⟩,
            ⟨S2x222x222x96, val_main_v6 (F := F) x0⟩, ⟨S2x222x222x96, val_main_v7 (F := F) x0⟩, ⟨S2x222x222x96, val_main_v8 (F := F) x0⟩] :
            List ((s : Shape) × (s.Idx → Elt F .f32)))[k]'(by simpa using hk) = ⟨S2x222x222x96, p⟩) :
    val_main_v9 (F := F) x0 (ix4 b i j r) = p (ix4 b i j (chOf r)) := by
  unfold val_main_v9
  refine concatenate_apply_piece (3 : Fin 4) _ _ (ix4 b i j r) k (by simpa using hk) S2x222x222x96 p hp rfl (96 * k) ?_
    (ix4 b i j (chOf r)) ?_ ?_
  · interval_cases k <;> rfl
  · intro a ha
    match a with
    | ⟨0, _⟩ => rfl
    | ⟨1, _⟩ => rfl
    | ⟨2, _⟩ => rfl
    | ⟨3, _⟩ => exact absurd rfl ha
  · show 96 * k + r.val % 96 = r.val
    omega

/-- The joined patches at an index: channel `r` of output position `(b, i, j)` is the input at `patchIdx b i j r`. -/
theorem patches_apply (x0 : (⟨S2x224x224x96, .f32⟩ : BufTy).Contents (Elt F)) (b : Fin 2) (i j : Fin 222) (r : Fin 864) :
    val_main_v9 (F := F) x0 (ix4 b i j r) = x0 (patchIdx b i j r) := by
  have h9 : r.val / 96 < 9 := by have := r.isLt; omega
  have hi := i.isLt
  have hj := j.isLt
  generalize hq : r.val / 96 = q at h9
  have fin : ∀ (y : S2x224x224x96.Idx), (∀ a : Fin 4, (y a).val = (patchIdx b i j r a).val) → x0 y = x0 (patchIdx b i j r) :=
    fun y h => congrArg x0 (funext fun a => Fin.ext (h a))
  interval_cases q
  · rw [patches_piece x0 b i j r 0 (by decide) hq _ rfl, val_main_v0_apply]
    refine fin _ fun a => ?_
    match a with
    | ⟨0, _⟩ => rfl
    | ⟨1, _⟩ => show i.val = i.val + r.val / 288; omega
    | ⟨2, _⟩ => show j.val = j.val + r.val / 96 % 3; omega
    | ⟨3, _⟩ => rfl
  · rw [patches_piece x0 b i j r 1 (by decide) hq _ rfl, val_main_v1_apply]
    refine fin _ fun a => ?_
    match a with
    | ⟨0, _⟩ => rfl
    | ⟨1, _⟩ => show i.val = i.val + r.val / 288; omega
    | ⟨2, _⟩ => show 1 + j.val = j.val + r.val / 96 % 3; omega
    | ⟨3, _⟩ => rfl
  · rw [patches_piece x0 b i j r 2 (by decide) hq _ rfl, val_main_v2_apply]
    refine fin _ fun a => ?_
    match a with
    | ⟨0, _⟩ => rfl
    | ⟨1, _⟩ => show i.val = i.val + r.val / 288; omega
    | ⟨2, _⟩ => show 2 + j.val = j.val + r.val / 96 % 3; omega
    | ⟨3, _⟩ => rfl
  · rw [patches_piece x0 b i j r 3 (by decide) hq _ rfl, val_main_v3_apply]
    refine fin _ fun a => ?_
    match a with
    | ⟨0, _⟩ => rfl
    | ⟨1, _⟩ => show 1 + i.val = i.val + r.val / 288; omega
    | ⟨2, _⟩ => show j.val = j.val + r.val / 96 % 3; omega
    | ⟨3, _⟩ => rfl
  · rw [patches_piece x0 b i j r 4 (by decide) hq _ rfl, val_main_v4_apply]
    refine fin _ fun a => ?_
    match a with
    | ⟨0, _⟩ => rfl
    | ⟨1, _⟩ => show 1 + i.val = i.val + r.val / 288; omega
    | ⟨2, _⟩ => show 1 + j.val = j.val + r.val / 96 % 3; omega
    | ⟨3, _⟩ => rfl
  · rw [patches_piece x0 b i j r 5 (by decide) hq _ rfl, val_main_v5_apply]
    refine fin _ fun a => ?_
    match a with
    | ⟨0, _⟩ => rfl
    | ⟨1, _⟩ => show 1 + i.val = i.val + r.val / 288; omega
    | ⟨2, _⟩ => show 2 + j.val = j.val + r.val / 96 % 3; omega
    | ⟨3, _⟩ => rfl
  · rw [patches_piece x0 b i j r 6 (by decide) hq _ rfl, val_main_v6_apply]
    refine fin _ fun a => ?_
    match a with
    | ⟨0, _⟩ => rfl
    | ⟨1, _⟩ => show 2 + i.val = i.val + r.val / 288; omega
    | ⟨2, _⟩ => show j.val = j.val + r.val / 96 % 3; omega
    | ⟨3, _⟩ => rfl
  · rw [patches_piece x0 b i j r 7 (by decide) hq _ rfl, val_main_v7_apply]
    refine fin _ fun a => ?_
    match a with
    | ⟨0, _⟩ => rfl
    | ⟨1, _⟩ => show 2 + i.val = i.val + r.val / 288; omega
    | ⟨2, _⟩ => show 1 + j.val = j.val + r.val / 96 % 3; omega
    | ⟨3, _⟩ => rfl
  · rw [patches_piece x0 b i j r 8 (by decide) hq _ rfl, val_main_v8_apply]
    refine fin _ fun a => ?_
    match a with
    | ⟨0, _⟩ => rfl
    | ⟨1, _⟩ => show 2 + i.val = i.val + r.val / 288; omega
    | ⟨2, _⟩ => show 2 + j.val = j.val + r.val / 96 % 3; omega
    | ⟨3, _⟩ => rfl

end layout

/-- The row of the flattened output that position `(b, i, j)` is. -/
theorem row_idx (b : Fin 2) (i j : Fin 222) (f : Fin 192) (k : Fin 864) :
    idx_main_v10 (lidx_main_v26 (idx_main_v30 (ix4 b i j f)) k) = ix4 b i j k := by
  have hb := b.isLt; have hi := i.isLt; have hj := j.isLt; have hf := f.isLt; have hk := k.isLt
  funext a
  refine Fin.ext ?_
  match a with
  | ⟨0, _⟩ => show ((((b.val * 222 + i.val) * 222 + j.val) * 192 + f.val) / 192 * 864 + k.val) / 42581376 = b.val; omega
  | ⟨1, _⟩ => show ((((b.val * 222 + i.val) * 222 + j.val) * 192 + f.val) / 192 * 864 + k.val) / 191808 % 222 = i.val; omega
  | ⟨2, _⟩ => show ((((b.val * 222 + i.val) * 222 + j.val) * 192 + f.val) / 192 * 864 + k.val) / 864 % 222 = j.val; omega
  | ⟨3, _⟩ => show ((((b.val * 222 + i.val) * 222 + j.val) * 192 + f.val) / 192 * 864 + k.val) % 864 = k.val; omega

theorem col_idx (b : Fin 2) (i j : Fin 222) (f : Fin 192) (k : Fin 864) :
    ridx_main_v26 (idx_main_v30 (ix4 b i j f)) k = ix2 k f := by
  have hb := b.isLt; have hi := i.isLt; have hj := j.isLt; have hf := f.isLt
  funext a
  refine Fin.ext ?_
  match a with
  | ⟨0, _⟩ => rfl
  | ⟨1, _⟩ => show ((((b.val * 222 + i.val) * 222 + j.val) * 192 + f.val)) % 192 = f.val; omega

theorem bias_idx (b : Fin 2) (i j : Fin 222) (f : Fin 192) :
    idx_main_v27 (idx_main_v28 (idx_main_v30 (ix4 b i j f))) = ix1 f := by
  have hb := b.isLt; have hi := i.isLt; have hj := j.isLt; have hf := f.isLt
  funext a
  refine Fin.ext ?_
  match a with
  | ⟨0, _⟩ => show ((((b.val * 222 + i.val) * 222 + j.val) * 192 + f.val)) % 192 = f.val; omega

/-- **The reference at an index**: the sum over the 864 patch channels of input times scattered weight, plus the bias. -/
theorem ref_apply (x0 : (⟨S2x224x224x96, .f32⟩ : BufTy).Contents (Elt Ideal)) (x1 : (⟨S1658, .f32⟩ : BufTy).Contents (Elt Ideal))
    (x2 : (⟨S192, .f32⟩ : BufTy).Contents (Elt Ideal)) (x3 x4 : (⟨S1658, .i32⟩ : BufTy).Contents (Elt Ideal))
    (b : Fin 2) (i j : Fin 222) (f : Fin 192) :
    val_main_v30 (F := Ideal) x0 x1 x2 x3 x4 (ix4 b i j f)
      = (∑ r : Fin 864, x0 (patchIdx b i j r) * val_main_v25 (F := Ideal) x1 x3 x4 (ix2 r f)) + x2 (ix1 f) := by
  rw [val_main_v30_apply, val_main_v29_apply, val_main_v26_apply, val_main_v28_apply, val_main_v27_apply, bias_idx]
  show (∑ k : Fin 864, _) + x2 (ix1 f) = _
  congr 1
  refine Finset.sum_congr rfl fun k _ => ?_
  rw [val_main_v10_apply, row_idx, col_idx, patches_apply]

end Cert.Proof.Val

end
-- ==== Proof.Val.ConvValue.lean ====
/-
  The TensorCore kernel's output read at an index, at the ideal instance.  One grid point's body stacks eight
  loaded input rows (96 channels each), cuts three consecutive ones per output row, multiplies them by the three
  weight planes into zero accumulators, adds the three products read 0, 1 and 2 columns along, and adds the bias
  column.  So at batch `b`, row `h`, feature `f`, column `j` the output is
  `(∑ dj < 3, ∑ k < 288, w (dj, f, k) · xt (b, h + k / 96, k % 96, j + dj)) + b2 (f, 0)`.
-/
import proofs.«216126_g59949153517679_cont_9to1_m_442_25_alg».proof.Proof.KI.ConvSpec
import Idealize.ShloMosaic.Lib.Pipeline.Value
import Idealize.ShloMosaic.Lib.ValueIdx
import Idealize.ShloMosaic.PureOps.Ideal.Laws

noncomputable section

namespace Cert.Proof.Val

open Cert.KernelIdeal Cert.KernelIdeal.Gen Cert.Proof.KI
open Idealize.ShloMosaic Idealize.ShloMosaic.ValueIdx

/-! ## The matrix product at an index -/

theorem lhs_conv_0 (i : S192x224.Idx) (q : dot_S192x288_S288x224_S192x224_1_0_0_1_n_n.contr.Idx) :
    (dot_S192x288_S288x224_S192x224_1_0_0_1_n_n.lhsIdx i q 0).val = (i 0).val := by
  unfold DotDims.lhsIdx
  rw [dif_neg (show ¬(0 : Fin S192x288.rank) ∈ dot_S192x288_S288x224_S192x224_1_0_0_1_n_n.lhsBatch by decide), dif_pos (show (0 : Fin S192x288.rank) ∈ dot_S192x288_S288x224_S192x224_1_0_0_1_n_n.lhsNonContracting by decide)]
  rfl
theorem lhs_conv_1 (i : S192x224.Idx) (q : dot_S192x288_S288x224_S192x224_1_0_0_1_n_n.contr.Idx) :
    (dot_S192x288_S288x224_S192x224_1_0_0_1_n_n.lhsIdx i q 1).val = (q ⟨0, by decide⟩).val :=
  dot_S192x288_S288x224_S192x224_1_0_0_1_n_n.lhsIdx_val_of_single rfl i q
theorem rhs_conv_0 (i : S192x224.Idx) (q : dot_S192x288_S288x224_S192x224_1_0_0_1_n_n.contr.Idx) :
    (dot_S192x288_S288x224_S192x224_1_0_0_1_n_n.rhsIdx i q 0).val = (q ⟨0, by decide⟩).val :=
  dot_S192x288_S288x224_S192x224_1_0_0_1_n_n.rhsIdx_val_of_single rfl i q
theorem rhs_conv_1 (i : S192x224.Idx) (q : dot_S192x288_S288x224_S192x224_1_0_0_1_n_n.contr.Idx) :
    (dot_S192x288_S288x224_S192x224_1_0_0_1_n_n.rhsIdx i q 1).val = (i 1).val := by
  unfold DotDims.rhsIdx
  rw [dif_neg (show ¬(1 : Fin S288x224.rank) ∈ dot_S192x288_S288x224_S192x224_1_0_0_1_n_n.rhsBatch by decide), dif_pos (show (1 : Fin S288x224.rank) ∈ dot_S192x288_S288x224_S192x224_1_0_0_1_n_n.rhsNonContracting by decide)]
  rfl

/-- A product into a zero accumulator, at an index: the sum over the 288 contracted coordinates. -/
theorem matmul0_apply (A : FVec Ideal S192x288 .bf16) (B : FVec Ideal S288x224 .bf16) (f : Fin 192) (z : Fin 224) :
    matmul dot_S192x288_S288x224_S192x224_1_0_0_1_n_n none A B (constant (F := Ideal) S192x224 .f32 0x00000000#32) (ix2 f z)
      = ∑ k : Fin 288, A (ix2 f k) * B (ix2 k z) := by
  show FloatOps.matmul dot_S192x288_S288x224_S192x224_1_0_0_1_n_n none A B (constant (F := Ideal) S192x224 .f32 0x00000000#32) (ix2 f z) = _
  rw [Ideal.matmul_constant_zero_apply, ← Equiv.sum_comp (ValueIdx.contrEquiv1 dot_S192x288_S288x224_S192x224_1_0_0_1_n_n 288 rfl rfl).symm]
  refine Finset.sum_congr rfl fun k _ => ?_
  have hk := ValueIdx.contrEquiv1_symm_val dot_S192x288_S288x224_S192x224_1_0_0_1_n_n 288 rfl rfl k
  have el : dot_S192x288_S288x224_S192x224_1_0_0_1_n_n.lhsIdx (ix2 f z) ((ValueIdx.contrEquiv1 dot_S192x288_S288x224_S192x224_1_0_0_1_n_n 288 rfl rfl).symm k) = ix2 f k := funext fun a => Fin.ext (by
    match a with
    | ⟨0, _⟩ => exact lhs_conv_0 _ _
    | ⟨1, _⟩ => exact (lhs_conv_1 _ _).trans hk)
  have er : dot_S192x288_S288x224_S192x224_1_0_0_1_n_n.rhsIdx (ix2 f z) ((ValueIdx.contrEquiv1 dot_S192x288_S288x224_S192x224_1_0_0_1_n_n 288 rfl rfl).symm k) = ix2 k z := funext fun a => Fin.ext (by
    match a with
    | ⟨0, _⟩ => exact (rhs_conv_0 _ _).trans hk
    | ⟨1, _⟩ => exact rhs_conv_1 _ _)
  rw [el, er]

/-! ## The layout operations of one output row, at an index -/

/-- A weight plane, its unit axis dropped. -/
theorem plane_apply (W : Vec Ideal S1x192x288 .bf16) (f : Fin 192) (k : Fin 288) :
    shapeCast S192x288 W shapeCasts_S1x192x288_S192x288 (ix2 f k) = W (ix3 0 f k) :=
  shapeCast_apply W shapeCasts_S1x192x288_S192x288 (ix2 f k) (ix3 0 f k)
    (by rw [Shape.rowMajor_val_three, Shape.rowMajor_val_two]; show (0 * 192 + f.val) * 288 + k.val = f.val * 288 + k.val; omega)

/-- A weight plane's product with three stacked rows, into a zero accumulator, at an index. -/
theorem planeProd_apply (W : Vec Ideal S1x192x288 .bf16) (B : FVec Ideal S288x224 .bf16) (f : Fin 192) (z : Fin 224) :
    matmul dot_S192x288_S288x224_S192x224_1_0_0_1_n_n none (shapeCast S192x288 W shapeCasts_S1x192x288_S192x288 : FVec Ideal S192x288 .bf16) B
        (constant (F := Ideal) S192x224 .f32 0x00000000#32) (ix2 f z)
      = ∑ k : Fin 288, W (ix3 0 f k) * B (ix2 k z) := by
  rw [matmul0_apply]
  exact Finset.sum_congr rfl fun k _ => by rw [plane_apply]

/-- A column window of a product: columns `dj … dj + 221`. -/
theorem window_apply (dj : Nat) (hdj : dj ≤ 2) (v : FVec Ideal S192x224 .f32) (h : S192x224.Slices ![0, dj] S192x222) (f : Fin 192) (j : Fin 222) :
    extractStridedSlice S192x222 ![0, dj] v h (ix2 f j) = v (ix2 f ⟨j.val + dj, by have := j.isLt; omega⟩) :=
  extractStridedSlice_apply ![0, dj] v h (ix2 f j) (ix2 f ⟨j.val + dj, by have := j.isLt; omega⟩) (fun a => match a with
    | ⟨0, _⟩ => by show f.val = 0 + f.val; omega
    | ⟨1, _⟩ => by show j.val + dj = dj + j.val; omega)

/-- The bias column spread along a row. -/
theorem biasRow_apply (bb : Vec Ideal S192x1 .f32) (f : Fin 192) (j : Fin 222) :
    broadcastTo S192x222 (shapeCast S192x1 bb shapeCasts_S192x1_S192x1) broadcasts_S192x1_S192x222 (ix2 f j) = bb (ix2 f 0) := by
  rw [shapeCast_self]
  exact broadcastTo_apply bb broadcasts_S192x1_S192x222 (ix2 f j) (ix2 f 0) (fun a => match a with
    | ⟨0, _⟩ => by show f.val = if (192 : Nat) = 1 then 0 else f.val; rw [if_neg (by decide)]
    | ⟨1, _⟩ => by show 0 = if (1 : Nat) = 1 then 0 else j.val; rw [if_pos rfl])

/-- A row put back under two unit axes. -/
theorem rowCast4_apply (v : FVec Ideal S192x222 .f32) (f : Fin 192) (j : Fin 222) :
    shapeCast S1x1x192x222 v shapeCasts_S192x222_S1x1x192x222 (ix4 0 0 f j) = v (ix2 f j) :=
  shapeCast_apply v shapeCasts_S192x222_S1x1x192x222 (ix4 0 0 f j) (ix2 f j)
    (by rw [Shape.rowMajor_val_two, Shape.rowMajor_val_four]; show f.val * 222 + j.val = ((0 * 1 + 0) * 192 + f.val) * 222 + j.val; omega)

/-- Three stacked rows cut out of the eight: rows `o … o + 287`. -/
theorem cut_apply (o : Nat) (ho : o ≤ 480) (v : FVec Ideal S768x224 .bf16) (h : S768x224.Slices ![o, 0] S288x224) (k : Fin 288) (z : Fin 224) :
    extractStridedSlice S288x224 ![o, 0] v h (ix2 k z) = v (ix2 ⟨o + k.val, by have := k.isLt; omega⟩ z) :=
  extractStridedSlice_apply ![o, 0] v h (ix2 k z) (ix2 ⟨o + k.val, by have := k.isLt; omega⟩ z) (fun a => match a with
    | ⟨0, _⟩ => by show o + k.val = o + k.val; rfl
    | ⟨1, _⟩ => by show z.val = 0 + z.val; omega)

/-! ## The eight loaded rows, stacked -/

/-- A loaded row with its two unit axes dropped. -/
theorem unitRow_apply (v : Vec Ideal S1x1x96x224 .f32) (c : Fin 96) (z : Fin 224) :
    shapeCast S96x224 v shapeCasts_S1x1x96x224_S96x224 (ix2 c z) = v (ix4 0 0 c z) :=
  shapeCast_apply v shapeCasts_S1x1x96x224_S96x224 (ix2 c z) (ix4 0 0 c z)
    (by rw [Shape.rowMajor_val_four, Shape.rowMajor_val_two]; show ((0 * 1 + 0) * 96 + c.val) * 224 + z.val = c.val * 224 + z.val; omega)

section stack
variable {F : FTy → Type} [FloatOps F]

/-- Eight rows stacked: stacked row `q` is row `q % 96` of piece `q / 96`. -/
theorem stack_piece (v0 v1 v2 v3 v4 v5 v6 v7 : FVec F S96x224 .f32) (q : Fin 768) (z : Fin 224)
    (k : Nat) (hk : k < 8) (hq : q.val / 96 = k) (p : S96x224.Idx → Elt F .f32)
    (hp : ([⟨S96x224, v0⟩, ⟨S96x224, v1⟩, ⟨S96x224, v2⟩, ⟨S96x224, v3⟩, ⟨S96x224, v4⟩, ⟨S96x224, v5⟩, ⟨S96x224, v6⟩, ⟨S96x224, v7⟩] :
            List ((s : Shape) × (s.Idx → Elt F .f32)))[k]'(by simpa using hk) = ⟨S96x224, p⟩) :
    concatenate S768x224 0 [⟨S96x224, v0⟩, ⟨S96x224, v1⟩, ⟨S96x224, v2⟩, ⟨S96x224, v3⟩, ⟨S96x224, v4⟩, ⟨S96x224, v5⟩, ⟨S96x224, v6⟩, ⟨S96x224, v7⟩]
        concatenates_S96x224_S96x224_S96x224_S96x224_S96x224_S96x224_S96x224_S96x224_S768x224_d0 (ix2 q z)
      = p (ix2 ⟨q.val % 96, Nat.mod_lt _ (by decide)⟩ z) := by
  refine concatenate_apply_piece (0 : Fin 2) _ _ (ix2 q z) k (by simpa using hk) S96x224 p hp rfl (96 * k) ?_
    (ix2 ⟨q.val % 96, Nat.mod_lt _ (by decide)⟩ z) ?_ ?_
  · interval_cases k <;> rfl
  · intro a ha
    match a with
    | ⟨0, _⟩ => exact absurd rfl ha
    | ⟨1, _⟩ => rfl
  · show 96 * k + q.val % 96 = q.val
    omega

end stack

/-- The stacked, rounded rows at an index: stacked row `q` is channel `q % 96` of loaded row `q / 96`. -/
theorem cv34_apply (X : Fin 8 → Vec Ideal S1x1x96x224 .f32) (q : Fin 768) (z : Fin 224) (r : Fin 8) (hr : q.val / 96 = r.val) :
    cv34 (X 0) (X 1) (X 2) (X 3) (X 4) (X 5) (X 6) (X 7) (ix2 q z) = X r (ix4 0 0 ⟨q.val % 96, Nat.mod_lt _ (by decide)⟩ z) := by
  obtain ⟨k, hk⟩ := r
  change q.val / 96 = k at hr
  interval_cases k
  · exact (stack_piece _ _ _ _ _ _ _ _ q z 0 (by decide) hr _ rfl).trans (unitRow_apply (X 0) _ z)
  · exact (stack_piece _ _ _ _ _ _ _ _ q z 1 (by decide) hr _ rfl).trans (unitRow_apply (X 1) _ z)
  · exact (stack_piece _ _ _ _ _ _ _ _ q z 2 (by decide) hr _ rfl).trans (unitRow_apply (X 2) _ z)
  · exact (stack_piece _ _ _ _ _ _ _ _ q z 3 (by decide) hr _ rfl).trans (unitRow_apply (X 3) _ z)
  · exact (stack_piece _ _ _ _ _ _ _ _ q z 4 (by decide) hr _ rfl).trans (unitRow_apply (X 4) _ z)
  · exact (stack_piece _ _ _ _ _ _ _ _ q z 5 (by decide) hr _ rfl).trans (unitRow_apply (X 5) _ z)
  · exact (stack_piece _ _ _ _ _ _ _ _ q z 6 (by decide) hr _ rfl).trans (unitRow_apply (X 6) _ z)
  · exact (stack_piece _ _ _ _ _ _ _ _ q z 7 (by decide) hr _ rfl).trans (unitRow_apply (X 7) _ z)

/-- Three stacked rows cut out at `96 N`: stacked row `k` of the cut is channel `k % 96` of loaded row `N + k / 96`. -/
theorem cutRows_apply (X : Fin 8 → Vec Ideal S1x1x96x224 .f32) (o N : Nat) (ho : o = 96 * N) (hN : N ≤ 5)
    (h : S768x224.Slices ![o, 0] S288x224) (k : Fin 288) (z : Fin 224) :
    extractStridedSlice S288x224 ![o, 0] (cv34 (X 0) (X 1) (X 2) (X 3) (X 4) (X 5) (X 6) (X 7)) h (ix2 k z)
      = X ⟨N + k.val / 96, by have := k.isLt; omega⟩ (ix4 0 0 ⟨k.val % 96, Nat.mod_lt _ (by decide)⟩ z) := by
  have hk := k.isLt
  rw [cut_apply o (by omega), cv34_apply X _ z ⟨N + k.val / 96, by omega⟩ (by show (o + k.val) / 96 = N + k.val / 96; omega)]
  refine congrArg (X _) (funext fun a => Fin.ext ?_)
  match a with
  | ⟨0, _⟩ => rfl
  | ⟨1, _⟩ => rfl
  | ⟨2, _⟩ => show (o + k.val) % 96 = k.val % 96; omega
  | ⟨3, _⟩ => rfl

/-! ## One output row -/

/-- One output row as a function of its three stacked input rows, the three weight planes and the bias column:
    the planes' products with the rows, read 0, 1 and 2 columns along, summed in that order, plus the bias. -/
def rowOf (xs : FVec Ideal S288x224 .bf16) (W0 W1 W2 : Vec Ideal S1x192x288 .bf16) (bb : Vec Ideal S192x1 .f32) :
    FVec Ideal S1x1x192x222 .f32 :=
  shapeCast S1x1x192x222
    (addf (addf (addf
        (extractStridedSlice S192x222 ![0, 0] (matmul dot_S192x288_S288x224_S192x224_1_0_0_1_n_n none (shapeCast S192x288 W0 shapeCasts_S1x192x288_S192x288 : FVec Ideal S192x288 .bf16) xs (constant (F := Ideal) S192x224 .f32 0x00000000#32)) slices_S192x224_o0_0_S192x222)
        (extractStridedSlice S192x222 ![0, 1] (matmul dot_S192x288_S288x224_S192x224_1_0_0_1_n_n none (shapeCast S192x288 W1 shapeCasts_S1x192x288_S192x288 : FVec Ideal S192x288 .bf16) xs (constant (F := Ideal) S192x224 .f32 0x00000000#32)) slices_S192x224_o0_1_S192x222))
        (extractStridedSlice S192x222 ![0, 2] (matmul dot_S192x288_S288x224_S192x224_1_0_0_1_n_n none (shapeCast S192x288 W2 shapeCasts_S1x192x288_S192x288 : FVec Ideal S192x288 .bf16) xs (constant (F := Ideal) S192x224 .f32 0x00000000#32)) slices_S192x224_o0_2_S192x222))
      (broadcastTo S192x222 (shapeCast S192x1 bb shapeCasts_S192x1_S192x1) broadcasts_S192x1_S192x222))
    shapeCasts_S192x222_S1x1x192x222

theorem rowOf_apply (xs : FVec Ideal S288x224 .bf16) (W0 W1 W2 : Vec Ideal S1x192x288 .bf16) (bb : Vec Ideal S192x1 .f32)
    (f : Fin 192) (j : Fin 222) :
    rowOf xs W0 W1 W2 bb (ix4 0 0 f j)
      = (∑ k : Fin 288, W0 (ix3 0 f k) * xs (ix2 k ⟨j.val + 0, by have := j.isLt; omega⟩))
        + (∑ k : Fin 288, W1 (ix3 0 f k) * xs (ix2 k ⟨j.val + 1, by have := j.isLt; omega⟩))
        + (∑ k : Fin 288, W2 (ix3 0 f k) * xs (ix2 k ⟨j.val + 2, by have := j.isLt; omega⟩))
        + bb (ix2 f 0) := by
  unfold rowOf
  rw [rowCast4_apply]
  show extractStridedSlice (s := S192x224) S192x222 ![0, 0] _ _ (ix2 f j) + extractStridedSlice (s := S192x224) S192x222 ![0, 1] _ _ (ix2 f j)
      + extractStridedSlice (s := S192x224) S192x222 ![0, 2] _ _ (ix2 f j) + broadcastTo S192x222 _ _ (ix2 f j) = _
  rw [window_apply 0 (by decide), window_apply 1 (by decide), window_apply 2 (by decide), planeProd_apply, planeProd_apply,
    planeProd_apply, biasRow_apply]

section payloads
variable (x0 x1 x2 x3 x4 x5 x6 x7 : Vec Ideal S1x1x96x224 .f32) (w : Vec Ideal S3x192x288 .bf16) (b2 : Vec Ideal S192x1 .f32)

/-- The six stores' payloads are the one row function, of the stacked rows cut at 0, 96, …, 480. -/
theorem cpay0_eq : cpay0 x0 x1 x2 x3 x4 x5 x6 x7 w b2 = rowOf (extractStridedSlice S288x224 ![0, 0] (cv34 x0 x1 x2 x3 x4 x5 x6 x7) slices_S768x224_o0_0_S288x224)
    (View.ld w rW0) (View.ld w rW1) (View.ld w rW2) (View.ld b2 rB) := rfl
theorem cpay1_eq : cpay1 x0 x1 x2 x3 x4 x5 x6 x7 w b2 = rowOf (extractStridedSlice S288x224 ![96, 0] (cv34 x0 x1 x2 x3 x4 x5 x6 x7) slices_S768x224_o96_0_S288x224)
    (View.ld w rW0) (View.ld w rW1) (View.ld w rW2) (View.ld b2 rB) := rfl
theorem cpay2_eq : cpay2 x0 x1 x2 x3 x4 x5 x6 x7 w b2 = rowOf (extractStridedSlice S288x224 ![192, 0] (cv34 x0 x1 x2 x3 x4 x5 x6 x7) slices_S768x224_o192_0_S288x224)
    (View.ld w rW0) (View.ld w rW1) (View.ld w rW2) (View.ld b2 rB) := rfl
theorem cpay3_eq : cpay3 x0 x1 x2 x3 x4 x5 x6 x7 w b2 = rowOf (extractStridedSlice S288x224 ![288, 0] (cv34 x0 x1 x2 x3 x4 x5 x6 x7) slices_S768x224_o288_0_S288x224)
    (View.ld w rW0) (View.ld w rW1) (View.ld w rW2) (View.ld b2 rB) := rfl
theorem cpay4_eq : cpay4 x0 x1 x2 x3 x4 x5 x6 x7 w b2 = rowOf (extractStridedSlice S288x224 ![384, 0] (cv34 x0 x1 x2 x3 x4 x5 x6 x7) slices_S768x224_o384_0_S288x224)
    (View.ld w rW0) (View.ld w rW1) (View.ld w rW2) (View.ld b2 rB) := rfl
theorem cpay5_eq : cpay5 x0 x1 x2 x3 x4 x5 x6 x7 w b2 = rowOf (extractStridedSlice S288x224 ![480, 0] (cv34 x0 x1 x2 x3 x4 x5 x6 x7) slices_S768x224_o480_0_S288x224)
    (View.ld w rW0) (View.ld w rW1) (View.ld w rW2) (View.ld b2 rB) := rfl

end payloads

/-! ## The weight planes and the bias column, loaded -/

theorem idxW0 (f : Fin 192) (k : Fin 288) : rW0.idx (ix3 (n0 := 1) (n1 := 192) (n2 := 288) 0 f k) = ix3 0 f k :=
  funext fun a => Fin.ext (by
    match a with
    | ⟨0, _⟩ => rfl
    | ⟨1, _⟩ => show 0 + 1 * f.val = f.val; omega
    | ⟨2, _⟩ => show 0 + 1 * k.val = k.val; omega)
theorem idxW1 (f : Fin 192) (k : Fin 288) : rW1.idx (ix3 (n0 := 1) (n1 := 192) (n2 := 288) 0 f k) = ix3 1 f k :=
  funext fun a => Fin.ext (by
    match a with
    | ⟨0, _⟩ => rfl
    | ⟨1, _⟩ => show 0 + 1 * f.val = f.val; omega
    | ⟨2, _⟩ => show 0 + 1 * k.val = k.val; omega)
theorem idxW2 (f : Fin 192) (k : Fin 288) : rW2.idx (ix3 (n0 := 1) (n1 := 192) (n2 := 288) 0 f k) = ix3 2 f k :=
  funext fun a => Fin.ext (by
    match a with
    | ⟨0, _⟩ => rfl
    | ⟨1, _⟩ => show 0 + 1 * f.val = f.val; omega
    | ⟨2, _⟩ => show 0 + 1 * k.val = k.val; omega)
theorem idxB (f : Fin 192) : rB.idx (ix2 (n0 := 192) (n1 := 1) f 0) = ix2 f 0 :=
  funext fun a => Fin.ext (by
    match a with
    | ⟨0, _⟩ => show 0 + 1 * f.val = f.val; omega
    | ⟨1, _⟩ => rfl)

/-! ## A row of the block as a sum -/

/-- Output row `N` of a block at feature `f` and column `j`, from the eight loaded rows: the sum over the column shift
    `dj` and the stacked coordinate `k = 96·di + ch` of weight times input, plus the bias. -/
def rowSum (X : Fin 8 → Vec Ideal S1x1x96x224 .f32) (w : Vec Ideal S3x192x288 .bf16) (b2 : Vec Ideal S192x1 .f32)
    (N : Nat) (hN : N ≤ 5) (f : Fin 192) (j : Fin 222) : EReal :=
  (∑ dj : Fin 3, ∑ k : Fin 288, w (ix3 dj f k) *
      X ⟨N + k.val / 96, by have := k.isLt; omega⟩
        (ix4 0 0 ⟨k.val % 96, Nat.mod_lt _ (by decide)⟩ ⟨j.val + dj.val, by have := j.isLt; have := dj.isLt; omega⟩))
    + b2 (ix2 f 0)

theorem row_apply (X : Fin 8 → Vec Ideal S1x1x96x224 .f32) (w : Vec Ideal S3x192x288 .bf16) (b2 : Vec Ideal S192x1 .f32)
    (o N : Nat) (ho : o = 96 * N) (hN : N ≤ 5) (h : S768x224.Slices ![o, 0] S288x224) (f : Fin 192) (j : Fin 222) :
    rowOf (extractStridedSlice S288x224 ![o, 0] (cv34 (X 0) (X 1) (X 2) (X 3) (X 4) (X 5) (X 6) (X 7)) h)
        (View.ld w rW0) (View.ld w rW1) (View.ld w rW2) (View.ld b2 rB) (ix4 0 0 f j)
      = rowSum X w b2 N hN f j := by
  rw [rowOf_apply]
  unfold rowSum
  rw [Fin.sum_univ_three]
  simp only [cutRows_apply X o N ho hN h, View.ld, idxW0, idxW1, idxW2, idxB]
  rfl

/-! ## The block and the whole output -/

/-- A grid point's second coordinate is below 37. -/
theorem coord1_lt (i : grid1.Coords) : (i 1).val < 37 := (i 1).isLt

/-- The convolution at input row `y` of a block's input: what the output holds at feature `f`, column `j` of the
    output row that starts there. -/
def convAt (xb : Vec Ideal S1x224x96x224 .f32) (w : Vec Ideal S3x192x288 .bf16) (b2 : Vec Ideal S192x1 .f32)
    (y : Nat) (hy : y + 2 < 224) (f : Fin 192) (j : Fin 222) : EReal :=
  (∑ dj : Fin 3, ∑ k : Fin 288, w (ix3 dj f k) *
      xb (ix4 0 ⟨y + k.val / 96, by have := k.isLt; omega⟩ ⟨k.val % 96, Nat.mod_lt _ (by decide)⟩
        ⟨j.val + dj.val, by have := j.isLt; have := dj.isLt; omega⟩))
    + b2 (ix2 f 0)

/-- A loaded input row at an index: row `6 * (i 1) + r` of the block's input. -/
theorem ldRow_apply (i : grid1.Coords) (xb : Vec Ideal S1x224x96x224 .f32) (r : Fin 8) (c : Fin 96) (z : Fin 224) :
    View.ld xb (rX i r) (ix4 0 0 c z)
      = xb (ix4 0 ⟨6 * (i 1).val + r.val, by have hi := coord1_lt i; have hr := r.isLt; omega⟩ c z) := by
  show xb ((rX i r).idx (ix4 0 0 c z)) = _
  refine congrArg xb (funext fun a => Fin.ext ?_)
  show k1_off1 i (BitVec.ofNat 32 r.val) a + 1 * ((ix4 (n0 := 1) (n1 := 1) (n2 := 96) (n3 := 224) 0 0 c z) a).val = _
  rw [k1_off1_eq]
  match a with
  | ⟨0, _⟩ => rfl
  | ⟨1, _⟩ => show 6 * (i 1).val + r.val + 1 * 0 = 6 * (i 1).val + r.val; omega
  | ⟨2, _⟩ => show 0 + 1 * c.val = c.val; omega
  | ⟨3, _⟩ => show 0 + 1 * z.val = z.val; omega

theorem rowSum_ld (i : grid1.Coords) (xb : Vec Ideal S1x224x96x224 .f32) (w : Vec Ideal S3x192x288 .bf16) (b2 : Vec Ideal S192x1 .f32)
    (N : Nat) (hN : N ≤ 5) (f : Fin 192) (j : Fin 222) :
    rowSum (fun r => View.ld xb (rX i r)) w b2 N hN f j
      = convAt xb w b2 (6 * (i 1).val + N) (by have hi := coord1_lt i; omega) f j := by
  unfold rowSum convAt
  refine congrArg (· + b2 (ix2 f 0)) (Finset.sum_congr rfl fun dj _ => Finset.sum_congr rfl fun k _ => ?_)
  show w (ix3 dj f k) * View.ld xb (rX i ⟨N + k.val / 96, by have := k.isLt; omega⟩) (ix4 0 0 _ _) = _
  rw [ldRow_apply]
  refine congrArg (w (ix3 dj f k) * xb ·) (funext fun a => Fin.ext ?_)
  match a with
  | ⟨0, _⟩ => rfl
  | ⟨1, _⟩ => show 6 * (i 1).val + (N + k.val / 96) = 6 * (i 1).val + N + k.val / 96; omega
  | ⟨2, _⟩ => rfl
  | ⟨3, _⟩ => rfl

/-- The block a grid point leaves, as one function of the block index. -/
def blockG (i : grid1.Coords) (xb : Vec Ideal S1x224x96x224 .f32) (w : Vec Ideal S3x192x288 .bf16) (b2 : Vec Ideal S192x1 .f32) :
    Vec Ideal S1x6x192x222 .f32 := fun y =>
  convAt xb w b2 (6 * (i 1).val + (y 1).val)
    (by have hi := coord1_lt i; have hy : (y 1).val < 6 := (y 1).isLt; omega) (y 2) (y 3)

/-- A store's payload that is row `N` of the block agrees with the block function under its rectangle. -/
theorem piece_blockG (i : grid1.Coords) (xb : Vec Ideal S1x224x96x224 .f32) (w : Vec Ideal S3x192x288 .bf16) (b2 : Vec Ideal S192x1 .f32)
    (N : Nat) (hN : N ≤ 5) (inb : ∀ a, (![0, N, 0, 0] : Fin 4 → Nat) a + S1x1x192x222.size a ≤ S1x6x192x222.size a)
    (pay : Vec Ideal S1x1x192x222 .f32)
    (hpay : ∀ f j, pay (ix4 0 0 f j) = rowSum (fun r => View.ld xb (rX i r)) w b2 N hN f j) (x : S1x1x192x222.Idx) :
    pay x = blockG i xb w b2 ((Rect.unit (s := S1x6x192x222) ![0, N, 0, 0] S1x1x192x222.size inb).emb x) := by
  have e : x = ix4 (n0 := 1) (n1 := 1) (n2 := 192) (n3 := 222) 0 0 (x 2) (x 3) := by
    funext a
    match a with
    | ⟨0, _⟩ => exact Fin.ext (by have h : (x 0).val < 1 := (x 0).isLt; show (x 0).val = 0; omega)
    | ⟨1, _⟩ => exact Fin.ext (by have h : (x 1).val < 1 := (x 1).isLt; show (x 1).val = 0; omega)
    | ⟨2, _⟩ => rfl
    | ⟨3, _⟩ => rfl
  obtain ⟨f, j, rfl⟩ : ∃ (f : Fin 192) (j : Fin 222), x = ix4 0 0 f j := ⟨x 2, x 3, e⟩
  clear e
  rw [hpay, rowSum_ld]
  unfold blockG
  have h1 : (((Rect.unit (s := S1x6x192x222) ![0, N, 0, 0] S1x1x192x222.size inb).emb (ix4 0 0 f j)) 1).val = N := by
    show N + 1 * 0 = N; omega
  have h2 : ((Rect.unit (s := S1x6x192x222) ![0, N, 0, 0] S1x1x192x222.size inb).emb (ix4 0 0 f j)) 2 = f :=
    Fin.ext (by show 0 + 1 * f.val = f.val; omega)
  have h3 : ((Rect.unit (s := S1x6x192x222) ![0, N, 0, 0] S1x1x192x222.size inb).emb (ix4 0 0 f j)) 3 = j :=
    Fin.ext (by show 0 + 1 * j.val = j.val; omega)
  simp only [h1, h2, h3]

/-- **The block at an index.** -/
theorem convBlockAt_apply (i : grid1.Coords) (xb : Vec Ideal S1x224x96x224 .f32) (w : Vec Ideal S3x192x288 .bf16) (b2 : Vec Ideal S192x1 .f32)
    (y : S1x6x192x222.Idx) : convBlockAt i xb w b2 y = blockG i xb w b2 y := by
  unfold convBlockAt convBlockOf
  refine View.canon_apply_of_pieces (Val := Elt Ideal) (blockG i xb w b2) _ ?_ y (cover_convBlock _ _ _ _ _ _ y)
  intro p hp x
  simp only [List.mem_cons, List.mem_singleton, List.not_mem_nil, or_false] at hp
  rcases hp with rfl | rfl | rfl | rfl | rfl | rfl
  · exact piece_blockG i xb w b2 5 (by decide) inb_S1x6x192x222_S1x1x192x222_0_5_0_0 _ (fun f j => by
      rw [cpay5_eq]; exact row_apply (fun r => View.ld xb (rX i r)) w b2 480 5 rfl (by decide) _ f j) x
  · exact piece_blockG i xb w b2 4 (by decide) inb_S1x6x192x222_S1x1x192x222_0_4_0_0 _ (fun f j => by
      rw [cpay4_eq]; exact row_apply (fun r => View.ld xb (rX i r)) w b2 384 4 rfl (by decide) _ f j) x
  · exact piece_blockG i xb w b2 3 (by decide) inb_S1x6x192x222_S1x1x192x222_0_3_0_0 _ (fun f j => by
      rw [cpay3_eq]; exact row_apply (fun r => View.ld xb (rX i r)) w b2 288 3 rfl (by decide) _ f j) x
  · exact piece_blockG i xb w b2 2 (by decide) inb_S1x6x192x222_S1x1x192x222_0_2_0_0 _ (fun f j => by
      rw [cpay2_eq]; exact row_apply (fun r => View.ld xb (rX i r)) w b2 192 2 rfl (by decide) _ f j) x
  · exact piece_blockG i xb w b2 1 (by decide) inb_S1x6x192x222_S1x1x192x222_0_1_0_0 _ (fun f j => by
      rw [cpay1_eq]; exact row_apply (fun r => View.ld xb (rX i r)) w b2 96 1 rfl (by decide) _ f j) x
  · exact piece_blockG i xb w b2 0 (by decide) inb_S1x6x192x222_S1x1x192x222_0_0_0_0 _ (fun f j => by
      rw [cpay0_eq]; exact row_apply (fun r => View.ld xb (rX i r)) w b2 0 0 rfl (by decide) _ f j) x

/-- **The kernel's output at an index**: at batch `b`, row `h`, feature `f`, column `j`, the sum over the column shift
    `dj` and the stacked coordinate `k = 96·di + ch` of `w (dj, f, k) · xt (b, h + di, ch, j + dj)`, plus the bias —
    the three column shifts added in the body's order. -/
theorem convOut_apply (xt : FVec Ideal S2x224x96x224 .f32) (w : FVec Ideal S3x192x288 .bf16) (b2 : FVec Ideal S192x1 .f32)
    (b : Fin 2) (h : Fin 222) (f : Fin 192) (j : Fin 222) :
    convOut xt w b2 (ix4 b h f j)
      = (∑ dj : Fin 3, ∑ k : Fin 288, w (ix3 dj f k) *
          xt (ix4 b ⟨h.val + k.val / 96, by have := h.isLt; have := k.isLt; omega⟩ ⟨k.val % 96, Nat.mod_lt _ (by decide)⟩
            ⟨j.val + dj.val, by have := j.isLt; have := dj.isLt; omega⟩))
        + b2 (ix2 f 0) := by
  have hh := h.isLt
  unfold convOut convBlock
  rw [convBlockAt_apply]
  unfold blockG convAt
  refine congrArg (· + b2 (ix2 f 0)) (Finset.sum_congr rfl fun dj _ => Finset.sum_congr rfl fun k _ => ?_)
  show w (ix3 dj f k) * xBlock xt b _ = _
  unfold xBlock
  refine congrArg (w (ix3 dj f k) * xt ·) (funext fun a => Fin.ext ?_)
  match a with
  | ⟨0, _⟩ => rfl
  | ⟨1, _⟩ => show 6 * (h.val / 6) + h.val % 6 + k.val / 96 = h.val + k.val / 96; omega
  | ⟨2, _⟩ => rfl
  | ⟨3, _⟩ => rfl

end Cert.Proof.Val

end
-- ==== Proof.Val.FlatIdx.lean ====
/-
  The flat positions: jnp's floor division and modulus, spelt over 32-bit words, agree with the natural-number
  quotient and remainder on small non-negative operands; the flat position of an entry is then a polynomial of its
  row and column index that does not wrap, stays below 165888 and is injective; the padded position vector reads
  that polynomial on its first 1658 entries and 165888 on the last six.
-/
import proofs.«216126_g59949153517679_cont_9to1_m_442_25_alg».proof.Proof.KI.HostSpec
import Idealize.ShloMosaic.Lib.Pipeline.Value
import Idealize.ShloMosaic.Lib.ValueIdx
import Idealize.ShloMosaic.Lib.StableHlo.Predicate
import Idealize.ShloMosaic.Lib.ReduceAll
import Idealize.ShloMosaic.PureOps

noncomputable section

namespace Cert.Proof.Val

open Idealize.ShloMosaic

/-- The flat position of (row index r, column index f) as a natural number. -/
def flatNat (r f : ℕ) : ℕ := ((r / 96 % 3) * 192 + f) * 288 + (r / 96 / 3) * 96 + r % 96

/-- A flat position lies inside the 3 × 192 × 288 words. -/
theorem flatNat_lt {r f : ℕ} (hr : r < 864) (hf : f < 192) : flatNat r f < 165888 := by
  unfold flatNat; omega

/-- Distinct (row, column) pairs have distinct flat positions: the position is a mixed-radix numeral of
    (r / 96 % 3, f, r / 96 / 3, r % 96) with radices (3, 192, 3, 96). -/
theorem flat_inj {r f r' f' : ℕ} (hr : r < 864) (hf : f < 192) (hr' : r' < 864) (hf' : f' < 192)
    (h : flatNat r f = flatNat r' f') : r = r' ∧ f = f' := by
  unfold flatNat at h; omega

/-- A word below 2³¹ has a clear sign bit. -/
theorem msb_false_of_lt {x : BitVec 32} (hx : x.toNat < 2 ^ 31) : x.msb = false :=
  BitVec.msb_eq_false_iff_two_mul_lt.mpr (by omega)

/-- A small positive divisor meets neither corner of signed division. -/
theorem not_corner {x d : BitVec 32} (hd0 : 0 < d.toNat) (hd : d.toNat < 2 ^ 31) : ¬ IntOp.SDivCorner x d := by
  rintro (h | ⟨-, h⟩)
  · rw [h] at hd0; simp at hd0
  · rw [h] at hd; simp at hd

/-- Signed division of small non-negative words is the quotient of their values. -/
theorem divsi_small (u : ArithUnit) {x d : BitVec 32} (hx : x.toNat < 2 ^ 31) (hd0 : 0 < d.toNat) (hd : d.toNat < 2 ^ 31) :
    (IntOp.divsi u x d).toNat = x.toNat / d.toNat := by
  simp only [IntOp.divsi, if_neg (not_corner hd0 hd), BitVec.sdiv_eq, msb_false_of_lt hx, msb_false_of_lt hd, BitVec.udiv_eq,
    BitVec.toNat_udiv]

/-- The signed remainder of small non-negative words is the remainder of their values. -/
theorem remsi_small (u : ArithUnit) {x d : BitVec 32} (hx : x.toNat < 2 ^ 31) (hd0 : 0 < d.toNat) (hd : d.toNat < 2 ^ 31) :
    (IntOp.remsi u x d).toNat = x.toNat % d.toNat := by
  simp only [IntOp.remsi, if_neg (not_corner hd0 hd), BitVec.srem_eq, msb_false_of_lt hx, msb_false_of_lt hd, BitVec.umod_eq,
    BitVec.toNat_umod]

/-- The comparison NE is 1 exactly on different words. -/
theorem cmpi_ne_iff {w : Nat} {a b : BitVec w} : IntOp.cmpi .ne a b = 1#1 ↔ a ≠ b := by
  simp only [IntOp.cmpi, StableHlo.Predicate.ofBool_eq_one_iff, bne_iff_ne]

/-- A small non-negative word is not signed-below zero. -/
theorem slt_zero_of_small {a : BitVec 32} (ha : a.toNat < 2 ^ 31) : IntOp.cmpi .slt a 0#32 = 0#1 := by
  have h : ¬ (IntOp.cmpi .slt a 0#32 = 1#1) := by
    rw [StableHlo.Predicate.slt_iff_toNat ha (by decide)]; simp
  rcases BitVec.eq_zero_or_eq_one (IntOp.cmpi .slt a 0#32) with h' | h'
  · exact h'
  · exact absurd h' h

/-- `stablehlo.sign` of one word. -/
def sgW (x : BitVec 32) : BitVec 32 := if x = 0 then 0 else if x.msb then -1 else 1

/-- One element of jnp's floor division as printed: the truncating quotient, less one where the signs differ and
    the remainder is not zero. -/
def fdivW (x d : BitVec 32) : BitVec 32 :=
  Scalar.select (IntOp.andi (IntOp.cmpi .ne (sgW x) (sgW d)) (IntOp.cmpi .ne (IntOp.remsi .host x d) 0#32))
    (IntOp.subi (IntOp.divsi .host x d) 1#32) (IntOp.divsi .host x d)

/-- One element of jnp's modulus as printed: the truncating remainder by the divisor (1 for a zero divisor), plus
    the divisor where the remainder is not zero and its sign differs from the divisor's. -/
def remW (x d : BitVec 32) : BitVec 32 :=
  Scalar.select
    (IntOp.andi
      (IntOp.cmpi .ne (IntOp.cmpi .slt (IntOp.remsi .host x (Scalar.select (IntOp.cmpi .eq d 0#32) 1#32 d)) 0#32)
        (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d)) (Scalar.select (IntOp.cmpi .eq d 0#32) 1#32 d))
    (IntOp.remsi .host x (Scalar.select (IntOp.cmpi .eq d 0#32) 1#32 d))

/-- A select whose condition is not 1 takes its second branch. -/
theorem select_of_ne_one {α : Type} {c : BitVec 1} (hc : c ≠ 1#1) (a b : α) : Scalar.select c a b = b := by
  unfold Scalar.select; exact if_neg hc

/-- The sign of a small positive word is 1. -/
theorem sgW_pos {d : BitVec 32} (hd0 : 0 < d.toNat) (hd : d.toNat < 2 ^ 31) : sgW d = 1 := by
  have hne : d ≠ 0 := by rintro rfl; simp at hd0
  unfold sgW; rw [if_neg hne, msb_false_of_lt hd]; rfl

/-- On a non-negative dividend and a positive divisor no correction fires: floor division is the quotient. -/
theorem fdivW_toNat {x d : BitVec 32} (hx : x.toNat < 2 ^ 31) (hd0 : 0 < d.toNat) (hd : d.toNat < 2 ^ 31) :
    (fdivW x d).toNat = x.toNat / d.toNat := by
  unfold fdivW
  rw [select_of_ne_one, divsi_small _ hx hd0 hd]
  intro hc
  obtain ⟨h1, h2⟩ := IntOp.andi_eq_one.1 hc
  rw [cmpi_ne_iff] at h1 h2
  rw [sgW_pos hd0 hd] at h1
  by_cases hx0 : x = 0
  · apply h2
    apply BitVec.eq_of_toNat_eq
    rw [remsi_small _ hx hd0 hd, hx0]; simp
  · apply h1
    unfold sgW; rw [if_neg hx0, msb_false_of_lt hx]; rfl

/-- On a non-negative dividend and a positive divisor no correction fires: the modulus is the remainder. -/
theorem remW_toNat {x d : BitVec 32} (hx : x.toNat < 2 ^ 31) (hd0 : 0 < d.toNat) (hd : d.toNat < 2 ^ 31) :
    (remW x d).toNat = x.toNat % d.toNat := by
  have hne : d ≠ 0#32 := by rintro rfl; simp at hd0
  have hsel : Scalar.select (IntOp.cmpi .eq d 0#32) 1#32 d = d :=
    select_of_ne_one (fun h => hne (StableHlo.Predicate.cmpi_eq_iff.1 h)) _ _
  unfold remW
  rw [hsel, select_of_ne_one, remsi_small _ hx hd0 hd]
  intro hc
  obtain ⟨h1, -⟩ := IntOp.andi_eq_one.1 hc
  rw [cmpi_ne_iff] at h1
  apply h1
  have hr : (IntOp.remsi .host x d).toNat < 2 ^ 31 := by
    rw [remsi_small _ hx hd0 hd]; exact lt_of_lt_of_le (Nat.mod_lt _ hd0) (by omega)
  rw [slt_zero_of_small hr, slt_zero_of_small hd]

/-- One element of the flat-position computation as printed. -/
def flatW (r c : BitVec 32) : BitVec 32 :=
  IntOp.addi
    (IntOp.addi (IntOp.muli (IntOp.addi (IntOp.muli (remW (fdivW r 96#32) 3#32) 192#32) c) 288#32)
      (IntOp.muli (fdivW (fdivW r 96#32) 3#32) 96#32))
    (remW r 96#32)

/-- With the row index below 864 and the column index below 192 nothing wraps: the printed word is the flat position. -/
theorem flatW_toNat {r c : BitVec 32} (hr : r.toNat < 864) (hc : c.toNat < 192) :
    (flatW r c).toNat = flatNat r.toNat c.toNat := by
  have hblk : (fdivW r 96#32).toNat = r.toNat / 96 := fdivW_toNat (by omega) (by decide) (by decide)
  have hch : (remW r 96#32).toNat = r.toNat % 96 := remW_toNat (by omega) (by decide) (by decide)
  have hblk9 : (fdivW r 96#32).toNat < 9 := by rw [hblk]; omega
  have hdi : (fdivW (fdivW r 96#32) 3#32).toNat = r.toNat / 96 / 3 := by
    rw [fdivW_toNat (by omega) (by decide) (by decide), hblk]; rfl
  have hdj : (remW (fdivW r 96#32) 3#32).toNat = r.toNat / 96 % 3 := by
    rw [remW_toNat (by omega) (by decide) (by decide), hblk]; rfl
  unfold flatW flatNat IntOp.addi IntOp.muli
  simp only [BitVec.toNat_add, BitVec.toNat_mul, hblk, hch, hdi, hdj, BitVec.toNat_ofNat]
  omega

end Cert.Proof.Val

namespace Cert.Proof.Val
open Cert.KernelIdeal Cert.Proof.KI
open Idealize.ShloMosaic Idealize.ShloMosaic.ValueIdx

/-- One element of the printed flat-position vector is the scalar spelling at that element's operands. -/
theorem flatCore_apply (row col : IVec S1658 32) (n : S1658.Idx) : flatCore row col n = flatW (row n) (col n) := rfl

/-- Below 1658 the padded vector reads the flat position of that entry's row and column index. -/
theorem flatOf_lt (row col : IVec S1658 32) (hrow : ∀ n, (row n).toNat < 864) (hcol : ∀ n, (col n).toNat < 192) (n : Fin 1658) :
    (flatOf row col (ix1 ⟨n.val, by omega⟩)).toNat = flatNat (row (ix1 n)).toNat (col (ix1 n)).toNat := by
  have e : flatOf row col (ix1 ⟨n.val, by omega⟩) = flatCore row col (ix1 n) := by
    unfold flatOf
    exact concatenate_pair_apply_left (t := S1664) (s₁ := S1658) (s₂ := S6) 0 (flatCore row col) _ _
      (ix1 (⟨n.val, by omega⟩ : Fin 1664)) rfl (ix1 n) (by intro b; match b with | ⟨0, _⟩ => rfl)
  rw [e, flatCore_apply, flatW_toNat (hrow _) (hcol _)]

/-- The six padding entries are the word 165888, one past the last flat position. -/
theorem flatOf_ge_word (row col : IVec S1658 32) (n : Fin 1664) (hn : 1658 ≤ n.val) :
    flatOf row col (ix1 n) = 165888#32 := by
  unfold flatOf
  refine (concatenate_pair_apply_right (t := S1664) (s₁ := S1658) (s₂ := S6) 0 (flatCore row col) _ _ (ix1 n) rfl rfl
    (ix1 (⟨n.val - 1658, by omega⟩ : Fin 6)) (fun b hb => ?_) ?_).trans rfl
  · exact absurd (Subsingleton.elim _ _) hb
  · show n.val - 1658 + 1658 = n.val
    omega

theorem flatOf_ge (row col : IVec S1658 32) (n : Fin 1664) (hn : 1658 ≤ n.val) :
    (flatOf row col (ix1 n)).toNat = 165888 := by
  rw [flatOf_ge_word row col n hn]; rfl

/-- Every entry of the padded vector is a small non-negative word. -/
theorem flatOf_small (row col : IVec S1658 32) (hrow : ∀ n, (row n).toNat < 864) (hcol : ∀ n, (col n).toNat < 192) (j : S1664.Idx) :
    (flatOf row col j).toNat < 2 ^ 31 := by
  obtain ⟨a, rfl⟩ : ∃ a : Fin 1664, j = ix1 a := ⟨j 0, eq_ix1 (n := 1664) j⟩
  by_cases h : a.val < 1658
  · have := flatOf_lt row col hrow hcol ⟨a.val, h⟩
    have hb := flatNat_lt (hrow (ix1 ⟨a.val, h⟩)) (hcol (ix1 ⟨a.val, h⟩))
    have e : (ix1 (⟨(⟨a.val, h⟩ : Fin 1658).val, by omega⟩ : Fin 1664) : S1664.Idx) = ix1 a := rfl
    rw [e] at this
    rw [this]; omega
  · rw [flatOf_ge row col a (by omega)]; decide

/-- Every entry of the padded vector is at most 165888. -/
theorem flatOf_le (row col : IVec S1658 32) (hrow : ∀ n, (row n).toNat < 864) (hcol : ∀ n, (col n).toNat < 192) (j : S1664.Idx) :
    (flatOf row col j).toNat ≤ 165888 := by
  obtain ⟨a, rfl⟩ : ∃ a : Fin 1664, j = ix1 a := ⟨j 0, eq_ix1 (n := 1664) j⟩
  by_cases h : a.val < 1658
  · have := flatOf_lt row col hrow hcol ⟨a.val, h⟩
    have hb := flatNat_lt (hrow (ix1 ⟨a.val, h⟩)) (hcol (ix1 ⟨a.val, h⟩))
    have e : (ix1 (⟨(⟨a.val, h⟩ : Fin 1658).val, by omega⟩ : Fin 1664) : S1664.Idx) = ix1 a := rfl
    rw [e] at this
    rw [this]; omega
  · rw [flatOf_ge row col a (by omega)]

end Cert.Proof.Val

end
-- ==== Proof.Val.Glue.lean ====
/-
  Layout operations read at an index: the padded value vector, the reference's index rows under the index ranges,
  and the reshapes and transposes around the two kernels.
-/
import proofs.«216126_g59949153517679_cont_9to1_m_442_25_alg».proof.Proof.KI.HostSpec
import proofs.«216126_g59949153517679_cont_9to1_m_442_25_alg».proof.Proof.Val.Ref
import proofs.«216126_g59949153517679_cont_9to1_m_442_25_alg».proof.Proof.Val.FlatIdx
import Idealize.ShloMosaic.Lib.Pipeline.Value
import Idealize.ShloMosaic.Lib.ValueIdx
import Idealize.ShloMosaic.PureOps.Ideal.Laws

noncomputable section

namespace Cert.Proof.Val

open Idealize.ShloMosaic Idealize.ShloMosaic.ValueIdx Cert.Proof.KI

variable {F : FTy → Type} [FloatOps F]

/-! ## The padded values -/

section Vals
open Cert.KernelIdeal

/-- Below 1658 the padded value vector reads the values. -/
theorem valsOf_lt (kv : FVec F S1658 .f32) (n : Fin 1658) : valsOf kv (ix1 ⟨n.val, by omega⟩) = kv (ix1 n) := by
  unfold valsOf
  exact concatenate_pair_apply_left (t := S1664) (s₁ := S1658) (s₂ := S6) 0 kv _ _
    (ix1 (⟨n.val, by omega⟩ : Fin 1664)) rfl (ix1 n) (by intro b; match b with | ⟨0, _⟩ => rfl)

/-- The six padding entries are the zero pattern. -/
theorem valsOf_ge (kv : FVec F S1658 .f32) (n : Fin 1664) (hn : 1658 ≤ n.val) :
    valsOf kv (ix1 n) = FloatOps.ofBits (F := F) .f32 0x00000000#32 := by
  unfold valsOf
  refine (concatenate_pair_apply_right (t := S1664) (s₁ := S1658) (s₂ := S6) 0 kv _ _ (ix1 n) rfl rfl
    (ix1 (⟨n.val - 1658, by omega⟩ : Fin 6)) (fun b hb => ?_) ?_).trans rfl
  · exact absurd (Subsingleton.elim _ _) hb
  · show n.val - 1658 + 1658 = n.val
    omega

/-- At the ideal instance the padding entries are 0. -/
theorem valsOf_ge_ideal (kv : FVec Ideal S1658 .f32) (n : Fin 1664) (hn : 1658 ≤ n.val) :
    valsOf kv (ix1 n) = (0 : EReal) := by
  rw [valsOf_ge kv n hn]; exact Ideal.ofBits_zero_f32

end Vals

/-! ## The reference's index rows -/

section Ref
open Cert.ReferenceIdeal Cert.ReferenceIdeal.Read

/-- The two spellings of an index of the 1658 × 2 index array. -/
theorem ix2_eq_pair (n : Fin 1658) (c : Fin 2) : (ix2 n c : S1658x2.Idx) = Shape.pair (d := ![1658, 2]) n c := by
  funext b; match b with | ⟨0, _⟩ => rfl | ⟨1, _⟩ => rfl

/-- A row index below 2³¹ is not wrapped: the signed compare with 0 is false. -/
theorem wrapRow (x3 : IVec S1658 32) (i : S1658.Idx) (h : (x3 i).toNat < 2 ^ 31) : val_main_v16 (F := F) x3 i = x3 i := by
  rw [val_main_v16_apply, val_main_v13_apply, val_main_v12_apply, val_main_c_apply, slt_zero_of_small h]
  exact select_of_ne_one (by decide) _ _

/-- A column index below 2³¹ is not wrapped. -/
theorem wrapCol (x4 : IVec S1658 32) (i : S1658.Idx) (h : (x4 i).toNat < 2 ^ 31) : val_main_v21 (F := F) x4 i = x4 i := by
  rw [val_main_v21_apply, val_main_v18_apply, val_main_v17_apply, val_main_c_1_apply, slt_zero_of_small h]
  exact select_of_ne_one (by decide) _ _

/-- Column 0 of the reference's index array is the row index. -/
theorem val_main_v24_row (x3 x4 : IVec S1658 32) (h3 : ∀ n, (x3 n).toNat < 2 ^ 31) (n : Fin 1658) :
    val_main_v24 (F := F) x3 x4 (ix2 n 0) = x3 (ix1 n) := by
  unfold val_main_v24
  rw [concatenate_pair_apply_left (t := S1658x2) (s₁ := S1658x1) (s₂ := S1658x1) 1 _ _ _ (ix2 n (0 : Fin 2)) rfl (ix2 n (0 : Fin 1))
    (by intro b; match b with | ⟨0, _⟩ => rfl | ⟨1, _⟩ => rfl)]
  rw [val_main_v22_apply, wrapRow _ _ (h3 _)]
  exact congrArg x3 (funext fun a => match a with | ⟨0, _⟩ => rfl)

/-- Column 1 of the reference's index array is the column index. -/
theorem val_main_v24_col (x3 x4 : IVec S1658 32) (h4 : ∀ n, (x4 n).toNat < 2 ^ 31) (n : Fin 1658) :
    val_main_v24 (F := F) x3 x4 (ix2 n 1) = x4 (ix1 n) := by
  unfold val_main_v24
  rw [concatenate_pair_apply_right (t := S1658x2) (s₁ := S1658x1) (s₂ := S1658x1) 1 _ _ _ (ix2 n (1 : Fin 2)) rfl rfl (ix2 n (0 : Fin 1))
    (by intro b hb; match b with | ⟨0, _⟩ => rfl | ⟨1, _⟩ => exact absurd rfl hb) (by rfl)]
  rw [val_main_v23_apply, wrapCol _ _ (h4 _)]
  exact congrArg x4 (funext fun a => match a with | ⟨0, _⟩ => rfl)

/-- The same two readings at the other spelling of the index. -/
theorem val_main_v24_row_pair (x3 x4 : IVec S1658 32) (h3 : ∀ n, (x3 n).toNat < 2 ^ 31) (n : Fin 1658) :
    val_main_v24 (F := F) x3 x4 (Shape.pair (d := ![1658, 2]) n (0 : Fin 2)) = x3 (ix1 n) := by
  rw [← ix2_eq_pair]; exact val_main_v24_row x3 x4 h3 n

theorem val_main_v24_col_pair (x3 x4 : IVec S1658 32) (h4 : ∀ n, (x4 n).toNat < 2 ^ 31) (n : Fin 1658) :
    val_main_v24 (F := F) x3 x4 (Shape.pair (d := ![1658, 2]) n (1 : Fin 2)) = x4 (ix1 n) := by
  rw [← ix2_eq_pair]; exact val_main_v24_col x3 x4 h4 n

/-- Under the index ranges every pair of the reference's index array is in range. -/
theorem v24_row_lt (row col : IVec S1658 32) (hrow : ∀ n, (row n).toNat < 864) (n : Fin 1658) :
    (val_main_v24 (F := F) row col (Shape.pair (d := ![1658, 2]) n (0 : Fin 2))).toNat < 864 := by
  rw [val_main_v24_row_pair row col (fun n => lt_trans (hrow n) (by decide)) n]; exact hrow _

theorem v24_col_lt (row col : IVec S1658 32) (hcol : ∀ n, (col n).toNat < 192) (n : Fin 1658) :
    (val_main_v24 (F := F) row col (Shape.pair (d := ![1658, 2]) n (1 : Fin 2))).toNat < 192 := by
  rw [val_main_v24_col_pair row col (fun n => lt_trans (hcol n) (by decide)) n]; exact hcol _

end Ref

/-! ## The operands of the TensorCore kernel and the result -/

section Layout
open Cert.KernelIdeal

/-- The weights: the scattered words as three planes of 192 × 288 (rounding is the identity at the ideal instance). -/
theorem wOf_apply (W : FVec Ideal S165888 .f32) (dj : Fin 3) (f : Fin 192) (k : Fin 288) :
    wOf W (ix3 dj f k) = W (ix1 ⟨(dj.val * 192 + f.val) * 288 + k.val, by omega⟩) := by
  unfold wOf
  show shapeCast S3x192x288 W _ (ix3 dj f k) = _
  refine shapeCast_apply W _ (ix3 dj f k) _ ?_
  rw [Shape.rowMajor_val_one, Shape.rowMajor_val_three]
  rfl

/-- The input with its two minor axes exchanged. -/
theorem xOf_apply (x : FVec F S2x224x224x96 .f32) (b : Fin 2) (y : Fin 224) (ch : Fin 96) (z : Fin 224) :
    xOf x (ix4 b y ch z) = x (ix4 b y z ch) := by
  unfold xOf
  refine transpose_apply _ x _ (ix4 b y ch z) (ix4 b y z ch) ?_
  intro a; match a with | ⟨0, _⟩ => rfl | ⟨1, _⟩ => rfl | ⟨2, _⟩ => rfl | ⟨3, _⟩ => rfl

/-- The kernel's output with its two minor axes exchanged back. -/
theorem yOf_apply (o : FVec F S2x222x192x222 .f32) (b : Fin 2) (i : Fin 222) (j : Fin 222) (f : Fin 192) :
    yOf o (ix4 b i j f) = o (ix4 b i f j) := by
  unfold yOf
  refine transpose_apply _ o _ (ix4 b i j f) (ix4 b i f j) ?_
  intro a; match a with | ⟨0, _⟩ => rfl | ⟨1, _⟩ => rfl | ⟨2, _⟩ => rfl | ⟨3, _⟩ => rfl

/-- The bias as a column. -/
theorem bOf_apply (bias : FVec F S192 .f32) (f : Fin 192) : bOf bias (ix2 f (0 : Fin 1)) = bias (ix1 f) := by
  unfold bOf
  refine shapeCast_apply bias _ (ix2 f (0 : Fin 1)) (ix1 f) ?_
  rw [Shape.rowMajor_val_one, Shape.rowMajor_val_two]
  show f.val = f.val * 1 + 0
  omega

end Layout

end Cert.Proof.Val

end
-- ==== Proof.Val.Scatter.lean ====
/-
  Last position wins: a scatter that sets (never accumulates) leaves at each position the value of
  the LAST update addressed to it. Stated once for an abstract family of updates, then read off the
  two folds the programs use: the masked indexed store of a vector into a chunk (lanes ascending),
  and the host's scatter (update positions in row-major order).
-/
import proofs.«216126_g59949153517679_cont_9to1_m_442_25_alg».proof.KernelIdeal
import proofs.«216126_g59949153517679_cont_9to1_m_442_25_alg».proof.ReferenceIdeal
import proofs.«216126_g59949153517679_cont_9to1_m_442_25_alg».proof.Proof.KI.ScSpec
import Idealize.ShloMosaic.PureOps
import Idealize.ShloMosaic.Lib.ValueIdx

noncomputable section

namespace Cert.Proof.Val

open Idealize.ShloMosaic

/-! ## The value at the largest hit index -/

/-- Among the indices `n < N` with `hit n`, the value `v n` at the LARGEST one; `z` when there is none. -/
def lastWins {α : Type*} : (N : ℕ) → (hit : Fin N → Prop) → [DecidablePred hit] → (v : Fin N → α) → (z : α) → α
  | 0, _, _, _, z => z
  | N + 1, hit, _, v, z =>
    if hit (Fin.last N) then v (Fin.last N) else lastWins N (fun n => hit n.castSucc) (fun n => v n.castSucc) z

section LastWins
variable {α : Type*} {N : ℕ} {hit : Fin N → Prop} [DecidablePred hit] {v : Fin N → α} {z : α}

theorem lastWins_succ (N : ℕ) (hit : Fin (N + 1) → Prop) [DecidablePred hit] (v : Fin (N + 1) → α) (z : α) :
    lastWins (N + 1) hit v z
      = if hit (Fin.last N) then v (Fin.last N) else lastWins N (fun n => hit n.castSucc) (fun n => v n.castSucc) z := rfl

/-- No hit: the default. -/
theorem lastWins_of_none (h : ∀ n, ¬ hit n) : lastWins N hit v z = z := by
  induction N with
  | zero => rfl
  | succ N ih =>
    rw [lastWins_succ, if_neg (h _)]
    exact ih (fun n => h _)

/-- A hit with no hit above it: its value. -/
theorem lastWins_of_last (n : Fin N) (hn : hit n) (hmax : ∀ m, n < m → ¬ hit m) : lastWins N hit v z = v n := by
  induction N with
  | zero => exact n.elim0
  | succ N ih =>
    rw [lastWins_succ]
    induction n using Fin.lastCases with
    | last => rw [if_pos hn]
    | cast n' =>
      rw [if_neg (hmax _ (Fin.castSucc_lt_last n'))]
      exact ih (hit := fun n => hit n.castSucc) (v := fun n => v n.castSucc) n' hn
        (fun m hm => hmax m.castSucc (Fin.castSucc_lt_castSucc_iff.2 hm))

/-- One of the two: these cases determine `lastWins`. -/
theorem lastWins_cases (N : ℕ) (hit : Fin N → Prop) [DecidablePred hit] (v : Fin N → α) (z : α) :
    (∃ n, hit n ∧ (∀ m, n < m → ¬ hit m) ∧ lastWins N hit v z = v n) ∨ ((∀ n, ¬ hit n) ∧ lastWins N hit v z = z) := by
  induction N with
  | zero => exact Or.inr ⟨fun n => n.elim0, rfl⟩
  | succ N ih =>
    rw [lastWins_succ]
    by_cases hl : hit (Fin.last N)
    · exact Or.inl ⟨Fin.last N, hl, fun m hm => absurd hm (not_lt.2 (Fin.le_last m)), by rw [if_pos hl]⟩
    · rw [if_neg hl]
      rcases ih (fun n => hit n.castSucc) (fun n => v n.castSucc) with ⟨n, hn, hmax, heq⟩ | ⟨hnone, heq⟩
      · refine Or.inl ⟨n.castSucc, hn, fun m hm => ?_, heq⟩
        induction m using Fin.lastCases with
        | last => exact hl
        | cast m' => exact hmax m' (Fin.castSucc_lt_castSucc_iff.1 hm)
      · refine Or.inr ⟨fun n => ?_, heq⟩
        induction n using Fin.lastCases with
        | last => exact hl
        | cast n' => exact hnone n'

/-- It depends on the hits and on the values at hits only. -/
theorem lastWins_congr {hit' : Fin N → Prop} [DecidablePred hit'] {v' : Fin N → α}
    (hh : ∀ n, hit n ↔ hit' n) (hv : ∀ n, hit n → v n = v' n) : lastWins N hit v z = lastWins N hit' v' z := by
  rcases lastWins_cases N hit v z with ⟨n, hn, hmax, heq⟩ | ⟨hnone, heq⟩
  · rw [heq, lastWins_of_last n ((hh n).1 hn) (fun m hm h' => hmax m hm ((hh m).2 h')), hv n hn]
  · rw [heq, lastWins_of_none (fun n h' => hnone n ((hh n).2 h'))]

/-- The left fold that overwrites at each hit is `lastWins`. -/
theorem foldl_finRange_eq_lastWins (N : ℕ) (hit : Fin N → Prop) [DecidablePred hit] (v : Fin N → α) (z : α) :
    (List.finRange N).foldl (fun acc n => if hit n then v n else acc) z = lastWins N hit v z := by
  induction N with
  | zero => simp [lastWins]
  | succ N ih =>
    rw [List.finRange_succ_last, List.foldl_append, List.foldl_map, List.foldl_cons, List.foldl_nil, lastWins_succ,
      ih (fun n => hit n.castSucc) (fun n => v n.castSucc)]

/-- Re-indexing along an equality of bounds. -/
theorem lastWins_cast {M : ℕ} (h : M = N) :
    lastWins N hit v z = lastWins M (fun m => hit (m.cast h)) (fun m => v (m.cast h)) z := by
  subst h; rfl

/-- One more block of `L` consecutive indices: the updates below `b + L` are those below `b` followed by
    the block's, taken over what the former left. -/
theorem lastWins_block (b L : ℕ) (hb : b + L ≤ N) :
    lastWins L (fun l => hit ⟨b + l.val, by have := l.isLt; omega⟩) (fun l => v ⟨b + l.val, by have := l.isLt; omega⟩)
        (lastWins N (fun n => n.val < b ∧ hit n) v z)
      = lastWins N (fun n => n.val < b + L ∧ hit n) v z := by
  rcases lastWins_cases L (fun l => hit ⟨b + l.val, by have := l.isLt; omega⟩)
      (fun l => v ⟨b + l.val, by have := l.isLt; omega⟩) (lastWins N (fun n => n.val < b ∧ hit n) v z)
    with ⟨l, hl, hmax, heq⟩ | ⟨hnone, heq⟩
  · rw [heq]
    symm
    refine lastWins_of_last (hit := fun n => n.val < b + L ∧ hit n) ⟨b + l.val, by have := l.isLt; omega⟩
      ⟨by have := l.isLt; simp only; omega, hl⟩ ?_
    rintro m hm ⟨hm1, hm2⟩
    have hlt : b + l.val < m.val := hm
    refine hmax ⟨m.val - b, by omega⟩ (by show l.val < m.val - b; omega) ?_
    have : (⟨b + (m.val - b), by omega⟩ : Fin N) = m := Fin.ext (by show b + (m.val - b) = m.val; omega)
    simp only [this]; exact hm2
  · rw [heq]
    refine lastWins_congr (fun n => ⟨fun h => ⟨by omega, h.2⟩, fun h => ⟨?_, h.2⟩⟩) (fun _ _ => rfl)
    by_contra hge
    refine hnone ⟨n.val - b, by omega⟩ ?_
    have : (⟨b + (n.val - b), by omega⟩ : Fin N) = n := Fin.ext (by show b + (n.val - b) = n.val; omega)
    simp only [this]; exact h.2

/-- A padded tail that hits nothing, and a re-indexing of the hits: the shorter family's `lastWins`. -/
theorem lastWins_pad {M : ℕ} (hNM : N ≤ M) {hitB : Fin M → Prop} [DecidablePred hitB] {vB : Fin M → α}
    (hhit : ∀ n : Fin N, hitB (n.castLE hNM) ↔ hit n) (hpad : ∀ m : Fin M, N ≤ m.val → ¬ hitB m)
    (hv : ∀ n : Fin N, hit n → vB (n.castLE hNM) = v n) :
    lastWins M hitB vB z = lastWins N hit v z := by
  rcases lastWins_cases N hit v z with ⟨n, hn, hmax, heq⟩ | ⟨hnone, heq⟩
  · rw [heq, lastWins_of_last (n.castLE hNM) ((hhit n).2 hn) ?_, hv n hn]
    intro m hm hmB
    by_cases hmN : m.val < N
    · have : m = (⟨m.val, hmN⟩ : Fin N).castLE hNM := Fin.ext rfl
      rw [this] at hmB
      exact hmax ⟨m.val, hmN⟩ (by show n.val < m.val; exact hm) ((hhit _).1 hmB)
    · exact hpad m (not_lt.1 hmN) hmB
  · rw [heq]
    refine lastWins_of_none (fun m hmB => ?_)
    by_cases hmN : m.val < N
    · have : m = (⟨m.val, hmN⟩ : Fin N).castLE hNM := Fin.ext rfl
      rw [this] at hmB
      exact hnone _ ((hhit _).1 hmB)
    · exact hpad m (not_lt.1 hmN) hmB

/-- A left fold of functions, read at one argument, is the fold of the values there when each step acts pointwise. -/
theorem foldl_apply_pointwise {ι β γ : Type*} (l : List ι) (step : (β → γ) → ι → (β → γ)) (pt : γ → ι → γ) (j : β)
    (h : ∀ g n, step g n j = pt (g j) n) (g0 : β → γ) :
    l.foldl step g0 j = l.foldl pt (g0 j) := by
  induction l generalizing g0 with
  | nil => rfl
  | cons a l ih => rw [List.foldl_cons, List.foldl_cons, ih, h]

end LastWins

/-! ## The masked indexed store -/

section Store
variable {F : FTy → Type} [FloatOps F] {s : Shape} {e : EltTy}

/-- One masked indexed store without accumulation, read at one element: the value of the highest
    set lane that names the element, else what was there. -/
theorem storeIdx_apply {d : Fin 1 → Nat} (f : Vec F s e) (idxs : Fin s.rank → IVec ⟨1, d⟩ 32) (v : Vec F ⟨1, d⟩ e)
    (mask : IVec ⟨1, d⟩ 1) (h : ∀ a x, (idxs a x).toNat < s.size a) (j : s.Idx) :
    storeIdx f idxs v mask false h j
      = lastWins (d 0) (fun l => mask (Shape.ofLane l) = 1 ∧ ∀ a, (j a).val = (idxs a (Shape.ofLane l)).toNat)
          (fun l => v (Shape.ofLane l)) (f j) := by
  unfold storeIdx
  rw [foldl_apply_pointwise (List.finRange (d 0)) _
    (fun acc l => if mask (Shape.ofLane l) = 1 ∧ ∀ a, (j a).val = (idxs a (Shape.ofLane l)).toNat then v (Shape.ofLane l) else acc) j]
  · exact foldl_finRange_eq_lastWins _ _ _ _
  · intro g l
    by_cases hm : mask (Shape.ofLane l) = 1#1
    · by_cases hj : ∀ a, (j a).val = (idxs a (Shape.ofLane l)).toNat
      · simp [hm, hj, idxAt]
      · simp [hm, hj, idxAt]
    · simp [hm]

end Store

/-! ## The host's scatter that sets -/

section Host
variable {α : Type} {s si u : Shape} {w : ℕ}

/-- Row and column of pair `n` of the `1658 × 2` index array, and position `n` of a vector of `1658` or `1664`. -/
abbrev ix2 (n : Fin 1658) (c : Fin 2) : Cert.ReferenceIdeal.S1658x2.Idx := ValueIdx.ix2 n c
abbrev ix1658 (n : Fin 1658) : Cert.ReferenceIdeal.S1658.Idx := ValueIdx.ix1 n
abbrev ix1664 (n : Fin 1664) : Cert.KernelIdeal.S1664.Idx := ValueIdx.ix1 n
abbrev ixRF (r : Fin 864) (f : Fin 192) : Cert.ReferenceIdeal.S864x192.Idx := ValueIdx.ix2 r f

/-- The host's scatter whose body returns the update, read at one element: the update of the last
    update position (row-major) whose result index is the element, else the operand's element. -/
theorem hostScatter_set_apply (d : ScatterDims s si u) (x : s.Idx → α) (idx : IVec si w) (upd : u.Idx → α) (i : s.Idx) :
    Host.scatter d (fun _ b => b) x idx upd i
      = lastWins u.numel (fun n => d.resultIdx? (u.rowMajor.symm n) idx = some i) (fun n => upd (u.rowMajor.symm n)) (x i) := by
  unfold Host.scatter
  rw [foldl_apply_pointwise (List.finRange u.numel) _
    (fun acc n => if d.resultIdx? (u.rowMajor.symm n) idx = some i then upd (u.rowMajor.symm n) else acc) i]
  · exact foldl_finRange_eq_lastWins _ _ _ _
  · intro g n
    cases hres : d.resultIdx? (u.rowMajor.symm n) idx with
    | none => simp
    | some i0 =>
      by_cases hi : i = i0
      · subst hi; simp
      · have : ¬ i0 = i := fun h => hi h.symm
        simp [hi, this]

/-! ### The reference's scatter: each update position's result index -/

section RefIdx
open Cert.ReferenceIdeal

theorem ix1658_val (n : Fin 1658) (a : Fin 1) : (ix1658 n a).val = n.val := by
  obtain rfl : a = 0 := Subsingleton.elim _ _
  rfl

theorem siIdx_eq [Facts₀] (n : Fin 1658) (c : Fin scatter_S864x192_S1658x2_S1658_n_01_01_1.scatterDimsToOperandDims.length) :
    scatter_S864x192_S1658x2_S1658_n_01_01_1.siIdx (ix1658 n) c = ix2 n ⟨c.val, c.isLt⟩ := by
  funext b
  apply Fin.ext
  unfold ScatterDims.siIdx
  match b with
  | ⟨0, _⟩ =>
    split
    · rename_i hb
      exact absurd (show (0 : ℕ) = 1 from hb) (by decide)
    · unfold ScatterDims.siCoord
      exact ix1658_val n _
  | ⟨1, _⟩ =>
    split
    · rfl
    · rename_i hb
      exact absurd (show (1 : ℕ) = 1 from rfl) hb

theorem start_eq [Facts₀] (idx : IVec S1658x2 32) (n : Fin 1658) (a : Fin 2) :
    scatter_S864x192_S1658x2_S1658_n_01_01_1.start (ix1658 n) idx a = (idx (ix2 n a)).toInt := by
  unfold ScatterDims.start
  match a with
  | ⟨0, _⟩ =>
    rw [dif_pos (by show (0 : Fin 2) ∈ [0, 1]; simp)]
    congr 2
    exact siIdx_eq n _
  | ⟨1, _⟩ =>
    rw [dif_pos (by show (1 : Fin 2) ∈ [(0 : Fin 2), 1]; simp)]
    congr 2
    exact siIdx_eq n _

theorem window_eq [Facts₀] (n : Fin 1658) (a : Fin 2) :
    scatter_S864x192_S1658x2_S1658_n_01_01_1.window (ix1658 n) a = 0 := by
  unfold ScatterDims.window
  rw [dif_neg]
  show a ∉ S864x192.kept [0, 1]
  revert a; decide

theorem toInt_of_lt (x : BitVec 32) (h : x.toNat < 2 ^ 31) : x.toInt = (x.toNat : ℤ) := by
  rw [BitVec.toInt_eq_toNat_cond, if_pos (by omega)]

theorem resultIdx_eq [Facts₀] (idx : IVec S1658x2 32) (n : Fin 1658)
    (h0 : (idx (ix2 n 0)).toNat < 864) (h1 : (idx (ix2 n 1)).toNat < 192) :
    scatter_S864x192_S1658x2_S1658_n_01_01_1.resultIdx? (ix1658 n) idx = some (ixRF ⟨_, h0⟩ ⟨_, h1⟩) := by
  have e0 := toInt_of_lt (idx (ix2 n 0)) (by omega)
  have e1 := toInt_of_lt (idx (ix2 n 1)) (by omega)
  have s0 : scatter_S864x192_S1658x2_S1658_n_01_01_1.start (ix1658 n) idx 0
      + (scatter_S864x192_S1658x2_S1658_n_01_01_1.window (ix1658 n) 0 : ℤ) = ((idx (ix2 n 0)).toNat : ℤ) := by
    rw [start_eq, window_eq, e0]; simp
  have s1 : scatter_S864x192_S1658x2_S1658_n_01_01_1.start (ix1658 n) idx 1
      + (scatter_S864x192_S1658x2_S1658_n_01_01_1.window (ix1658 n) 1 : ℤ) = ((idx (ix2 n 1)).toNat : ℤ) := by
    rw [start_eq, window_eq, e1]; simp
  unfold ScatterDims.resultIdx?
  rw [dif_pos]
  · congr 1
    funext a
    apply Fin.ext
    match a with
    | ⟨0, _⟩ => exact (by rw [s0]; rfl : (scatter_S864x192_S1658x2_S1658_n_01_01_1.start (ix1658 n) idx 0
        + (scatter_S864x192_S1658x2_S1658_n_01_01_1.window (ix1658 n) 0 : ℤ)).toNat = (idx (ix2 n 0)).toNat)
    | ⟨1, _⟩ => exact (by rw [s1]; rfl : (scatter_S864x192_S1658x2_S1658_n_01_01_1.start (ix1658 n) idx 1
        + (scatter_S864x192_S1658x2_S1658_n_01_01_1.window (ix1658 n) 1 : ℤ)).toNat = (idx (ix2 n 1)).toNat)
  · intro a
    match a with
    | ⟨0, _⟩ =>
      exact (by rw [s0]; constructor <;> omega : (0 : ℤ) ≤ scatter_S864x192_S1658x2_S1658_n_01_01_1.start (ix1658 n) idx 0
        + (scatter_S864x192_S1658x2_S1658_n_01_01_1.window (ix1658 n) 0 : ℤ) ∧ scatter_S864x192_S1658x2_S1658_n_01_01_1.start (ix1658 n) idx 0
        + (scatter_S864x192_S1658x2_S1658_n_01_01_1.window (ix1658 n) 0 : ℤ) < ((864 : ℕ) : ℤ))
    | ⟨1, _⟩ =>
      exact (by rw [s1]; constructor <;> omega : (0 : ℤ) ≤ scatter_S864x192_S1658x2_S1658_n_01_01_1.start (ix1658 n) idx 1
        + (scatter_S864x192_S1658x2_S1658_n_01_01_1.window (ix1658 n) 1 : ℤ) ∧ scatter_S864x192_S1658x2_S1658_n_01_01_1.start (ix1658 n) idx 1
        + (scatter_S864x192_S1658x2_S1658_n_01_01_1.window (ix1658 n) 1 : ℤ) < ((192 : ℕ) : ℤ))

theorem resultIdx_iff [Facts₀] (idx : IVec S1658x2 32) (n : Fin 1658)
    (h0 : (idx (ix2 n 0)).toNat < 864) (h1 : (idx (ix2 n 1)).toNat < 192) (r : Fin 864) (f : Fin 192) :
    scatter_S864x192_S1658x2_S1658_n_01_01_1.resultIdx? (ix1658 n) idx = some (ixRF r f)
      ↔ (idx (ix2 n 0)).toNat = r.val ∧ (idx (ix2 n 1)).toNat = f.val := by
  rw [resultIdx_eq idx n h0 h1, Option.some.injEq]
  constructor
  · intro h
    exact ⟨congrArg Fin.val (congrFun h 0), congrArg Fin.val (congrFun h 1)⟩
  · rintro ⟨hr, hf⟩
    have er : (⟨_, h0⟩ : Fin 864) = r := Fin.ext hr
    have ef : (⟨_, h1⟩ : Fin 192) = f := Fin.ext hf
    rw [er, ef]

end RefIdx

open Cert.ReferenceIdeal in
/-- The reference's scatter of `1658` values at (row, column) pairs into `864 × 192` zeros, with every
    pair in range: at `(r, f)` the value of the last pair equal to `(r, f)`, else the operand's element. -/
theorem refScatter_apply [Cert.ReferenceIdeal.Facts₀] (x : S864x192.Idx → α) (idx : IVec S1658x2 32) (upd : S1658.Idx → α)
    (h0 : ∀ n : Fin 1658, (idx (ix2 n 0)).toNat < 864) (h1 : ∀ n : Fin 1658, (idx (ix2 n 1)).toNat < 192)
    (r : Fin 864) (f : Fin 192) :
    Host.scatter scatter_S864x192_S1658x2_S1658_n_01_01_1 (fun _ b => b) x idx upd (ixRF r f)
      = lastWins 1658 (fun n => (idx (ix2 n 0)).toNat = r.val ∧ (idx (ix2 n 1)).toNat = f.val)
          (fun n => upd (ix1658 n)) (x (ixRF r f)) := by
  rw [hostScatter_set_apply]
  have hN : 1658 = S1658.numel := by simp [Shape.numel]
  rw [lastWins_cast hN]
  have hsymm : ∀ m : Fin 1658, S1658.rowMajor.symm (m.cast hN) = ix1658 m := by
    intro m
    rw [Equiv.symm_apply_eq]
    apply Fin.ext
    rw [Shape.rowMajor_val_one]
    rfl
  refine lastWins_congr (fun n => ?_) (fun n _ => by rw [hsymm])
  rw [hsymm]
  exact resultIdx_iff idx n (h0 n) (h1 n) r f

end Host

/-! ## The tiles' folds -/

section Kernel
open Cert.KernelIdeal Cert.KernelIdeal.Gen Cert.Proof.KI
variable {F : FTy → Type} [FloatOps F]

/-- The range mask and the masked offset of one word: the lane is stored at element `j` exactly when the word is `base + j`. -/
theorem lane_hit (x base : BitVec 32) (hx : x.toNat < 2 ^ 31) (hb : base.toNat < 2 ^ 31) (j : ℕ) (hj : j < 5184) :
    (IntOp.andi (IntOp.cmpi .sge (IntOp.subi x base) 0#32) (IntOp.cmpi .slt (IntOp.subi x base) 5184#32) = 1 ∧
      j = (Scalar.select (IntOp.andi (IntOp.cmpi .sge (IntOp.subi x base) 0#32) (IntOp.cmpi .slt (IntOp.subi x base) 5184#32))
            (IntOp.subi x base) 0#32).toNat)
      ↔ x.toNat = base.toNat + j := by
  have hsub : (x - base).toNat = (2 ^ 32 - base.toNat + x.toNat) % 2 ^ 32 := BitVec.toNat_sub x base
  have hI : (x - base).toInt = if 2 * (x - base).toNat < 2 ^ 32 then ((x - base).toNat : ℤ) else ((x - base).toNat : ℤ) - 2 ^ 32 :=
    BitVec.toInt_eq_toNat_cond _
  have h0 : (0#32).toInt = 0 := by decide
  have h5 : (5184#32).toInt = 5184 := by decide
  have hm : IntOp.andi (IntOp.cmpi .sge (IntOp.subi x base) 0#32) (IntOp.cmpi .slt (IntOp.subi x base) 5184#32) = 1
      ↔ (base.toNat ≤ x.toNat ∧ x.toNat < base.toNat + 5184) := by
    unfold IntOp.andi IntOp.cmpi IntOp.subi
    simp only []
    rw [show ∀ a b : Bool, (BitVec.ofBool a &&& BitVec.ofBool b = 1) ↔ (a = true ∧ b = true) from by decide,
      BitVec.sle_iff_toInt_le, BitVec.slt_iff_toInt_lt, h0, h5, hI]
    split_ifs <;> omega
  by_cases hmm : IntOp.andi (IntOp.cmpi .sge (IntOp.subi x base) 0#32) (IntOp.cmpi .slt (IntOp.subi x base) 5184#32) = 1
  · have hr := hm.1 hmm
    unfold Scalar.select
    rw [if_pos hmm]
    show (_ ∧ j = (x - base).toNat) ↔ _
    rw [hsub]
    constructor
    · rintro ⟨_, h⟩; omega
    · intro h; exact ⟨hmm, by omega⟩
  · have hr := fun h => hmm (hm.2 h)
    constructor
    · rintro ⟨h, _⟩; exact absurd h hmm
    · intro h; exact absurd ⟨by omega, by omega⟩ hr

/-- The tile's base word: `5184` times the tile's number `2 s + c`. -/
theorem mult1_toNat (L : grid0.Coords) : (k0_mult1 L).toNat = 10368 * (L 1).val + 5184 * (L 0).val := by
  have h := congrFun (k0_off3_eq L) 0
  exact h

theorem pay3_apply (L : grid0.Coords) (v10 : IVec S16 32) (x : S16.Idx) :
    k0_pay3 (F := F) L v10 x
      = IntOp.andi (IntOp.cmpi .sge (IntOp.subi (v10 x) (k0_mult1 L)) 0#32) (IntOp.cmpi .slt (IntOp.subi (v10 x) (k0_mult1 L)) 5184#32) := rfl

theorem pay4_apply (L : grid0.Coords) (v10 : IVec S16 32) (x : S16.Idx) :
    k0_pay4 (F := F) L v10 x
      = Scalar.select (IntOp.andi (IntOp.cmpi .sge (IntOp.subi (v10 x) (k0_mult1 L)) 0#32) (IntOp.cmpi .slt (IntOp.subi (v10 x) (k0_mult1 L)) 5184#32))
          (IntOp.subi (v10 x) (k0_mult1 L)) 0#32 := rfl

theorem laneIdx_ofLane (k : Fin 104) (l : Fin ((![16] : Fin 1 → ℕ) 0)) :
    laneIdx k (Shape.ofLane (d := ![16]) l)
      = ix1664 ⟨16 * k.val + l.val, by have := k.isLt; have : l.val < 16 := l.isLt; omega⟩ := by
  funext a
  obtain rfl : a = 0 := Subsingleton.elim _ _
  rfl

/-- The padded output at word `p`: the value at the LAST of the 1664 positions equal to `p`, else the zero word
    (positions read as unsigned words below `2 ^ 31`, where the signed range test is the unsigned one). -/
theorem scOut_apply (flat : IVec S1664 32) (vals : FVec F S1664 .f32) (hflat : ∀ n, (flat n).toNat < 2 ^ 31) (p : S165888.Idx) :
    scOut (F := F) flat vals p
      = lastWins 1664 (fun n => (flat (ix1664 n)).toNat = (p 0).val) (fun n => vals (ix1664 n)) (Scalar.ofBits .f32 0x00000000#32) := by
  have hp : (p 0).val < 165888 := (p 0).isLt
  have hbase : (k0_mult1 (tileOf p)).toNat + (tileWord p 0).val = (p 0).val := by
    rw [mult1_toNat]
    show 10368 * ((p 0).val / 10368) + 5184 * ((p 0).val / 5184 % 2) + (p 0).val % 5184 = (p 0).val
    omega
  have hb31 : (k0_mult1 (tileOf p)).toNat < 2 ^ 31 := by omega
  have hj : (tileWord p 0).val < 5184 := (tileWord p 0).isLt
  have inv : ∀ k, k ≤ 104 → chunkAfter (F := F) (tileOf p) flat vals k (tileWord p)
      = lastWins 1664 (fun n => n.val < 16 * k ∧ (flat (ix1664 n)).toNat = (p 0).val) (fun n => vals (ix1664 n))
          (Scalar.ofBits .f32 0x00000000#32) := by
    intro k
    induction k with
    | zero =>
      intro _
      symm
      exact lastWins_of_none (fun n h => by omega)
    | succ k ih =>
      intro hk
      have hk' : k < 104 := by omega
      have hstep : chunkAfter (F := F) (tileOf p) flat vals (k + 1)
          = chunkStep (tileOf p) flat vals ⟨k, hk'⟩ (chunkAfter (tileOf p) flat vals k) := by
        show (if h : k < 104 then chunkStep (tileOf p) flat vals ⟨k, h⟩ (chunkAfter (tileOf p) flat vals k)
          else chunkAfter (tileOf p) flat vals k) = _
        rw [dif_pos hk']
      rw [hstep]
      unfold chunkStep
      rw [storeIdx_apply, ih (by omega)]
      refine Eq.trans ?_ (lastWins_block (hit := fun n => (flat (ix1664 n)).toNat = (p 0).val) (v := fun n => vals (ix1664 n))
        (z := (Scalar.ofBits .f32 0x00000000#32 : F .f32)) (16 * k) 16 (by omega))
      refine lastWins_congr (fun l => ?_) (fun l _ => ?_)
      · have hl := laneIdx_ofLane ⟨k, hk'⟩ l
        have key := lane_hit (chunkOf flat ⟨k, hk'⟩ (Shape.ofLane l)) (k0_mult1 (tileOf p)) (hflat _) hb31 _ hj
        rw [hbase] at key
        have hx : (chunkOf flat ⟨k, hk'⟩ (Shape.ofLane l)).toNat
            = (flat (ix1664 ⟨16 * k + l.val, by have : l.val < 16 := l.isLt; omega⟩)).toNat :=
          congrArg (fun i => (flat i).toNat) hl
        rw [hx] at key
        rw [Fin.forall_fin_one]
        exact key
      · exact congrArg vals (laneIdx_ofLane ⟨k, hk'⟩ l)
  show chunkAfter (F := F) (tileOf p) flat vals 104 (tileWord p) = _
  rw [inv 104 le_rfl]
  exact lastWins_congr (fun n => ⟨fun h => h.2, fun h => ⟨n.isLt, h⟩⟩) (fun _ _ => rfl)

end Kernel

/-! ## The join: flat positions through an injective re-indexing, with a padded tail -/

open Cert.ReferenceIdeal in
/-- With `flat n = φ (row n) (col n)` for the `1658` pairs, `φ` injective on in-range pairs, and the six
    padding positions `165888` (outside every value of `φ`), the last flat position equal to `φ r f`
    among `1664` is the last pair equal to `(r, f)` among `1658`. -/
theorem lastWins_flat_eq_pairs {α : Type} (φ : ℕ → ℕ → ℕ)
    (hφ : ∀ r r' f f', r < 864 → r' < 864 → f < 192 → f' < 192 → φ r f = φ r' f' → r = r' ∧ f = f')
    (hφlt : ∀ r f, r < 864 → f < 192 → φ r f < 165888)
    (flat : IVec Cert.KernelIdeal.S1664 32) (vals : Cert.KernelIdeal.S1664.Idx → α)
    (idx : IVec S1658x2 32) (upd : S1658.Idx → α) (z : α)
    (h0 : ∀ n : Fin 1658, (idx (ix2 n 0)).toNat < 864) (h1 : ∀ n : Fin 1658, (idx (ix2 n 1)).toNat < 192)
    (hflat : ∀ n : Fin 1658, (flat (ix1664 (n.castLE (by decide)))).toNat = φ (idx (ix2 n 0)).toNat (idx (ix2 n 1)).toNat)
    (htail : ∀ n : Fin 1664, 1658 ≤ n.val → (flat (ix1664 n)).toNat = 165888)
    (hvals : ∀ n : Fin 1658, vals (ix1664 (n.castLE (by decide))) = upd (ix1658 n))
    (r : Fin 864) (f : Fin 192) :
    lastWins 1664 (fun n => (flat (ix1664 n)).toNat = φ r.val f.val) (fun n => vals (ix1664 n)) z
      = lastWins 1658 (fun n => (idx (ix2 n 0)).toNat = r.val ∧ (idx (ix2 n 1)).toNat = f.val)
          (fun n => upd (ix1658 n)) z := by
  refine lastWins_pad (N := 1658) (M := 1664) (by decide) (fun n => ?_) (fun m hm => ?_) (fun n _ => hvals n)
  · show (flat (ix1664 (n.castLE (by decide)))).toNat = φ r.val f.val ↔ _
    rw [hflat n]
    constructor
    · intro h
      exact hφ _ _ _ _ (h0 n) r.isLt (h1 n) f.isLt h
    · rintro ⟨a, b⟩
      rw [a, b]
  · show ¬ (flat (ix1664 m)).toNat = φ r.val f.val
    rw [htail m hm]
    have := hφlt r.val f.val r.isLt f.isLt
    omega

/-! ## Both sides together -/

section Together
open Cert.ReferenceIdeal
variable {F : FTy → Type} [FloatOps F]

theorem ix1664_eq (n : Fin 1664) : ix1664 n = ValueIdx.ix1 n := rfl
theorem ix1658_eq (n : Fin 1658) : ix1658 n = ValueIdx.ix1 n := rfl
theorem ix2_eq (n : Fin 1658) (c : Fin 2) : ix2 n c = ValueIdx.ix2 n c := rfl
theorem ixRF_eq (r : Fin 864) (f : Fin 192) : ixRF r f = ValueIdx.ix2 r f := rfl

/-- The padded output at the flat position of `(r, f)` is the reference's scatter into zeros at `(r, f)`: on both
    sides the value of the last pair equal to `(r, f)`, else the zero word. -/
theorem scOut_eq_refScatter [Cert.ReferenceIdeal.Facts₀] (φ : ℕ → ℕ → ℕ)
    (hφ : ∀ r r' f f', r < 864 → r' < 864 → f < 192 → f' < 192 → φ r f = φ r' f' → r = r' ∧ f = f')
    (hφlt : ∀ r f, r < 864 → f < 192 → φ r f < 165888)
    (flat : IVec Cert.KernelIdeal.S1664 32) (vals : FVec F Cert.KernelIdeal.S1664 .f32)
    (idx : IVec S1658x2 32) (upd : S1658.Idx → F .f32)
    (h0 : ∀ n : Fin 1658, (idx (ix2 n 0)).toNat < 864) (h1 : ∀ n : Fin 1658, (idx (ix2 n 1)).toNat < 192)
    (hflat : ∀ n : Fin 1658, (flat (ix1664 (n.castLE (by decide)))).toNat = φ (idx (ix2 n 0)).toNat (idx (ix2 n 1)).toNat)
    (htail : ∀ n : Fin 1664, 1658 ≤ n.val → (flat (ix1664 n)).toNat = 165888)
    (hvals : ∀ n : Fin 1658, vals (ix1664 (n.castLE (by decide))) = upd (ix1658 n))
    (r : Fin 864) (f : Fin 192) (p : Cert.KernelIdeal.S165888.Idx) (hp : (p 0).val = φ r.val f.val) :
    Cert.Proof.KI.scOut (F := F) flat vals p
      = Host.scatter scatter_S864x192_S1658x2_S1658_n_01_01_1 (fun _ b => b)
          (fun _ => (Scalar.ofBits .f32 0x00000000#32 : F .f32)) idx upd (ixRF r f) := by
  have h31 : ∀ n, (flat n).toNat < 2 ^ 31 := by
    intro n
    rw [ValueIdx.eq_ix1 n]
    by_cases hn : (n 0).val < 1658
    · have := hflat ⟨(n 0).val, hn⟩
      have hlt := hφlt _ _ (h0 ⟨(n 0).val, hn⟩) (h1 ⟨(n 0).val, hn⟩)
      have e : ix1664 ((⟨(n 0).val, hn⟩ : Fin 1658).castLE (by decide)) = ValueIdx.ix1 (n 0) := rfl
      rw [e] at this
      omega
    · have := htail (n 0) (not_lt.1 hn)
      have e : ix1664 (n 0) = ValueIdx.ix1 (n 0) := rfl
      rw [e] at this
      omega
  rw [scOut_apply flat vals h31 p, hp, refScatter_apply _ idx upd h0 h1 r f]
  exact lastWins_flat_eq_pairs φ hφ hφlt flat vals idx upd _ h0 h1 hflat htail hvals r f

end Together

end Cert.Proof.Val

end
-- ==== Proof.Val.Bridge.lean ====
/-
  The two sides meet.  The reference sums over the 864 patch channels `r = (3·di + dj)·96 + ch` of
  `x (b, i + di, j + dj, ch) · Wk (r, f)`; the kernel sums over the column shift `dj` and the stacked coordinate
  `k = 96·di + ch` of `w (dj, f, k) · xt (b, i + di, ch, j + dj)`.  The bijection `(dj, k) ↦ r` re-orders one sum
  into the other (sums and products of extended reals are commutative and associative, so a re-ordering needs no
  finiteness); the weight the reference scatters to `(r, f)` is the word the kernel scatters to the flat position
  `((dj·192 + f)·288 + k)`, because that position is an injective function of `(r, f)`: both are the value of the last
  entry naming the place, else zero.
-/
import proofs.«216126_g59949153517679_cont_9to1_m_442_25_alg».proof.Proof.Val.RefValue
import proofs.«216126_g59949153517679_cont_9to1_m_442_25_alg».proof.Proof.Val.ConvValue
import proofs.«216126_g59949153517679_cont_9to1_m_442_25_alg».proof.Proof.Val.Glue
import proofs.«216126_g59949153517679_cont_9to1_m_442_25_alg».proof.Proof.Val.Scatter

noncomputable section

namespace Cert.Proof.Val

open Idealize.ShloMosaic Cert.Proof.KI

/-! ## The re-indexing of the sum -/

/-- Patch channel `r = (3·di + dj)·96 + ch` from the column shift `dj` and the stacked row-and-channel
    coordinate `k = 96·di + ch`. -/
def patchEquiv : Fin 3 × Fin 288 ≃ Fin 864 where
  toFun p := ⟨(3 * (p.2.val / 96) + p.1.val) * 96 + p.2.val % 96, by have := p.1.isLt; have := p.2.isLt; omega⟩
  invFun r := (⟨r.val / 96 % 3, Nat.mod_lt _ (by decide)⟩, ⟨r.val / 288 * 96 + r.val % 96, by have := r.isLt; omega⟩)
  left_inv p := by
    have h1 := p.1.isLt; have h2 := p.2.isLt
    refine Prod.ext (Fin.ext ?_) (Fin.ext ?_)
    · show ((3 * (p.2.val / 96) + p.1.val) * 96 + p.2.val % 96) / 96 % 3 = p.1.val; omega
    · show ((3 * (p.2.val / 96) + p.1.val) * 96 + p.2.val % 96) / 288 * 96 + ((3 * (p.2.val / 96) + p.1.val) * 96 + p.2.val % 96) % 96 = p.2.val; omega
  right_inv r := by
    have h := r.isLt
    refine Fin.ext ?_
    show (3 * ((r.val / 288 * 96 + r.val % 96) / 96) + r.val / 96 % 3) * 96 + (r.val / 288 * 96 + r.val % 96) % 96 = r.val; omega

theorem patchEquiv_val (dj : Fin 3) (k : Fin 288) :
    (patchEquiv (dj, k)).val = (3 * (k.val / 96) + dj.val) * 96 + k.val % 96 := rfl

/-- A sum over the 864 patch channels, re-ordered with the column shift outermost. -/
theorem sum_patch {M : Type*} [AddCommMonoid M] (g : Fin 864 → M) :
    ∑ r : Fin 864, g r = ∑ dj : Fin 3, ∑ k : Fin 288, g (patchEquiv (dj, k)) := by
  rw [← Fintype.sum_prod_type', ← patchEquiv.sum_comp]

/-- The reference's sum of products is the kernel's, factor by factor. -/
theorem conv_reindex (A B : Fin 864 → EReal) (A' B' : Fin 3 → Fin 288 → EReal) (c : EReal)
    (hA : ∀ dj k, A (patchEquiv (dj, k)) = A' dj k) (hB : ∀ dj k, B (patchEquiv (dj, k)) = B' dj k) :
    (∑ r : Fin 864, A r * B r) + c = (∑ dj : Fin 3, ∑ k : Fin 288, B' dj k * A' dj k) + c := by
  rw [sum_patch]
  refine congrArg (· + c) (Finset.sum_congr rfl fun dj _ => Finset.sum_congr rfl fun k _ => ?_)
  rw [hA, hB, mul_comm]

/-! ## The scattered weights -/

/-- The weight the reference scatters to `(r, f)` is the word the kernel's scatter leaves at the flat position of
    `(r, f)`: each is the value of the last entry naming the place, else zero, and the flat position is injective. -/
theorem weight_eq (x1 : FVec Ideal Cert.KernelIdeal.S1658 .f32) (x3 x4 : IVec Cert.KernelIdeal.S1658 32)
    (hr : ∀ n : Cert.KernelIdeal.S1658.Idx, (x3 n).toNat < 864 ∧ (x4 n).toNat < 192) (r : Fin 864) (f : Fin 192) :
    Cert.ReferenceIdeal.Read.val_main_v25 (F := Ideal) x1 x3 x4 (ValueIdx.ix2 r f)
      = scOut (F := Ideal) (flatOf x3 x4) (valsOf x1) (ValueIdx.ix1 ⟨flatNat r.val f.val, flatNat_lt r.isLt f.isLt⟩) := by
  have h3 : ∀ n, (x3 n).toNat < 864 := fun n => (hr n).1
  have h4 : ∀ n, (x4 n).toNat < 192 := fun n => (hr n).2
  have h3' : ∀ n, (x3 n).toNat < 2 ^ 31 := fun n => lt_trans (h3 n) (by decide)
  have h4' : ∀ n, (x4 n).toNat < 2 ^ 31 := fun n => lt_trans (h4 n) (by decide)
  have h0 : ∀ n : Fin 1658, (Cert.ReferenceIdeal.Read.val_main_v24 (F := Ideal) x3 x4 (ix2 n 0)).toNat < 864 := fun n => by
    rw [val_main_v24_row x3 x4 h3' n]; exact h3 _
  have h1 : ∀ n : Fin 1658, (Cert.ReferenceIdeal.Read.val_main_v24 (F := Ideal) x3 x4 (ix2 n 1)).toNat < 192 := fun n => by
    rw [val_main_v24_col x3 x4 h4' n]; exact h4 _
  have hz : Cert.ReferenceIdeal.Read.val_main_v11 (F := Ideal) (ixRF r f) = (Scalar.ofBits .f32 0x00000000#32 : Ideal .f32) := by
    rw [Cert.ReferenceIdeal.Read.val_main_v11_apply, Cert.ReferenceIdeal.Read.val_main_cst_apply]
  unfold Cert.ReferenceIdeal.Read.val_main_v25
  rw [scOut_apply _ _ (flatOf_small x3 x4 h3 h4)]
  refine (refScatter_apply (Cert.ReferenceIdeal.Read.val_main_v11 (F := Ideal)) (Cert.ReferenceIdeal.Read.val_main_v24 (F := Ideal) x3 x4) x1 h0 h1 r f).trans ?_
  rw [hz]
  exact (lastWins_flat_eq_pairs flatNat (fun r r' f f' hr hr' hf hf' h => flat_inj hr hf hr' hf' h) (fun r f hr hf => flatNat_lt hr hf)
    (flatOf x3 x4) (valsOf x1) (Cert.ReferenceIdeal.Read.val_main_v24 (F := Ideal) x3 x4) x1 _ h0 h1
    (fun n => by rw [val_main_v24_row x3 x4 h3' n, val_main_v24_col x3 x4 h4' n]; exact flatOf_lt x3 x4 h3 h4 n)
    (fun n hn => flatOf_ge x3 x4 n hn) (fun n => valsOf_lt x1 n) r f).symm

/-! ## The results agree -/

/-- **The reference's result is the kernel's**, for index rows in range. -/
theorem out_eq (x0 : FVec Ideal Cert.KernelIdeal.S2x224x224x96 .f32) (x1 : FVec Ideal Cert.KernelIdeal.S1658 .f32)
    (x2 : FVec Ideal Cert.KernelIdeal.S192 .f32) (x3 x4 : IVec Cert.KernelIdeal.S1658 32)
    (hr : ∀ n : Cert.KernelIdeal.S1658.Idx, (x3 n).toNat < 864 ∧ (x4 n).toNat < 192) :
    Cert.ReferenceIdeal.Read.val_main_v30 (F := Ideal) x0 x1 x2 x3 x4 = OUT (F := Ideal) x0 x1 x2 x3 x4 := by
  funext y
  obtain ⟨b, i, j, f, rfl⟩ : ∃ (b : Fin 2) (i j : Fin 222) (f : Fin 192), y = ValueIdx.ix4 b i j f :=
    ⟨y 0, y 1, y 2, y 3, ValueIdx.eq_ix4 y⟩
  rw [ref_apply]
  unfold OUT
  rw [yOf_apply, convOut_apply, bOf_apply]
  refine conv_reindex (fun r => x0 (patchIdx b i j r)) (fun r => Cert.ReferenceIdeal.Read.val_main_v25 (F := Ideal) x1 x3 x4 (ValueIdx.ix2 r f))
    _ _ _ (fun dj k => ?_) (fun dj k => ?_)
  · have hi := i.isLt; have hj := j.isLt; have hk := k.isLt; have hdj := dj.isLt
    beta_reduce
    rw [xOf_apply]
    refine congrArg x0 (funext fun a => Fin.ext ?_)
    match a with
    | ⟨0, _⟩ => rfl
    | ⟨1, _⟩ => show i.val + (patchEquiv (dj, k)).val / 288 = i.val + k.val / 96; rw [patchEquiv_val]; omega
    | ⟨2, _⟩ => show j.val + (patchEquiv (dj, k)).val / 96 % 3 = j.val + dj.val; rw [patchEquiv_val]; omega
    | ⟨3, _⟩ => show (patchEquiv (dj, k)).val % 96 = k.val % 96; rw [patchEquiv_val]; omega
  · have hk := k.isLt; have hdj := dj.isLt; have hf := f.isLt
    beta_reduce
    rw [wOf_apply, weight_eq x1 x3 x4 hr]
    refine congrArg (scOut (F := Ideal) (flatOf x3 x4) (valsOf x1)) (congrArg ValueIdx.ix1 (Fin.ext ?_))
    show flatNat (patchEquiv (dj, k)).val f.val = (dj.val * 192 + f.val) * 288 + k.val
    unfold flatNat
    rw [patchEquiv_val]
    omega

end Cert.Proof.Val

end
-- ==== Proof.lean ====
/-
  The proof of `Cert.Claim`.

  The kernel computes a 3 × 3 valid convolution of a [2, 224, 224, 96] input with a sparse weight matrix given as
  1658 (row, column, value) triples over 864 × 192. On the host it maps each pair (row, column) to a flat position
  ((dj · 192 + column) · 288 + di · 96 + ch), where row = (3 di + dj) · 96 + ch, pads the positions with the
  out-of-range value 165888 and the values with zeros, and hands both to thirty-two tiles; each tile clears its own
  5184 words and stores, sixteen lanes at a time in ascending order, the values whose position falls in its range.
  The dense weights, rounded to bf16 and read as three planes of 192 × 288, then meet eight input rows at a time:
  each output row is the sum of three products, one per horizontal offset dj, shifted by dj columns, plus the bias.

  The reference scatters the same triples into an 864 × 192 matrix of zeros, gathers the nine shifted input slices
  into rows of 864 and multiplies. The two agree at the ideal instance because
  (i) the flat position map is injective on in-range pairs, and the padding positions name no element;
  (ii) on both sides a set-scatter leaves at each element the value of the LAST update that names it: the tiles'
       lanes and chunks run in ascending order, the reference's fold runs over the update positions in order;
  (iii) the sum over the 864 patch entries splits as 3 × 288: the offset dj outside, (di, ch) inside, which is the
        order in which the kernel contracts each plane against the stacked rows, and bf16 rounding is the identity.
  The frames are the same runs read at their second components: every thread terminates and the five arguments end
  as they began.
-/
import proofs.«216126_g59949153517679_cont_9to1_m_442_25_alg».proof.Defs
import proofs.«216126_g59949153517679_cont_9to1_m_442_25_alg».proof.Proof.Gen.Kernel
import proofs.«216126_g59949153517679_cont_9to1_m_442_25_alg».proof.Proof.Gen.KernelIdeal
import proofs.«216126_g59949153517679_cont_9to1_m_442_25_alg».proof.Proof.Gen.ReferenceIdeal
import proofs.«216126_g59949153517679_cont_9to1_m_442_25_alg».proof.Proof.Gen.Pre_finite_inputs
import proofs.«216126_g59949153517679_cont_9to1_m_442_25_alg».proof.Proof.KB.Run
import proofs.«216126_g59949153517679_cont_9to1_m_442_25_alg».proof.Proof.KI.Run
import proofs.«216126_g59949153517679_cont_9to1_m_442_25_alg».proof.Proof.Val.Ref
import proofs.«216126_g59949153517679_cont_9to1_m_442_25_alg».proof.Proof.Val.Pre
import proofs.«216126_g59949153517679_cont_9to1_m_442_25_alg».proof.Proof.Val.Bridge
import Idealize.ShloMosaic.Adequacy
import Idealize.ShloMosaic.Init

noncomputable section

namespace Cert.Proof

open Idealize.ShloMosaic Idealize.SL.Sem

/-- The word-level program runs and leaves its arguments as they were: the second component of its run's post. -/
theorem frameKernel : Cert.frame_Kernel := fun m ρ _ =>
  (θ_run (Cert.Kernel.defs (F := Bits)) _ _).mono (fun _ h c => (h c).2) (Cert.Proof.KB.run_main (F := Bits) m ρ)

/-- The same at the ideal instance. -/
theorem frameKernelIdeal : Cert.frame_KernelIdeal := fun m ρ _ =>
  (θ_run (Cert.KernelIdeal.defs (F := Ideal)) _ _).mono (fun _ h c => (h c).2) (Cert.Proof.KI.run_main (F := Ideal) m ρ)

/-- The reference runs and leaves its arguments as they were. -/
theorem frameReferenceIdeal : Cert.frame_ReferenceIdeal := fun m ρ _ =>
  (θ_run (Cert.ReferenceIdeal.defs (F := Ideal)) _ _).mono (fun _ h c => (h c).2) (Cert.ReferenceIdeal.Value.run (F := Ideal) m ρ)

/-- From memories that agree on the five arguments, in range as the precondition states, both programs end with
    the same result: the kernel's composite of its host arithmetic, scatter and convolution, which the reference's
    composite equals. -/
theorem algebraic : Cert.algebraic_KernelIdeal_ReferenceIdeal := by
  intro m ρ m' ρ' hpre hagree
  refine ⟨fun c => Cert.Proof.KI.OUT (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.Proof.KI.run_main (F := Ideal) m ρ, ?_⟩
  refine (θ_run (Cert.ReferenceIdeal.defs (F := Ideal)) _ _).mono (fun _ h c => ⟨(h c).1.trans ?_, (h c).2⟩)
    (Cert.ReferenceIdeal.Value.run (F := Ideal) m' ρ')
  have hr := Cert.Proof.Val.pre_ranges _ _ _ _ _ (hpre c)
  rw [Cert.ReferenceIdeal.Read.val_main_v30_eq, (hagree c).1, (hagree c).2.1, (hagree c).2.2.1, (hagree c).2.2.2.1,
    (hagree c).2.2.2.2]
  exact Cert.Proof.Val.out_eq _ _ _ _ _ hr

theorem claim : Cert.Claim :=
  ⟨Cert.Kernel.Gen.facts, Cert.KernelIdeal.Gen.facts, Cert.ReferenceIdeal.Gen.facts, Cert.Pre_finite_inputs.Gen.facts,
    frameKernel, frameKernelIdeal, frameReferenceIdeal, trivial, algebraic⟩

end Cert.Proof

end
